-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S8x3200 .f32 .bf16
  ∧ IdealRules.truncf_extf.Statement Cert.KernelIdeal.S5x1280 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v93)) (v4 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_v95) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S20000 : Shape := ⟨1, ![20000]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S20000 : S_.BroadcastsInDim S20000 (![] : Fin 0 → Fin S20000.rank)
  reducesTo_S20000_S_d0 : S20000.ReducesTo [0] S_

variable [Facts]

def fn_part2 {F : FTy → Type} [FloatOps F] (main_arg7 : IVec S20000 32) (main_v29 : IVec S_ 1) (main_v31 : IVec S20000 1) (main_c_13 : IVec S_ 1) : IVec S_ 1 :=
  let main_v32 : IVec S_ 1 := (fun x v => Host.reduce IntOp.andi x v reducesTo_S20000_S_d0 h_S_) main_v31 main_c_13
  let main_v33 : IVec S_ 1 := andi main_v29 main_v32
  let main_c_14 : IVec S_ 32 := constantI S_ 32 3999999#32
  let main_v34 : IVec S20000 32 := broadcastInDim S20000 ![] bcast_S_S20000 main_c_14
  let main_v35 : IVec S20000 1 := cmpi .sle main_arg7 main_v34
  let main_c_15 : IVec S_ 1 := constantI S_ 1 1#1
  let main_v36 : IVec S_ 1 := (fun x v => Host.reduce IntOp.andi x v reducesTo_S20000_S_d0 h_S_) main_v35 main_c_15
  let main_v37 : IVec S_ 1 := andi main_v33 main_v36
  main_v37

def fn_part1 {F : FTy → Type} [FloatOps F] (main_arg0 : IVec S4000000x1 32) (main_arg6 : IVec S20000 32) (main_arg7 : IVec S20000 32) (main_v13 : IVec S_ 1) (main_v15 : IVec S4000000x1 1) (main_c_5 : IVec S_ 1) : IVec S_ 1 :=
  let main_v16 : IVec S_ 1 := (fun x v => Host.reduce IntOp.andi x v reducesTo_S4000000x1_S_d0_1 h_S_) main_v15 main_c_5
  let main_v17 : IVec S_ 1 := andi main_v13 main_v16
  let main_c_6 : IVec S_ 32 := constantI S_ 32 19999#32
  let main_v18 : IVec S4000000x1 32 := broadcastInDim S4000000x1 ![] bcast_S_S4000000x1 main_c_6
  let main_v19 : IVec S4000000x1 1 := cmpi .sle main_arg0 main_v18
  let main_c_7 : IVec S_ 1 := constantI S_ 1 1#1
  let main_v20 : IVec S_ 1 := (fun x v => Host.reduce IntOp.andi x v reducesTo_S4000000x1_S_d0_1 h_S_) main_v19 main_c_7
  let main_v21 : IVec S_ 1 := andi main_v17 main_v20
  let main_c_8 : IVec S_ 32 := constantI S_ 32 4294967295#32
  let main_v22 : IVec S20000 32 := broadcastInDim S20000 ![] bcast_S_S20000 main_c_8
  let main_v23 : IVec S20000 1 := cmpi .sge main_arg6 main_v22
  let main_c_9 : IVec S_ 1 := constantI S_ 1 1#1
  let main_v24 : IVec S_ 1 := (fun x v => Host.reduce IntOp.andi x v reducesTo_S20000_S_d0 h_S_) main_v23 main_c_9
  let main_v25 : IVec S_ 1 := andi main_v21 main_v24
  let main_c_10 : IVec S_ 32 := constantI S_ 32 3999999#32
  let main_v26 : IVec S20000 32 := broadcastInDim S20000 ![] bcast_S_S20000 main_c_10
  let main_v27 : IVec S20000 1 := cmpi .sle main_arg6 main_v26
  let main_c_11 : IVec S_ 1 := constantI S_ 1 1#1
  let main_v28 : IVec S_ 1 := (fun x v => Host.reduce IntOp.andi x v reducesTo_S20000_S_d0 h_S_) main_v27 main_c_11
  let main_v29 : IVec S_ 1 := andi main_v25 main_v28
  let main_c_12 : IVec S_ 32 := constantI S_ 32 4294967295#32
  let main_v30 : IVec S20000 32 := broadcastInDim S20000 ![] bcast_S_S20000 main_c_12
  let main_v31 : IVec S20000 1 := cmpi .sge main_arg7 main_v30
  let main_c_13 : IVec S_ 1 := constantI S_ 1 1#1
  fn_part2 (F := F) main_arg7 main_v29 main_v31 main_c_13

def fn {F : FTy → Type} [FloatOps F] (main_arg0 : IVec S4000000x1 32) (main_arg1 : FVec F S4000000x1 .f32) (main_arg2 : FVec F S4000000x1 .f32) (main_arg3 : IVec S4000000x1 32) (main_arg4 : FVec F S4000000x1 .f32) (main_arg5 : IVec S4000000x1 32) (main_arg6 : IVec S20000 32) (main_arg7 : IVec S20000 32) (main_arg8 : IVec S4000000x1 32) : IVec S_ 1 :=
  let main_v0 : FVec F S4000000x1 .f32 := Host.absf main_arg1
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x1 .f32 := Host.absf main_arg2
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S4000000x1 .f32 := Host.absf main_arg4
  let main_cst_2 : FVec F S_ .f32 := constant S_ .f32 0x7F800000#32
  let main_v10 : FVec F S4000000x1 .f32 := broadcastInDim S4000000x1 ![] bcast_S_S4000000x1 main_cst_2
  let main_v11 : IVec S4000000x1 1 := cmpf .olt main_v9 main_v10
  let main_c_3 : IVec S_ 1 := constantI S_ 1 1#1
  let main_v12 : IVec S_ 1 := (fun x v => Host.reduce IntOp.andi x v reducesTo_S4000000x1_S_d0_1 h_S_) main_v11 main_c_3
  let main_v13 : IVec S_ 1 := andi main_v8 main_v12
  let main_c_4 : IVec S_ 32 := constantI S_ 32 4294967295#32
  let main_v14 : IVec S4000000x1 32 := broadcastInDim S4000000x1 ![] bcast_S_S4000000x1 main_c_4
  let main_v15 : IVec S4000000x1 1 := cmpi .sge main_arg0 main_v14
  let main_c_5 : IVec S_ 1 := constantI S_ 1 1#1
  fn_part1 (F := F) main_arg0 main_arg6 main_arg7 main_v13 main_v15 main_c_5
-- ==== Kernel.lean ====
abbrev S4000000x1 : Shape := ⟨2, ![4000000, 1]⟩
abbrev S20000 : Shape := ⟨1, ![20000]⟩
abbrev S1x4000000 : Shape := ⟨2, ![1, 4000000]⟩
abbrev S2x8x20480 : Shape := ⟨3, ![2, 8, 20480]⟩
abbrev S1x3200 : Shape := ⟨2, ![1, 3200]⟩
abbrev S1x8x20480 : Shape := ⟨3, ![1, 8, 20480]⟩
abbrev S8x20480 : Shape := ⟨2, ![8, 20480]⟩
abbrev S1280x1 : Shape := ⟨2, ![1280, 1]⟩
abbrev S1280x3200 : Shape := ⟨2, ![1280, 3200]⟩
abbrev S5x3200 : Shape := ⟨2, ![5, 3200]⟩
abbrev S8x3200 : Shape := ⟨2, ![8, 3200]⟩
abbrev S8x1280 : Shape := ⟨2, ![8, 1280]⟩
abbrev S_ : Shape := ⟨0, ![]⟩
abbrev S1x20001 : Shape := ⟨2, ![1, 20001]⟩
abbrev S20001 : Shape := ⟨1, ![20001]⟩
abbrev S20000x1 : Shape := ⟨2, ![20000, 1]⟩
abbrev S20000x2 : Shape := ⟨2, ![20000, 2]⟩
abbrev S1 : Shape := ⟨1, ![1]⟩
abbrev S5x20001 : Shape := ⟨2, ![5, 20001]⟩
abbrev S5x20480 : Shape := ⟨2, ![5, 20480]⟩
abbrev S5x4000000 : Shape := ⟨2, ![5, 4000000]⟩
abbrev S5x1280 : Shape := ⟨2, ![5, 1280]⟩

abbrev nBuf : Space → Nat
  | .hbm => 138
  | .vmem => 17
  | .smem => 0
  | _ => 0

abbrev hbmTy0_0 (i : Nat) : BufTy := match i % 128 with
  | 0 => ⟨S4000000x1, .i32⟩
  | 1 => ⟨S4000000x1, .f32⟩
  | 2 => ⟨S4000000x1, .f32⟩
  | 3 => ⟨S4000000x1, .i32⟩
  | 4 => ⟨S4000000x1, .f32⟩
  | 5 => ⟨S4000000x1, .i32⟩
  | 6 => ⟨S20000, .i32⟩
  | 7 => ⟨S20000, .i32⟩
  | 8 => ⟨S4000000x1, .i32⟩
  | 9 => ⟨S1x4000000, .i32⟩
  | 10 => ⟨S1x4000000, .f32⟩
  | 11 => ⟨S1x4000000, .i32⟩
  | 12 => ⟨S1x4000000, .i32⟩
  | 13 => ⟨S2x8x20480, .f32⟩
  | 14 => ⟨S_, .f32⟩
  | 15 => ⟨S8x20480, .f32⟩
  | 16 => ⟨S1x20001, .f32⟩
  | 17 => ⟨S20001, .f32⟩
  | 18 => ⟨S1x20001, .f32⟩
  | 19 => ⟨S20001, .f32⟩
  | 20 => ⟨S1x20001, .f32⟩
  | 21 => ⟨S20001, .f32⟩
  | 22 => ⟨S_, .i32⟩
  | 23 => ⟨S20000, .i32⟩
  | 24 => ⟨S20000, .i1⟩
  | 25 => ⟨S_, .i32⟩
  | 26 => ⟨S_, .i32⟩
  | 27 => ⟨S20000, .i32⟩
  | 28 => ⟨S20000, .i32⟩
  | 29 => ⟨S_, .i32⟩
  | 30 => ⟨S20000, .i32⟩
  | 31 => ⟨S20000, .i1⟩
  | 32 => ⟨S_, .i32⟩
  | 33 => ⟨S20000, .i32⟩
  | 34 => ⟨S20000, .i32⟩
  | 35 => ⟨S20000, .i32⟩
  | 36 => ⟨S_, .i32⟩
  | 37 => ⟨S20000, .i32⟩
  | 38 => ⟨S20000, .i32⟩
  | 39 => ⟨S20000x1, .i32⟩
  | 40 => ⟨S20000x1, .i32⟩
  | 41 => ⟨S20000x2, .i32⟩
  | 42 => ⟨S20000, .f32⟩
  | 43 => ⟨S_, .i32⟩
  | 44 => ⟨S20000, .i32⟩
  | 45 => ⟨S20000, .i1⟩
  | 46 => ⟨S_, .i32⟩
  | 47 => ⟨S20000, .i32⟩
  | 48 => ⟨S20000, .i32⟩
  | 49 => ⟨S20000, .i32⟩
  | 50 => ⟨S_, .i32⟩
  | 51 => ⟨S20000, .i32⟩
  | 52 => ⟨S20000, .i32⟩
  | 53 => ⟨S20000x1, .i32⟩
  | 54 => ⟨S20000x1, .i32⟩
  | 55 => ⟨S20000x2, .i32⟩
  | 56 => ⟨S20000, .i32⟩
  | 57 => ⟨S_, .i32⟩
  | 58 => ⟨S20000, .i32⟩
  | 59 => ⟨S20000, .i1⟩
  | 60 => ⟨S20000, .i1⟩
  | 61 => ⟨S20000, .i1⟩
  | 62 => ⟨S_, .f32⟩
  | 63 => ⟨S_, .f32⟩
  | 64 => ⟨S20000, .f32⟩
  | 65 => ⟨S20000, .f32⟩
  | 66 => ⟨S_, .f32⟩
  | 67 => ⟨S1, .f32⟩
  | 68 => ⟨S20001, .f32⟩
  | 69 => ⟨S_, .i32⟩
  | 70 => ⟨S20000, .i32⟩
  | 71 => ⟨S20000, .i1⟩
  | 72 => ⟨S_, .i32⟩
  | 73 => ⟨S_, .i32⟩
  | 74 => ⟨S20000, .i32⟩
  | 75 => ⟨S20000, .i32⟩
  | 76 => ⟨S_, .i32⟩
  | 77 => ⟨S20000, .i32⟩
  | 78 => ⟨S20000, .i1⟩
  | 79 => ⟨S_, .i32⟩
  | 80 => ⟨S20000, .i32⟩
  | 81 => ⟨S20000, .i32⟩
  | 82 => ⟨S20000, .i32⟩
  | 83 => ⟨S_, .i32⟩
  | 84 => ⟨S20000, .i32⟩
  | 85 => ⟨S20000, .i32⟩
  | 86 => ⟨S20000x1, .i32⟩
  | 87 => ⟨S20000x1, .i32⟩
  | 88 => ⟨S20000x2, .i32⟩
  | 89 => ⟨S20000, .f32⟩
  | 90 => ⟨S_, .i32⟩
  | 91 => ⟨S20000, .i32⟩
  | 92 => ⟨S20000, .i1⟩
  | 93 => ⟨S_, .i32⟩
  | 94 => ⟨S20000, .i32⟩
  | 95 => ⟨S20000, .i32⟩
  | 96 => ⟨S20000, .i32⟩
  | 97 => ⟨S_, .i32⟩
  | 98 => ⟨S20000, .i32⟩
  | 99 => ⟨S20000, .i32⟩
  | 100 => ⟨S20000x1, .i32⟩
  | 101 => ⟨S20000x1, .i32⟩
  | 102 => ⟨S20000x2, .i32⟩
  | 103 => ⟨S20000, .i32⟩
  | 104 => ⟨S_, .i32⟩
  | 105 => ⟨S20000, .i32⟩
  | 106 => ⟨S20000, .i1⟩
  | 107 => ⟨S20000, .i1⟩
  | 108 => ⟨S20000, .i1⟩
  | 109 => ⟨S_, .f32⟩
  | 110 => ⟨S_, .f32⟩
  | 111 => ⟨S20000, .f32⟩
  | 112 => ⟨S20000, .f32⟩
  | 113 => ⟨S_, .f32⟩
  | 114 => ⟨S1, .f32⟩
  | 115 => ⟨S20001, .f32⟩
  | 116 => ⟨S20001, .f32⟩
  | 117 => ⟨S20001, .f32⟩
  | 118 => ⟨S1x20001, .f32⟩
  | 119 => ⟨S1x20001, .f32⟩
  | 120 => ⟨S1x20001, .f32⟩
  | 121 => ⟨S1x20001, .f32⟩
  | 122 => ⟨S1x20001, .f32⟩
  | 123 => ⟨S5x20001, .f32⟩
  | 124 => ⟨S_, .i32⟩
  | 125 => ⟨S_, .f32⟩
  | 126 => ⟨S5x20480, .f32⟩
  | 127 => ⟨S5x4000000, .f32⟩
  | _ => ⟨S4000000x1, .i32⟩

abbrev hbmTy0_1 (i : Nat) : BufTy := match i % 128 with
  | 0 => ⟨S1x4000000, .f32⟩
  | 1 => ⟨S4000000x1, .f32⟩
  | 2 => ⟨S1x4000000, .f32⟩
  | 3 => ⟨S4000000x1, .f32⟩
  | 4 => ⟨S1x4000000, .f32⟩
  | 5 => ⟨S4000000x1, .f32⟩
  | 6 => ⟨S1x4000000, .f32⟩
  | 7 => ⟨S4000000x1, .f32⟩
  | 8 => ⟨S1x4000000, .f32⟩
  | 9 => ⟨S4000000x1, .f32⟩
  | _ => ⟨S4000000x1, .i32⟩

abbrev hbmTy (i : Nat) : BufTy := match i / 128 with
  | 0 => hbmTy0_0 i
  | 1 => hbmTy0_1 i
  | _ => ⟨S4000000x1, .i32⟩

abbrev bufTy : (tb : Table) → Fin (tcTables nBuf tb) → BufTy
  | .hbm, ⟨i, _⟩ => hbmTy i
  | .local _ .vmem, ⟨0, _⟩ => ⟨S1x3200, .i32⟩
  | .local _ .vmem, ⟨1, _⟩ => ⟨S1x3200, .i32⟩
  | .local _ .vmem, ⟨2, _⟩ => ⟨S1x3200, .f32⟩
  | .local _ .vmem, ⟨3, _⟩ => ⟨S1x3200, .f32⟩
  | .local _ .vmem, ⟨4, _⟩ => ⟨S1x3200, .i32⟩
  | .local _ .vmem, ⟨5, _⟩ => ⟨S1x3200, .i32⟩
  | .local _ .vmem, ⟨6, _⟩ => ⟨S1x3200, .i32⟩
  | .local _ .vmem, ⟨7, _⟩ => ⟨S1x3200, .i32⟩
  | .local _ .vmem, ⟨8, _⟩ => ⟨S1x8x20480, .f32⟩
  | .local _ .vmem, ⟨9, _⟩ => ⟨S1x8x20480, .f32⟩
  | .local _ .vmem, ⟨10, _⟩ => ⟨S8x20480, .f32⟩
  | .local _ .vmem, ⟨11, _⟩ => ⟨S1x3200, .i32⟩
  | .local _ .vmem, ⟨12, _⟩ => ⟨S1x3200, .i32⟩
  | .local _ .vmem, ⟨13, _⟩ => ⟨S5x20480, .f32⟩
  | .local _ .vmem, ⟨14, _⟩ => ⟨S5x3200, .f32⟩
  | .local _ .vmem, ⟨15, _⟩ => ⟨S5x3200, .f32⟩
  | .local _ .vmem, ⟨16, _⟩ => ⟨S5x3200, .f32⟩
  | _, _ => ⟨S4000000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_call1_v0 : Ref sig .tc := ⟨.hbm, 63, rfl⟩
abbrev main_call1_v1 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_15 : Ref sig .tc := ⟨.hbm, 90, rfl⟩
abbrev main_v58 : Ref sig .tc := ⟨.hbm, 91, rfl⟩
abbrev main_v59 : Ref sig .tc := ⟨.hbm, 92, rfl⟩
abbrev main_c_16 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_19 : Ref sig .tc := ⟨.hbm, 109, rfl⟩
abbrev main_call3_v0 : Ref sig .tc := ⟨.hbm, 110, rfl⟩
abbrev main_call3_v1 : Ref sig .tc := ⟨.hbm, 111, rfl⟩
abbrev main_v73 : Ref sig .tc := ⟨.hbm, 112, rfl⟩
abbrev main_cst_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_21 : Ref sig .tc := ⟨.hbm, 124, rfl⟩
abbrev main_call4_v0 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨3, ![2, 625, 16], ![false, false, false]⟩

def k0_mult1 (i : grid0.Coords) : BitVec 32 :=
  let arg2 : BitVec 32 := BitVec.ofNat 32 (i 2).val
  let c1280_i32_18 : BitVec 32 := 1280#32
  let v50 : BitVec 32 := Scalar.muli arg2 c1280_i32_18
  v50
def k0_off1 (i : grid0.Coords) : Fin 2 → Nat :=
  let c0_19 : Index := 0#32
  let arg2 : BitVec 32 := BitVec.ofNat 32 (i 2).val
  let c1280_i32_18 : BitVec 32 := 1280#32
  let v50 : BitVec 32 := Scalar.muli arg2 c1280_i32_18
  let v51 : BitVec 32 := v50
  let v52 : Index := Scalar.indexCast v51
  ![0, v52.toNat]
def k0_cond2 (i : grid0.Coords) : BitVec 1 :=
  let arg1 : BitVec 32 := BitVec.ofNat 32 (i 1).val
  let c624_i32 : BitVec 32 := 624#32
  let v59 : BitVec 1 := Scalar.cmpi .eq arg1 c624_i32
  let arg2 : BitVec 32 := BitVec.ofNat 32 (i 2).val
  let c15_i32 : BitVec 32 := 15#32
  let v60 : BitVec 1 := Scalar.cmpi .eq arg2 c15_i32
  let v61 : BitVec 1 := Scalar.andi v59 v60
  let v62 : BitVec 32 := Scalar.extui v61
  let c0_i32_21 : BitVec 32 := 0#32
  let v63 : BitVec 1 := Scalar.cmpi .ne v62 c0_i32_21
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x3200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x20480 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨2, ![1250, 16], ![false, false]⟩

def k1_mult1 (i : grid1.Coords) : BitVec 32 :=
  let arg1 : BitVec 32 := BitVec.ofNat 32 (i 1).val
  let c1280_i32 : BitVec 32 := 1280#32
  let v7 : BitVec 32 := Scalar.muli arg1 c1280_i32
  v7
def k1_off1 (i : grid1.Coords) : Fin 2 → Nat :=
  let c0_2 : Index := 0#32
  let arg1 : BitVec 32 := BitVec.ofNat 32 (i 1).val
  let c1280_i32 : BitVec 32 := 1280#32
  let v7 : BitVec 32 := Scalar.muli arg1 c1280_i32
  let v8 : BitVec 32 := v7
  let v9 : Index := Scalar.indexCast v8
  ![0, v9.toNat]
def k1_cond2 (i : grid1.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_9 : BitVec 32 := 0#32
  let v36 : BitVec 1 := Scalar.cmpi .ne v35 c0_i32_9
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S5x20480 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S5x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4000000x1_S1x4000000 : S4000000x1.ShapeCasts S1x4000000
  inb_S8x20480_S8x20480_0_0 : ∀ a, (![0, 0] : Fin 2 → Nat) a + S8x20480.size a ≤ S8x20480.size a
  h_S8x20480 : 0 < S8x20480.numel
  shapeCasts_S8x20480_S8x20480 : S8x20480.ShapeCasts S8x20480
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  iota_S1280x1_d0_w32 : S1280x1.Iotas .tc 32 [0]
  broadcasts_S1280x1_S1280x3200 : S1280x1.Broadcasts S1280x3200
  broadcasts_S1x3200_S1280x3200 : S1x3200.Broadcasts S1280x3200
  natLt_1_32 : 1 < 32
  bitsLt_bf16_f32 : FTy.bits .bf16 < FTy.bits .f32
  concatenates_S1x3200_S1x3200_S1x3200_S5x3200_S8x3200_d0 : Shape.Concatenates [S1x3200, S1x3200, S1x3200, S5x3200] S8x3200 0
  h_S8x1280 : 0 < S8x1280.numel
  shapeCasts_S8x1280_S8x1280 : S8x1280.ShapeCasts S8x1280
  inb_S1x8x20480_S1x8x20480_0_0_0 : ∀ a, (![0, 0, 0] : Fin 3 → Nat) a + S1x8x20480.size a ≤ S1x8x20480.size a
  h_S1x8x20480 : 0 < S1x8x20480.numel
  shapeCasts_S1x8x20480_S8x20480 : S1x8x20480.ShapeCasts S8x20480
  shapeCasts_S8x20480_S1x8x20480 : S8x20480.ShapeCasts S1x8x20480
  reducesTo_S2x8x20480_S8x20480_d0 : S2x8x20480.ReducesTo [0] S8x20480
  h_S_ : 0 < S_.numel
  slices_S8x20480_S1x20001_0_0 : S8x20480.Slices ![0, 0] S1x20001
  shapeCasts_S1x20001_S20001 : S1x20001.ShapeCasts S20001
  slices_S8x20480_S1x20001_1_0 : S8x20480.Slices ![1, 0] S1x20001
  slices_S8x20480_S1x20001_2_0 : S8x20480.Slices ![2, 0] S1x20001
  bcast_S_S20000 : S_.BroadcastsInDim S20000 (![] : Fin 0 → Fin S20000.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  bcast_S_S1 : S_.BroadcastsInDim S1 (![] : Fin 0 → Fin S1.rank)
  concatenates_S1_S20000_S20001_d0 : Shape.Concatenates [S1, S20000] S20001 0
  bcast_S20001_S1x20001_1 : S20001.BroadcastsInDim S1x20001 (![1] : Fin 1 → Fin S1x20001.rank)
  concatenates_S1x20001_S1x20001_S1x20001_S1x20001_S1x20001_S5x20001_d0 : Shape.Concatenates [S1x20001, S1x20001, S1x20001, S1x20001, S1x20001] S5x20001 0
  pads_S5x20001_S5x20480_000_04790 : S5x20001.Pads (![0, 0] : Fin 2 → Nat) ![0, 479] ![0, 0] S5x20480
  inb_S5x3200_S5x3200_0_0 : ∀ a, (![0, 0] : Fin 2 → Nat) a + S5x3200.size a ≤ S5x3200.size a
  h_S5x3200 : 0 < S5x3200.numel
  shapeCasts_S5x3200_S5x3200 : S5x3200.ShapeCasts S5x3200
  h_S5x1280 : 0 < S5x1280.numel
  shapeCasts_S5x1280_S5x1280 : S5x1280.ShapeCasts S5x1280
  slices_S5x3200_o0_0_S1x3200 : S5x3200.Slices ![0, 0] S1x3200
  slices_S5x3200_o1_0_S1x3200 : S5x3200.Slices ![1, 0] S1x3200
  slices_S5x3200_o2_0_S1x3200 : S5x3200.Slices ![2, 0] S1x3200
  slices_S5x3200_o3_0_S1x3200 : S5x3200.Slices ![3, 0] S1x3200
  slices_S5x3200_o4_0_S1x3200 : S5x3200.Slices ![4, 0] S1x3200
  concatenates_S1x3200_S1x3200_S1x3200_S1x3200_S1x3200_S5x3200_d0 : Shape.Concatenates [S1x3200, S1x3200, S1x3200, S1x3200, S1x3200] S5x3200 0
  slices_S5x4000000_S1x4000000_0_0 : S5x4000000.Slices ![0, 0] S1x4000000
  shapeCasts_S1x4000000_S4000000x1 : S1x4000000.ShapeCasts S4000000x1
  slices_S5x4000000_S1x4000000_1_0 : S5x4000000.Slices ![1, 0] S1x4000000
  slices_S5x4000000_S1x4000000_2_0 : S5x4000000.Slices ![2, 0] S1x4000000
  slices_S5x4000000_S1x4000000_3_0 : S5x4000000.Slices ![3, 0] S1x4000000
  slices_S5x4000000_S1x4000000_4_0 : S5x4000000.Slices ![4, 0] S1x4000000
  dot_S8x3200_S1280x3200_S8x1280_1_1_0_0_n_n_wf : DotDims.WF S8x3200 S1280x3200 S8x1280 [1] [1] [0] [0] [] []
  gather_S4000000x1_S20000x2_S20000_n_01_n_n_01_1_11_wf : GatherDims.WF S4000000x1 S20000x2 S20000 [] [0, 1] [] [0, 1] [] 1 ![1, 1]
  dot_S5x1280_S1280x3200_S5x3200_1_0_0_1_n_n_wf : DotDims.WF S5x1280 S1280x3200 S5x3200 [1] [0] [0] [1] [] []
  hrank0 : 0 < grid0.rank
  k0_mult1_dvd : ∀ i : grid0.Coords, 1280 ∣ (k0_mult1 i).toNat
  k0_off1_inb : ∀ i : grid0.Coords, ∀ a, (k0_off1 i) a + S8x1280.size a ≤ S8x20480.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x4000000.size a
  hwx0_0 : ∀ i : grid0.Coords, EltTy.bits .i32 = 32 ∨ (Rect.block (s := S1x4000000) S1x3200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x4000000.size a
  hwx0_1 : ∀ i : grid0.Coords, EltTy.bits .f32 = 32 ∨ (Rect.block (s := S1x4000000) S1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x4000000.size a
  hwx0_2 : ∀ i : grid0.Coords, EltTy.bits .i32 = 32 ∨ (Rect.block (s := S1x4000000) S1x3200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3200.size a ≤ S1x4000000.size a
  hwx0_3 : ∀ i : grid0.Coords, EltTy.bits .i32 = 32 ∨ (Rect.block (s := S1x4000000) S1x3200.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x20480.size a ≤ S2x8x20480.size a
  hwx0_4 : ∀ i : grid0.Coords, EltTy.bits .f32 = 32 ∨ (Rect.block (s := S2x8x20480) S1x8x20480.size (cc0_transform_4 i) (hinb0_4 i)).WholeWords (EltTy.packing .f32)
  hrank1 : 0 < grid1.rank
  k1_mult1_dvd : ∀ i : grid1.Coords, 1280 ∣ (k1_mult1 i).toNat
  k1_off1_inb : ∀ i : grid1.Coords, ∀ a, (k1_off1 i) a + S5x1280.size a ≤ S5x20480.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x4000000.size a
  hwx1_0 : ∀ i : grid1.Coords, EltTy.bits .i32 = 32 ∨ (Rect.block (s := S1x4000000) S1x3200.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x20480.size a ≤ S5x20480.size a
  hwx1_1 : ∀ i : grid1.Coords, EltTy.bits .f32 = 32 ∨ (Rect.block (s := S5x20480) S5x20480.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5x3200.size a ≤ S5x4000000.size a
  hwx1_2 : ∀ i : grid1.Coords, EltTy.bits .f32 = 32 ∨ (Rect.block (s := S5x4000000) S5x3200.size (cc1_transform_2 i) (hinb1_2 i)).WholeWords (EltTy.packing .f32)

variable [Facts₀]

def dot_S8x3200_S1280x3200_S8x1280_1_1_0_0_n_n : DotDims S8x3200 S1280x3200 S8x1280 where
  lhsContracting := [1]
  rhsContracting := [1]
  lhsNonContracting := [0]
  rhsNonContracting := [0]
  lhsBatch := []
  rhsBatch := []
  wf := dot_S8x3200_S1280x3200_S8x1280_1_1_0_0_n_n_wf
def gather_S4000000x1_S20000x2_S20000_n_01_n_n_01_1_11 : GatherDims S4000000x1 S20000x2 S20000 where
  offsetDims := []
  collapsedSliceDims := [0, 1]
  operandBatchingDims := []
  startIndicesBatchingDims := []
  startIndexMap := [0, 1]
  indexVectorDim := 1
  sliceSizes := ![1, 1]
  wf := gather_S4000000x1_S20000x2_S20000_n_01_n_n_01_1_11_wf
def dot_S5x1280_S1280x3200_S5x3200_1_0_0_1_n_n : DotDims S5x1280 S1280x3200 S5x3200 where
  lhsContracting := [1]
  rhsContracting := [0]
  lhsNonContracting := [0]
  rhsNonContracting := [1]
  lhsBatch := []
  rhsBatch := []
  wf := dot_S5x1280_S1280x3200_S5x3200_1_0_0_1_n_n_wf

abbrev win0_0 : Pipeline.Window sig grid0 :=
  Pipeline.Window.ofSpec (Memref.whole main_v0) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x20480.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S5x20480.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S5x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4000000x1 : Shape := ⟨2, ![4000000, 1]⟩
abbrev S20000 : Shape := ⟨1, ![20000]⟩
abbrev S_ : Shape := ⟨0, ![]⟩
abbrev S4000000 : Shape := ⟨1, ![4000000]⟩
abbrev S20001 : Shape := ⟨1, ![20001]⟩
abbrev S1x1 : Shape := ⟨2, ![1, 1]⟩
abbrev S4000001x1 : Shape := ⟨2, ![4000001, 1]⟩
abbrev S1 : Shape := ⟨1, ![1]⟩
abbrev S20000x1 : Shape := ⟨2, ![20000, 1]⟩
abbrev S20000x2 : Shape := ⟨2, ![20000, 2]⟩

abbrev nBuf : Space → Nat
  | .hbm => 176
  | .vmem => 0
  | .smem => 0
  | _ => 0

abbrev hbmTy0_0 (i : Nat) : BufTy := match i % 128 with
  | 0 => ⟨S4000000x1, .i32⟩
  | 1 => ⟨S4000000x1, .f32⟩
  | 2 => ⟨S4000000x1, .f32⟩
  | 3 => ⟨S4000000x1, .i32⟩
  | 4 => ⟨S4000000x1, .f32⟩
  | 5 => ⟨S4000000x1, .i32⟩
  | 6 => ⟨S20000, .i32⟩
  | 7 => ⟨S20000, .i32⟩
  | 8 => ⟨S4000000x1, .i32⟩
  | 9 => ⟨S_, .i32⟩
  | 10 => ⟨S4000000x1, .i32⟩
  | 11 => ⟨S4000000x1, .i1⟩
  | 12 => ⟨S_, .f32⟩
  | 13 => ⟨S_, .f32⟩
  | 14 => ⟨S4000000x1, .f32⟩
  | 15 => ⟨S4000000x1, .f32⟩
  | 16 => ⟨S_, .f32⟩
  | 17 => ⟨S_, .f32⟩
  | 18 => ⟨S4000000x1, .f32⟩
  | 19 => ⟨S4000000x1, .f32⟩
  | 20 => ⟨S_, .i32⟩
  | 21 => ⟨S4000000x1, .i32⟩
  | 22 => ⟨S4000000x1, .i1⟩
  | 23 => ⟨S_, .f32⟩
  | 24 => ⟨S_, .f32⟩
  | 25 => ⟨S4000000x1, .f32⟩
  | 26 => ⟨S4000000x1, .f32⟩
  | 27 => ⟨S_, .i32⟩
  | 28 => ⟨S4000000x1, .i32⟩
  | 29 => ⟨S4000000x1, .i1⟩
  | 30 => ⟨S_, .f32⟩
  | 31 => ⟨S_, .f32⟩
  | 32 => ⟨S4000000x1, .f32⟩
  | 33 => ⟨S4000000x1, .f32⟩
  | 34 => ⟨S4000000, .i32⟩
  | 35 => ⟨S_, .i32⟩
  | 36 => ⟨S4000000, .i32⟩
  | 37 => ⟨S4000000, .i32⟩
  | 38 => ⟨S4000000, .f32⟩
  | 39 => ⟨S_, .f32⟩
  | 40 => ⟨S20001, .f32⟩
  | 41 => ⟨S4000000x1, .i32⟩
  | 42 => ⟨S20001, .f32⟩
  | 43 => ⟨S4000000, .f32⟩
  | 44 => ⟨S_, .f32⟩
  | 45 => ⟨S20001, .f32⟩
  | 46 => ⟨S4000000x1, .i32⟩
  | 47 => ⟨S20001, .f32⟩
  | 48 => ⟨S_, .i32⟩
  | 49 => ⟨S4000000x1, .i32⟩
  | 50 => ⟨S4000000x1, .i1⟩
  | 51 => ⟨S_, .f32⟩
  | 52 => ⟨S_, .f32⟩
  | 53 => ⟨S4000000x1, .f32⟩
  | 54 => ⟨S4000000x1, .f32⟩
  | 55 => ⟨S4000000, .f32⟩
  | 56 => ⟨S_, .f32⟩
  | 57 => ⟨S20001, .f32⟩
  | 58 => ⟨S4000000x1, .i32⟩
  | 59 => ⟨S20001, .f32⟩
  | 60 => ⟨S_, .f32⟩
  | 61 => ⟨S1x1, .f32⟩
  | 62 => ⟨S4000001x1, .f32⟩
  | 63 => ⟨S20000, .f32⟩
  | 64 => ⟨S20000, .i1⟩
  | 65 => ⟨S_, .f32⟩
  | 66 => ⟨S_, .f32⟩
  | 67 => ⟨S20000, .f32⟩
  | 68 => ⟨S20000, .f32⟩
  | 69 => ⟨S20000, .i32⟩
  | 70 => ⟨S20000, .f32⟩
  | 71 => ⟨S20000, .i1⟩
  | 72 => ⟨S_, .f32⟩
  | 73 => ⟨S_, .f32⟩
  | 74 => ⟨S20000, .f32⟩
  | 75 => ⟨S20000, .f32⟩
  | 76 => ⟨S20000, .i32⟩
  | 77 => ⟨S_, .f32⟩
  | 78 => ⟨S1, .f32⟩
  | 79 => ⟨S_, .i32⟩
  | 80 => ⟨S20000, .i32⟩
  | 81 => ⟨S20000, .i1⟩
  | 82 => ⟨S_, .i32⟩
  | 83 => ⟨S20000, .i32⟩
  | 84 => ⟨S20000, .i32⟩
  | 85 => ⟨S20000, .i32⟩
  | 86 => ⟨S_, .i32⟩
  | 87 => ⟨S20000, .i32⟩
  | 88 => ⟨S20000, .i32⟩
  | 89 => ⟨S20000x1, .i32⟩
  | 90 => ⟨S20000x1, .i32⟩
  | 91 => ⟨S20000x2, .i32⟩
  | 92 => ⟨S20000, .f32⟩
  | 93 => ⟨S20001, .f32⟩
  | 94 => ⟨S_, .i32⟩
  | 95 => ⟨S20000, .i32⟩
  | 96 => ⟨S20000, .i1⟩
  | 97 => ⟨S_, .i32⟩
  | 98 => ⟨S20000, .i32⟩
  | 99 => ⟨S20000, .i32⟩
  | 100 => ⟨S20000, .i32⟩
  | 101 => ⟨S_, .i32⟩
  | 102 => ⟨S20000, .i32⟩
  | 103 => ⟨S20000, .i32⟩
  | 104 => ⟨S20000x1, .i32⟩
  | 105 => ⟨S20000x1, .i32⟩
  | 106 => ⟨S20000x2, .i32⟩
  | 107 => ⟨S20000, .f32⟩
  | 108 => ⟨S20001, .f32⟩
  | 109 => ⟨S20001, .f32⟩
  | 110 => ⟨S20001, .f32⟩
  | 111 => ⟨S_, .i32⟩
  | 112 => ⟨S4000000, .i32⟩
  | 113 => ⟨S4000000, .i1⟩
  | 114 => ⟨S_, .i32⟩
  | 115 => ⟨S4000000, .i32⟩
  | 116 => ⟨S4000000, .i32⟩
  | 117 => ⟨S4000000, .i32⟩
  | 118 => ⟨S4000000x1, .i32⟩
  | 119 => ⟨S4000000, .f32⟩
  | 120 => ⟨S4000000x1, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S4000000x1, .i32⟩

abbrev hbmTy0_1 (i : Nat) : BufTy := match i % 128 with
  | 0 => ⟨S4000000x1, .i32⟩
  | 1 => ⟨S4000000, .f32⟩
  | 2 => ⟨S4000000x1, .f32⟩
  | 3 => ⟨S_, .i32⟩
  | 4 => ⟨S4000000, .i32⟩
  | 5 => ⟨S4000000, .i1⟩
  | 6 => ⟨S_, .i32⟩
  | 7 => ⟨S4000000, .i32⟩
  | 8 => ⟨S4000000, .i32⟩
  | 9 => ⟨S4000000, .i32⟩
  | 10 => ⟨S4000000x1, .i32⟩
  | 11 => ⟨S4000000, .f32⟩
  | 12 => ⟨S4000000x1, .f32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S4000000, .f32⟩
  | 22 => ⟨S4000000x1, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000, .f32⟩
  | 32 => ⟨S4000000x1, .f32⟩
  | 33 => ⟨S_, .f32⟩
  | 34 => ⟨S4000000x1, .f32⟩
  | 35 => ⟨S4000000x1, .i1⟩
  | 36 => ⟨S_, .f32⟩
  | 37 => ⟨S_, .f32⟩
  | 38 => ⟨S4000000x1, .f32⟩
  | 39 => ⟨S4000000x1, .f32⟩
  | 40 => ⟨S_, .f32⟩
  | 41 => ⟨S4000000x1, .f32⟩
  | 42 => ⟨S4000000x1, .i1⟩
  | 43 => ⟨S4000000x1, .f32⟩
  | 44 => ⟨S_, .f32⟩
  | 45 => ⟨S_, .f32⟩
  | 46 => ⟨S4000000x1, .f32⟩
  | 47 => ⟨S4000000x1, .f32⟩
  | _ => ⟨S4000000x1, .i32⟩

abbrev hbmTy (i : Nat) : BufTy := match i / 128 with
  | 0 => hbmTy0_0 i
  | 1 => hbmTy0_1 i
  | _ => ⟨S4000000x1, .i32⟩

abbrev bufTy : (tb : Table) → Fin (tcTables nBuf tb) → BufTy
  | .hbm, ⟨i, _⟩ => hbmTy i
  | _, _ => ⟨S4000000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v2 : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_cst_4 : Ref sig .tc := ⟨.hbm, 30, rfl⟩
abbrev main_call3_v0 : Ref sig .tc := ⟨.hbm, 31, rfl⟩
abbrev main_call3_v1 : Ref sig .tc := ⟨.hbm, 32, rfl⟩
abbrev main_v9 : Ref sig .tc := ⟨.hbm, 33, rfl⟩
abbrev main_v10 : Ref sig .tc := ⟨.hbm, 34, rfl⟩
abbrev main_c_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_6 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_7 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_8 : Ref sig .tc := ⟨.hbm, 48, rfl⟩
abbrev main_v21 : Ref sig .tc := ⟨.hbm, 49, rfl⟩
abbrev main_v22 : Ref sig .tc := ⟨.hbm, 50, rfl⟩
abbrev main_cst_9 : Ref sig .tc := ⟨.hbm, 51, rfl⟩
abbrev main_call4_v0 : Ref sig .tc := ⟨.hbm, 52, rfl⟩
abbrev main_call4_v1 : Ref sig .tc := ⟨.hbm, 53, rfl⟩
abbrev main_v23 : Ref sig .tc := ⟨.hbm, 54, rfl⟩
abbrev main_v24 : Ref sig .tc := ⟨.hbm, 55, rfl⟩
abbrev main_cst_10 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_12 : Ref sig .tc := ⟨.hbm, 65, rfl⟩
abbrev main_call5_v0 : Ref sig .tc := ⟨.hbm, 66, rfl⟩
abbrev main_call5_v1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_13 : Ref sig .tc := ⟨.hbm, 72, rfl⟩
abbrev main_call6_v0 : Ref sig .tc := ⟨.hbm, 73, rfl⟩
abbrev main_call6_v1 : Ref sig .tc := ⟨.hbm, 74, rfl⟩
abbrev main_v36 : Ref sig .tc := ⟨.hbm, 75, rfl⟩
abbrev main_v37 : Ref sig .tc := ⟨.hbm, 76, rfl⟩
abbrev main_cst_14 : Ref sig .tc := ⟨.hbm, 77, rfl⟩
abbrev main_v38 : Ref sig .tc := ⟨.hbm, 78, rfl⟩
abbrev main_c_15 : Ref sig .tc := ⟨.hbm, 79, rfl⟩
abbrev main_v39 : Ref sig .tc := ⟨.hbm, 80, rfl⟩
abbrev main_v40 : Ref sig .tc := ⟨.hbm, 81, rfl⟩
abbrev main_c_16 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_17 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_18 : Ref sig .tc := ⟨.hbm, 94, rfl⟩
abbrev main_v51 : Ref sig .tc := ⟨.hbm, 95, rfl⟩
abbrev main_v52 : Ref sig .tc := ⟨.hbm, 96, rfl⟩
abbrev main_c_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_21 : Ref sig .tc := ⟨.hbm, 111, rfl⟩
abbrev main_v65 : Ref sig .tc := ⟨.hbm, 112, rfl⟩
abbrev main_v66 : Ref sig .tc := ⟨.hbm, 113, rfl⟩
abbrev main_c_22 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_23 : Ref sig .tc := ⟨.hbm, 121, rfl⟩
abbrev main_v73 : Ref sig .tc := ⟨.hbm, 122, rfl⟩
abbrev main_v74 : Ref sig .tc := ⟨.hbm, 123, rfl⟩
abbrev main_c_24 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_25 : Ref sig .tc := ⟨.hbm, 131, rfl⟩
abbrev main_v81 : Ref sig .tc := ⟨.hbm, 132, rfl⟩
abbrev main_v82 : Ref sig .tc := ⟨.hbm, 133, rfl⟩
abbrev main_c_26 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_c_27 : Ref sig .tc := ⟨.hbm, 141, rfl⟩
abbrev main_v89 : Ref sig .tc := ⟨.hbm, 142, rfl⟩
abbrev main_v90 : Ref sig .tc := ⟨.hbm, 143, rfl⟩
abbrev main_c_28 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c_29 : Ref sig .tc := ⟨.hbm, 151, rfl⟩
abbrev main_v97 : Ref sig .tc := ⟨.hbm, 152, rfl⟩
abbrev main_v98 : Ref sig .tc := ⟨.hbm, 153, rfl⟩
abbrev main_c_30 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_31 : Ref sig .tc := ⟨.hbm, 161, rfl⟩
abbrev main_v105 : Ref sig .tc := ⟨.hbm, 162, rfl⟩
abbrev main_v106 : Ref sig .tc := ⟨.hbm, 163, rfl⟩
abbrev main_cst_32 : Ref sig .tc := ⟨.hbm, 164, rfl⟩
abbrev main_call7_v0 : Ref sig .tc := ⟨.hbm, 165, rfl⟩
abbrev main_call7_v1 : Ref sig .tc := ⟨.hbm, 166, rfl⟩
abbrev main_v107 : Ref sig .tc := ⟨.hbm, 167, rfl⟩
abbrev main_cst_33 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_34 : Ref sig .tc := ⟨.hbm, 172, rfl⟩
abbrev main_call8_v0 : Ref sig .tc := ⟨.hbm, 173, rfl⟩
abbrev main_call8_v1 : Ref sig .tc := ⟨.hbm, 174, rfl⟩
abbrev main_v111 : Ref sig .tc := ⟨.hbm, 175, rfl⟩

abbrev nD : Nat := 1
abbrev τ : Topo := Topo.v7x

variable {F : FTy → Type} [FloatOps F]

class Facts₀ : Prop where
  bcast_S_S4000000x1 : S_.BroadcastsInDim S4000000x1 (![] : Fin 0 → Fin S4000000x1.rank)
  shapeCasts_S4000000x1_S4000000 : S4000000x1.ShapeCasts S4000000
  bcast_S_S4000000 : S_.BroadcastsInDim S4000000 (![] : Fin 0 → Fin S4000000.rank)
  bcast_S_S20001 : S_.BroadcastsInDim S20001 (![] : Fin 0 → Fin S20001.rank)
  bcast_S4000000_S4000000x1_0 : S4000000.BroadcastsInDim S4000000x1 (![0] : Fin 1 → Fin S4000000x1.rank)
  bcast_S_S1x1 : S_.BroadcastsInDim S1x1 (![] : Fin 0 → Fin S1x1.rank)
  concatenates_S4000000x1_S1x1_S4000001x1_d0 : Shape.Concatenates [S4000000x1, S1x1] S4000001x1 0
  bcast_S_S20000 : S_.BroadcastsInDim S20000 (![] : Fin 0 → Fin S20000.rank)
  bcast_S_S1 : S_.BroadcastsInDim S1 (![] : Fin 0 → Fin S1.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  concatenates_S1_S20000_S20001_d0 : Shape.Concatenates [S1, S20000] S20001 0
  scatter_S20001_S4000000x1_S4000000_n_0_0_1_wf : ScatterDims.WF S20001 S4000000x1 S4000000 [] [0] [0] 1
  gather_S4000001x1_S20000x2_S20000_n_01_n_n_01_1_11_wf : GatherDims.WF S4000001x1 S20000x2 S20000 [] [0, 1] [] [0, 1] [] 1 ![1, 1]
  gather_S20001_S4000000x1_S4000000_n_0_n_n_0_1_1_wf : GatherDims.WF S20001 S4000000x1 S4000000 [] [0] [] [0] [] 1 ![1]

variable [Facts₀]

def scatter_S20001_S4000000x1_S4000000_n_0_0_1 : ScatterDims S20001 S4000000x1 S4000000 where
  updateWindowDims := []
  insertedWindowDims := [0]
  scatterDimsToOperandDims := [0]
  indexVectorDim := 1
  wf := scatter_S20001_S4000000x1_S4000000_n_0_0_1_wf
def gather_S4000001x1_S20000x2_S20000_n_01_n_n_01_1_11 : GatherDims S4000001x1 S20000x2 S20000 where
  offsetDims := []
  collapsedSliceDims := [0, 1]
  operandBatchingDims := []
  startIndicesBatchingDims := []
  startIndexMap := [0, 1]
  indexVectorDim := 1
  sliceSizes := ![1, 1]
  wf := gather_S4000001x1_S20000x2_S20000_n_01_n_n_01_1_11_wf
def gather_S20001_S4000000x1_S4000000_n_0_n_n_0_1_1 : GatherDims S20001 S4000000x1 S4000000 where
  offsetDims := []
  collapsedSliceDims := [0]
  operandBatchingDims := []
  startIndicesBatchingDims := []
  startIndexMap := [0]
  indexVectorDim := 1
  sliceSizes := ![1]
  wf := gather_S20001_S4000000x1_S4000000_n_0_n_n_0_1_1_wf

class Facts : Prop extends Facts₀ where

variable [Facts]
-- ==== Proof.K.Grid.lean ====
/-
  The two kernels' grids in closed form: the coordinates of the `t`-th point, each window's block index there, the points
  at which the pipeline fetches an input block or writes an output block back, and the kernel bodies' two branch
  conditions — all by arithmetic on `t` (row-major order, last axis fastest), with no enumeration of the 20000 points.

  First grid `[2, 625, 16]`: point `t` is core `t / 10000`, hit block `(t / 16) % 625`, segment chunk `t % 16`; the four
  per-hit streams sit at column block `core · 625 + hit block`, which changes every sixteenth point; the output block is
  the core's, written back at the core's last point. Second grid `[1250, 16]`: point `t` is hit block `t / 16`, chunk
  `t % 16`; the label stream and the output move with the hit block, the table of sums never moves.
-/
import proofs.«422791_j81235011436601_4_alg».proof.Proof.Gen.Kernel.Launch
import Idealize.ShloMosaic.Lib.Pipeline.Kit

noncomputable section

namespace Cert.Kernel.Hand.Grid

open Cert.Kernel Cert.Kernel.Gen
open Idealize.ShloMosaic Idealize.ShloMosaic.TcCoe
open Idealize.SL Idealize.SL.Sem

variable {F : FTy → Type} [FloatOps F]

/-! ## Fetch and write-back points from a window's block index -/

/-- An input window whose block index depends on the point through `f` is fetched at the first point and wherever `f`
    differs from its value at the point before. -/
theorem fetch_iff_change {G : Pipeline.Grid} (w : Pipeline.Window sig G) (hin : w.isOut = false) (f : ℕ → ℕ)
    (hidx : ∀ t t' : Fin G.N, w.index t = w.index t' ↔ f t.val = f t'.val) (t : Fin G.N) :
    w.fetch t = true ↔ (t.val = 0 ∨ (0 < t.val ∧ f t.val ≠ f (t.val - 1))) := by
  unfold Pipeline.Window.fetch
  rw [hin, Bool.not_false, Bool.true_and, Bool.or_eq_true, decide_eq_true_iff, decide_eq_true_iff]
  exact or_congr Iff.rfl ⟨fun ⟨h, hne⟩ => ⟨h, fun e => hne ((hidx _ _).mpr e)⟩,
    fun ⟨h, hne⟩ => ⟨h, fun e => hne ((hidx _ _).mp e)⟩⟩

/-- An output window whose block index depends on the point through `f` is written back at the last point and wherever
    `f` differs from its value at the next point. -/
theorem flush_iff_change {G : Pipeline.Grid} (w : Pipeline.Window sig G) (hout : w.isOut = true) (f : ℕ → ℕ)
    (hidx : ∀ t t' : Fin G.N, w.index t = w.index t' ↔ f t.val = f t'.val) (t : Fin G.N) :
    w.flush t = true ↔ (t.val + 1 = G.N ∨ (t.val + 1 < G.N ∧ f (t.val + 1) ≠ f t.val)) := by
  unfold Pipeline.Window.flush
  rw [hout, Bool.true_and, Bool.or_eq_true, decide_eq_true_iff, decide_eq_true_iff]
  exact or_congr Iff.rfl ⟨fun ⟨h, hne⟩ => ⟨h, fun e => hne ((hidx _ _).mpr e)⟩,
    fun ⟨h, hne⟩ => ⟨h, fun e => hne ((hidx _ _).mp e)⟩⟩

/-! ## The first grid -/

/-- Point `t` of the first grid is core `t / 10000`, hit block `(t / 16) % 625`, segment chunk `t % 16`. -/
theorem coords0 (t : Fin cfg0.N) :
    (grid0.coords t 0).val = t.val / 10000 ∧ (grid0.coords t 1).val = (t.val / 16) % 625 ∧ (grid0.coords t 2).val = t.val % 16 := by
  have ht : t.val < 20000 := lt_of_lt_of_eq t.isLt N_0
  have h0 : (grid0.coords t 0).val = t.val / 10000 % 2 := rfl
  have h1 : (grid0.coords t 1).val = t.val / 16 % 625 := rfl
  have h2 : (grid0.coords t 2).val = t.val / 1 % 16 := rfl
  refine ⟨by rw [h0]; omega, h1, by rw [h2]; omega⟩

/-- The column block of a per-hit stream: the core times 625 plus the hit block; the word arithmetic does not wrap. -/
theorem colblk (a b : ℕ) (ha : a < 2) (hb : b < 625) :
    (Scalar.addi (Scalar.muli (BitVec.ofNat 32 a) 625#32) (BitVec.ofNat 32 b)).toNat = a * 625 + b := by
  show (BitVec.ofNat 32 a * 625#32 + BitVec.ofNat 32 b).toNat = _
  rw [BitVec.toNat_add, BitVec.toNat_mul, BitVec.toNat_ofNat, BitVec.toNat_ofNat, BitVec.toNat_ofNat]
  omega

/-- The column block at point `t`, as a number. -/
theorem colblk_at (t : Fin cfg0.N) :
    (Scalar.addi (Scalar.muli (BitVec.ofNat 32 (grid0.coords t 0).val) 625#32) (BitVec.ofNat 32 (grid0.coords t 1).val)).toNat
      = (t.val / 10000) * 625 + (t.val / 16) % 625 := by
  obtain ⟨c0, c1, _⟩ := coords0 t
  rw [colblk _ _ (grid0.coords t 0).isLt (grid0.coords t 1).isLt, c0, c1]

/-- The four per-hit streams' block index at point `t`: row block 0, column block `core · 625 + hit block`. -/
theorem index0_0 (t : Fin cfg0.N) : win0_0.index t 0 = 0 ∧ win0_0.index t 1 = (t.val / 10000) * 625 + (t.val / 16) % 625 :=
  ⟨rfl, colblk_at t⟩
theorem index0_1 (t : Fin cfg0.N) : win0_1.index t 0 = 0 ∧ win0_1.index t 1 = (t.val / 10000) * 625 + (t.val / 16) % 625 :=
  ⟨rfl, colblk_at t⟩
theorem index0_2 (t : Fin cfg0.N) : win0_2.index t 0 = 0 ∧ win0_2.index t 1 = (t.val / 10000) * 625 + (t.val / 16) % 625 :=
  ⟨rfl, colblk_at t⟩
theorem index0_3 (t : Fin cfg0.N) : win0_3.index t 0 = 0 ∧ win0_3.index t 1 = (t.val / 10000) * 625 + (t.val / 16) % 625 :=
  ⟨rfl, colblk_at t⟩

/-- The output's block index is the core. -/
theorem index0_4 (t : Fin cfg0.N) : win0_4.index t 0 = t.val / 10000 ∧ win0_4.index t 1 = 0 ∧ win0_4.index t 2 = 0 := by
  refine ⟨?_, rfl, rfl⟩
  show (BitVec.ofNat 32 (grid0.coords t 0).val).toNat = _
  have h2 : (grid0.coords t 0).val < 2 := (grid0.coords t 0).isLt
  rw [BitVec.toNat_ofNat, (coords0 t).1] at *
  omega

/-- Two points read the same block of a per-hit stream exactly when their column blocks agree. -/
theorem idx_eq0_0 (t t' : Fin cfg0.N) : win0_0.index t = win0_0.index t'
    ↔ (t.val / 10000) * 625 + (t.val / 16) % 625 = (t'.val / 10000) * 625 + (t'.val / 16) % 625 :=
  ⟨fun h => by have h1 := congrFun h 1; rwa [(index0_0 t).2, (index0_0 t').2] at h1,
   fun h => funext fun a => by
    match a with
    | ⟨0, _⟩ => rfl
    | ⟨1, _⟩ => show win0_0.index t 1 = win0_0.index t' 1; rw [(index0_0 t).2, (index0_0 t').2]; exact h⟩
theorem idx_eq0_1 (t t' : Fin cfg0.N) : win0_1.index t = win0_1.index t'
    ↔ (t.val / 10000) * 625 + (t.val / 16) % 625 = (t'.val / 10000) * 625 + (t'.val / 16) % 625 :=
  ⟨fun h => by have h1 := congrFun h 1; rwa [(index0_1 t).2, (index0_1 t').2] at h1,
   fun h => funext fun a => by
    match a with
    | ⟨0, _⟩ => rfl
    | ⟨1, _⟩ => show win0_1.index t 1 = win0_1.index t' 1; rw [(index0_1 t).2, (index0_1 t').2]; exact h⟩
theorem idx_eq0_2 (t t' : Fin cfg0.N) : win0_2.index t = win0_2.index t'
    ↔ (t.val / 10000) * 625 + (t.val / 16) % 625 = (t'.val / 10000) * 625 + (t'.val / 16) % 625 :=
  ⟨fun h => by have h1 := congrFun h 1; rwa [(index0_2 t).2, (index0_2 t').2] at h1,
   fun h => funext fun a => by
    match a with
    | ⟨0, _⟩ => rfl
    | ⟨1, _⟩ => show win0_2.index t 1 = win0_2.index t' 1; rw [(index0_2 t).2, (index0_2 t').2]; exact h⟩
theorem idx_eq0_3 (t t' : Fin cfg0.N) : win0_3.index t = win0_3.index t'
    ↔ (t.val / 10000) * 625 + (t.val / 16) % 625 = (t'.val / 10000) * 625 + (t'.val / 16) % 625 :=
  ⟨fun h => by have h1 := congrFun h 1; rwa [(index0_3 t).2, (index0_3 t').2] at h1,
   fun h => funext fun a => by
    match a with
    | ⟨0, _⟩ => rfl
    | ⟨1, _⟩ => show win0_3.index t 1 = win0_3.index t' 1; rw [(index0_3 t).2, (index0_3 t').2]; exact h⟩
/-- Two points write the same output block exactly when they are of one core. -/
theorem idx_eq0_4 (t t' : Fin cfg0.N) : win0_4.index t = win0_4.index t' ↔ t.val / 10000 = t'.val / 10000 :=
  ⟨fun h => by have h0 := congrFun h 0; rwa [(index0_4 t).1, (index0_4 t').1] at h0,
   fun h => funext fun a => by
    match a with
    | ⟨0, _⟩ => show win0_4.index t 0 = win0_4.index t' 0; rw [(index0_4 t).1, (index0_4 t').1]; exact h
    | ⟨1, _⟩ => rfl
    | ⟨2, _⟩ => rfl⟩

/-- The column block changes exactly at the points ≡ 0 (mod 16). -/
theorem change16 (n : ℕ) (hn : n < 20000) :
    (n = 0 ∨ (0 < n ∧ (n / 10000) * 625 + (n / 16) % 625 ≠ ((n - 1) / 10000) * 625 + ((n - 1) / 16) % 625)) ↔ n % 16 = 0 := by
  omega

/-- Window 0 (the labels) is fetched at the points ≡ 0 (mod 16). -/
theorem fetch0_0 (t : Fin cfg0.N) : (cfg0.win 0).fetch t = true ↔ t.val % 16 = 0 :=
  (fetch_iff_change win0_0 rfl (fun n => (n / 10000) * 625 + (n / 16) % 625) idx_eq0_0 t).trans
    (change16 t.val (lt_of_lt_of_eq t.isLt N_0))
/-- Window 1 (the energies) is fetched at the points ≡ 0 (mod 16). -/
theorem fetch0_1 (t : Fin cfg0.N) : (cfg0.win 1).fetch t = true ↔ t.val % 16 = 0 :=
  (fetch_iff_change win0_1 rfl (fun n => (n / 10000) * 625 + (n / 16) % 625) idx_eq0_1 t).trans
    (change16 t.val (lt_of_lt_of_eq t.isLt N_0))
/-- Window 2 (the track flags) is fetched at the points ≡ 0 (mod 16). -/
theorem fetch0_2 (t : Fin cfg0.N) : (cfg0.win 2).fetch t = true ↔ t.val % 16 = 0 :=
  (fetch_iff_change win0_2 rfl (fun n => (n / 10000) * 625 + (n / 16) % 625) idx_eq0_2 t).trans
    (change16 t.val (lt_of_lt_of_eq t.isLt N_0))
/-- Window 3 (the minimum-bias flags) is fetched at the points ≡ 0 (mod 16). -/
theorem fetch0_3 (t : Fin cfg0.N) : (cfg0.win 3).fetch t = true ↔ t.val % 16 = 0 :=
  (fetch_iff_change win0_3 rfl (fun n => (n / 10000) * 625 + (n / 16) % 625) idx_eq0_3 t).trans
    (change16 t.val (lt_of_lt_of_eq t.isLt N_0))
/-- Window 4 (the output) is written back at the points ≡ 9999 (mod 10000): a core's last. -/
theorem flush0_4 (t : Fin cfg0.N) : (cfg0.win 4).flush t = true ↔ t.val % 10000 = 9999 := by
  have ht : t.val < 20000 := lt_of_lt_of_eq t.isLt N_0
  have hN : grid0.N = 20000 := N_0
  refine (flush_iff_change win0_4 rfl (fun n => n / 10000) idx_eq0_4 t).trans ?_
  show (t.val + 1 = grid0.N ∨ (t.val + 1 < grid0.N ∧ (t.val + 1) / 10000 ≠ t.val / 10000)) ↔ _
  omega

/-! ### The first kernel's two branch conditions -/

/-- A one-bit word widened is nonzero exactly when it is 1. -/
theorem widened_ne_zero (b : BitVec 1) : Scalar.cmpi .ne (Scalar.extui b) 0#32 = 1#1 ↔ b = 1#1 := by
  revert b; decide
/-- The conjunction of two bits is 1 exactly when both are. -/
theorem andi_eq_one (a b : BitVec 1) : Scalar.andi a b = 1#1 ↔ a = 1#1 ∧ b = 1#1 := by
  revert a b; decide
/-- The equality bit of a small number's word against a small literal's. -/
theorem cmpi_ofNat_eq (n k : ℕ) (hn : n < 4294967296) (hk : k < 4294967296) :
    Scalar.cmpi .eq (BitVec.ofNat 32 n) (BitVec.ofNat 32 k) = 1#1 ↔ n = k := by
  have hc : Scalar.cmpi .eq (BitVec.ofNat 32 n) (BitVec.ofNat 32 k) = BitVec.ofBool (BitVec.ofNat 32 n == BitVec.ofNat 32 k) := rfl
  rw [hc]
  constructor
  · intro h
    by_contra hne
    have hb : (BitVec.ofNat 32 n == BitVec.ofNat 32 k) = false := by
      rw [beq_eq_false_iff_ne]
      intro e
      have := congrArg BitVec.toNat e
      rw [BitVec.toNat_ofNat, BitVec.toNat_ofNat] at this
      omega
    rw [hb] at h
    exact absurd h (by decide)
  · rintro rfl
    rw [beq_self_eq_true]; rfl

/-- The reset's condition (hit block 0 and chunk 0), as the first kernel's body computes it. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The write-out's condition (hit block 624 and chunk 15). -/
abbrev cond0_1 (i : grid0.Coords) : Prop := k0_cond2 i = 1#1

theorem cond0_0_iff (i : grid0.Coords) : cond0_0 i ↔ (i 1).val = 0 ∧ (i 2).val = 0 := by
  have h1 : (i 1).val < 625 := (i 1).isLt
  have h2 : (i 2).val < 16 := (i 2).isLt
  unfold cond0_0
  rw [widened_ne_zero, andi_eq_one, cmpi_ofNat_eq _ 0 (by omega) (by omega), cmpi_ofNat_eq _ 0 (by omega) (by omega)]
theorem cond0_1_iff (i : grid0.Coords) : cond0_1 i ↔ (i 1).val = 624 ∧ (i 2).val = 15 := by
  have h1 : (i 1).val < 625 := (i 1).isLt
  have h2 : (i 2).val < 16 := (i 2).isLt
  show (Scalar.cmpi .ne (Scalar.extui (Scalar.andi (Scalar.cmpi .eq (BitVec.ofNat 32 (i 1).val) 624#32) (Scalar.cmpi .eq (BitVec.ofNat 32 (i 2).val) 15#32))) 0#32) = 1#1 ↔ _
  rw [widened_ne_zero, andi_eq_one, cmpi_ofNat_eq _ 624 (by omega) (by omega), cmpi_ofNat_eq _ 15 (by omega) (by omega)]

/-- The reset happens at a core's first point and nowhere else. -/
theorem hcond0_0 (t : Fin cfg0.N) : cond0_0 (grid0.coords t) ↔ t.val % 10000 = 0 := by
  have ht : t.val < 20000 := lt_of_lt_of_eq t.isLt N_0
  obtain ⟨_, c1, c2⟩ := coords0 t
  rw [cond0_0_iff, c1, c2]
  omega
/-- The write-out happens at a core's last point and nowhere else. -/
theorem hcond0_1 (t : Fin cfg0.N) : cond0_1 (grid0.coords t) ↔ t.val % 10000 = 9999 := by
  have ht : t.val < 20000 := lt_of_lt_of_eq t.isLt N_0
  obtain ⟨_, c1, c2⟩ := coords0 t
  rw [cond0_1_iff, c1, c2]
  omega

/-! ## The second grid -/

/-- Point `t` of the second grid is hit block `t / 16`, chunk `t % 16`. -/
theorem coords1 (t : Fin cfg1.N) : (grid1.coords t 0).val = t.val / 16 ∧ (grid1.coords t 1).val = t.val % 16 := by
  have ht : t.val < 20000 := lt_of_lt_of_eq t.isLt N_1
  have h0 : (grid1.coords t 0).val = t.val / 16 % 1250 := rfl
  have h1 : (grid1.coords t 1).val = t.val / 1 % 16 := rfl
  refine ⟨by rw [h0]; omega, by rw [h1]; omega⟩

/-- The hit block as a word is the hit block. -/
theorem hblk_word (t : Fin cfg1.N) : (BitVec.ofNat 32 (grid1.coords t 0).val).toNat = t.val / 16 := by
  have ht : t.val < 20000 := lt_of_lt_of_eq t.isLt N_1
  rw [BitVec.toNat_ofNat, (coords1 t).1]
  omega

theorem index1_0 (t : Fin cfg1.N) : win1_0.index t 0 = 0 ∧ win1_0.index t 1 = t.val / 16 := ⟨rfl, hblk_word t⟩
theorem index1_1 (t : Fin cfg1.N) : win1_1.index t 0 = 0 ∧ win1_1.index t 1 = 0 := ⟨rfl, rfl⟩
theorem index1_2 (t : Fin cfg1.N) : win1_2.index t 0 = 0 ∧ win1_2.index t 1 = t.val / 16 := ⟨rfl, hblk_word t⟩

theorem idx_eq1_0 (t t' : Fin cfg1.N) : win1_0.index t = win1_0.index t' ↔ t.val / 16 = t'.val / 16 :=
  ⟨fun h => by have h1 := congrFun h 1; rwa [(index1_0 t).2, (index1_0 t').2] at h1,
   fun h => funext fun a => by
    match a with
    | ⟨0, _⟩ => rfl
    | ⟨1, _⟩ => show win1_0.index t 1 = win1_0.index t' 1; rw [(index1_0 t).2, (index1_0 t').2]; exact h⟩
theorem idx_eq1_1 (t t' : Fin cfg1.N) : win1_1.index t = win1_1.index t' ↔ (0 : ℕ) = 0 :=
  ⟨fun _ => rfl, fun _ => funext fun a => by
    match a with
    | ⟨0, _⟩ => rfl
    | ⟨1, _⟩ => rfl⟩
theorem idx_eq1_2 (t t' : Fin cfg1.N) : win1_2.index t = win1_2.index t' ↔ t.val / 16 = t'.val / 16 :=
  ⟨fun h => by have h1 := congrFun h 1; rwa [(index1_2 t).2, (index1_2 t').2] at h1,
   fun h => funext fun a => by
    match a with
    | ⟨0, _⟩ => rfl
    | ⟨1, _⟩ => show win1_2.index t 1 = win1_2.index t' 1; rw [(index1_2 t).2, (index1_2 t').2]; exact h⟩

/-- Window 0 (the labels) is fetched at the points ≡ 0 (mod 16). -/
theorem fetch1_0 (t : Fin cfg1.N) : (cfg1.win 0).fetch t = true ↔ t.val % 16 = 0 := by
  refine (fetch_iff_change win1_0 rfl (fun n => n / 16) idx_eq1_0 t).trans ?_
  show (t.val = 0 ∨ (0 < t.val ∧ t.val / 16 ≠ (t.val - 1) / 16)) ↔ _
  omega
/-- Window 1 (the table of sums) is fetched at the first point only. -/
theorem fetch1_1 (t : Fin cfg1.N) : (cfg1.win 1).fetch t = true ↔ t.val % 20000 = 0 := by
  have ht : t.val < 20000 := lt_of_lt_of_eq t.isLt N_1
  refine (fetch_iff_change win1_1 rfl (fun _ => 0) idx_eq1_1 t).trans ?_
  show (t.val = 0 ∨ (0 < t.val ∧ (0 : ℕ) ≠ 0)) ↔ _
  omega
/-- Window 2 (the output) is written back at the points ≡ 15 (mod 16): a hit block's last. -/
theorem flush1_2 (t : Fin cfg1.N) : (cfg1.win 2).flush t = true ↔ t.val % 16 = 15 := by
  have ht : t.val < 20000 := lt_of_lt_of_eq t.isLt N_1
  have hN : grid1.N = 20000 := N_1
  refine (flush_iff_change win1_2 rfl (fun n => n / 16) idx_eq1_2 t).trans ?_
  show (t.val + 1 = grid1.N ∨ (t.val + 1 < grid1.N ∧ (t.val + 1) / 16 ≠ t.val / 16)) ↔ _
  omega

/-! ## The staging memrefs and the kernel bodies at a point -/

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)

/-- The first kernel's body at point `t`, on what the pipeline calls it with. -/
abbrev bodyAt0 (t : Fin cfg0.N) : Prog (TpuEff nD τ sig (Elt F) Λ₀ .tc) PUnit :=
  cc0__reduce_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _)

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The second kernel's body at point `t`, on what the pipeline calls it with. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.Kernel.Hand.Grid

end
-- ==== Proof.K.Reg0Body.lean ====
import proofs.«422791_j81235011436601_4_alg».proof.Proof.Gen.Kernel.Launch
import proofs.«422791_j81235011436601_4_alg».proof.Proof.Gen.Kernel.Skeleton
import proofs.«422791_j81235011436601_4_alg».proof.Proof.K.Grid
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
Region 0 of the kernel program: the segment sum as a grid of one-hot matrix products, `(2, 625, 16)` points.
Each half of the grid (first coordinate) sums its 625 column blocks of the four input rows into an `8 × 20480`
scratch, 1280 segment columns at a time (third coordinate): the scratch is zeroed at the half's first point,
one 1280-column slice of it is updated at every point, and it is copied into the half's block of the
`[2, 8, 20480]` result at the half's last point, the only point that writes the block back.

Stated at a parameter `V` (the TensorCore's buffer contents when the region is entered) and for any float
family: the windows' blocks, what one point leaves in the scratch as named
functions of the input blocks and of the scratch's old contents, the body's triple in each of the three cases,
the contents after each point by recursion on the point, the pipeline's proof data and its body obligation.
-/

set_option maxRecDepth 16384
set_option Elab.async false

noncomputable section

namespace Cert.Kernel.Hand

open Cert.Kernel Cert.Kernel.Gen
open Cert.Kernel.Hand.Grid
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the segment sum's pipeline, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- A whole input block. -/
abbrev rI0 : Rect S1x3200 := Rect.unit (s := S1x3200) ![0, 0] S1x3200.size inb_S1x3200_S1x3200_0_0
/-- The whole scratch. -/
abbrev rW0 : Rect S8x20480 := Rect.unit (s := S8x20480) ![0, 0] S8x20480.size inb_S8x20480_S8x20480_0_0
/-- The whole output block. -/
abbrev rO0 : Rect S1x8x20480 := Rect.unit (s := S1x8x20480) ![0, 0, 0] S1x8x20480.size inb_S1x8x20480_S1x8x20480_0_0_0
/-- The scratch's slice of point `i`: all 8 rows, the 1280 columns from `i2 · 1280`. -/
abbrev rS0 (i : grid0.Coords) : Rect S8x20480 := Rect.unit (s := S8x20480) (k0_off1 i) S8x1280.size (k0_off1_inb i)

theorem zeros0_2 : (![0, 0] : Fin 2 → ℕ) = fun _ => 0 := by funext a; fin_cases a <;> rfl
theorem zeros0_3 : (![0, 0, 0] : Fin 3 → ℕ) = fun _ => 0 := by funext a; fin_cases a <;> rfl

/-! ## What one point leaves in the scratch and in the output block -/

/-- The slice's new contents: its old contents `old` plus the point's partial sums, which the body computes
    from the four input blocks (labels `x0`, energies `x1`, track flags `x2`, minimum-bias flags `x3`) and from
    the segment numbers of the slice (`i2`). -/
def acc0_slice (i : grid0.Coords) (x0 : Vec F S1x3200 .i32) (x1 : Vec F S1x3200 .f32) (x2 : Vec F S1x3200 .i32) (x3 : Vec F S1x3200 .i32)
    (old : Vec F S8x1280 .f32) : Vec F S8x1280 .f32 :=
  k0_pay1 (k0_pay7 x0 x1 x2) (k0_pay8 x0 x1 x2) (k0_pay9 x0 x1 x2 x3) (k0_pay10 x0) (k0_pay11 i) old

/-- The scratch after a point that does not reset it: the old contents `xs` everywhere but on the point's
    slice, which is updated from its own old contents. -/
def acc0_step (i : grid0.Coords) (x0 : Vec F S1x3200 .i32) (x1 : Vec F S1x3200 .f32) (x2 : Vec F S1x3200 .i32) (x3 : Vec F S1x3200 .i32)
    (xs : Vec F S8x20480 .f32) : Vec F S8x20480 .f32 :=
  (rS0 i).overlay xs (acc0_slice i x0 x1 x2 x3 (View.ld xs (rS0 i)))

/-- The scratch after a point that resets it: the same step from the all-zero scratch. -/
def acc0_init (i : grid0.Coords) (x0 : Vec F S1x3200 .i32) (x1 : Vec F S1x3200 .f32) (x2 : Vec F S1x3200 .i32) (x3 : Vec F S1x3200 .i32) :
    Vec F S8x20480 .f32 :=
  acc0_step i x0 x1 x2 x3 (k0_pay3 (F := F))

/-- The output block a writing point stores: the scratch `s` it has just updated, as one block of the
    `[2, 8, 20480]` result. -/
def out0_flush (s : Vec F S8x20480 .f32) : Vec F S1x8x20480 .f32 := k0_pay2 s

/-! ## Reading back what stores left -/

/-- A store read back: the payload on its rectangle, the earlier contents elsewhere. -/
theorem read_writes_cons_overlay0 {sg : RefSig} {κ : Kind} {sp : Space} {s : Shape} {e : EltTy} {Val : EltTy → Type}
    (v : View sg κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- A store through the whole shape replaces everything. -/
theorem overlay_unit_zero0 {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e
  exact e

/-! ## The body's triple, case by case

On whole staging memrefs holding the input blocks `x0 … x3`, with the scratch memref at `xs`, the body runs to
the continuation holding the inputs as they were and the scratch at the case's named contents. The accumulating
store covers only a slice of the scratch, so the old contents stay named (`xs`) and are kept off the slice. -/

set_option maxHeartbeats 1000000 in
/-- CASE A (the reset taken, the write-out not): the scratch, at anything before, ends at `acc0_init`; the
    output's buffer is handed back as found (`xi`). -/
theorem kernelRun0_A (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : cond0_0 i) (hc1 : ¬cond0_1 i) (x0 : Vec F S1x3200 .i32) (x1 : Vec F S1x3200 .f32) (x2 : Vec F S1x3200 .i32) (x3 : Vec F S1x3200 .i32)
    (xi : Vec F S1x8x20480 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (acc0_init i x0 x1 x2 x3)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  iexists _; isplitr
  swap; · iexact HS
  ipureintro
  sl_unfold_run_names
  dsimp only
  unfold acc0_init acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

set_option maxHeartbeats 1000000 in
/-- CASE B (neither taken): the scratch goes from `xs` to `acc0_step … xs`; the output's buffer is handed
    back as found (`xi`). -/
theorem kernelRun0_B (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : ¬cond0_0 i) (hc1 : ¬cond0_1 i) (x0 : Vec F S1x3200 .i32) (x1 : Vec F S1x3200 .f32) (x2 : Vec F S1x3200 .i32) (x3 : Vec F S1x3200 .i32) (xs : Vec F S8x20480 .f32)
    (xi : Vec F S1x8x20480 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (acc0_step i x0 x1 x2 x3 xs)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  iexists _; isplitr
  swap; · iexact HS
  ipureintro
  sl_unfold_run_names
  dsimp only
  unfold acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

set_option maxHeartbeats 1000000 in
/-- CASE C (the write-out taken, the reset not): the scratch goes from `xs` to `acc0_step … xs`, and the
    output's buffer, at anything before, ends at that scratch as a block. -/
theorem kernelRun0_C (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : ¬cond0_0 i) (hc1 : cond0_1 i) (x0 : Vec F S1x3200 .i32) (x1 : Vec F S1x3200 .f32) (x2 : Vec F S1x3200 .i32) (x3 : Vec F S1x3200 .i32) (xs : Vec F S8x20480 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (out0_flush (acc0_step i x0 x1 x2 x3 xs))
            ∗ owns (c : Thread nD τ) arg8 fullShare (acc0_step i x0 x1 x2 x3 xs)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_run_names
    dsimp only
    unfold out0_flush acc0_step acc0_slice
    simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]
  iexists _; isplitr
  swap; · iexact HS
  ipureintro
  sl_unfold_run_names
  dsimp only
  unfold acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

/-! ## Where the windows are idle, and where the output is written back -/

/-- The input windows are never idle. -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
theorem liveAt0_3 (i : grid0.Coords) : cfg0.idle 3 i = false := rfl

/-- The output window is idle exactly where the body does not store it: where the write-out's condition fails, -/
theorem idleAt0_4 (i : grid0.Coords) (h : ¬cond0_1 i) : cfg0.idle 4 i = true := by
  show (!(k0_cond2 i == 1#1)) = true
  rw [beq_eq_false_iff_ne.mpr h]; rfl

/-- and live where it holds. -/
theorem liveAt0_4 (i : grid0.Coords) (h : cond0_1 i) : cfg0.idle 4 i = false := by
  show (!(k0_cond2 i == 1#1)) = false
  rw [beq_iff_eq.mpr h]; rfl

/-- The pipeline writes the output block back only at the last point of each half. -/
theorem noFlush0_4 (t : Fin cfg0.N) (h : ¬t.val % 10000 = 9999) : (cfg0.win 4).flush t = false :=
  Bool.eq_false_iff.mpr fun hf => h ((flush0_4 t).mp hf)

/-! ## The memrefs the body is called with -/

/-- Each window's current staging memref at point `t`, and its wholeness. -/
abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3200 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3200 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x20480 .f32 := win0_4.stage (cfg0.slots t 4)
abbrev hs0_4 (t : Fin cfg0.N) : (ms0_4 t).IsWhole := hstage0_4 ((cfg0.slots t 4).cast nbuf0_4)
/-- The scratch: a whole scoped buffer of the kernel's own, which it carries from point to point. -/
abbrev scM0 : Memref sig .tc .vmem S8x20480 .f32 := Memref.whole cc0_scratch0

/-! ## The region's invariant -/

/-- The core's other scoped buffers (the second call's staging buffers and scratch), each at some contents:
    this region does not touch them. -/
def others0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the launch hands the region: the scratch at some contents, the other scoped buffers, the
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [others0, scM0, owns_whole]; try rfl

/-! ## What the output block and the scratch hold after each point -/

/-- THE ACCUMULATION. After the body at position `n`: the scratch (second component) is reset and stepped at
    the first point of each half of the grid, and stepped from what the point before left at every other point;
    the output window's staging contents (first component) are the scratch just updated, as a block. The body
    stores that block only at the last point of each half; at the other points the window is idle and is not
    written back, and nothing reads the first component there. -/
def outsAt0 (c : Dev nD) : (n : ℕ) → n < cfg0.N → Vec F S1x8x20480 .f32 × Vec F S8x20480 .f32
  | 0, hn =>
    (out0_flush (acc0_init (grid0.coords ⟨0, hn⟩) (iblk0 V c 0 ⟨0, hn⟩) (iblk0 V c 1 ⟨0, hn⟩) (iblk0 V c 2 ⟨0, hn⟩) (iblk0 V c 3 ⟨0, hn⟩)),
      acc0_init (grid0.coords ⟨0, hn⟩) (iblk0 V c 0 ⟨0, hn⟩) (iblk0 V c 1 ⟨0, hn⟩) (iblk0 V c 2 ⟨0, hn⟩) (iblk0 V c 3 ⟨0, hn⟩))
  | n + 1, hn =>
    if (n + 1) % 10000 = 0 then
      (out0_flush (acc0_init (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩)),
        acc0_init (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩))
    else
      (out0_flush (acc0_step (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2),
        acc0_step (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a resetting point (case A): the step from the all-zero scratch. -/
theorem outsAt0_A (c : Dev nD) (t : Fin cfg0.N) (h0 : t.val % 10000 = 0) :
    outsAt0 V c t.val t.isLt
      = (out0_flush (acc0_init (grid0.coords t) (iblk0 V c 0 t) (iblk0 V c 1 t) (iblk0 V c 2 t) (iblk0 V c 3 t)),
          acc0_init (grid0.coords t) (iblk0 V c 0 t) (iblk0 V c 1 t) (iblk0 V c 2 t) (iblk0 V c 3 t)) := by
  obtain ⟨n, hn⟩ := t
  cases n with
  | zero => rfl
  | succ n => exact if_pos h0

/-- At any other point: the step from what the point before left in the scratch. -/
theorem outsAt0_step (c : Dev nD) (t : Fin cfg0.N) (h0 : ¬t.val % 10000 = 0) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) := by
  obtain ⟨n, hn⟩ := t
  cases n with
  | zero => exact absurd (Nat.zero_mod _) h0
  | succ n => exact if_neg h0

/-- At a point that neither resets nor writes out (case B). -/
theorem outsAt0_B (c : Dev nD) (t : Fin cfg0.N) (h0 : ¬t.val % 10000 = 0) (h1 : ¬t.val % 10000 = 9999) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) :=
  outsAt0_step V c t h0

/-- At a point that writes out (case C): the same step; its first component is what the body stores. -/
theorem outsAt0_C (c : Dev nD) (t : Fin cfg0.N) (h0 : ¬t.val % 10000 = 0) (h1 : t.val % 10000 = 9999) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) :=
  outsAt0_step V c t h0

/-- The region invariant before position `n`: before the first point what the launch hands over (the scratch at
    anything); afterwards the scratch at what the point before left in it, the other scoped buffers and the
    generator register as they were. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The proof data of the pipeline on core `c`: the arrays as the region finds them (`V`); after the body at
    point `t` each input's buffer at its block and the output's at `outsAt0`'s first component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_out (c : Dev nD) (t : Fin cfg0.N) : (dat0 V c).after 4 t = (outsAt0 V c t.val t.isLt).1 := by dsimp only [dat0]

/-- An input window's current staging buffer holds its block at every point, fetched there or not: between two
    fetches the block index does not move, and the body leaves the block in place. For any proof data whose
    array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The body hands each input's buffer back at its block. -/
theorem leaves0_0 (c : Dev nD) (t : Fin cfg0.N) :
    (dat0 V c).leavesExact 0 t = owns (c : Thread nD τ) (ms0_0 t) fullShare (iblk0 V c 0 t) := by
  have h : (dat0 V c).leavesExact 0 t = owns (c : Thread nD τ) (ms0_0 t) fullShare ((dat0 V c).after 0 t) := by
    unfold Dat.leavesExact; rw [liveAt0_0]
  rw [h, after0_0]
theorem leaves0_1 (c : Dev nD) (t : Fin cfg0.N) :
    (dat0 V c).leavesExact 1 t = owns (c : Thread nD τ) (ms0_1 t) fullShare (iblk0 V c 1 t) := by
  have h : (dat0 V c).leavesExact 1 t = owns (c : Thread nD τ) (ms0_1 t) fullShare ((dat0 V c).after 1 t) := by
    unfold Dat.leavesExact; rw [liveAt0_1]
  rw [h, after0_1]
theorem leaves0_2 (c : Dev nD) (t : Fin cfg0.N) :
    (dat0 V c).leavesExact 2 t = owns (c : Thread nD τ) (ms0_2 t) fullShare (iblk0 V c 2 t) := by
  have h : (dat0 V c).leavesExact 2 t = owns (c : Thread nD τ) (ms0_2 t) fullShare ((dat0 V c).after 2 t) := by
    unfold Dat.leavesExact; rw [liveAt0_2]
  rw [h, after0_2]
theorem leaves0_3 (c : Dev nD) (t : Fin cfg0.N) :
    (dat0 V c).leavesExact 3 t = owns (c : Thread nD τ) (ms0_3 t) fullShare (iblk0 V c 3 t) := by
  have h : (dat0 V c).leavesExact 3 t = owns (c : Thread nD τ) (ms0_3 t) fullShare ((dat0 V c).after 3 t) := by
    unfold Dat.leavesExact; rw [liveAt0_3]
  rw [h, after0_3]
/-- Where the body stores the output block it hands the buffer back at that block. -/
theorem leaves0_4_live (c : Dev nD) (t : Fin cfg0.N) (h1 : cond0_1 (grid0.coords t)) :
    (dat0 V c).leavesExact 4 t = owns (c : Thread nD τ) (ms0_4 t) fullShare ((outsAt0 V c t.val t.isLt).1) := by
  have h : (dat0 V c).leavesExact 4 t = owns (c : Thread nD τ) (ms0_4 t) fullShare ((dat0 V c).after 4 t) := by
    unfold Dat.leavesExact; rw [liveAt0_4 _ h1]
  rw [h, after0_out]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which case the point is
    in. The invariant hands the body the scratch at what the point before left (at anything before the first
    point) and takes it back at this point's contents. Where the body does not store the output block the window
    is idle and not written back, and its buffer goes back as found; where it does, the buffer goes back at the
    block. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 20000 := lt_of_lt_of_eq t.isLt (show cfg0.N = 20000 from N_0)
  by_cases h0 : t.val % 10000 = 0
  · have h1 : ¬t.val % 10000 = 9999 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 _ hc1) (noFlush0_4 t h1)]
    rw [outsAt0_A V c t h0]
    dsimp only
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    by_cases h1 : t.val % 10000 = 9999
    · have hc1 : cond0_1 (grid0.coords t) := (hcond0_1 t).mpr h1
      rw [leaves0_4_live V c t hc1]
      rw [outsAt0_C V c t h0 h1]
      dsimp only
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 _ hc1) (noFlush0_4 t h1)]
      rw [outsAt0_B V c t h0 h1]
      dsimp only
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 20000 := N_0; omega)

end Cert.Kernel.Hand

end
-- ==== Proof.K.Reg1Body.lean ====
/- Region 1 of @main: the gather kernel as a pipeline over the grid (1250, 16), at any float family and at a parameter
   `V` (the TensorCore's buffer contents when the region is entered).

   The kernel sweeps, for each block of 3200 labels (outer coordinate), the sixteen column chunks of the table (inner
   coordinate): at inner coordinate 0 it zeroes an accumulator, at every point it adds to the accumulator the one-hot
   product of the table's chunk with the labels, and at inner coordinate 15 it stores the output block computed from
   the accumulator. So the accumulator is carried from point to point, and the output window is stored (and written
   back) only at the points with inner coordinate 15 and idle elsewhere.

   Here: the two conditions in closed form (the inner coordinate of point `t` is `t mod 16`); the body's triple in
   each of the three cases, with the accumulator's new contents named as a function of the inputs and of its old
   contents (`acc1_init`, `acc1_step`) and the stored block named `out1_flush`; what the output's buffer and the
   accumulator hold after each point, by recursion on the point (`outsAt1`) with one equation per case; the region
   invariant (the accumulator owned at what the point before left); the pipeline's proof data and its body obligation. -/
import proofs.«422791_j81235011436601_4_alg».proof.Proof.Gen.Kernel.Launch
import proofs.«422791_j81235011436601_4_alg».proof.Proof.Gen.Kernel.Skeleton
import proofs.«422791_j81235011436601_4_alg».proof.Proof.K.Grid
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384
set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the gather kernel (pipeline 1), at the entry contents `V` -/

/-! ## The body's branch conditions -/

/-- The body's first conditional (the reset of the accumulator), from the grid coordinates. -/
abbrev cond1_0 (i : grid1.Coords) : Prop := (Scalar.cmpi .ne (Scalar.extui (Scalar.cmpi .eq (BitVec.ofNat 32 (i 1).val) 0#32)) 0#32) = 1#1
/-- The body's second conditional (the store of the output block), from the grid coordinates. -/
abbrev cond1_1 (i : grid1.Coords) : Prop := k1_cond2 i = 1#1

/-- Point `t` has inner coordinate `t mod 16`: the inner axis is the fastest, of bound 16. -/
theorem coord1_1 (t : Fin cfg1.N) : ((grid1.coords t) 1).val = t.val % 16 := by
  show t.val / grid1.stride 1 % 16 = t.val % 16
  rw [show grid1.stride 1 = 1 from by decide, Nat.div_one]

/-- The reset happens exactly where the inner coordinate is 0: sixteen values to try. -/
theorem cond1_0_iff (i : grid1.Coords) : cond1_0 i ↔ (i 1).val = 0 :=
  (by decide : ∀ j : Fin 16, (Scalar.cmpi .ne (Scalar.extui (Scalar.cmpi .eq (BitVec.ofNat 32 j.val) 0#32)) 0#32) = 1#1 ↔ j.val = 0) (i 1)

/-- The output block is stored exactly where the inner coordinate is 15. -/
theorem cond1_1_iff (i : grid1.Coords) : cond1_1 i ↔ (i 1).val = 15 :=
  (by decide : ∀ j : Fin 16, (Scalar.cmpi .ne (Scalar.extui (Scalar.cmpi .eq (BitVec.ofNat 32 j.val) 15#32)) 0#32) = 1#1 ↔ j.val = 15) (i 1)

theorem hcond1_0 (t : Fin cfg1.N) : cond1_0 (grid1.coords t) ↔ t.val % 16 = 0 := by
  rw [cond1_0_iff, coord1_1]
theorem hcond1_1 (t : Fin cfg1.N) : cond1_1 (grid1.coords t) ↔ t.val % 16 = 15 := by
  rw [cond1_1_iff, coord1_1]

/-! ## What a point leaves in the accumulator and in the output block -/

/-- The whole-buffer rectangles are at zero offsets. -/
theorem zeroOff1 : (![0, 0] : Fin 2 → Nat) = fun _ => 0 := by funext a; fin_cases a <;> rfl

/-- The columns of the table the point reads: all five rows, the 1280 columns from `1280 · i₁`. -/
abbrev rT1 (i : grid1.Coords) : Rect S5x20480 := Rect.unit (s := S5x20480) (k1_off1 i) S5x1280.size (k1_off1_inb i)

/-- One accumulation step: the accumulator `xs` plus the one-hot product of the table's column chunk with the
    labels' block (the body's payload over the three values it loads). -/
def acc1_step (i : grid1.Coords) (lab : Vec F S1x3200 .i32) (tab : Vec F S5x20480 .f32) (xs : Vec F S5x3200 .f32) : Vec F S5x3200 .f32 :=
  k1_pay2 i lab (View.ld tab (rT1 i)) xs

/-- The first step of a block's sweep: the accumulator is zeroed, then stepped. -/
def acc1_init (i : grid1.Coords) (lab : Vec F S1x3200 .i32) (tab : Vec F S5x20480 .f32) : Vec F S5x3200 .f32 :=
  acc1_step i lab tab (k1_pay1 (F := F))

/-- The output block stored at the last step of a sweep, from the accumulator it then holds. -/
def out1_flush (xs : Vec F S5x3200 .f32) : Vec F S5x3200 .f32 := k1_pay3 xs

/-- A point that stores no output block: a placeholder nothing reads (the window is idle there). -/
def out1_idle : Vec F S5x3200 .f32 := View.canon []

/-- A store through the accumulator-shaped whole rectangle, last, covers the buffer. -/
theorem cover1 (w : Vec F S5x3200 .f32) (L : List (View.Piece (Elt F) S5x3200 .f32)) (y : S5x3200.Idx) :
    ∃ pc ∈ ((⟨Rect.unit (s := S5x3200) ![0, 0] S5x3200.size inb_S5x3200_S5x3200_0_0, w⟩ : View.Piece (Elt F) S5x3200 .f32) :: L), y ∈ pc.1.set :=
  ⟨_, List.mem_cons_self, View.mem_set_unit_zero zeroOff1 inb_S5x3200_S5x3200_0_0 y⟩

/-! ## The body's triple, case by case -/

set_option maxHeartbeats 1000000 in
/-- CASE A (reset taken, output not stored). On whole memrefs — the labels' and the table's at read contents, the
    output's at contents handed back untouched, the accumulator at anything — the body runs to the continuation
    holding the accumulator at `acc1_init` of the two inputs. -/
theorem kernelRun1_A (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : cond1_0 i) (hc1 : ¬cond1_1 i)
    (x0 : Vec F S1x3200 .i32) (x1 : Vec F S5x20480 .f32) (xi2 : Vec F S5x3200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (acc1_init i x0 x1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (cover1 _ _), View.canon_cons_unit_zero zeroOff1, View.readAt_eq_ld, View.readAt_eq_ld,
    hf0, hf1, View.ld_unit_zero zeroOff1, View.readCov_unit_zero _ zeroOff1]
  rfl

set_option maxHeartbeats 1000000 in
/-- CASE B (neither conditional taken). The accumulator, handed over at `xs`, is left at `acc1_step` of the two
    inputs and `xs`; the output's memref is handed back untouched. -/
theorem kernelRun1_B (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : ¬cond1_0 i) (hc1 : ¬cond1_1 i)
    (x0 : Vec F S1x3200 .i32) (x1 : Vec F S5x20480 .f32) (xi2 : Vec F S5x3200 .f32) (xs : Vec F S5x3200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (acc1_step i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (cover1 _ _), View.canon_cons_unit_zero zeroOff1, View.readAt_eq_ld, View.readAt_eq_ld,
    View.readAt_eq_ld, hf0, hf1, hfs0, View.ld_unit_zero zeroOff1, View.ld_unit_zero zeroOff1]
  rfl

set_option maxHeartbeats 1000000 in
/-- CASE C (no reset, output stored). The accumulator, handed over at `xs`, is left at `acc1_step` of the two inputs
    and `xs`, and the output's memref, handed over at anything, at `out1_flush` of that. -/
theorem kernelRun1_C (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : ¬cond1_0 i) (hc1 : cond1_1 i)
    (x0 : Vec F S1x3200 .i32) (x1 : Vec F S5x20480 .f32) (xs : Vec F S5x3200 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (out1_flush (acc1_step i x0 x1 xs)) ∗ owns (c : Thread nD τ) arg5 fullShare (acc1_step i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (cover1 _ _), View.canon_cons_unit_zero zeroOff1, View.readCov_unit_zero _ zeroOff1,
      View.readAt_eq_ld, View.readAt_eq_ld, View.readAt_eq_ld, hf0, hf1, hfs0, View.ld_unit_zero zeroOff1, View.ld_unit_zero zeroOff1]
    rfl
  iexists _; isplitr
  swap; · iexact HS0
  ipureintro
  sl_unfold_run_names
  rw [View.read_writes_eq_canon _ _ _ (cover1 _ _), View.canon_cons_unit_zero zeroOff1, View.readAt_eq_ld, View.readAt_eq_ld,
    View.readAt_eq_ld, hf0, hf1, hfs0, View.ld_unit_zero zeroOff1, View.ld_unit_zero zeroOff1]
  rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The labels' current staging buffer holds the labels' block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the table, whose one block (the whole array) is fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer and the accumulator hold after each point -/

/-- THE ACCUMULATION. After the body at position `n`: (the output window's staging contents, the accumulator's).
    A point with inner coordinate 0 restarts the accumulator from the point's blocks; every other point steps what
    the point before left; the point with inner coordinate 15 also stores the output block computed from the
    accumulator it has just stepped. -/
def outsAt1 (c : Dev nD) : (n : ℕ) → n < cfg1.N → Vec F S5x3200 .f32 × Vec F S5x3200 .f32
  | 0, hn => (out1_idle, acc1_init (grid1.coords ⟨0, hn⟩) (iblk1 V c 0 ⟨0, hn⟩) (iblk1 V c 1 ⟨0, hn⟩))
  | n + 1, hn =>
    if h0 : (n + 1) % 16 = 0 then
      (out1_idle, acc1_init (grid1.coords ⟨n + 1, hn⟩) (iblk1 V c 0 ⟨n + 1, hn⟩) (iblk1 V c 1 ⟨n + 1, hn⟩))
    else
      if h1 : (n + 1) % 16 = 15 then
        (out1_flush (acc1_step (grid1.coords ⟨n + 1, hn⟩) (iblk1 V c 0 ⟨n + 1, hn⟩) (iblk1 V c 1 ⟨n + 1, hn⟩) (outsAt1 c n (Nat.lt_of_succ_lt hn)).2),
          acc1_step (grid1.coords ⟨n + 1, hn⟩) (iblk1 V c 0 ⟨n + 1, hn⟩) (iblk1 V c 1 ⟨n + 1, hn⟩) (outsAt1 c n (Nat.lt_of_succ_lt hn)).2)
      else
        (out1_idle, acc1_step (grid1.coords ⟨n + 1, hn⟩) (iblk1 V c 0 ⟨n + 1, hn⟩) (iblk1 V c 1 ⟨n + 1, hn⟩) (outsAt1 c n (Nat.lt_of_succ_lt hn)).2)

/-- `outsAt1` at a point of case A (inner coordinate 0): the accumulator restarted. -/
theorem outsAt1_A (c : Dev nD) (t : Fin cfg1.N) (h0 : t.val % 16 = 0) :
    outsAt1 V c t.val t.isLt = (out1_idle, acc1_init (grid1.coords t) (iblk1 V c 0 t) (iblk1 V c 1 t)) := by
  obtain ⟨n, hn⟩ := t
  cases n with
  | zero => exact rfl
  | succ n => exact (dif_pos h0).trans rfl

/-- `outsAt1` at a point of case B (inner coordinate neither 0 nor 15): one step over what the point before left. -/
theorem outsAt1_B (c : Dev nD) (t : Fin cfg1.N) (h0 : ¬t.val % 16 = 0) (h1 : ¬t.val % 16 = 15) :
    outsAt1 V c t.val t.isLt = (out1_idle, acc1_step (grid1.coords t) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (inner coordinate 15): one step over what the point before left, and the output
    block stored from the stepped accumulator. -/
theorem outsAt1_C (c : Dev nD) (t : Fin cfg1.N) (h1 : t.val % 16 = 15) :
    outsAt1 V c t.val t.isLt = (out1_flush (acc1_step (grid1.coords t) (iblk1 V c 0 t) (iblk1 V c 1 t) (outsAt1 V c (t.val - 1) (Nat.lt_of_le_of_lt (Nat.sub_le _ _) t.isLt)).2),
      acc1_step (grid1.coords t) (iblk1 V c 0 t) (iblk1 V c 1 t) (outsAt1 V c (t.val - 1) (Nat.lt_of_le_of_lt (Nat.sub_le _ _) t.isLt)).2) := by
  obtain ⟨n, hn⟩ := t
  have h0 : ¬n % 16 = 0 := by (try dsimp only at h1); omega
  cases n with
  | zero => exact (by exfalso; (try dsimp only at h1); omega)
  | succ n => exact (dif_neg h0).trans ((dif_pos h1).trans rfl)

/-! ## The region invariant -/

/-- The accumulator: a whole scoped buffer of the kernel's own, passed beside the windows and carried between points. -/
abbrev scM1 : Memref sig .tc .vmem S5x3200 .f32 := Memref.whole cc1_scratch0

/-- The core's other scoped buffers that are no staging buffer of this call (the other call's staging buffers and
    accumulator), each at some contents: carried unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest of this call split at its accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ rest1 c) :=
  Pipeline.scopedRest_split_of_list spec1 c [cc1_scratch0] (by decide) (by decide)

/-- The class's invariant with the accumulator as a memref owned at some contents: what the body obligation hands the
    run before the first point and what the region gives back. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The region invariant before position `n`: before the first point the class's (every scoped buffer at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_out (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Where the windows are idle, and where the output is written back -/

/-- The inputs are never idle. -/
theorem liveAt1_0 (t : Fin cfg1.N) : cfg1.idle 0 (grid1.coords t) = false := rfl
theorem liveAt1_1 (t : Fin cfg1.N) : cfg1.idle 1 (grid1.coords t) = false := rfl
/-- The output is idle exactly where its store is not taken. -/
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
/-- Off the points with inner coordinate 15 the output's block is not written back. -/
theorem noFlush1_2 (t : Fin cfg1.N) (h : ¬t.val % 16 = 15) : (cfg1.win 2).flush t = false := by
  rw [← Bool.not_eq_true]; exact fun hf => h ((Grid.flush1_2 t).mp hf)

/-! ## The body obligation, at a generic point -/

/-- Each window's current staging memref at point `t`, spelled as the pipeline passes it, and its wholeness. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5x20480 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5x3200 .f32 := win1_2.stage (cfg1.slots t 2)
abbrev hs1_2 (t : Fin cfg1.N) : (ms1_2 t).IsWhole := hstage1_2 ((cfg1.slots t 2).cast nbuf1_2)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the inner coordinate says which case the point is in;
    the invariant hands the body the accumulator at what the point before left (at anything at the first point) and
    takes it back at this point's contents; where the output is not stored its memref goes back as it came, the
    window being idle and not written back there; the core owes nothing throughout. -/
theorem sound_body1 (c : Dev nD) (t : Fin cfg1.N) :
    bodyPre1 V c t ⊢ wp frame (wpE (defs₀ (F := F)) Variants.none c none) Set.univ (Grid.bodyAt1 t) (fun _ => bodyPost1 V c t) := by
  unfold bodyPre1 bodyPost1 Grid.bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 20000 := lt_of_lt_of_eq t.isLt (show cfg1.N = 20000 from N_1)
  by_cases h0 : t.val % 16 = 0
  · -- case A: the accumulator restarted
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t (by omega))]
    rw [outsAt1_A V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply (kernelRun1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    by_cases h1 : t.val % 16 = 15
    · -- case C: one step, and the output block stored
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_out]
      rw [outsAt1_C V c t h1]
      rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · -- case B: one step
      have hc1 : ¬cond1_1 (grid1.coords t) := fun h => h1 ((hcond1_1 t).mp h)
      rw [Dat.leavesExact_idle (dat1 V c) 2 t (idleAt1_2 t hc1) (noFlush1_2 t h1)]
      rw [outsAt1_B V c t h0 h1]
      rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]; · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20000 := N_1; omega)

end Cert.Kernel.Hand

end
-- ==== Proof.K.Run.lean ====
/-
  The run of @main with the values of its results.

  Between two of @main's fourteen items a core holds every unscoped buffer whole, at a valuation computed from the
  launch memory: a host stretch maps the valuation through its operations, a kernel region changes it at the one
  array the region writes. The first part proves that every weakly fair execution terminates with the five result
  buffers at the last valuation and the nine argument buffers as launched, GIVEN a segment record per region. The
  second part builds the two records from the regions' proof data: a region's arrays are split out of the unscoped
  buffers at entry and put back at exit, the inputs as entered, the output at the fold of its write-backs. The
  contents the regions leave are then fixed in two stages, because what the second region leaves depends on what
  the first left.
-/
import proofs.«422791_j81235011436601_4_alg».proof.Proof.Gen.Kernel.Regions
import proofs.«422791_j81235011436601_4_alg».proof.Proof.K.Reg0Body
import proofs.«422791_j81235011436601_4_alg».proof.Proof.K.Reg1Body
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

-- decided memberships among the program's 155 references recurse past the default depth
set_option maxRecDepth 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-! ## The run, given the regions' records -/

section Cond

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. Under the hypotheses of the conditional frame (any user algebra, level
    assignment, launch dues and ghost resources; rest states `E` made on every core at the launch and ending with
    nothing owed; contents `outs` the regions leave; per region a segment record entered from the thread state before it
    and left at the one after it), every weakly fair execution of @main from memory `m` with zero counters terminates,
    and every final memory holds, on every core, each of the five results at the last valuation `V14 m outs c` and
    each of the nine arguments as launched. The thread state at the end holds EVERY unscoped buffer at `V14`, so the
    results are read off it exactly as the arguments are. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c)) :
    θ_run defs (onTc (τ := τ) (main (F := F))) ⟨m, fun _ => 0, ρ⟩ (fun r => ∀ c : Dev nD,
      r.2.mem ((c.tc : Thread nD τ).loc main_v87) = V14 m outs c main_v87
      ∧ r.2.mem ((c.tc : Thread nD τ).loc main_v89) = V14 m outs c main_v89
      ∧ r.2.mem ((c.tc : Thread nD τ).loc main_v91) = V14 m outs c main_v91
      ∧ r.2.mem ((c.tc : Thread nD τ).loc main_v93) = V14 m outs c main_v93
      ∧ r.2.mem ((c.tc : Thread nD τ).loc main_v95) = V14 m outs c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, .rfl, .rfl, .rfl, .rfl, .rfl, .rfl, .rfl, .rfl, .rfl, hpre1 c, hpost1 c, sep_mono .rfl (hE2 c)⟩)
    (hinit := ?_) (QY := fun c s => s.mem ((c.tc : Thread nD τ).loc main_v87) = V14 m outs c main_v87 ∧ s.mem ((c.tc : Thread nD τ).loc main_v89) = V14 m outs c main_v89 ∧ s.mem ((c.tc : Thread nD τ).loc main_v91) = V14 m outs c main_v91 ∧ s.mem ((c.tc : Thread nD τ).loc main_v93) = V14 m outs c main_v93 ∧ s.mem ((c.tc : Thread nD τ).loc main_v95) = V14 m outs c main_v95 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v87) (Finset.mem_filter.mpr ⟨StableHlo.devRef_mem_tcRefs main_v87, by decide⟩),
        h (Proc.devRef .tc main_v89) (Finset.mem_filter.mpr ⟨StableHlo.devRef_mem_tcRefs main_v89, by decide⟩),
        h (Proc.devRef .tc main_v91) (Finset.mem_filter.mpr ⟨StableHlo.devRef_mem_tcRefs main_v91, by decide⟩),
        h (Proc.devRef .tc main_v93) (Finset.mem_filter.mpr ⟨StableHlo.devRef_mem_tcRefs main_v93, by decide⟩),
        h (Proc.devRef .tc main_v95) (Finset.mem_filter.mpr ⟨StableHlo.devRef_mem_tcRefs main_v95, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c)⟩
    · iexact HSI

end Cond

/-! ## The contents the regions leave

What the second region leaves is computed from the buffers it is entered at, and those depend on what the first
region left. So the contents are fixed in two stages: a family that has the first region's array right and every other
entry at the launch contents; then the final family, which differs from the first only at the second region's
array. The buffers at the second region's entry read the family only at the first region's array, where the two
stages agree. -/

section Outs

variable (m : (ℓ : Loc nD τ sig) → Buf (Elt F) ℓ)

/-- First stage: the first region's output array at the fold of its write-backs over the buffers the region is
    entered at; any other entry at the launch contents (never read). -/
def outs₁ : Gen.Outs (F := F) := fun _ r c =>
  Function.update (V0 m c) main_v4 ((dat0 (fun c b => V1 m c b) c).arrAt 4 cfg0.N) r

/-- The contents the regions leave: after the second region, its output array at the fold of its write-backs over
    the buffers it is entered at (computed from the first stage); everywhere else the first stage. -/
def outs : Gen.Outs (F := F) := fun J r c =>
  if J = 13 then
    Function.update (V0 m c) main_v85 ((dat1 (fun c b => V12 m (outs₁ m) c b) c).arrAt 2 cfg1.N) r
  else outs₁ m J r c

/-- The buffers at the second region's entry depend on the family only through the first region's array. -/
theorem V12_congr (o o' : Gen.Outs (F := F)) (c : Dev nD) (h : o 2 main_v4 c = o' 2 main_v4 c) :
    V12 m o c = V12 m o' c := by
  have h2 : V2 m o c = V2 m o' c := by
    show Function.update (V1 m c) main_v4 (o 2 main_v4 c) = Function.update (V1 m c) main_v4 (o' 2 main_v4 c)
    rw [h]
  have h3 : V3 m o c = V3 m o' c := congrArg (StableHlo.after hostOps1) h2
  have h4 : V4 m o c = V4 m o' c := congrArg (StableHlo.after hostOps1_1) h3
  have h5 : V5 m o c = V5 m o' c := congrArg (StableHlo.after hostOps1_2) h4
  have h6 : V6 m o c = V6 m o' c := congrArg (StableHlo.after hostOps1_3) h5
  have h7 : V7 m o c = V7 m o' c := congrArg (StableHlo.after hostOps1_4) h6
  have h8 : V8 m o c = V8 m o' c := congrArg (StableHlo.after hostOps1_5) h7
  have h9 : V9 m o c = V9 m o' c := congrArg (StableHlo.after hostOps1_6) h8
  have h10 : V10 m o c = V10 m o' c := congrArg (StableHlo.after hostOps1_7) h9
  have h11 : V11 m o c = V11 m o' c := congrArg (StableHlo.after hostOps1_8) h10
  exact congrArg (StableHlo.after hostOps1_9) h11

/-- The two stages agree at the first region's array. -/
theorem outs_eq_outs₁_2 (c : Dev nD) : outs m 2 main_v4 c = outs₁ m 2 main_v4 c := by
  unfold outs; rw [if_neg (by decide)]

/-- The first region leaves in its output array the fold of its write-backs. -/
theorem outs_2 (c : Dev nD) : outs m 2 main_v4 c = (dat0 (fun c b => V1 m c b) c).arrAt 4 cfg0.N := by
  rw [outs_eq_outs₁_2]; unfold outs₁; exact Function.update_self ..

/-- The buffers at the second region's entry are the same over either stage. -/
theorem V12_outs : (fun (c : Dev nD) (b : Ref sig .tc) => V12 m (outs m) c b)
    = fun (c : Dev nD) (b : Ref sig .tc) => V12 m (outs₁ m) c b := by
  funext c b; rw [V12_congr m (outs m) (outs₁ m) c (outs_eq_outs₁_2 m c)]

/-- The second region leaves in its output array the fold of its write-backs over the buffers it is entered at. -/
theorem outs_13 (c : Dev nD) : outs m 13 main_v85 c = (dat1 (fun c b => V12 m (outs m) c b) c).arrAt 2 cfg1.N := by
  rw [V12_outs]; unfold outs; rw [if_pos rfl]; exact Function.update_self ..

end Outs

/-! ## The proof data family and the thread state -/

section Records

local notation "𝕄" => MT nD τ sig Unit (Elt F) ℕ (UR sig nD τ) ℕ

variable (m : (ℓ : Loc nD τ sig) → Buf (Elt F) ℓ)

/-- Every pipeline's proof data, each at the buffers its region is entered at — a literal `match`, so that the data
    at a numeral reduces to the region's own. -/
def pdats : (p : Fin 2) → (c : Dev nD) → Dat τ (Elt F) Unit ℕ (UR sig nD τ) ℕ (cfgs p) c
  | ⟨0, _⟩ => fun c => dat0 (fun c b => V1 m c b) c
  | ⟨1, _⟩ => fun c => dat1 (fun c b => V12 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same rest between any two items. -/
abbrev E : Fin 3 → Dev nD → sProp 𝕄 := fun _ c => R c

/-! ### What the regions leave, buffer by buffer -/

/-- After the first region its output array holds what the family names. -/
theorem V2_main_v4 (o : Gen.Outs (F := F)) (c : Dev nD) : V2 m o c main_v4 = o 2 main_v4 c :=
  Function.update_self (Proc.devRef (τ := τ) .tc main_v4) (o 2 main_v4 c) (V1 m c)
/-- After the second region its output array holds what the family names. -/
theorem V13_main_v85 (o : Gen.Outs (F := F)) (c : Dev nD) : V13 m o c main_v85 = o 13 main_v85 c :=
  Function.update_self (Proc.devRef (τ := τ) .tc main_v85) (o 13 main_v85 c) (V12 m o c)

/-- Each array of the first region holds at the exit what the pipeline leaves: an input as entered, the output at the
    fold of its write-backs. -/
theorem hF0 (c : Dev nD) (w : Fin cfg0.W) :
    (pdats m 0 c).arrAt w cfg0.N = V2 m (outs m) c (Pipeline.arrRef spec0 w) := by
  show (dat0 (fun c b => V1 m c b) c).arrAt w cfg0.N = V2 m (outs m) c (Pipeline.arrRef spec0 w)
  match w with
  | ⟨0, _⟩ => exact (((dat0 (fun c b => V1 m c b) c).arrAt_in 0 rfl _).trans (A_eq0 (fun c b => V1 m c b) c 0)).trans (V2_of m (outs m) c main_v0 (by decide)).symm
  | ⟨1, _⟩ => exact (((dat0 (fun c b => V1 m c b) c).arrAt_in 1 rfl _).trans (A_eq0 (fun c b => V1 m c b) c 1)).trans (V2_of m (outs m) c main_v1 (by decide)).symm
  | ⟨2, _⟩ => exact (((dat0 (fun c b => V1 m c b) c).arrAt_in 2 rfl _).trans (A_eq0 (fun c b => V1 m c b) c 2)).trans (V2_of m (outs m) c main_v2 (by decide)).symm
  | ⟨3, _⟩ => exact (((dat0 (fun c b => V1 m c b) c).arrAt_in 3 rfl _).trans (A_eq0 (fun c b => V1 m c b) c 3)).trans (V2_of m (outs m) c main_v3 (by decide)).symm
  | ⟨4, _⟩ => exact (outs_2 m c).symm.trans (V2_main_v4 m (outs m) c).symm

/-- Every buffer that is no array of the first region is left as entered. -/
theorem hrest0 (c : Dev nD) : ∀ b : Ref sig .tc, b ∉ Finset.univ.image (Pipeline.arrRef spec0) →
    V2 m (outs m) c b = V1 m c b :=
  fun b hb => V2_of m (outs m) c b fun hmem => hb (Finset.mem_image.mpr ⟨4, Finset.mem_univ _, (List.mem_singleton.mp hmem).symm⟩)

/-- Each array of the second region holds at the exit what the pipeline leaves. -/
theorem hF1 (c : Dev nD) (w : Fin cfg1.W) :
    (pdats m 1 c).arrAt w cfg1.N = V13 m (outs m) c (Pipeline.arrRef spec1 w) := by
  show (dat1 (fun c b => V12 m (outs m) c b) c).arrAt w cfg1.N = V13 m (outs m) c (Pipeline.arrRef spec1 w)
  match w with
  | ⟨0, _⟩ => exact (((dat1 (fun c b => V12 m (outs m) c b) c).arrAt_in 0 rfl _).trans (A_eq1 (fun c b => V12 m (outs m) c b) c 0)).trans (V13_of m (outs m) c main_v0 (by decide)).symm
  | ⟨1, _⟩ => exact (((dat1 (fun c b => V12 m (outs m) c b) c).arrAt_in 1 rfl _).trans (A_eq1 (fun c b => V12 m (outs m) c b) c 1)).trans (V13_of m (outs m) c main_v84 (by decide)).symm
  | ⟨2, _⟩ => exact (outs_13 m c).symm.trans (V13_main_v85 m (outs m) c).symm

/-- Every buffer that is no array of the second region is left as entered. -/
theorem hrest1 (c : Dev nD) : ∀ b : Ref sig .tc, b ∉ Finset.univ.image (Pipeline.arrRef spec1) →
    V13 m (outs m) c b = V12 m (outs m) c b :=
  fun b hb => V13_of m (outs m) c b fun hmem => hb (Finset.mem_image.mpr ⟨2, Finset.mem_univ _, (List.mem_singleton.mp hmem).symm⟩)

end Records

section Regions

local notation "𝕄" => MT nD τ sig Unit (Elt F) ℕ (UR sig nD τ) ℕ

variable (m : (ℓ : Loc nD τ sig) → Buf (Elt F) ℓ)

/-! ## The regions as segments -/

-- a library lemma stated over the pinned configuration unifies with the printed one only when unification may
-- unfold plain definitions in a metavariable's type
set_option backward.isDefEq.respectTransparency.types false in
/-- REGION 0 over the thread state: entered from every unscoped buffer at `V1 m`, left at `V2 m (outs m)`. Its arrays are
    split out of the unscoped buffers at entry and put back at the exit contents; the generator register goes into
    the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => V1 m c b) c)
    unfold Pipeline.ΦA
    iintro ⟨Hp, -, Hr⟩
    isplitl [Hr]; · iexact Hr
    iexact Hp
  hout c := by
    rw [Pipeline.ownSems0_none]
    refine BIBase.Entails.trans (hout0 (fun c b => V1 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `V12 m (outs m)`, left at `V13 m (outs m)`. Its arrays are
    split out of the unscoped buffers at entry and put back at the exit contents; the generator register goes into
    the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V12 m (outs m) c b) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V12 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V12 m (outs m) c b) fun w => A_eq1 (fun c b => V12 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => V12 m (outs m) c b) c)
    unfold Pipeline.ΦA
    iintro ⟨Hp, -, Hr⟩
    isplitl [Hr]; · iexact Hr
    iexact Hp
  hout c := by
    rw [Pipeline.ownSems0_none]
    refine BIBase.Entails.trans (hout1 (fun c b => V12 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V12 m (outs m) c b) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

section Launch

local notation "𝕄" => MT nD τ sig Unit (Elt F) ℕ (UR sig nD τ) ℕ

variable (m : (ℓ : Loc nD τ sig) → Buf (Elt F) ℓ)

/-! ## The launch -/

-- the conditional theorem's implicit arguments are found by unifying its conclusion with this one, which takes
-- unfolding plain definitions in a metavariable's type
set_option backward.isDefEq.respectTransparency.types false in
/-- THE RUN WITH ITS RESULTS' VALUES: from any memory `m` with zero counters, every weakly fair execution of @main on
    the TensorCores terminates, and every final memory holds on every core the five results at the last valuation
    over the contents the two regions leave (`outs m`), and the nine arguments as launched. The user algebra is the
    pipeline library's alone; no level is assigned and nothing is owed at launch; beside the buffers each core
    carries its generator register and the fact that it owes nothing. -/
theorem run_values (ρ : Dev nD → PrngReg) :
    θ_run defs (onTc (τ := τ) (main (F := F))) ⟨m, fun _ => 0, ρ⟩ (fun r => ∀ c : Dev nD,
      r.2.mem ((c.tc : Thread nD τ).loc main_v87) = V14 m (outs m) c main_v87
      ∧ r.2.mem ((c.tc : Thread nD τ).loc main_v89) = V14 m (outs m) c main_v89
      ∧ r.2.mem ((c.tc : Thread nD τ).loc main_v91) = V14 m (outs m) c main_v91
      ∧ r.2.mem ((c.tc : Thread nD τ).loc main_v93) = V14 m (outs m) c main_v93
      ∧ r.2.mem ((c.tc : Thread nD τ).loc main_v95) = V14 m (outs m) c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine run_cond m (emb₁ : Emb (UR sig nD τ) 𝕄) () 𝒱₀ L lv (fun _ _ => rfl) ρ (outs m) (pdats m)
    (fun _ => 0) (fun _ => iprop(emp))
    (initOf (Pipeline.cells cfgs cellOf_inj) (Pipeline.launchToks cfgs cellOf_inj)) ?_ E ?_ (fun c => ?_)
    (reg0 m) (fun _ => .rfl) (fun _ => .rfl) (reg1 m) (fun _ => .rfl) (fun _ => .rfl)
  · -- the launch element is the pipeline library's; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its empty dues; the semaphores at zero and the credit are dropped
    refine Pipeline.initEach L lv fun c => ?_
    iintro ⟨⟨-, HO, -, Hp, -⟩, -⟩
    imodintro
    isplitl [Hp]; · iexists _; iexact Hp
    iexists ∅; iexact HO
  · -- at the end nothing is owed
    iintro ⟨-, HO⟩; iexact HO

end Launch

end Cert.Kernel.Hand

end
-- ==== Proof.KI.HostLayout.lean ====
/-
  The host operations around the two kernel calls, read as values at the ideal numbers.

  Before the first call the four per-hit columns (label, energy, track flag, minimum-bias flag) are reshaped from
  [4000000, 1] to [1, 4000000]: entry (0, n) of a reshaped array is entry (n, 0) of the argument, and nothing
  between the calls writes the reshaped label array again.

  Between the calls the two partial tables the first call leaves (one per core, each [8, 20480]) are added along the
  leading axis from the initial value 0, rows 0, 1 and 2 of the sum are cut to the 20001 segments, two of them are
  also multiplied entry by entry by a correction vector, and the five rows

      track energy, track energy × track correction, hit energy, hit energy × hit correction, energy outside minimum bias

  are stacked into a [5, 20001] table that is padded with zeros on the right to [5, 20480]: the table the second
  call reads. Entry (k, s) of it is row k's value at segment s for s < 20001 and 0 from 20001 on.

  After the second call each of the five results is one row of its [5, 4000000] output, cut out and reshaped to a
  column: entry (n, 0) of result k is entry (k, n) of the output.

  Each stretch of host operations is first read as a function of ANY contents of the buffers before it, and only
  then applied to the contents the program has at that point.
-/
import proofs.«422791_j81235011436601_4_alg».proof.Proof.Gen.KernelIdeal.Regions
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

-- deciding that a reference is none of a stretch's thirty-odd results recurses past the default depth
set_option maxRecDepth 1132

noncomputable section

open scoped BigOperators

namespace Cert.KernelIdeal.Host

open Cert.KernelIdeal Cert.KernelIdeal.Gen Idealize.ShloMosaic Idealize.ShloMosaic.ValueIdx Idealize.ShloMosaic.TcCoe

/-! ## The layout operations met here, read at an index -/

section Index
variable {α : Type}

/-- A column of 4000000 entries reshaped to a row: entry (0, n) of the row is entry (n, 0) of the column (both have
    row-major position n). -/
theorem reshape_col_row (x : S4000000x1.Idx → α) (h : S4000000x1.ShapeCasts S1x4000000) (n : Fin 4000000) :
    shapeCast S1x4000000 x h (ix2 (0 : Fin 1) n) = x (ix2 n (0 : Fin 1)) :=
  shapeCast_apply x h _ _ (by
    rw [Shape.rowMajor_val_two, Shape.rowMajor_val_two]
    show n.val * 1 + 0 = 0 * 4000000 + n.val
    omega)

/-- Row `k` of a [5, 4000000] array cut out as a [1, 4000000] array and reshaped to a column: entry (n, 0) of the
    column is entry (k, n) of the array. -/
theorem row_as_col (o : Nat) (X : S5x4000000.Idx → α) (hs : S5x4000000.Slices ![o, 0] S1x4000000)
    (hc : S1x4000000.ShapeCasts S4000000x1) (k : Fin 5) (hk : k.val = o) (n : Fin 4000000) :
    shapeCast S4000000x1 (extractStridedSlice S1x4000000 ![o, 0] X hs) hc (ix2 n (0 : Fin 1)) = X (ix2 k n) := by
  refine (shapeCast_apply _ hc _ (ix2 (0 : Fin 1) n) ?_).trans ?_
  · rw [Shape.rowMajor_val_two, Shape.rowMajor_val_two]
    show 0 * 4000000 + n.val = n.val * 1 + 0
    omega
  · exact slice2_axis0_apply o X hs (0 : Fin 1) n k (by rw [hk]; rfl)

/-- A vector of 20001 entries broadcast to a one-row matrix: entry (0, j) of the matrix is entry j of the vector. -/
theorem bcast_row (x : S20001.Idx → α) (h : S20001.BroadcastsInDim S1x20001 (![1] : Fin 1 → Fin S1x20001.rank))
    (u : Fin 1) (j : Fin 20001) : broadcastInDim S1x20001 ![1] h x (ix2 u j) = x (ix1 j) :=
  broadcastInDim_apply _ h x _ (ix1 j) (fun a => by
    match a with
    | ⟨0, _⟩ => rfl)

end Index

variable (m : (ℓ : Loc nD τ sig) → Buf (Elt Ideal) ℓ) (outs : Outs (F := Ideal)) (c : Dev nD)

/-! ## Before the first call: the per-hit columns as rows -/

section Before
variable (W : Valuation τ sig (Elt Ideal))

/-- The first stretch's four results, over any contents `W` before it: each is its argument reshaped. -/
theorem ops0_v0 : (StableHlo.after hostOps0 W main_v0 : S1x4000000.Idx → BitVec 32)
    = shapeCast S1x4000000 (W main_arg0 : S4000000x1.Idx → BitVec 32) shapeCasts_S4000000x1_S1x4000000 := by
  dsimp only [hostOps0]
  after_results <;> rfl
theorem ops0_v1 : (StableHlo.after hostOps0 W main_v1 : S1x4000000.Idx → EReal)
    = shapeCast S1x4000000 (W main_arg2 : S4000000x1.Idx → EReal) shapeCasts_S4000000x1_S1x4000000 := by
  dsimp only [hostOps0]
  after_results <;> rfl
theorem ops0_v2 : (StableHlo.after hostOps0 W main_v2 : S1x4000000.Idx → BitVec 32)
    = shapeCast S1x4000000 (W main_arg5 : S4000000x1.Idx → BitVec 32) shapeCasts_S4000000x1_S1x4000000 := by
  dsimp only [hostOps0]
  after_results <;> rfl
theorem ops0_v3 : (StableHlo.after hostOps0 W main_v3 : S1x4000000.Idx → BitVec 32)
    = shapeCast S1x4000000 (W main_arg8 : S4000000x1.Idx → BitVec 32) shapeCasts_S4000000x1_S1x4000000 := by
  dsimp only [hostOps0]
  after_results <;> rfl

end Before

/-- The label row the two calls read: hit `n`'s label. -/
theorem v0_apply (n : Fin 4000000) :
    (V1 m c main_v0 : S1x4000000.Idx → BitVec 32) (ix2 (0 : Fin 1) n)
      = (m ((c.tc : Thread nD τ).loc main_arg0) : S4000000x1.Idx → BitVec 32) (ix2 n (0 : Fin 1)) :=
  (congrFun (ops0_v0 (V0 m c)) _).trans (reshape_col_row _ _ n)
/-- The energy row: hit `n`'s energy. -/
theorem v1_apply (n : Fin 4000000) :
    (V1 m c main_v1 : S1x4000000.Idx → EReal) (ix2 (0 : Fin 1) n)
      = (m ((c.tc : Thread nD τ).loc main_arg2) : S4000000x1.Idx → EReal) (ix2 n (0 : Fin 1)) :=
  (congrFun (ops0_v1 (V0 m c)) _).trans (reshape_col_row _ _ n)
/-- The track-flag row: hit `n`'s flag. -/
theorem v2_apply (n : Fin 4000000) :
    (V1 m c main_v2 : S1x4000000.Idx → BitVec 32) (ix2 (0 : Fin 1) n)
      = (m ((c.tc : Thread nD τ).loc main_arg5) : S4000000x1.Idx → BitVec 32) (ix2 n (0 : Fin 1)) :=
  (congrFun (ops0_v2 (V0 m c)) _).trans (reshape_col_row _ _ n)
/-- The minimum-bias-flag row: hit `n`'s flag. -/
theorem v3_apply (n : Fin 4000000) :
    (V1 m c main_v3 : S1x4000000.Idx → BitVec 32) (ix2 (0 : Fin 1) n)
      = (m ((c.tc : Thread nD τ).loc main_arg8) : S4000000x1.Idx → BitVec 32) (ix2 n (0 : Fin 1)) :=
  (congrFun (ops0_v3 (V0 m c)) _).trans (reshape_col_row _ _ n)

/-- No operation between the two calls, and not the first call, writes the label row: the second call reads what the
    first read. -/
theorem labels_kept : V12 m outs c main_v0 = V1 m c main_v0 :=
  (V12_of m outs c main_v0 (by decide)).trans <| (V11_of m outs c main_v0 (by decide)).trans <|
  (V10_of m outs c main_v0 (by decide)).trans <| (V9_of m outs c main_v0 (by decide)).trans <|
  (V8_of m outs c main_v0 (by decide)).trans <| (V7_of m outs c main_v0 (by decide)).trans <|
  (V6_of m outs c main_v0 (by decide)).trans <| (V5_of m outs c main_v0 (by decide)).trans <|
  (V4_of m outs c main_v0 (by decide)).trans <| (V3_of m outs c main_v0 (by decide)).trans <|
  (V2_of m outs c main_v0 (by decide))

/-- So the second call's label row, too, holds hit `n`'s label at (0, n). -/
theorem v0_apply' (n : Fin 4000000) :
    (V12 m outs c main_v0 : S1x4000000.Idx → BitVec 32) (ix2 (0 : Fin 1) n)
      = (m ((c.tc : Thread nD τ).loc main_arg0) : S4000000x1.Idx → BitVec 32) (ix2 n (0 : Fin 1)) :=
  (congrFun (labels_kept m outs c) _).trans (v0_apply m c n)

/-! ## Between the calls: the table the second call reads -/

section IndexC

/-- The sum over the leading axis of a [2, 8, 20480] array from the initial value 0, cut to row `r` and the first 20001
    columns and read as a vector: entry j is 0 plus the sum of the array's two entries (·, r, j). -/
theorem sumRow_apply (X : S2x8x20480.Idx → EReal) (o : Nat) (hs : S8x20480.Slices ![o, 0] S1x20001)
    (r : Fin 8) (hr : r.val = o) (j : Fin 20001) (j' : Fin 20480) (hj : j'.val = j.val) :
    shapeCast S20001 (extractStridedSlice S1x20001 ![o, 0]
        (Host.reduceAdd (F := Ideal) (φ := .f32) X (constant (F := Ideal) S_ .f32 0x00000000#32)
          reducesTo_S2x8x20480_S8x20480_d0 h_S_) hs) shapeCasts_S1x20001_S20001 (ix1 j)
      = 0 + (X (ix3 (0 : Fin 2) r j') + X (ix3 (1 : Fin 2) r j')) := by
  refine (shapeCast_1a_a_apply _ _ j).trans ?_
  refine (extractStridedSlice_apply _ _ hs _ (ix2 r j') (fun a => ?_)).trans ?_
  · match a with
    | ⟨0, _⟩ => show r.val = o + 0; omega
    | ⟨1, _⟩ => show j'.val = 0 + j.val; omega
  · have h : Shape.Reduces S2x8x20480 [0] S8x20480 := by decide
    have hl : ∀ k : Fin 2, h.lift (ix2 r j') k = ix3 k r j' := fun k => funext fun a => Fin.ext (by
      match a with
      | ⟨0, _⟩ => rfl
      | ⟨1, _⟩ => rfl
      | ⟨2, _⟩ => rfl)
    rw [hostReduceAdd_apply, Ideal.hostReduceAdd_single _ h, constant_apply, Ideal.ofBits_zero_f32]
    congr 1
    refine (Fin.sum_univ_two (fun k : Fin 2 => X (h.lift (ix2 r j') k))).trans ?_
    rw [hl 0, hl 1]

end IndexC

section Between
variable (W : Valuation τ sig (Elt Ideal))

/-- The stretch after the first call, over any contents `W` before it: rows 0, 1 and 2 of the two partial tables' sum,
    each cut to the 20001 segments. -/
theorem ops1_v7 : (StableHlo.after hostOps1 W main_v7 : S20001.Idx → EReal)
    = shapeCast S20001 (extractStridedSlice S1x20001 ![0, 0]
        (Host.reduceAdd (F := Ideal) (φ := .f32) (W main_v4 : S2x8x20480.Idx → EReal) (constant (F := Ideal) S_ .f32 0x00000000#32)
          reducesTo_S2x8x20480_S8x20480_d0 h_S_) slices_S8x20480_S1x20001_0_0) shapeCasts_S1x20001_S20001 := by
  dsimp only [hostOps1]
  after_results <;> rfl
theorem ops1_v9 : (StableHlo.after hostOps1 W main_v9 : S20001.Idx → EReal)
    = shapeCast S20001 (extractStridedSlice S1x20001 ![1, 0]
        (Host.reduceAdd (F := Ideal) (φ := .f32) (W main_v4 : S2x8x20480.Idx → EReal) (constant (F := Ideal) S_ .f32 0x00000000#32)
          reducesTo_S2x8x20480_S8x20480_d0 h_S_) slices_S8x20480_S1x20001_1_0) shapeCasts_S1x20001_S20001 := by
  dsimp only [hostOps1]
  after_results <;> rfl
theorem ops1_v11 : (StableHlo.after hostOps1 W main_v11 : S20001.Idx → EReal)
    = shapeCast S20001 (extractStridedSlice S1x20001 ![2, 0]
        (Host.reduceAdd (F := Ideal) (φ := .f32) (W main_v4 : S2x8x20480.Idx → EReal) (constant (F := Ideal) S_ .f32 0x00000000#32)
          reducesTo_S2x8x20480_S8x20480_d0 h_S_) slices_S8x20480_S1x20001_2_0) shapeCasts_S1x20001_S20001 := by
  dsimp only [hostOps1]
  after_results <;> rfl

/-- The stretch that stacks the table, over any contents `W` before it: its track-correction vector, -/
theorem ops8_v75 : (StableHlo.after hostOps1_8 W main_v75 : S20001.Idx → EReal)
    = concatenate S20001 0 [⟨S1, broadcastInDim S1 ![] bcast_S_S1 (constant (F := Ideal) S_ .f32 0x00000000#32)⟩,
        ⟨S20000, (W main_v73 : S20000.Idx → EReal)⟩] concatenates_S1_S20000_S20001_d0 := by
  dsimp only [hostOps1_8]
  after_results <;> rfl
/-- … the integer zero it ends with, -/
theorem ops8_c21 : (StableHlo.after hostOps1_8 W main_c_21 : S_.Idx → BitVec 32) = constantI S_ 32 0#32 := by
  dsimp only [hostOps1_8]
  after_results <;> rfl
/-- … and the five stacked rows: the two energies it corrects are multiplied entry by entry by the hit-correction
    vector (from before the stretch) and by the track-correction vector (the stretch's own). -/
theorem ops8_v83 : (StableHlo.after hostOps1_8 W main_v83 : S5x20001.Idx → EReal)
    = concatenate S5x20001 0
        [⟨S1x20001, broadcastInDim S1x20001 ![1] bcast_S20001_S1x20001_1 (W main_v9 : S20001.Idx → EReal)⟩,
         ⟨S1x20001, broadcastInDim S1x20001 ![1] bcast_S20001_S1x20001_1
            (mulf (F := Ideal) (s := S20001) (φ := .f32) (W main_v9 : S20001.Idx → EReal)
              (StableHlo.after hostOps1_8 W main_v75 : S20001.Idx → EReal))⟩,
         ⟨S1x20001, broadcastInDim S1x20001 ![1] bcast_S20001_S1x20001_1 (W main_v7 : S20001.Idx → EReal)⟩,
         ⟨S1x20001, broadcastInDim S1x20001 ![1] bcast_S20001_S1x20001_1
            (mulf (F := Ideal) (s := S20001) (φ := .f32) (W main_v7 : S20001.Idx → EReal) (W main_v43 : S20001.Idx → EReal))⟩,
         ⟨S1x20001, broadcastInDim S1x20001 ![1] bcast_S20001_S1x20001_1 (W main_v11 : S20001.Idx → EReal)⟩]
        concatenates_S1x20001_S1x20001_S1x20001_S1x20001_S1x20001_S5x20001_d0 := by
  rw [ops8_v75]
  dsimp only [hostOps1_8]
  after_results
  -- the stacking operation reads its five operands through a vector of references: name each, then read it
  simp (disch := decide) only [Matrix.cons_val_zero, Matrix.cons_val_one, Matrix.cons_val_two, Matrix.cons_val_three,
    Matrix.cons_val_four, Matrix.head_cons, Matrix.tail_cons,
    StableHlo.nullary_result', StableHlo.unary_result', StableHlo.binary_result',
    StableHlo.nullary_result_ne', StableHlo.unary_result_ne', StableHlo.binary_result_ne']
  rfl

/-- The padding, over any contents `W` before it: the stacked table padded on the right of its second axis by 479
    columns of the converted integer. -/
theorem ops9_v84 : (StableHlo.after hostOps1_9 W main_v84 : S5x20480.Idx → EReal)
    = pad S5x20480 ![0, 0] ![0, 479] ![0, 0] (W main_v83 : S5x20001.Idx → EReal)
        (sitofp (F := Ideal) (s := S_) .f32 (W main_c_21 : S_.Idx → BitVec 32)) pads_S5x20001_S5x20480_000_04790 h_S_ := by
  dsimp only [hostOps1_9]
  after_results
  simp only [StableHlo.TRef.ofBuf, StableHlo.TRef.toBuf, cast_eq]

end Between

/-- What the first call leaves in its output array (one [8, 20480] partial table per core), at its literal type. -/
abbrev partials : S2x8x20480.Idx → EReal := outs 2 main_v4 c

/-- Row `r` of the two partial tables' sum at segment `s`, as the host forms it: from the initial value 0. -/
def T (r : Fin 8) (s : Fin 20480) : EReal :=
  0 + (partials outs c (ix3 (0 : Fin 2) r s) + partials outs c (ix3 (1 : Fin 2) r s))

/-- After the first call its output array holds what the call left there. -/
theorem v4_eq : (V2 m outs c main_v4 : S2x8x20480.Idx → EReal) = partials outs c := by
  show Function.update (V1 m c) (Proc.devRef .tc main_v4) (outs 2 main_v4 c) (Proc.devRef .tc main_v4) = _
  rw [Function.update_self]

/-- The hit-energy vector (row 0 of the sum) as the stacking stretch finds it. -/
theorem v7_apply (s : Fin 20480) (h : s.val < 20001) :
    (V10 m outs c main_v7 : S20001.Idx → EReal) (ix1 ⟨s.val, h⟩) = T outs c 0 s := by
  have e : V10 m outs c main_v7 = V3 m outs c main_v7 :=
    (V10_of m outs c main_v7 (by decide)).trans <| (V9_of m outs c main_v7 (by decide)).trans <|
    (V8_of m outs c main_v7 (by decide)).trans <| (V7_of m outs c main_v7 (by decide)).trans <|
    (V6_of m outs c main_v7 (by decide)).trans <| (V5_of m outs c main_v7 (by decide)).trans <|
    (V4_of m outs c main_v7 (by decide))
  refine (congrFun e _).trans ?_
  refine (congrFun (ops1_v7 (V2 m outs c)) _).trans ?_
  rw [v4_eq]
  exact sumRow_apply (partials outs c) 0 _ (0 : Fin 8) rfl ⟨s.val, h⟩ s rfl
/-- The track-energy vector (row 1). -/
theorem v9_apply (s : Fin 20480) (h : s.val < 20001) :
    (V10 m outs c main_v9 : S20001.Idx → EReal) (ix1 ⟨s.val, h⟩) = T outs c 1 s := by
  have e : V10 m outs c main_v9 = V3 m outs c main_v9 :=
    (V10_of m outs c main_v9 (by decide)).trans <| (V9_of m outs c main_v9 (by decide)).trans <|
    (V8_of m outs c main_v9 (by decide)).trans <| (V7_of m outs c main_v9 (by decide)).trans <|
    (V6_of m outs c main_v9 (by decide)).trans <| (V5_of m outs c main_v9 (by decide)).trans <|
    (V4_of m outs c main_v9 (by decide))
  refine (congrFun e _).trans ?_
  refine (congrFun (ops1_v9 (V2 m outs c)) _).trans ?_
  rw [v4_eq]
  exact sumRow_apply (partials outs c) 1 _ (1 : Fin 8) rfl ⟨s.val, h⟩ s rfl
/-- The vector of energy outside minimum bias (row 2). -/
theorem v11_apply (s : Fin 20480) (h : s.val < 20001) :
    (V10 m outs c main_v11 : S20001.Idx → EReal) (ix1 ⟨s.val, h⟩) = T outs c 2 s := by
  have e : V10 m outs c main_v11 = V3 m outs c main_v11 :=
    (V10_of m outs c main_v11 (by decide)).trans <| (V9_of m outs c main_v11 (by decide)).trans <|
    (V8_of m outs c main_v11 (by decide)).trans <| (V7_of m outs c main_v11 (by decide)).trans <|
    (V6_of m outs c main_v11 (by decide)).trans <| (V5_of m outs c main_v11 (by decide)).trans <|
    (V4_of m outs c main_v11 (by decide))
  refine (congrFun e _).trans ?_
  refine (congrFun (ops1_v11 (V2 m outs c)) _).trans ?_
  rw [v4_eq]
  exact sumRow_apply (partials outs c) 2 _ (2 : Fin 8) rfl ⟨s.val, h⟩ s rfl

/-- The hit-correction vector the stacking stretch reads is the one the second call's launch still holds. -/
theorem v43_kept : V10 m outs c main_v43 = V12 m outs c main_v43 :=
  ((V12_of m outs c main_v43 (by decide)).trans (V11_of m outs c main_v43 (by decide))).symm
/-- The track-correction vector the stacking stretch forms is the one the second call's launch still holds. -/
theorem v75_kept : V11 m outs c main_v75 = V12 m outs c main_v75 :=
  (V12_of m outs c main_v75 (by decide)).symm

section Stack
variable {α : Type} (x0 x1 x2 x3 x4 : S1x20001.Idx → α)
  (hc : Shape.Concatenates [S1x20001, S1x20001, S1x20001, S1x20001, S1x20001] S5x20001 0) (j : Fin 20001)

/-- Five one-row matrices stacked along the rows: row k of the stack is the k-th matrix's row (the rows before it
    number k, each matrix having one). -/
theorem stack_row0 : concatenate S5x20001 0 [⟨S1x20001, x0⟩, ⟨S1x20001, x1⟩, ⟨S1x20001, x2⟩, ⟨S1x20001, x3⟩, ⟨S1x20001, x4⟩] hc
    (ix2 (0 : Fin 5) j) = x0 (ix2 (0 : Fin 1) j) :=
  concatenate_apply_piece (t := S5x20001) 0 [⟨S1x20001, x0⟩, ⟨S1x20001, x1⟩, ⟨S1x20001, x2⟩, ⟨S1x20001, x3⟩, ⟨S1x20001, x4⟩] hc _ 0 (by show 0 < 5; omega)
    S1x20001 x0 rfl rfl 0 rfl (ix2 (0 : Fin 1) j)
    (fun b hb => by
      match b with
      | ⟨0, _⟩ => exact absurd (Fin.ext rfl) hb
      | ⟨1, _⟩ => rfl) rfl
theorem stack_row1 : concatenate S5x20001 0 [⟨S1x20001, x0⟩, ⟨S1x20001, x1⟩, ⟨S1x20001, x2⟩, ⟨S1x20001, x3⟩, ⟨S1x20001, x4⟩] hc
    (ix2 (1 : Fin 5) j) = x1 (ix2 (0 : Fin 1) j) :=
  concatenate_apply_piece (t := S5x20001) 0 [⟨S1x20001, x0⟩, ⟨S1x20001, x1⟩, ⟨S1x20001, x2⟩, ⟨S1x20001, x3⟩, ⟨S1x20001, x4⟩] hc _ 1 (by show 1 < 5; omega)
    S1x20001 x1 rfl rfl 1 rfl (ix2 (0 : Fin 1) j)
    (fun b hb => by
      match b with
      | ⟨0, _⟩ => exact absurd (Fin.ext rfl) hb
      | ⟨1, _⟩ => rfl) rfl
theorem stack_row2 : concatenate S5x20001 0 [⟨S1x20001, x0⟩, ⟨S1x20001, x1⟩, ⟨S1x20001, x2⟩, ⟨S1x20001, x3⟩, ⟨S1x20001, x4⟩] hc
    (ix2 (2 : Fin 5) j) = x2 (ix2 (0 : Fin 1) j) :=
  concatenate_apply_piece (t := S5x20001) 0 [⟨S1x20001, x0⟩, ⟨S1x20001, x1⟩, ⟨S1x20001, x2⟩, ⟨S1x20001, x3⟩, ⟨S1x20001, x4⟩] hc _ 2 (by show 2 < 5; omega)
    S1x20001 x2 rfl rfl 2 rfl (ix2 (0 : Fin 1) j)
    (fun b hb => by
      match b with
      | ⟨0, _⟩ => exact absurd (Fin.ext rfl) hb
      | ⟨1, _⟩ => rfl) rfl
theorem stack_row3 : concatenate S5x20001 0 [⟨S1x20001, x0⟩, ⟨S1x20001, x1⟩, ⟨S1x20001, x2⟩, ⟨S1x20001, x3⟩, ⟨S1x20001, x4⟩] hc
    (ix2 (3 : Fin 5) j) = x3 (ix2 (0 : Fin 1) j) :=
  concatenate_apply_piece (t := S5x20001) 0 [⟨S1x20001, x0⟩, ⟨S1x20001, x1⟩, ⟨S1x20001, x2⟩, ⟨S1x20001, x3⟩, ⟨S1x20001, x4⟩] hc _ 3 (by show 3 < 5; omega)
    S1x20001 x3 rfl rfl 3 rfl (ix2 (0 : Fin 1) j)
    (fun b hb => by
      match b with
      | ⟨0, _⟩ => exact absurd (Fin.ext rfl) hb
      | ⟨1, _⟩ => rfl) rfl
theorem stack_row4 : concatenate S5x20001 0 [⟨S1x20001, x0⟩, ⟨S1x20001, x1⟩, ⟨S1x20001, x2⟩, ⟨S1x20001, x3⟩, ⟨S1x20001, x4⟩] hc
    (ix2 (4 : Fin 5) j) = x4 (ix2 (0 : Fin 1) j) :=
  concatenate_apply_piece (t := S5x20001) 0 [⟨S1x20001, x0⟩, ⟨S1x20001, x1⟩, ⟨S1x20001, x2⟩, ⟨S1x20001, x3⟩, ⟨S1x20001, x4⟩] hc _ 4 (by show 4 < 5; omega)
    S1x20001 x4 rfl rfl 4 rfl (ix2 (0 : Fin 1) j)
    (fun b hb => by
      match b with
      | ⟨0, _⟩ => exact absurd (Fin.ext rfl) hb
      | ⟨1, _⟩ => rfl) rfl

end Stack

/-- Inside the first 20001 columns the padded table is the stacked table. -/
theorem table_inside (k : Fin 5) (s : Fin 20480) (h : s.val < 20001) :
    (V12 m outs c main_v84 : S5x20480.Idx → EReal) (ix2 k s)
      = (V11 m outs c main_v83 : S5x20001.Idx → EReal) (ix2 k ⟨s.val, h⟩) := by
  refine (congrFun (ops9_v84 (V11 m outs c)) _).trans ?_
  exact pad_apply_of_inside _ _ _ _ _ _ _ _ (ix2 k ⟨s.val, h⟩) (fun a => by
    match a with
    | ⟨0, _⟩ => show k.val = 0 + k.val * (0 + 1); omega
    | ⟨1, _⟩ => show s.val = 0 + s.val * (0 + 1); omega)

/-- From column 20001 on the padded table holds the padding value: the integer 0 converted, the number 0. -/
theorem table_pad (k : Fin 5) (s : Fin 20480) (h : 20001 ≤ s.val) :
    (V12 m outs c main_v84 : S5x20480.Idx → EReal) (ix2 k s) = (0 : EReal) := by
  refine (congrFun (ops9_v84 (V11 m outs c)) _).trans ?_
  refine (pad_apply_of_not_inside _ _ _ _ _ _ _ _ (1 : Fin 2) (fun hh => ?_)).trans ?_
  · have h3 : (s.val - 0) / (0 + 1) < 20001 := hh.2.2
    omega
  · rw [show (V11 m outs c main_c_21 : S_.Idx → BitVec 32) = constantI S_ 32 0#32 from ops8_c21 (V10 m outs c)]
    show ((((0#32 : BitVec 32).toInt : ℤ) : ℝ) : EReal) = 0
    simp

/-- Row 0 of the table: the track energy of segment `s`. -/
theorem table_row0 (s : Fin 20480) (h : s.val < 20001) :
    (V12 m outs c main_v84 : S5x20480.Idx → EReal) (ix2 (0 : Fin 5) s) = T outs c 1 s := by
  refine (table_inside m outs c 0 s h).trans ?_
  refine (congrFun (ops8_v83 (V10 m outs c)) _).trans ?_
  refine (stack_row0 _ _ _ _ _ _ _).trans ?_
  refine (bcast_row _ _ _ _).trans ?_
  exact v9_apply m outs c s h
/-- Row 1: the track energy times the track correction. -/
theorem table_row1 (s : Fin 20480) (h : s.val < 20001) :
    (V12 m outs c main_v84 : S5x20480.Idx → EReal) (ix2 (1 : Fin 5) s)
      = T outs c 1 s * (V12 m outs c main_v75 : S20001.Idx → EReal) (ix1 ⟨s.val, h⟩) := by
  refine (table_inside m outs c 1 s h).trans ?_
  refine (congrFun (ops8_v83 (V10 m outs c)) _).trans ?_
  refine (stack_row1 _ _ _ _ _ _ _).trans ?_
  refine (bcast_row _ _ _ _).trans ?_
  refine (mulf_apply _ _ _).trans ?_
  exact congrArg₂ (· * ·) (v9_apply m outs c s h) (congrFun (v75_kept m outs c) _)
/-- Row 2: the hit energy. -/
theorem table_row2 (s : Fin 20480) (h : s.val < 20001) :
    (V12 m outs c main_v84 : S5x20480.Idx → EReal) (ix2 (2 : Fin 5) s) = T outs c 0 s := by
  refine (table_inside m outs c 2 s h).trans ?_
  refine (congrFun (ops8_v83 (V10 m outs c)) _).trans ?_
  refine (stack_row2 _ _ _ _ _ _ _).trans ?_
  refine (bcast_row _ _ _ _).trans ?_
  exact v7_apply m outs c s h
/-- Row 3: the hit energy times the hit correction. -/
theorem table_row3 (s : Fin 20480) (h : s.val < 20001) :
    (V12 m outs c main_v84 : S5x20480.Idx → EReal) (ix2 (3 : Fin 5) s)
      = T outs c 0 s * (V12 m outs c main_v43 : S20001.Idx → EReal) (ix1 ⟨s.val, h⟩) := by
  refine (table_inside m outs c 3 s h).trans ?_
  refine (congrFun (ops8_v83 (V10 m outs c)) _).trans ?_
  refine (stack_row3 _ _ _ _ _ _ _).trans ?_
  refine (bcast_row _ _ _ _).trans ?_
  refine (mulf_apply _ _ _).trans ?_
  exact congrArg₂ (· * ·) (v7_apply m outs c s h) (congrFun (v43_kept m outs c) _)
/-- Row 4: the energy outside minimum bias. -/
theorem table_row4 (s : Fin 20480) (h : s.val < 20001) :
    (V12 m outs c main_v84 : S5x20480.Idx → EReal) (ix2 (4 : Fin 5) s) = T outs c 2 s := by
  refine (table_inside m outs c 4 s h).trans ?_
  refine (congrFun (ops8_v83 (V10 m outs c)) _).trans ?_
  refine (stack_row4 _ _ _ _ _ _ _).trans ?_
  refine (bcast_row _ _ _ _).trans ?_
  exact v11_apply m outs c s h

/-- The five rows' values at a segment `s < 20001`, the two correction vectors read where the second call's launch
    holds them. -/
def tableRow (k : Fin 5) (s : Fin 20480) (h : s.val < 20001) : EReal :=
  if k.val = 0 then T outs c 1 s
  else if k.val = 1 then T outs c 1 s * (V12 m outs c main_v75 : S20001.Idx → EReal) (ix1 ⟨s.val, h⟩)
  else if k.val = 2 then T outs c 0 s
  else if k.val = 3 then T outs c 0 s * (V12 m outs c main_v43 : S20001.Idx → EReal) (ix1 ⟨s.val, h⟩)
  else T outs c 2 s

/-- THE TABLE the second call reads, entry by entry. -/
theorem table_apply (k : Fin 5) (s : Fin 20480) :
    (V12 m outs c main_v84 : S5x20480.Idx → EReal) (ix2 k s)
      = (if h : s.val < 20001 then tableRow m outs c k s h else 0 : EReal) := by
  by_cases h : s.val < 20001
  · rw [dif_pos h]
    unfold tableRow
    match k with
    | ⟨0, _⟩ => exact table_row0 m outs c s h
    | ⟨1, _⟩ => exact table_row1 m outs c s h
    | ⟨2, _⟩ => exact table_row2 m outs c s h
    | ⟨3, _⟩ => exact table_row3 m outs c s h
    | ⟨4, _⟩ => exact table_row4 m outs c s h
  · rw [dif_neg h]
    exact table_pad m outs c k s (Nat.le_of_not_lt h)

/-! ## After the second call: the five results are the rows of its output -/

section After
variable (W : Valuation τ sig (Elt Ideal))

/-- The last stretch's five results, over any contents `W` before it: row k of the second call's output, cut out
    and reshaped to a column. -/
theorem ops2_v87 : (StableHlo.after hostOps2 W main_v87 : S4000000x1.Idx → EReal)
    = shapeCast S4000000x1 (extractStridedSlice S1x4000000 ![0, 0] (W main_v85 : S5x4000000.Idx → EReal)
        slices_S5x4000000_S1x4000000_0_0) shapeCasts_S1x4000000_S4000000x1 := by
  dsimp only [hostOps2]
  after_results <;> rfl
theorem ops2_v89 : (StableHlo.after hostOps2 W main_v89 : S4000000x1.Idx → EReal)
    = shapeCast S4000000x1 (extractStridedSlice S1x4000000 ![1, 0] (W main_v85 : S5x4000000.Idx → EReal)
        slices_S5x4000000_S1x4000000_1_0) shapeCasts_S1x4000000_S4000000x1 := by
  dsimp only [hostOps2]
  after_results <;> rfl
theorem ops2_v91 : (StableHlo.after hostOps2 W main_v91 : S4000000x1.Idx → EReal)
    = shapeCast S4000000x1 (extractStridedSlice S1x4000000 ![2, 0] (W main_v85 : S5x4000000.Idx → EReal)
        slices_S5x4000000_S1x4000000_2_0) shapeCasts_S1x4000000_S4000000x1 := by
  dsimp only [hostOps2]
  after_results <;> rfl
theorem ops2_v93 : (StableHlo.after hostOps2 W main_v93 : S4000000x1.Idx → EReal)
    = shapeCast S4000000x1 (extractStridedSlice S1x4000000 ![3, 0] (W main_v85 : S5x4000000.Idx → EReal)
        slices_S5x4000000_S1x4000000_3_0) shapeCasts_S1x4000000_S4000000x1 := by
  dsimp only [hostOps2]
  after_results <;> rfl
theorem ops2_v95 : (StableHlo.after hostOps2 W main_v95 : S4000000x1.Idx → EReal)
    = shapeCast S4000000x1 (extractStridedSlice S1x4000000 ![4, 0] (W main_v85 : S5x4000000.Idx → EReal)
        slices_S5x4000000_S1x4000000_4_0) shapeCasts_S1x4000000_S4000000x1 := by
  dsimp only [hostOps2]
  after_results <;> rfl

end After

/-- What the second call leaves in its output array, at its literal type. -/
abbrev gathered : S5x4000000.Idx → EReal := outs 13 main_v85 c

/-- After the second call its output array holds what the call left there. -/
theorem v85_eq : (V13 m outs c main_v85 : S5x4000000.Idx → EReal) = gathered outs c := by
  show Function.update (V12 m outs c) (Proc.devRef .tc main_v85) (outs 13 main_v85 c) (Proc.devRef .tc main_v85) = _
  rw [Function.update_self]

/-- The first result (track energy): entry (n, 0) is entry (0, n) of the second call's output. -/
theorem v87_apply (n : Fin 4000000) :
    (V14 m outs c main_v87 : S4000000x1.Idx → EReal) (ix2 n (0 : Fin 1)) = gathered outs c (ix2 (0 : Fin 5) n) := by
  refine (congrFun (ops2_v87 (V13 m outs c)) _).trans ?_
  rw [v85_eq]
  exact row_as_col 0 _ _ _ (0 : Fin 5) rfl n
/-- The second result (corrected track energy): row 1. -/
theorem v89_apply (n : Fin 4000000) :
    (V14 m outs c main_v89 : S4000000x1.Idx → EReal) (ix2 n (0 : Fin 1)) = gathered outs c (ix2 (1 : Fin 5) n) := by
  refine (congrFun (ops2_v89 (V13 m outs c)) _).trans ?_
  rw [v85_eq]
  exact row_as_col 1 _ _ _ (1 : Fin 5) rfl n
/-- The third result (hit energy): row 2. -/
theorem v91_apply (n : Fin 4000000) :
    (V14 m outs c main_v91 : S4000000x1.Idx → EReal) (ix2 n (0 : Fin 1)) = gathered outs c (ix2 (2 : Fin 5) n) := by
  refine (congrFun (ops2_v91 (V13 m outs c)) _).trans ?_
  rw [v85_eq]
  exact row_as_col 2 _ _ _ (2 : Fin 5) rfl n
/-- The fourth result (corrected hit energy): row 3. -/
theorem v93_apply (n : Fin 4000000) :
    (V14 m outs c main_v93 : S4000000x1.Idx → EReal) (ix2 n (0 : Fin 1)) = gathered outs c (ix2 (3 : Fin 5) n) := by
  refine (congrFun (ops2_v93 (V13 m outs c)) _).trans ?_
  rw [v85_eq]
  exact row_as_col 3 _ _ _ (3 : Fin 5) rfl n
/-- The fifth result (fraction outside minimum bias): row 4. -/
theorem v95_apply (n : Fin 4000000) :
    (V14 m outs c main_v95 : S4000000x1.Idx → EReal) (ix2 n (0 : Fin 1)) = gathered outs c (ix2 (4 : Fin 5) n) := by
  refine (congrFun (ops2_v95 (V13 m outs c)) _).trans ?_
  rw [v85_eq]
  exact row_as_col 4 _ _ _ (4 : Fin 5) rfl n

end Cert.KernelIdeal.Host

end
-- ==== Proof.Spec.lean ====
/-
  What the operator computes, as plain functions of the argument arrays (extended reals, indices over literal shapes).

  A hit `i` carries a shower label `pred_sid i ∈ {-1, 0, …, 19999}` (-1: noise) and an energy; its SEGMENT is
  `pred_sid i + 1 ∈ {0, …, 20000}`. Three per-segment sums are formed — the energy of the hits that are not tracks,
  of the hits that are tracks, and of the non-track hits outside minimum bias, noise hits counting zero —, the first
  two also multiplied by a per-segment correction read from `pred_corr_factor` at the shower's alpha index
  (zero for segment 0, for the sentinel index -1 and for a noise hit), and every hit is given the values of its own
  segment; the fifth result is the quotient of the third sum by the first, zero where the first is zero.
-/
import Idealize.ShloMosaic.PureOps.Ideal
import Idealize.ShloMosaic.Lib.ValueIdx

noncomputable section

namespace Cert.Spec

open Idealize.ShloMosaic Idealize.ShloMosaic.ValueIdx

/-! ## One hit's words -/

/-- A hit's energy `e`, zero where its label `s` is -1 (noise). -/
def enzW (s : BitVec 32) (e : EReal) : EReal := if s = 4294967295#32 then 0 else e
/-- … counted only for a hit that is not a track (`t = 0`), -/
def eHitW (s : BitVec 32) (e : EReal) (t : BitVec 32) : EReal := if t = 0#32 then enzW s e else 0
/-- … only for a track (`t = 1`), -/
def eTrkW (s : BitVec 32) (e : EReal) (t : BitVec 32) : EReal := if t = 1#32 then enzW s e else 0
/-- … only for a non-track hit outside minimum bias (`b ≠ 1`). -/
def eNmbW (s : BitVec 32) (e : EReal) (t b : BitVec 32) : EReal := if b = 1#32 then 0 else eHitW s e t
/-- The eight rows the first kernel accumulates: non-track energy, track energy, non-track energy outside minimum
    bias, and five rows of zeros. -/
def rowW (r : Fin 8) (s : BitVec 32) (e : EReal) (t b : BitVec 32) : EReal :=
  if r.val = 0 then eHitW s e t else if r.val = 1 then eTrkW s e t else if r.val = 2 then eNmbW s e t b else 0
/-- A label's segment: the label plus one, as a natural number (the label is at least -1). -/
def segW (s : BitVec 32) : ℕ := (s + 1#32).toNat
/-- The quotient `n / h`, zero where `h` is zero. -/
def frac (h n : EReal) : EReal := if h = 0 then 0 else Ideal.div n (if h = 0 then 1 else h)

/-! ## The arrays -/

/-- The per-hit column arrays' shape and the alpha-index arrays' shape. -/
abbrev Hits : Shape := ⟨2, ![4000000, 1]⟩
abbrev Alph : Shape := ⟨1, ![20000]⟩

/-- The index of hit `n` in a per-hit column. -/
abbrev hit (n : Fin 4000000) : Hits.Idx := ix2 n (0 : Fin 1)

section
variable (psid : Hits.Idx → BitVec 32) (pcf en : Hits.Idx → EReal) (trk mb : Hits.Idx → BitVec 32)

def eHit (i : Hits.Idx) : EReal := eHitW (psid i) (en i) (trk i)
def eTrk (i : Hits.Idx) : EReal := eTrkW (psid i) (en i) (trk i)
def eNmb (i : Hits.Idx) : EReal := eNmbW (psid i) (en i) (trk i) (mb i)
/-- Row `r` of the eight accumulated rows, at hit `i`. -/
def row (r : Fin 8) (i : Hits.Idx) : EReal := rowW r (psid i) (en i) (trk i) (mb i)

/-- A hit's segment. -/
def segOf (i : Hits.Idx) : ℕ := segW (psid i)

/-- The sum of `e` over the hits of segment `s`. -/
def segSum (e : Hits.Idx → EReal) (s : ℕ) : EReal := ∑ i : Hits.Idx, if segOf psid i = s then e i else 0

/-- The correction factor read at an alpha index: that hit's `pred_corr_factor`, zero for a noise hit and for an
    index that names no hit (the sentinel -1). -/
def corrAt (a : BitVec 32) : EReal :=
  if h : a.toNat < 4000000 then
    (if psid (hit ⟨a.toNat, h⟩) = 4294967295#32 then 0 else pcf (hit ⟨a.toNat, h⟩))
  else 0

/-- The correction of segment `s`: zero for segment 0, else read at shower `s - 1`'s alpha index. -/
def corr (al : Alph.Idx → BitVec 32) (s : ℕ) : EReal :=
  if h : 0 < s ∧ s < 20001 then corrAt psid pcf (al (ix1 ⟨s - 1, by omega⟩)) else 0

variable (aT aH : Alph.Idx → BitVec 32)

/-- The five results at hit index `i`. -/
def trackRaw (i : Hits.Idx) : EReal := segSum psid (eTrk psid en trk) (segOf psid i)
def trackCorr (i : Hits.Idx) : EReal := segSum psid (eTrk psid en trk) (segOf psid i) * corr psid pcf aT (segOf psid i)
def hitRaw (i : Hits.Idx) : EReal := segSum psid (eHit psid en trk) (segOf psid i)
def hitCorr (i : Hits.Idx) : EReal := segSum psid (eHit psid en trk) (segOf psid i) * corr psid pcf aH (segOf psid i)
def noMbFrac (i : Hits.Idx) : EReal :=
  frac (segSum psid (eHit psid en trk) (segOf psid i)) (segSum psid (eNmb psid en trk mb) (segOf psid i))

end

/-- What the range conjuncts of the precondition say of the integer inputs, and finiteness of the two float inputs
    the operator reads. -/
structure Dom (psid : Hits.Idx → BitVec 32) (pcf en : Hits.Idx → EReal) (aT aH : Alph.Idx → BitVec 32) : Prop where
  sid_lo : ∀ i, (-1 : ℤ) ≤ (psid i).toInt
  sid_hi : ∀ i, (psid i).toInt ≤ 19999
  aT_lo : ∀ j, (-1 : ℤ) ≤ (aT j).toInt
  aT_hi : ∀ j, (aT j).toInt ≤ 3999999
  aH_lo : ∀ j, (-1 : ℤ) ≤ (aH j).toInt
  aH_hi : ∀ j, (aH j).toInt ≤ 3999999
  pcf_fin : ∀ i, ∃ r : ℝ, pcf i = (r : EReal)
  en_fin : ∀ i, ∃ r : ℝ, en i = (r : EReal)

end Cert.Spec

end
-- ==== Proof.KI.HostCorr.lean ====
/-
  The two correction vectors the host computes between the kernel regions are the specification's.

  For each of the two alpha-index arrays (one entry per shower, an index into the per-hit columns or the sentinel -1)
  the host forms `valid = alpha ≥ 0`, replaces an invalid index by 0, reads the shower labels and the correction
  factors at that hit, and keeps the factor where the index is valid and the hit read is not noise (label -1), zero
  elsewhere; a zero is prepended for segment 0. Under the range facts `-1 ≤ alpha ≤ 3999999` a valid index is
  nonnegative as a signed word, so it is its own unsigned value, below the table's length: the wrap of negative
  indices is never taken and the gather's clamp changes nothing, and both gathers read exactly that hit. The sentinel
  is negative as a signed word and past every table index as an unsigned one, and both sides give zero. Segment
  `s > 0` of the result is shower `s - 1`'s value, which is the specification's `corr`.

  The buffers between the items of the host program are read stretch by stretch: each stretch, over an arbitrary
  valuation of the buffers before it, leaves in the buffer it writes a named function of what the valuation holds at
  the buffers it reads; the functions compose to one function `corrVec` of the launch contents, the same for the two
  vectors, and the range argument is made once, for `corrVec` at a point.
-/
import proofs.«422791_j81235011436601_4_alg».proof.Proof.Gen.KernelIdeal.Regions
import proofs.«422791_j81235011436601_4_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Host

open Cert.KernelIdeal Cert.KernelIdeal.Gen Idealize.ShloMosaic Idealize.ShloMosaic.ValueIdx Idealize.ShloMosaic.TcCoe

/-! ## The correction vector as a function of the argument arrays -/

/-- `valid = alpha ≥ 0`, as a signed comparison of words. -/
def validOf (al : IVec S20000 32) : IVec S20000 1 :=
  cmpi .sge al (broadcastInDim S20000 ![] bcast_S_S20000 (constantI S_ 32 0#32))

/-- `where(valid, alpha, 0)`. -/
def safeOf (valid : IVec S20000 1) (al : IVec S20000 32) (z : IVec S_ 32) : IVec S20000 32 :=
  select valid al (broadcastInDim S20000 ![] bcast_S_S20000 (id z))

/-- The gather's start indices `[idx, 0]`, the index first wrapped by the table's length where negative. -/
def idxOf (safe : IVec S20000 32) : IVec S20000x2 32 :=
  concatenate S20000x2 1
    [⟨S20000x1, broadcastInDim S20000x1 ![0] bcast_S20000_S20000x1_0
        (select (cmpi .slt safe (broadcastInDim S20000 ![] bcast_S_S20000 (constantI S_ 32 0#32)))
          (addi safe (broadcastInDim S20000 ![] bcast_S_S20000 (constantI S_ 32 4000000#32))) safe)⟩,
     ⟨S20000x1, broadcastInDim S20000x1 ![0] bcast_S20000_S20000x1_0
        (id (broadcastInDim S20000 ![] bcast_S_S20000 (constantI S_ 32 0#32)))⟩]
    concatenates_S20000x1_S20000x1_S20000x2_d1

/-- A per-hit column read at the start indices. -/
def gathOf {α : Type} (x : S4000000x1.Idx → α) (safe : IVec S20000 32) : S20000.Idx → α :=
  Host.gather gather_S4000000x1_S20000x2_S20000_n_01_n_n_01_1_11 x (idxOf safe)

/-- `valid ∧ ¬(sid_at == -1)`. -/
def condOf (psid : IVec S4000000x1 32) (valid : IVec S20000 1) (safe : IVec S20000 32) : IVec S20000 1 :=
  andi valid (noti (cmpi .eq (gathOf psid safe) (broadcastInDim S20000 ![] bcast_S_S20000 (constantI S_ 32 4294967295#32))))

/-- `where(cond, corr_at, 0)`. -/
def valOf (cond : IVec S20000 1) (g : S20000.Idx → EReal) (z : S_.Idx → EReal) : S20000.Idx → EReal :=
  select cond g (broadcastInDim S20000 ![] bcast_S_S20000 (id z))

/-- `concatenate([0], val)`. -/
def vecOf (val : S20000.Idx → EReal) : S20001.Idx → EReal :=
  concatenate S20001 0 [⟨S1, broadcastInDim S1 ![] bcast_S_S1 (constant (F := Ideal) S_ .f32 0x00000000#32)⟩, ⟨S20000, val⟩]
    concatenates_S1_S20000_S20001_d0

/-! ## Words -/

/-- A select on a Boolean's bit is the `if` on the Boolean. -/
theorem select_ofBool {α : Type} (b : Bool) (A B : α) : Scalar.select (BitVec.ofBool b) A B = if b then A else B := by
  cases b <;> simp [Scalar.select]

/-- `valid ∧ ¬noise` on bits. -/
theorem andi_noti_ofBool (b₁ b₂ : Bool) :
    IntOp.andi (BitVec.ofBool b₁) (~~~ BitVec.ofBool b₂) = BitVec.ofBool (b₁ && !b₂) := by
  cases b₁ <;> cases b₂ <;> decide

/-- The f32 zero pattern is the extended real zero. -/
theorem scalar_zero : (Scalar.ofBits (F := Ideal) .f32 0x00000000#32 : EReal) = 0 := Ideal.ofBits_zero_f32

/-- A word that is nonnegative as a signed integer is its own unsigned value. -/
theorem toInt_toNat_of_nonneg (a : BitVec 32) (h : 0 ≤ a.toInt) : a.toInt.toNat = a.toNat := by
  have e := BitVec.toInt_eq_toNat_cond a
  have hl := a.isLt
  by_cases h2 : 2 * a.toNat < 2 ^ 32
  · rw [if_pos h2] at e; omega
  · rw [if_neg h2] at e; omega

/-- A word that is -1 as a signed integer is past every table index as an unsigned one. -/
theorem toNat_of_neg (a : BitVec 32) (hlo : (-1 : ℤ) ≤ a.toInt) (h : ¬ 0 ≤ a.toInt) : ¬ a.toNat < 4000000 := by
  have e := BitVec.toInt_eq_toNat_cond a
  have hl := a.isLt
  by_cases h2 : 2 * a.toNat < 2 ^ 32
  · rw [if_pos h2] at e; omega
  · rw [if_neg h2] at e; omega

/-! ## The gather at a point -/

/-- The gather of a per-hit column at start indices `[idx, 0]` reads hit `idx`, the index read signed and clamped into
    the table. -/
theorem gather_hit_apply {α : Type} {w : Nat} (x : S4000000x1.Idx → α) (idx : IVec S20000x2 w) (j : Fin 20000) :
    Host.gather gather_S4000000x1_S20000x2_S20000_n_01_n_n_01_1_11 x idx (ix1 j)
      = x (ix2 (⟨min (idx (ix2 j (0 : Fin 2))).toInt.toNat 3999999, by omega⟩ : Fin 4000000) (0 : Fin 1)) := by
  have hcol : ∀ a : Fin 2, a ∈ ([0, 1] : List (Fin 2)) := by decide
  unfold Host.gather
  congr 1
  funext a
  refine Fin.ext ?_
  show GatherDims.start gather_S4000000x1_S20000x2_S20000_n_01_n_n_01_1_11 (ix1 j) idx a
    + GatherDims.batchCoord gather_S4000000x1_S20000x2_S20000_n_01_n_n_01_1_11 (ix1 j) a
    + GatherDims.offCoord gather_S4000000x1_S20000x2_S20000_n_01_n_n_01_1_11 (ix1 j) a = _
  rw [GatherDims.batchCoord_eq_zero _ _ _ List.not_mem_nil,
    GatherDims.offCoord_eq_zero _ _ _ (fun h => ((GatherDims.mem_sKept _ _).mp h).1 (hcol a))]
  simp only [Nat.add_zero]
  unfold GatherDims.start
  rw [dif_pos (show a ∈ gather_S4000000x1_S20000x2_S20000_n_01_n_n_01_1_11.startIndexMap from hcol a)]
  rcases a with ⟨_ | _ | a, ha⟩
  · have hsi : gather_S4000000x1_S20000x2_S20000_n_01_n_n_01_1_11.siIdx (ix1 j)
        ⟨List.idxOf (⟨0, ha⟩ : Fin 2) gather_S4000000x1_S20000x2_S20000_n_01_n_n_01_1_11.startIndexMap,
          List.idxOf_lt_length_iff.2 (hcol _)⟩ = ix2 j (0 : Fin 2) := by
      funext b; refine Fin.ext ?_
      match b with
      | ⟨0, _⟩ => rfl
      | ⟨1, _⟩ => rfl
    rw [hsi]
    rfl
  · show min _ (1 - 1) = 0
    omega
  · exact absurd ha (Nat.not_lt.2 (Nat.le_add_left 2 a))

/-! ## The correction at a point -/

section Point
variable (psid : IVec S4000000x1 32) (pcf : S4000000x1.Idx → EReal)

/-- The first column of the start indices at row `j`: the index, the table's length added where it is negative. -/
theorem idxOf_apply0 (safe : IVec S20000 32) (j : Fin 20000) :
    idxOf safe (ix2 j (0 : Fin 2))
      = Scalar.select (IntOp.cmpi .slt (safe (ix1 j)) 0#32) (IntOp.addi (safe (ix1 j)) 4000000#32) (safe (ix1 j)) := by
  unfold idxOf
  refine (concatenate_pair_apply_left (t := S20000x2) (s₁ := S20000x1) (s₂ := S20000x1) _ _ _ _ (ix2 j (0 : Fin 2)) rfl (ix2 j (0 : Fin 1))
    (fun b => by match b with | ⟨0, _⟩ => rfl | ⟨1, _⟩ => rfl)).trans ?_
  refine (broadcastInDim_apply _ _ _ (ix2 j (0 : Fin 1)) (ix1 j)
    (fun a => by match a with | ⟨0, _⟩ => exact (if_neg (by show ¬ (20000 : ℕ) = 1; decide)).symm)).trans ?_
  rfl

/-- The whole correction. -/
def corrVec (al : IVec S20000 32) : S20001.Idx → EReal :=
  vecOf (valOf (condOf psid (validOf al) (safeOf (validOf al) al (constantI S_ 32 0#32)))
    (gathOf pcf (safeOf (validOf al) al (constantI S_ 32 0#32))) (constant (F := Ideal) S_ .f32 0x00000000#32))

/-- At shower `j` the host's value is the specification's correction factor read at the shower's alpha index: for
    an index that names a hit, the signed comparison holds, nothing wraps or clamps, and both gathers read that hit;
    for the sentinel -1 the comparison fails and the value is zero. -/
theorem val_apply (al : IVec S20000 32) (j : Fin 20000) (hlo : (-1 : ℤ) ≤ (al (ix1 j)).toInt)
    (hhi : (al (ix1 j)).toInt ≤ 3999999) :
    valOf (condOf psid (validOf al) (safeOf (validOf al) al (constantI S_ 32 0#32)))
      (gathOf pcf (safeOf (validOf al) al (constantI S_ 32 0#32))) (constant (F := Ideal) S_ .f32 0x00000000#32) (ix1 j)
      = Cert.Spec.corrAt psid pcf (al (ix1 j)) := by
  generalize hsafe : safeOf (validOf al) al (constantI S_ 32 0#32) = safe
  generalize ha : al (ix1 j) = a at hlo hhi
  have hs : safe (ix1 j) = Scalar.select (BitVec.ofBool ((0#32).sle a)) a 0#32 := by
    rw [← hsafe, ← ha]; rfl
  show Scalar.select (IntOp.andi (validOf al (ix1 j)) (~~~ BitVec.ofBool (gathOf psid safe (ix1 j) == 4294967295#32)))
      (gathOf pcf safe (ix1 j)) (Scalar.ofBits (F := Ideal) .f32 0x00000000#32) = _
  have hv : validOf al (ix1 j) = BitVec.ofBool ((0#32).sle a) := by rw [← ha]; rfl
  rw [hv, andi_noti_ofBool, select_ofBool, scalar_zero]
  by_cases h0 : 0 ≤ a.toInt
  · have hsle : (0#32).sle a = true := by
      rw [BitVec.sle, decide_eq_true_eq]; simpa using h0
    have hlt : a.toNat < 4000000 := by
      have := toInt_toNat_of_nonneg a h0; omega
    have hsa : safe (ix1 j) = a := by rw [hs, hsle]; rfl
    have hw : idxOf safe (ix2 j (0 : Fin 2)) = a := by
      rw [idxOf_apply0, hsa]
      have hn : a.slt 0#32 = false := by
        rw [BitVec.slt, decide_eq_false_iff_not]; simpa using h0
      show Scalar.select (BitVec.ofBool (a.slt 0#32)) _ a = a
      rw [hn]; rfl
    have hg : ∀ {α : Type} (x : S4000000x1.Idx → α), gathOf x safe (ix1 j) = x (ix2 (⟨a.toNat, hlt⟩ : Fin 4000000) (0 : Fin 1)) := by
      intro α x
      unfold gathOf
      rw [gather_hit_apply]
      have : (⟨min (idxOf safe (ix2 j (0 : Fin 2))).toInt.toNat 3999999, by omega⟩ : Fin 4000000) = ⟨a.toNat, hlt⟩ :=
        Fin.ext (by show min (idxOf safe (ix2 j (0 : Fin 2))).toInt.toNat 3999999 = a.toNat
                    rw [hw, toInt_toNat_of_nonneg a h0]; omega)
      rw [this]
    rw [hg, hg, hsle]
    unfold Cert.Spec.corrAt
    rw [dif_pos hlt]
    by_cases hp : psid (ix2 (⟨a.toNat, hlt⟩ : Fin 4000000) (0 : Fin 1)) = 4294967295#32
    · rw [if_pos hp]; simp [hp]
    · rw [if_neg hp]; simp [hp]
  · have hsle : (0#32).sle a = false := by
      rw [BitVec.sle, decide_eq_false_iff_not]; simpa using h0
    rw [hsle]
    unfold Cert.Spec.corrAt
    rw [dif_neg (toNat_of_neg a hlo h0)]
    rfl

/-- THE CORRECTION VECTOR AT SEGMENT `s`: zero at segment 0 (the prepended entry), else shower `s - 1`'s value. -/
theorem corrVec_apply (al : IVec S20000 32) (hlo : ∀ j, (-1 : ℤ) ≤ (al j).toInt) (hhi : ∀ j, (al j).toInt ≤ 3999999)
    (s : Fin 20001) : corrVec psid pcf al (ix1 s) = Cert.Spec.corr psid pcf al s.val := by
  unfold corrVec vecOf Cert.Spec.corr
  by_cases hs : 0 < s.val
  · rw [dif_pos ⟨hs, s.isLt⟩]
    refine (concatenate_pair_apply_right (t := S20001) (s₁ := S1) (s₂ := S20000) _ _ _ _ (ix1 s) rfl rfl (ix1 (⟨s.val - 1, by omega⟩ : Fin 20000)) ?_ ?_).trans ?_
    · intro b hb
      have hb1 : b.val < 1 := b.isLt
      exact absurd (Fin.ext (by show b.val = 0; omega)) hb
    · show (s.val - 1) + 1 = s.val
      omega
    · exact val_apply psid pcf al ⟨s.val - 1, by omega⟩ (hlo _) (hhi _)
  · rw [dif_neg (fun h => hs h.1)]
    refine (concatenate_pair_apply_left (t := S20001) (s₁ := S1) (s₂ := S20000) _ _ _ _ (ix1 s) rfl (ix1 (0 : Fin 1)) ?_).trans ?_
    · intro b
      match b with
      | ⟨0, _⟩ => show 0 = s.val; omega
    · exact scalar_zero

end Point

/-! ## The host stretches, read at the buffers the corrections pass through

Each stretch is read over an arbitrary valuation `W` of the buffers before it: the buffer it writes holds the named
function of what `W` holds at the buffers it reads. -/

section Stages
variable (W : Valuation τ sig (Elt Ideal))

theorem s1_v13 : (StableHlo.after hostOps1 W main_v13 : IVec S20000 1) = validOf (W main_arg7) := by
  dsimp only [hostOps1]; after_results <;> rfl
theorem s1_c0 : (StableHlo.after hostOps1 W main_c_0 : IVec S_ 32) = constantI S_ 32 0#32 := by
  dsimp only [hostOps1]; after_results <;> rfl
theorem s2_v14 : (StableHlo.after hostOps1_1 W main_v14 : IVec S20000 32) = safeOf (W main_v13) (W main_arg7) (W main_c_0) := by
  dsimp only [hostOps1_1]; after_results <;> (try simp only [StableHlo.TRef.ofBuf, StableHlo.TRef.toBuf, cast_eq]) <;> rfl
set_option maxHeartbeats 4000000 in
theorem s3_v25 : (StableHlo.after hostOps1_2 W main_v25 : S20000.Idx → EReal) = gathOf (W main_arg1) (W main_v14) := by
  dsimp only [hostOps1_2]; after_results <;> rfl
set_option maxHeartbeats 4000000 in
theorem s3_v40 : (StableHlo.after hostOps1_2 W main_v40 : IVec S20000 1) = condOf (W main_arg0) (W main_v13) (W main_v14) := by
  dsimp only [hostOps1_2]; after_results <;> rfl
set_option maxHeartbeats 1000000 in
theorem s3_cst8 : (StableHlo.after hostOps1_2 W main_cst_8 : S_.Idx → EReal) = constant (F := Ideal) S_ .f32 0x00000000#32 := by
  dsimp only [hostOps1_2]; after_results <;> rfl
theorem s4_v41 : (StableHlo.after hostOps1_3 W main_v41 : S20000.Idx → EReal) = valOf (W main_v40) (W main_v25) (W main_cst_8) := by
  dsimp only [hostOps1_3]; after_results <;> (try simp only [StableHlo.TRef.ofBuf, StableHlo.TRef.toBuf, cast_eq]) <;> rfl
theorem s5_v43 : (StableHlo.after hostOps1_4 W main_v43 : S20001.Idx → EReal) = vecOf (W main_v41) := by
  dsimp only [hostOps1_4]; after_results <;> rfl

theorem t4_v45 : (StableHlo.after hostOps1_4 W main_v45 : IVec S20000 1) = validOf (W main_arg6) := by
  dsimp only [hostOps1_4]; after_results <;> rfl
theorem t4_c11 : (StableHlo.after hostOps1_4 W main_c_11 : IVec S_ 32) = constantI S_ 32 0#32 := by
  dsimp only [hostOps1_4]; after_results <;> rfl
theorem t5_v46 : (StableHlo.after hostOps1_5 W main_v46 : IVec S20000 32) = safeOf (W main_v45) (W main_arg6) (W main_c_11) := by
  dsimp only [hostOps1_5]; after_results <;> (try simp only [StableHlo.TRef.ofBuf, StableHlo.TRef.toBuf, cast_eq]) <;> rfl
set_option maxHeartbeats 4000000 in
theorem t6_v57 : (StableHlo.after hostOps1_6 W main_v57 : S20000.Idx → EReal) = gathOf (W main_arg1) (W main_v46) := by
  dsimp only [hostOps1_6]; after_results <;> rfl
set_option maxHeartbeats 4000000 in
theorem t6_v72 : (StableHlo.after hostOps1_6 W main_v72 : IVec S20000 1) = condOf (W main_arg0) (W main_v45) (W main_v46) := by
  dsimp only [hostOps1_6]; after_results <;> rfl
set_option maxHeartbeats 1000000 in
theorem t6_cst19 : (StableHlo.after hostOps1_6 W main_cst_19 : S_.Idx → EReal) = constant (F := Ideal) S_ .f32 0x00000000#32 := by
  dsimp only [hostOps1_6]; after_results <;> rfl
theorem t7_v73 : (StableHlo.after hostOps1_7 W main_v73 : S20000.Idx → EReal) = valOf (W main_v72) (W main_v57) (W main_cst_19) := by
  dsimp only [hostOps1_7]; after_results <;> (try simp only [StableHlo.TRef.ofBuf, StableHlo.TRef.toBuf, cast_eq]) <;> rfl
set_option maxHeartbeats 1000000 in
theorem t8_v75 : (StableHlo.after hostOps1_8 W main_v75 : S20001.Idx → EReal) = vecOf (W main_v73) := by
  dsimp only [hostOps1_8]; after_results <;> rfl

end Stages

/-! ## The two corrections -/

section Compose
variable (m : (ℓ : Loc nD τ sig) → Buf (Elt Ideal) ℓ) (outs : Outs (F := Ideal)) (c : Dev nD)

/-- The launch contents the corrections read: the shower labels, the correction factors, the two alpha-index arrays. -/
abbrev psid : IVec S4000000x1 32 := m ((c.tc : Thread nD τ).loc main_arg0)
abbrev pcf : S4000000x1.Idx → EReal := m ((c.tc : Thread nD τ).loc main_arg1)
abbrev aT : IVec S20000 32 := m ((c.tc : Thread nD τ).loc main_arg6)
abbrev aH : IVec S20000 32 := m ((c.tc : Thread nD τ).loc main_arg7)

/-- A buffer no item up to the fourth writes holds its launch contents. -/
theorem V4_keep (r : Ref sig .tc) (h1 : r ∉ hostOps0_W) (h2 : r ∉ ([main_v4] : List (Ref sig .tc))) (h3 : r ∉ hostOps1_W)
    (h4 : r ∉ hostOps1_1_W) : V4 m outs c r = V0 m c r :=
  (V4_of m outs c r h4).trans <| (V3_of m outs c r h3).trans <| (V2_of m outs c r h2).trans (V1_of m c r h1)
/-- … up to the eighth. -/
theorem V8_keep (r : Ref sig .tc) (h1 : r ∉ hostOps0_W) (h2 : r ∉ ([main_v4] : List (Ref sig .tc))) (h3 : r ∉ hostOps1_W)
    (h4 : r ∉ hostOps1_1_W) (h5 : r ∉ hostOps1_2_W) (h6 : r ∉ hostOps1_3_W) (h7 : r ∉ hostOps1_4_W) (h8 : r ∉ hostOps1_5_W) :
    V8 m outs c r = V0 m c r :=
  (V8_of m outs c r h8).trans <| (V7_of m outs c r h7).trans <| (V6_of m outs c r h6).trans <| (V5_of m outs c r h5).trans
    (V4_keep m outs c r h1 h2 h3 h4)

/-- The hits' correction vector is the named function of the launch contents. -/
theorem v43_eq : (V12 m outs c main_v43 : S20001.Idx → EReal) = corrVec (psid m c) (pcf m c) (aH m c) := by
  have e7 : (V12 m outs c main_v43 : S20001.Idx → EReal) = V7 m outs c main_v43 :=
    (V12_of m outs c main_v43 (by decide)).trans <| (V11_of m outs c main_v43 (by decide)).trans <|
      (V10_of m outs c main_v43 (by decide)).trans <| (V9_of m outs c main_v43 (by decide)).trans (V8_of m outs c main_v43 (by decide))
  have h43 : (V7 m outs c main_v43 : S20001.Idx → EReal) = vecOf (V6 m outs c main_v41) := s5_v43 (V6 m outs c)
  have h41 : (V6 m outs c main_v41 : S20000.Idx → EReal) = valOf (V5 m outs c main_v40) (V5 m outs c main_v25) (V5 m outs c main_cst_8) :=
    s4_v41 (V5 m outs c)
  have h40 : (V5 m outs c main_v40 : IVec S20000 1) = condOf (V4 m outs c main_arg0) (V4 m outs c main_v13) (V4 m outs c main_v14) :=
    s3_v40 (V4 m outs c)
  have h25 : (V5 m outs c main_v25 : S20000.Idx → EReal) = gathOf (V4 m outs c main_arg1) (V4 m outs c main_v14) := s3_v25 (V4 m outs c)
  have h8 : (V5 m outs c main_cst_8 : S_.Idx → EReal) = constant (F := Ideal) S_ .f32 0x00000000#32 := s3_cst8 (V4 m outs c)
  have h14 : (V4 m outs c main_v14 : IVec S20000 32) = safeOf (V3 m outs c main_v13) (V3 m outs c main_arg7) (V3 m outs c main_c_0) :=
    s2_v14 (V3 m outs c)
  have h13' : (V4 m outs c main_v13 : IVec S20000 1) = V3 m outs c main_v13 := V4_of m outs c main_v13 (by decide)
  have h13 : (V3 m outs c main_v13 : IVec S20000 1) = validOf (V2 m outs c main_arg7) := s1_v13 (V2 m outs c)
  have hc0 : (V3 m outs c main_c_0 : IVec S_ 32) = constantI S_ 32 0#32 := s1_c0 (V2 m outs c)
  have ha7' : (V3 m outs c main_arg7 : IVec S20000 32) = aH m c :=
    (V3_of m outs c main_arg7 (by decide)).trans <| (V2_of m outs c main_arg7 (by decide)).trans (V1_of m c main_arg7 (by decide))
  have ha7 : (V2 m outs c main_arg7 : IVec S20000 32) = aH m c :=
    (V2_of m outs c main_arg7 (by decide)).trans (V1_of m c main_arg7 (by decide))
  have ha0 : (V4 m outs c main_arg0 : IVec S4000000x1 32) = psid m c :=
    V4_keep m outs c main_arg0 (by decide) (by decide) (by decide) (by decide)
  have ha1 : (V4 m outs c main_arg1 : S4000000x1.Idx → EReal) = pcf m c :=
    V4_keep m outs c main_arg1 (by decide) (by decide) (by decide) (by decide)
  rw [e7, h43, h41, h40, h25, h8, h14, h13', h13, hc0, ha7', ha7, ha0, ha1]
  rfl

/-- The tracks' correction vector is the same function of the launch contents, at the tracks' alpha indices. -/
theorem v75_eq : (V12 m outs c main_v75 : S20001.Idx → EReal) = corrVec (psid m c) (pcf m c) (aT m c) := by
  have e11 : (V12 m outs c main_v75 : S20001.Idx → EReal) = V11 m outs c main_v75 := V12_of m outs c main_v75 (by decide)
  have h75 : (V11 m outs c main_v75 : S20001.Idx → EReal) = vecOf (V10 m outs c main_v73) := t8_v75 (V10 m outs c)
  have h73 : (V10 m outs c main_v73 : S20000.Idx → EReal) = valOf (V9 m outs c main_v72) (V9 m outs c main_v57) (V9 m outs c main_cst_19) :=
    t7_v73 (V9 m outs c)
  have h72 : (V9 m outs c main_v72 : IVec S20000 1) = condOf (V8 m outs c main_arg0) (V8 m outs c main_v45) (V8 m outs c main_v46) :=
    t6_v72 (V8 m outs c)
  have h57 : (V9 m outs c main_v57 : S20000.Idx → EReal) = gathOf (V8 m outs c main_arg1) (V8 m outs c main_v46) := t6_v57 (V8 m outs c)
  have h19 : (V9 m outs c main_cst_19 : S_.Idx → EReal) = constant (F := Ideal) S_ .f32 0x00000000#32 := t6_cst19 (V8 m outs c)
  have h46 : (V8 m outs c main_v46 : IVec S20000 32) = safeOf (V7 m outs c main_v45) (V7 m outs c main_arg6) (V7 m outs c main_c_11) :=
    t5_v46 (V7 m outs c)
  have h45' : (V8 m outs c main_v45 : IVec S20000 1) = V7 m outs c main_v45 := V8_of m outs c main_v45 (by decide)
  have h45 : (V7 m outs c main_v45 : IVec S20000 1) = validOf (V6 m outs c main_arg6) := t4_v45 (V6 m outs c)
  have hc11 : (V7 m outs c main_c_11 : IVec S_ 32) = constantI S_ 32 0#32 := t4_c11 (V6 m outs c)
  have ha6 : (V6 m outs c main_arg6 : IVec S20000 32) = aT m c :=
    (V6_of m outs c main_arg6 (by decide)).trans <| (V5_of m outs c main_arg6 (by decide)).trans
      (V4_keep m outs c main_arg6 (by decide) (by decide) (by decide) (by decide))
  have ha6' : (V7 m outs c main_arg6 : IVec S20000 32) = aT m c := (V7_of m outs c main_arg6 (by decide)).trans ha6
  have ha0 : (V8 m outs c main_arg0 : IVec S4000000x1 32) = psid m c :=
    V8_keep m outs c main_arg0 (by decide) (by decide) (by decide) (by decide) (by decide) (by decide) (by decide) (by decide)
  have ha1 : (V8 m outs c main_arg1 : S4000000x1.Idx → EReal) = pcf m c :=
    V8_keep m outs c main_arg1 (by decide) (by decide) (by decide) (by decide) (by decide) (by decide) (by decide) (by decide)
  rw [e11, h75, h73, h72, h57, h19, h46, h45', h45, hc11, ha6', ha6, ha0, ha1]
  rfl

/-- THE HITS' CORRECTION: at every segment the vector the host hands the second kernel is the specification's. -/
theorem corr_hits (hlo : ∀ j, (-1 : ℤ) ≤ (aH m c j).toInt) (hhi : ∀ j, (aH m c j).toInt ≤ 3999999) (s : Fin 20001) :
    (V12 m outs c main_v43 : S20001.Idx → EReal) (ix1 s) = Cert.Spec.corr (psid m c) (pcf m c) (aH m c) s.val := by
  rw [v43_eq]; exact corrVec_apply (psid m c) (pcf m c) (aH m c) hlo hhi s

/-- THE TRACKS' CORRECTION. -/
theorem corr_tracks (hlo : ∀ j, (-1 : ℤ) ≤ (aT m c j).toInt) (hhi : ∀ j, (aT m c j).toInt ≤ 3999999) (s : Fin 20001) :
    (V12 m outs c main_v75 : S20001.Idx → EReal) (ix1 s) = Cert.Spec.corr (psid m c) (pcf m c) (aT m c) s.val := by
  rw [v75_eq]; exact corrVec_apply (psid m c) (pcf m c) (aT m c) hlo hhi s

end Compose

end Cert.KernelIdeal.Host

end
-- ==== Proof.KI.Grid.lean ====
/-
  The two kernels' grids in closed form: the coordinates of the `t`-th point, each window's block index there, the points
  at which the pipeline fetches an input block or writes an output block back, and the kernel bodies' two branch
  conditions — all by arithmetic on `t` (row-major order, last axis fastest), with no enumeration of the 20000 points.

  First grid `[2, 625, 16]`: point `t` is core `t / 10000`, hit block `(t / 16) % 625`, segment chunk `t % 16`; the four
  per-hit streams sit at column block `core · 625 + hit block`, which changes every sixteenth point; the output block is
  the core's, written back at the core's last point. Second grid `[1250, 16]`: point `t` is hit block `t / 16`, chunk
  `t % 16`; the label stream and the output move with the hit block, the table of sums never moves.
-/
import proofs.«422791_j81235011436601_4_alg».proof.Proof.Gen.KernelIdeal.Launch
import Idealize.ShloMosaic.Lib.Pipeline.Kit

noncomputable section

namespace Cert.KernelIdeal.Hand.Grid

open Cert.KernelIdeal Cert.KernelIdeal.Gen
open Idealize.ShloMosaic Idealize.ShloMosaic.TcCoe
open Idealize.SL Idealize.SL.Sem

variable {F : FTy → Type} [FloatOps F]

/-! ## Fetch and write-back points from a window's block index -/

/-- An input window whose block index depends on the point through `f` is fetched at the first point and wherever `f`
    differs from its value at the point before. -/
theorem fetch_iff_change {G : Pipeline.Grid} (w : Pipeline.Window sig G) (hin : w.isOut = false) (f : ℕ → ℕ)
    (hidx : ∀ t t' : Fin G.N, w.index t = w.index t' ↔ f t.val = f t'.val) (t : Fin G.N) :
    w.fetch t = true ↔ (t.val = 0 ∨ (0 < t.val ∧ f t.val ≠ f (t.val - 1))) := by
  unfold Pipeline.Window.fetch
  rw [hin, Bool.not_false, Bool.true_and, Bool.or_eq_true, decide_eq_true_iff, decide_eq_true_iff]
  exact or_congr Iff.rfl ⟨fun ⟨h, hne⟩ => ⟨h, fun e => hne ((hidx _ _).mpr e)⟩,
    fun ⟨h, hne⟩ => ⟨h, fun e => hne ((hidx _ _).mp e)⟩⟩

/-- An output window whose block index depends on the point through `f` is written back at the last point and wherever
    `f` differs from its value at the next point. -/
theorem flush_iff_change {G : Pipeline.Grid} (w : Pipeline.Window sig G) (hout : w.isOut = true) (f : ℕ → ℕ)
    (hidx : ∀ t t' : Fin G.N, w.index t = w.index t' ↔ f t.val = f t'.val) (t : Fin G.N) :
    w.flush t = true ↔ (t.val + 1 = G.N ∨ (t.val + 1 < G.N ∧ f (t.val + 1) ≠ f t.val)) := by
  unfold Pipeline.Window.flush
  rw [hout, Bool.true_and, Bool.or_eq_true, decide_eq_true_iff, decide_eq_true_iff]
  exact or_congr Iff.rfl ⟨fun ⟨h, hne⟩ => ⟨h, fun e => hne ((hidx _ _).mpr e)⟩,
    fun ⟨h, hne⟩ => ⟨h, fun e => hne ((hidx _ _).mp e)⟩⟩

/-! ## The first grid -/

/-- Point `t` of the first grid is core `t / 10000`, hit block `(t / 16) % 625`, segment chunk `t % 16`. -/
theorem coords0 (t : Fin cfg0.N) :
    (grid0.coords t 0).val = t.val / 10000 ∧ (grid0.coords t 1).val = (t.val / 16) % 625 ∧ (grid0.coords t 2).val = t.val % 16 := by
  have ht : t.val < 20000 := lt_of_lt_of_eq t.isLt N_0
  have h0 : (grid0.coords t 0).val = t.val / 10000 % 2 := rfl
  have h1 : (grid0.coords t 1).val = t.val / 16 % 625 := rfl
  have h2 : (grid0.coords t 2).val = t.val / 1 % 16 := rfl
  refine ⟨by rw [h0]; omega, h1, by rw [h2]; omega⟩

/-- The column block of a per-hit stream: the core times 625 plus the hit block; the word arithmetic does not wrap. -/
theorem colblk (a b : ℕ) (ha : a < 2) (hb : b < 625) :
    (Scalar.addi (Scalar.muli (BitVec.ofNat 32 a) 625#32) (BitVec.ofNat 32 b)).toNat = a * 625 + b := by
  show (BitVec.ofNat 32 a * 625#32 + BitVec.ofNat 32 b).toNat = _
  rw [BitVec.toNat_add, BitVec.toNat_mul, BitVec.toNat_ofNat, BitVec.toNat_ofNat, BitVec.toNat_ofNat]
  omega

/-- The column block at point `t`, as a number. -/
theorem colblk_at (t : Fin cfg0.N) :
    (Scalar.addi (Scalar.muli (BitVec.ofNat 32 (grid0.coords t 0).val) 625#32) (BitVec.ofNat 32 (grid0.coords t 1).val)).toNat
      = (t.val / 10000) * 625 + (t.val / 16) % 625 := by
  obtain ⟨c0, c1, _⟩ := coords0 t
  rw [colblk _ _ (grid0.coords t 0).isLt (grid0.coords t 1).isLt, c0, c1]

/-- The four per-hit streams' block index at point `t`: row block 0, column block `core · 625 + hit block`. -/
theorem index0_0 (t : Fin cfg0.N) : win0_0.index t 0 = 0 ∧ win0_0.index t 1 = (t.val / 10000) * 625 + (t.val / 16) % 625 :=
  ⟨rfl, colblk_at t⟩
theorem index0_1 (t : Fin cfg0.N) : win0_1.index t 0 = 0 ∧ win0_1.index t 1 = (t.val / 10000) * 625 + (t.val / 16) % 625 :=
  ⟨rfl, colblk_at t⟩
theorem index0_2 (t : Fin cfg0.N) : win0_2.index t 0 = 0 ∧ win0_2.index t 1 = (t.val / 10000) * 625 + (t.val / 16) % 625 :=
  ⟨rfl, colblk_at t⟩
theorem index0_3 (t : Fin cfg0.N) : win0_3.index t 0 = 0 ∧ win0_3.index t 1 = (t.val / 10000) * 625 + (t.val / 16) % 625 :=
  ⟨rfl, colblk_at t⟩

/-- The output's block index is the core. -/
theorem index0_4 (t : Fin cfg0.N) : win0_4.index t 0 = t.val / 10000 ∧ win0_4.index t 1 = 0 ∧ win0_4.index t 2 = 0 := by
  refine ⟨?_, rfl, rfl⟩
  show (BitVec.ofNat 32 (grid0.coords t 0).val).toNat = _
  have h2 : (grid0.coords t 0).val < 2 := (grid0.coords t 0).isLt
  rw [BitVec.toNat_ofNat, (coords0 t).1] at *
  omega

/-- Two points read the same block of a per-hit stream exactly when their column blocks agree. -/
theorem idx_eq0_0 (t t' : Fin cfg0.N) : win0_0.index t = win0_0.index t'
    ↔ (t.val / 10000) * 625 + (t.val / 16) % 625 = (t'.val / 10000) * 625 + (t'.val / 16) % 625 :=
  ⟨fun h => by have h1 := congrFun h 1; rwa [(index0_0 t).2, (index0_0 t').2] at h1,
   fun h => funext fun a => by
    match a with
    | ⟨0, _⟩ => rfl
    | ⟨1, _⟩ => show win0_0.index t 1 = win0_0.index t' 1; rw [(index0_0 t).2, (index0_0 t').2]; exact h⟩
theorem idx_eq0_1 (t t' : Fin cfg0.N) : win0_1.index t = win0_1.index t'
    ↔ (t.val / 10000) * 625 + (t.val / 16) % 625 = (t'.val / 10000) * 625 + (t'.val / 16) % 625 :=
  ⟨fun h => by have h1 := congrFun h 1; rwa [(index0_1 t).2, (index0_1 t').2] at h1,
   fun h => funext fun a => by
    match a with
    | ⟨0, _⟩ => rfl
    | ⟨1, _⟩ => show win0_1.index t 1 = win0_1.index t' 1; rw [(index0_1 t).2, (index0_1 t').2]; exact h⟩
theorem idx_eq0_2 (t t' : Fin cfg0.N) : win0_2.index t = win0_2.index t'
    ↔ (t.val / 10000) * 625 + (t.val / 16) % 625 = (t'.val / 10000) * 625 + (t'.val / 16) % 625 :=
  ⟨fun h => by have h1 := congrFun h 1; rwa [(index0_2 t).2, (index0_2 t').2] at h1,
   fun h => funext fun a => by
    match a with
    | ⟨0, _⟩ => rfl
    | ⟨1, _⟩ => show win0_2.index t 1 = win0_2.index t' 1; rw [(index0_2 t).2, (index0_2 t').2]; exact h⟩
theorem idx_eq0_3 (t t' : Fin cfg0.N) : win0_3.index t = win0_3.index t'
    ↔ (t.val / 10000) * 625 + (t.val / 16) % 625 = (t'.val / 10000) * 625 + (t'.val / 16) % 625 :=
  ⟨fun h => by have h1 := congrFun h 1; rwa [(index0_3 t).2, (index0_3 t').2] at h1,
   fun h => funext fun a => by
    match a with
    | ⟨0, _⟩ => rfl
    | ⟨1, _⟩ => show win0_3.index t 1 = win0_3.index t' 1; rw [(index0_3 t).2, (index0_3 t').2]; exact h⟩
/-- Two points write the same output block exactly when they are of one core. -/
theorem idx_eq0_4 (t t' : Fin cfg0.N) : win0_4.index t = win0_4.index t' ↔ t.val / 10000 = t'.val / 10000 :=
  ⟨fun h => by have h0 := congrFun h 0; rwa [(index0_4 t).1, (index0_4 t').1] at h0,
   fun h => funext fun a => by
    match a with
    | ⟨0, _⟩ => show win0_4.index t 0 = win0_4.index t' 0; rw [(index0_4 t).1, (index0_4 t').1]; exact h
    | ⟨1, _⟩ => rfl
    | ⟨2, _⟩ => rfl⟩

/-- The column block changes exactly at the points ≡ 0 (mod 16). -/
theorem change16 (n : ℕ) (hn : n < 20000) :
    (n = 0 ∨ (0 < n ∧ (n / 10000) * 625 + (n / 16) % 625 ≠ ((n - 1) / 10000) * 625 + ((n - 1) / 16) % 625)) ↔ n % 16 = 0 := by
  omega

/-- Window 0 (the labels) is fetched at the points ≡ 0 (mod 16). -/
theorem fetch0_0 (t : Fin cfg0.N) : (cfg0.win 0).fetch t = true ↔ t.val % 16 = 0 :=
  (fetch_iff_change win0_0 rfl (fun n => (n / 10000) * 625 + (n / 16) % 625) idx_eq0_0 t).trans
    (change16 t.val (lt_of_lt_of_eq t.isLt N_0))
/-- Window 1 (the energies) is fetched at the points ≡ 0 (mod 16). -/
theorem fetch0_1 (t : Fin cfg0.N) : (cfg0.win 1).fetch t = true ↔ t.val % 16 = 0 :=
  (fetch_iff_change win0_1 rfl (fun n => (n / 10000) * 625 + (n / 16) % 625) idx_eq0_1 t).trans
    (change16 t.val (lt_of_lt_of_eq t.isLt N_0))
/-- Window 2 (the track flags) is fetched at the points ≡ 0 (mod 16). -/
theorem fetch0_2 (t : Fin cfg0.N) : (cfg0.win 2).fetch t = true ↔ t.val % 16 = 0 :=
  (fetch_iff_change win0_2 rfl (fun n => (n / 10000) * 625 + (n / 16) % 625) idx_eq0_2 t).trans
    (change16 t.val (lt_of_lt_of_eq t.isLt N_0))
/-- Window 3 (the minimum-bias flags) is fetched at the points ≡ 0 (mod 16). -/
theorem fetch0_3 (t : Fin cfg0.N) : (cfg0.win 3).fetch t = true ↔ t.val % 16 = 0 :=
  (fetch_iff_change win0_3 rfl (fun n => (n / 10000) * 625 + (n / 16) % 625) idx_eq0_3 t).trans
    (change16 t.val (lt_of_lt_of_eq t.isLt N_0))
/-- Window 4 (the output) is written back at the points ≡ 9999 (mod 10000): a core's last. -/
theorem flush0_4 (t : Fin cfg0.N) : (cfg0.win 4).flush t = true ↔ t.val % 10000 = 9999 := by
  have ht : t.val < 20000 := lt_of_lt_of_eq t.isLt N_0
  have hN : grid0.N = 20000 := N_0
  refine (flush_iff_change win0_4 rfl (fun n => n / 10000) idx_eq0_4 t).trans ?_
  show (t.val + 1 = grid0.N ∨ (t.val + 1 < grid0.N ∧ (t.val + 1) / 10000 ≠ t.val / 10000)) ↔ _
  omega

/-! ### The first kernel's two branch conditions -/

/-- A one-bit word widened is nonzero exactly when it is 1. -/
theorem widened_ne_zero (b : BitVec 1) : Scalar.cmpi .ne (Scalar.extui b) 0#32 = 1#1 ↔ b = 1#1 := by
  revert b; decide
/-- The conjunction of two bits is 1 exactly when both are. -/
theorem andi_eq_one (a b : BitVec 1) : Scalar.andi a b = 1#1 ↔ a = 1#1 ∧ b = 1#1 := by
  revert a b; decide
/-- The equality bit of a small number's word against a small literal's. -/
theorem cmpi_ofNat_eq (n k : ℕ) (hn : n < 4294967296) (hk : k < 4294967296) :
    Scalar.cmpi .eq (BitVec.ofNat 32 n) (BitVec.ofNat 32 k) = 1#1 ↔ n = k := by
  have hc : Scalar.cmpi .eq (BitVec.ofNat 32 n) (BitVec.ofNat 32 k) = BitVec.ofBool (BitVec.ofNat 32 n == BitVec.ofNat 32 k) := rfl
  rw [hc]
  constructor
  · intro h
    by_contra hne
    have hb : (BitVec.ofNat 32 n == BitVec.ofNat 32 k) = false := by
      rw [beq_eq_false_iff_ne]
      intro e
      have := congrArg BitVec.toNat e
      rw [BitVec.toNat_ofNat, BitVec.toNat_ofNat] at this
      omega
    rw [hb] at h
    exact absurd h (by decide)
  · rintro rfl
    rw [beq_self_eq_true]; rfl

/-- The reset's condition (hit block 0 and chunk 0), as the first kernel's body computes it. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The write-out's condition (hit block 624 and chunk 15). -/
abbrev cond0_1 (i : grid0.Coords) : Prop := k0_cond2 i = 1#1

theorem cond0_0_iff (i : grid0.Coords) : cond0_0 i ↔ (i 1).val = 0 ∧ (i 2).val = 0 := by
  have h1 : (i 1).val < 625 := (i 1).isLt
  have h2 : (i 2).val < 16 := (i 2).isLt
  unfold cond0_0
  rw [widened_ne_zero, andi_eq_one, cmpi_ofNat_eq _ 0 (by omega) (by omega), cmpi_ofNat_eq _ 0 (by omega) (by omega)]
theorem cond0_1_iff (i : grid0.Coords) : cond0_1 i ↔ (i 1).val = 624 ∧ (i 2).val = 15 := by
  have h1 : (i 1).val < 625 := (i 1).isLt
  have h2 : (i 2).val < 16 := (i 2).isLt
  show (Scalar.cmpi .ne (Scalar.extui (Scalar.andi (Scalar.cmpi .eq (BitVec.ofNat 32 (i 1).val) 624#32) (Scalar.cmpi .eq (BitVec.ofNat 32 (i 2).val) 15#32))) 0#32) = 1#1 ↔ _
  rw [widened_ne_zero, andi_eq_one, cmpi_ofNat_eq _ 624 (by omega) (by omega), cmpi_ofNat_eq _ 15 (by omega) (by omega)]

/-- The reset happens at a core's first point and nowhere else. -/
theorem hcond0_0 (t : Fin cfg0.N) : cond0_0 (grid0.coords t) ↔ t.val % 10000 = 0 := by
  have ht : t.val < 20000 := lt_of_lt_of_eq t.isLt N_0
  obtain ⟨_, c1, c2⟩ := coords0 t
  rw [cond0_0_iff, c1, c2]
  omega
/-- The write-out happens at a core's last point and nowhere else. -/
theorem hcond0_1 (t : Fin cfg0.N) : cond0_1 (grid0.coords t) ↔ t.val % 10000 = 9999 := by
  have ht : t.val < 20000 := lt_of_lt_of_eq t.isLt N_0
  obtain ⟨_, c1, c2⟩ := coords0 t
  rw [cond0_1_iff, c1, c2]
  omega

/-! ## The second grid -/

/-- Point `t` of the second grid is hit block `t / 16`, chunk `t % 16`. -/
theorem coords1 (t : Fin cfg1.N) : (grid1.coords t 0).val = t.val / 16 ∧ (grid1.coords t 1).val = t.val % 16 := by
  have ht : t.val < 20000 := lt_of_lt_of_eq t.isLt N_1
  have h0 : (grid1.coords t 0).val = t.val / 16 % 1250 := rfl
  have h1 : (grid1.coords t 1).val = t.val / 1 % 16 := rfl
  refine ⟨by rw [h0]; omega, by rw [h1]; omega⟩

/-- The hit block as a word is the hit block. -/
theorem hblk_word (t : Fin cfg1.N) : (BitVec.ofNat 32 (grid1.coords t 0).val).toNat = t.val / 16 := by
  have ht : t.val < 20000 := lt_of_lt_of_eq t.isLt N_1
  rw [BitVec.toNat_ofNat, (coords1 t).1]
  omega

theorem index1_0 (t : Fin cfg1.N) : win1_0.index t 0 = 0 ∧ win1_0.index t 1 = t.val / 16 := ⟨rfl, hblk_word t⟩
theorem index1_1 (t : Fin cfg1.N) : win1_1.index t 0 = 0 ∧ win1_1.index t 1 = 0 := ⟨rfl, rfl⟩
theorem index1_2 (t : Fin cfg1.N) : win1_2.index t 0 = 0 ∧ win1_2.index t 1 = t.val / 16 := ⟨rfl, hblk_word t⟩

theorem idx_eq1_0 (t t' : Fin cfg1.N) : win1_0.index t = win1_0.index t' ↔ t.val / 16 = t'.val / 16 :=
  ⟨fun h => by have h1 := congrFun h 1; rwa [(index1_0 t).2, (index1_0 t').2] at h1,
   fun h => funext fun a => by
    match a with
    | ⟨0, _⟩ => rfl
    | ⟨1, _⟩ => show win1_0.index t 1 = win1_0.index t' 1; rw [(index1_0 t).2, (index1_0 t').2]; exact h⟩
theorem idx_eq1_1 (t t' : Fin cfg1.N) : win1_1.index t = win1_1.index t' ↔ (0 : ℕ) = 0 :=
  ⟨fun _ => rfl, fun _ => funext fun a => by
    match a with
    | ⟨0, _⟩ => rfl
    | ⟨1, _⟩ => rfl⟩
theorem idx_eq1_2 (t t' : Fin cfg1.N) : win1_2.index t = win1_2.index t' ↔ t.val / 16 = t'.val / 16 :=
  ⟨fun h => by have h1 := congrFun h 1; rwa [(index1_2 t).2, (index1_2 t').2] at h1,
   fun h => funext fun a => by
    match a with
    | ⟨0, _⟩ => rfl
    | ⟨1, _⟩ => show win1_2.index t 1 = win1_2.index t' 1; rw [(index1_2 t).2, (index1_2 t').2]; exact h⟩

/-- Window 0 (the labels) is fetched at the points ≡ 0 (mod 16). -/
theorem fetch1_0 (t : Fin cfg1.N) : (cfg1.win 0).fetch t = true ↔ t.val % 16 = 0 := by
  refine (fetch_iff_change win1_0 rfl (fun n => n / 16) idx_eq1_0 t).trans ?_
  show (t.val = 0 ∨ (0 < t.val ∧ t.val / 16 ≠ (t.val - 1) / 16)) ↔ _
  omega
/-- Window 1 (the table of sums) is fetched at the first point only. -/
theorem fetch1_1 (t : Fin cfg1.N) : (cfg1.win 1).fetch t = true ↔ t.val % 20000 = 0 := by
  have ht : t.val < 20000 := lt_of_lt_of_eq t.isLt N_1
  refine (fetch_iff_change win1_1 rfl (fun _ => 0) idx_eq1_1 t).trans ?_
  show (t.val = 0 ∨ (0 < t.val ∧ (0 : ℕ) ≠ 0)) ↔ _
  omega
/-- Window 2 (the output) is written back at the points ≡ 15 (mod 16): a hit block's last. -/
theorem flush1_2 (t : Fin cfg1.N) : (cfg1.win 2).flush t = true ↔ t.val % 16 = 15 := by
  have ht : t.val < 20000 := lt_of_lt_of_eq t.isLt N_1
  have hN : grid1.N = 20000 := N_1
  refine (flush_iff_change win1_2 rfl (fun n => n / 16) idx_eq1_2 t).trans ?_
  show (t.val + 1 = grid1.N ∨ (t.val + 1 < grid1.N ∧ (t.val + 1) / 16 ≠ t.val / 16)) ↔ _
  omega

/-! ## The staging memrefs and the kernel bodies at a point -/

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)

/-- The first kernel's body at point `t`, on what the pipeline calls it with. -/
abbrev bodyAt0 (t : Fin cfg0.N) : Prog (TpuEff nD τ sig (Elt F) Λ₀ .tc) PUnit :=
  cc0__reduce_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _)

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The second kernel's body at point `t`, on what the pipeline calls it with. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.KernelIdeal.Hand.Grid

end
-- ==== Proof.KI.Reg0Body.lean ====
import proofs.«422791_j81235011436601_4_alg».proof.Proof.Gen.KernelIdeal.Launch
import proofs.«422791_j81235011436601_4_alg».proof.Proof.Gen.KernelIdeal.Skeleton
import proofs.«422791_j81235011436601_4_alg».proof.Proof.KI.Grid
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
Region 0 of the kernel program: the segment sum as a grid of one-hot matrix products, `(2, 625, 16)` points.
Each half of the grid (first coordinate) sums its 625 column blocks of the four input rows into an `8 × 20480`
scratch, 1280 segment columns at a time (third coordinate): the scratch is zeroed at the half's first point,
one 1280-column slice of it is updated at every point, and it is copied into the half's block of the
`[2, 8, 20480]` result at the half's last point, the only point that writes the block back.

Stated at a parameter `V` (the TensorCore's buffer contents when the region is entered) and for any float
family: the windows' blocks, what one point leaves in the scratch as named
functions of the input blocks and of the scratch's old contents, the body's triple in each of the three cases,
the contents after each point by recursion on the point, the pipeline's proof data and its body obligation.
-/

set_option maxRecDepth 16384
set_option Elab.async false

noncomputable section

namespace Cert.KernelIdeal.Hand

open Cert.KernelIdeal Cert.KernelIdeal.Gen
open Cert.KernelIdeal.Hand.Grid
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the segment sum's pipeline, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- A whole input block. -/
abbrev rI0 : Rect S1x3200 := Rect.unit (s := S1x3200) ![0, 0] S1x3200.size inb_S1x3200_S1x3200_0_0
/-- The whole scratch. -/
abbrev rW0 : Rect S8x20480 := Rect.unit (s := S8x20480) ![0, 0] S8x20480.size inb_S8x20480_S8x20480_0_0
/-- The whole output block. -/
abbrev rO0 : Rect S1x8x20480 := Rect.unit (s := S1x8x20480) ![0, 0, 0] S1x8x20480.size inb_S1x8x20480_S1x8x20480_0_0_0
/-- The scratch's slice of point `i`: all 8 rows, the 1280 columns from `i2 · 1280`. -/
abbrev rS0 (i : grid0.Coords) : Rect S8x20480 := Rect.unit (s := S8x20480) (k0_off1 i) S8x1280.size (k0_off1_inb i)

theorem zeros0_2 : (![0, 0] : Fin 2 → ℕ) = fun _ => 0 := by funext a; fin_cases a <;> rfl
theorem zeros0_3 : (![0, 0, 0] : Fin 3 → ℕ) = fun _ => 0 := by funext a; fin_cases a <;> rfl

/-! ## What one point leaves in the scratch and in the output block -/

/-- The slice's new contents: its old contents `old` plus the point's partial sums, which the body computes
    from the four input blocks (labels `x0`, energies `x1`, track flags `x2`, minimum-bias flags `x3`) and from
    the segment numbers of the slice (`i2`). -/
def acc0_slice (i : grid0.Coords) (x0 : Vec F S1x3200 .i32) (x1 : Vec F S1x3200 .f32) (x2 : Vec F S1x3200 .i32) (x3 : Vec F S1x3200 .i32)
    (old : Vec F S8x1280 .f32) : Vec F S8x1280 .f32 :=
  k0_pay1 (k0_pay7 x0 x1 x2) (k0_pay8 x0 x1 x2) (k0_pay9 x0 x1 x2 x3) (k0_pay10 x0) (k0_pay11 i) old

/-- The scratch after a point that does not reset it: the old contents `xs` everywhere but on the point's
    slice, which is updated from its own old contents. -/
def acc0_step (i : grid0.Coords) (x0 : Vec F S1x3200 .i32) (x1 : Vec F S1x3200 .f32) (x2 : Vec F S1x3200 .i32) (x3 : Vec F S1x3200 .i32)
    (xs : Vec F S8x20480 .f32) : Vec F S8x20480 .f32 :=
  (rS0 i).overlay xs (acc0_slice i x0 x1 x2 x3 (View.ld xs (rS0 i)))

/-- The scratch after a point that resets it: the same step from the all-zero scratch. -/
def acc0_init (i : grid0.Coords) (x0 : Vec F S1x3200 .i32) (x1 : Vec F S1x3200 .f32) (x2 : Vec F S1x3200 .i32) (x3 : Vec F S1x3200 .i32) :
    Vec F S8x20480 .f32 :=
  acc0_step i x0 x1 x2 x3 (k0_pay3 (F := F))

/-- The output block a writing point stores: the scratch `s` it has just updated, as one block of the
    `[2, 8, 20480]` result. -/
def out0_flush (s : Vec F S8x20480 .f32) : Vec F S1x8x20480 .f32 := k0_pay2 s

/-! ## Reading back what stores left -/

/-- A store read back: the payload on its rectangle, the earlier contents elsewhere. -/
theorem read_writes_cons_overlay0 {sg : RefSig} {κ : Kind} {sp : Space} {s : Shape} {e : EltTy} {Val : EltTy → Type}
    (v : View sg κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- A store through the whole shape replaces everything. -/
theorem overlay_unit_zero0 {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e
  exact e

/-! ## The body's triple, case by case

On whole staging memrefs holding the input blocks `x0 … x3`, with the scratch memref at `xs`, the body runs to
the continuation holding the inputs as they were and the scratch at the case's named contents. The accumulating
store covers only a slice of the scratch, so the old contents stay named (`xs`) and are kept off the slice. -/

set_option maxHeartbeats 1000000 in
/-- CASE A (the reset taken, the write-out not): the scratch, at anything before, ends at `acc0_init`; the
    output's buffer is handed back as found (`xi`). -/
theorem kernelRun0_A (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : cond0_0 i) (hc1 : ¬cond0_1 i) (x0 : Vec F S1x3200 .i32) (x1 : Vec F S1x3200 .f32) (x2 : Vec F S1x3200 .i32) (x3 : Vec F S1x3200 .i32)
    (xi : Vec F S1x8x20480 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (acc0_init i x0 x1 x2 x3)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  iexists _; isplitr
  swap; · iexact HS
  ipureintro
  sl_unfold_run_names
  dsimp only
  unfold acc0_init acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

set_option maxHeartbeats 1000000 in
/-- CASE B (neither taken): the scratch goes from `xs` to `acc0_step … xs`; the output's buffer is handed
    back as found (`xi`). -/
theorem kernelRun0_B (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : ¬cond0_0 i) (hc1 : ¬cond0_1 i) (x0 : Vec F S1x3200 .i32) (x1 : Vec F S1x3200 .f32) (x2 : Vec F S1x3200 .i32) (x3 : Vec F S1x3200 .i32) (xs : Vec F S8x20480 .f32)
    (xi : Vec F S1x8x20480 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (acc0_step i x0 x1 x2 x3 xs)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  iexists _; isplitr
  swap; · iexact HS
  ipureintro
  sl_unfold_run_names
  dsimp only
  unfold acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

set_option maxHeartbeats 1000000 in
/-- CASE C (the write-out taken, the reset not): the scratch goes from `xs` to `acc0_step … xs`, and the
    output's buffer, at anything before, ends at that scratch as a block. -/
theorem kernelRun0_C (c : Dev nD) (i : grid0.Coords)
    (arg3 : Memref sig .tc .vmem S1x3200 .i32) (harg3 : arg3.IsWhole) (arg4 : Memref sig .tc .vmem S1x3200 .f32) (harg4 : arg4.IsWhole)
    (arg5 : Memref sig .tc .vmem S1x3200 .i32) (harg5 : arg5.IsWhole) (arg6 : Memref sig .tc .vmem S1x3200 .i32) (harg6 : arg6.IsWhole)
    (arg7 : Memref sig .tc .vmem S1x8x20480 .f32) (harg7 : arg7.IsWhole) (arg8 : Memref sig .tc .vmem S8x20480 .f32) (harg8 : arg8.IsWhole)
    (hc0 : ¬cond0_0 i) (hc1 : cond0_1 i) (x0 : Vec F S1x3200 .i32) (x1 : Vec F S1x3200 .f32) (x2 : Vec F S1x3200 .i32) (x3 : Vec F S1x3200 .i32) (xs : Vec F S8x20480 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (out0_flush (acc0_step i x0 x1 x2 x3 xs))
            ∗ owns (c : Thread nD τ) arg8 fullShare (acc0_step i x0 x1 x2 x3 xs)) -∗ K ⟨⟩))
      ⊢ wp frame (wpE (defs₀ (F := F)) Variants.none c none) E (cc0__reduce_kernel i arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_run_names
    dsimp only
    unfold out0_flush acc0_step acc0_slice
    simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]
  iexists _; isplitr
  swap; · iexact HS
  ipureintro
  sl_unfold_run_names
  dsimp only
  unfold acc0_step acc0_slice
  simp only [View.readAt_eq_ld, read_writes_cons_overlay0, View.writes_nil, Memref.IsWhole.read_unread,
    View.ld_unit_zero (S := S1x3200) zeros0_2, View.ld_unit_zero (S := S8x20480) zeros0_2,
    overlay_unit_zero0 (S := S8x20480) zeros0_2, overlay_unit_zero0 (S := S1x8x20480) zeros0_3]

/-! ## Where the windows are idle, and where the output is written back -/

/-- The input windows are never idle. -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
theorem liveAt0_3 (i : grid0.Coords) : cfg0.idle 3 i = false := rfl

/-- The output window is idle exactly where the body does not store it: where the write-out's condition fails, -/
theorem idleAt0_4 (i : grid0.Coords) (h : ¬cond0_1 i) : cfg0.idle 4 i = true := by
  show (!(k0_cond2 i == 1#1)) = true
  rw [beq_eq_false_iff_ne.mpr h]; rfl

/-- and live where it holds. -/
theorem liveAt0_4 (i : grid0.Coords) (h : cond0_1 i) : cfg0.idle 4 i = false := by
  show (!(k0_cond2 i == 1#1)) = false
  rw [beq_iff_eq.mpr h]; rfl

/-- The pipeline writes the output block back only at the last point of each half. -/
theorem noFlush0_4 (t : Fin cfg0.N) (h : ¬t.val % 10000 = 9999) : (cfg0.win 4).flush t = false :=
  Bool.eq_false_iff.mpr fun hf => h ((flush0_4 t).mp hf)

/-! ## The memrefs the body is called with -/

/-- Each window's current staging memref at point `t`, and its wholeness. -/
abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3200 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3200 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x20480 .f32 := win0_4.stage (cfg0.slots t 4)
abbrev hs0_4 (t : Fin cfg0.N) : (ms0_4 t).IsWhole := hstage0_4 ((cfg0.slots t 4).cast nbuf0_4)
/-- The scratch: a whole scoped buffer of the kernel's own, which it carries from point to point. -/
abbrev scM0 : Memref sig .tc .vmem S8x20480 .f32 := Memref.whole cc0_scratch0

/-! ## The region's invariant -/

/-- The core's other scoped buffers (the second call's staging buffers and scratch), each at some contents:
    this region does not touch them. -/
def others0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the launch hands the region: the scratch at some contents, the other scoped buffers, the
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [others0, scM0, owns_whole]; try rfl

/-! ## What the output block and the scratch hold after each point -/

/-- THE ACCUMULATION. After the body at position `n`: the scratch (second component) is reset and stepped at
    the first point of each half of the grid, and stepped from what the point before left at every other point;
    the output window's staging contents (first component) are the scratch just updated, as a block. The body
    stores that block only at the last point of each half; at the other points the window is idle and is not
    written back, and nothing reads the first component there. -/
def outsAt0 (c : Dev nD) : (n : ℕ) → n < cfg0.N → Vec F S1x8x20480 .f32 × Vec F S8x20480 .f32
  | 0, hn =>
    (out0_flush (acc0_init (grid0.coords ⟨0, hn⟩) (iblk0 V c 0 ⟨0, hn⟩) (iblk0 V c 1 ⟨0, hn⟩) (iblk0 V c 2 ⟨0, hn⟩) (iblk0 V c 3 ⟨0, hn⟩)),
      acc0_init (grid0.coords ⟨0, hn⟩) (iblk0 V c 0 ⟨0, hn⟩) (iblk0 V c 1 ⟨0, hn⟩) (iblk0 V c 2 ⟨0, hn⟩) (iblk0 V c 3 ⟨0, hn⟩))
  | n + 1, hn =>
    if (n + 1) % 10000 = 0 then
      (out0_flush (acc0_init (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩)),
        acc0_init (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩))
    else
      (out0_flush (acc0_step (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2),
        acc0_step (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a resetting point (case A): the step from the all-zero scratch. -/
theorem outsAt0_A (c : Dev nD) (t : Fin cfg0.N) (h0 : t.val % 10000 = 0) :
    outsAt0 V c t.val t.isLt
      = (out0_flush (acc0_init (grid0.coords t) (iblk0 V c 0 t) (iblk0 V c 1 t) (iblk0 V c 2 t) (iblk0 V c 3 t)),
          acc0_init (grid0.coords t) (iblk0 V c 0 t) (iblk0 V c 1 t) (iblk0 V c 2 t) (iblk0 V c 3 t)) := by
  obtain ⟨n, hn⟩ := t
  cases n with
  | zero => rfl
  | succ n => exact if_pos h0

/-- At any other point: the step from what the point before left in the scratch. -/
theorem outsAt0_step (c : Dev nD) (t : Fin cfg0.N) (h0 : ¬t.val % 10000 = 0) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) := by
  obtain ⟨n, hn⟩ := t
  cases n with
  | zero => exact absurd (Nat.zero_mod _) h0
  | succ n => exact if_neg h0

/-- At a point that neither resets nor writes out (case B). -/
theorem outsAt0_B (c : Dev nD) (t : Fin cfg0.N) (h0 : ¬t.val % 10000 = 0) (h1 : ¬t.val % 10000 = 9999) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) :=
  outsAt0_step V c t h0

/-- At a point that writes out (case C): the same step; its first component is what the body stores. -/
theorem outsAt0_C (c : Dev nD) (t : Fin cfg0.N) (h0 : ¬t.val % 10000 = 0) (h1 : t.val % 10000 = 9999) :
    outsAt0 V c t.val t.isLt
      = (out0_flush (acc0_step (grid0.coords t) (iblk0 V c 0 t) (iblk0 V c 1 t) (iblk0 V c 2 t) (iblk0 V c 3 t)
            (outsAt0 V c (t.val - 1) (Nat.lt_of_le_of_lt (Nat.sub_le _ _) t.isLt)).2),
          acc0_step (grid0.coords t) (iblk0 V c 0 t) (iblk0 V c 1 t) (iblk0 V c 2 t) (iblk0 V c 3 t)
            (outsAt0 V c (t.val - 1) (Nat.lt_of_le_of_lt (Nat.sub_le _ _) t.isLt)).2) :=
  outsAt0_step V c t h0

/-- The region invariant before position `n`: before the first point what the launch hands over (the scratch at
    anything); afterwards the scratch at what the point before left in it, the other scoped buffers and the
    generator register as they were. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The proof data of the pipeline on core `c`: the arrays as the region finds them (`V`); after the body at
    point `t` each input's buffer at its block and the output's at `outsAt0`'s first component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_out (c : Dev nD) (t : Fin cfg0.N) : (dat0 V c).after 4 t = (outsAt0 V c t.val t.isLt).1 := by dsimp only [dat0]

/-- An input window's current staging buffer holds its block at every point, fetched there or not: between two
    fetches the block index does not move, and the body leaves the block in place. For any proof data whose
    array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The body hands each input's buffer back at its block. -/
theorem leaves0_0 (c : Dev nD) (t : Fin cfg0.N) :
    (dat0 V c).leavesExact 0 t = owns (c : Thread nD τ) (ms0_0 t) fullShare (iblk0 V c 0 t) := by
  have h : (dat0 V c).leavesExact 0 t = owns (c : Thread nD τ) (ms0_0 t) fullShare ((dat0 V c).after 0 t) := by
    unfold Dat.leavesExact; rw [liveAt0_0]
  rw [h, after0_0]
theorem leaves0_1 (c : Dev nD) (t : Fin cfg0.N) :
    (dat0 V c).leavesExact 1 t = owns (c : Thread nD τ) (ms0_1 t) fullShare (iblk0 V c 1 t) := by
  have h : (dat0 V c).leavesExact 1 t = owns (c : Thread nD τ) (ms0_1 t) fullShare ((dat0 V c).after 1 t) := by
    unfold Dat.leavesExact; rw [liveAt0_1]
  rw [h, after0_1]
theorem leaves0_2 (c : Dev nD) (t : Fin cfg0.N) :
    (dat0 V c).leavesExact 2 t = owns (c : Thread nD τ) (ms0_2 t) fullShare (iblk0 V c 2 t) := by
  have h : (dat0 V c).leavesExact 2 t = owns (c : Thread nD τ) (ms0_2 t) fullShare ((dat0 V c).after 2 t) := by
    unfold Dat.leavesExact; rw [liveAt0_2]
  rw [h, after0_2]
theorem leaves0_3 (c : Dev nD) (t : Fin cfg0.N) :
    (dat0 V c).leavesExact 3 t = owns (c : Thread nD τ) (ms0_3 t) fullShare (iblk0 V c 3 t) := by
  have h : (dat0 V c).leavesExact 3 t = owns (c : Thread nD τ) (ms0_3 t) fullShare ((dat0 V c).after 3 t) := by
    unfold Dat.leavesExact; rw [liveAt0_3]
  rw [h, after0_3]
/-- Where the body stores the output block it hands the buffer back at that block. -/
theorem leaves0_4_live (c : Dev nD) (t : Fin cfg0.N) (h1 : cond0_1 (grid0.coords t)) :
    (dat0 V c).leavesExact 4 t = owns (c : Thread nD τ) (ms0_4 t) fullShare ((outsAt0 V c t.val t.isLt).1) := by
  have h : (dat0 V c).leavesExact 4 t = owns (c : Thread nD τ) (ms0_4 t) fullShare ((dat0 V c).after 4 t) := by
    unfold Dat.leavesExact; rw [liveAt0_4 _ h1]
  rw [h, after0_out]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which case the point is
    in. The invariant hands the body the scratch at what the point before left (at anything before the first
    point) and takes it back at this point's contents. Where the body does not store the output block the window
    is idle and not written back, and its buffer goes back as found; where it does, the buffer goes back at the
    block. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 20000 := lt_of_lt_of_eq t.isLt (show cfg0.N = 20000 from N_0)
  by_cases h0 : t.val % 10000 = 0
  · have h1 : ¬t.val % 10000 = 9999 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 _ hc1) (noFlush0_4 t h1)]
    rw [outsAt0_A V c t h0]
    dsimp only
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    by_cases h1 : t.val % 10000 = 9999
    · have hc1 : cond0_1 (grid0.coords t) := (hcond0_1 t).mpr h1
      rw [leaves0_4_live V c t hc1]
      rw [outsAt0_C V c t h0 h1]
      dsimp only
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 _ hc1) (noFlush0_4 t h1)]
      rw [outsAt0_B V c t h0 h1]
      dsimp only
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 20000 := N_0; omega)

end Cert.KernelIdeal.Hand

end
-- ==== Proof.KI.Reg1Body.lean ====
/- Region 1 of @main: the gather kernel as a pipeline over the grid (1250, 16), at any float family and at a parameter
   `V` (the TensorCore's buffer contents when the region is entered).

   The kernel sweeps, for each block of 3200 labels (outer coordinate), the sixteen column chunks of the table (inner
   coordinate): at inner coordinate 0 it zeroes an accumulator, at every point it adds to the accumulator the one-hot
   product of the table's chunk with the labels, and at inner coordinate 15 it stores the output block computed from
   the accumulator. So the accumulator is carried from point to point, and the output window is stored (and written
   back) only at the points with inner coordinate 15 and idle elsewhere.

   Here: the two conditions in closed form (the inner coordinate of point `t` is `t mod 16`); the body's triple in
   each of the three cases, with the accumulator's new contents named as a function of the inputs and of its old
   contents (`acc1_init`, `acc1_step`) and the stored block named `out1_flush`; what the output's buffer and the
   accumulator hold after each point, by recursion on the point (`outsAt1`) with one equation per case; the region
   invariant (the accumulator owned at what the point before left); the pipeline's proof data and its body obligation. -/
import proofs.«422791_j81235011436601_4_alg».proof.Proof.Gen.KernelIdeal.Launch
import proofs.«422791_j81235011436601_4_alg».proof.Proof.Gen.KernelIdeal.Skeleton
import proofs.«422791_j81235011436601_4_alg».proof.Proof.KI.Grid
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384
set_option Elab.async false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the gather kernel (pipeline 1), at the entry contents `V` -/

/-! ## The body's branch conditions -/

/-- The body's first conditional (the reset of the accumulator), from the grid coordinates. -/
abbrev cond1_0 (i : grid1.Coords) : Prop := (Scalar.cmpi .ne (Scalar.extui (Scalar.cmpi .eq (BitVec.ofNat 32 (i 1).val) 0#32)) 0#32) = 1#1
/-- The body's second conditional (the store of the output block), from the grid coordinates. -/
abbrev cond1_1 (i : grid1.Coords) : Prop := k1_cond2 i = 1#1

/-- Point `t` has inner coordinate `t mod 16`: the inner axis is the fastest, of bound 16. -/
theorem coord1_1 (t : Fin cfg1.N) : ((grid1.coords t) 1).val = t.val % 16 := by
  show t.val / grid1.stride 1 % 16 = t.val % 16
  rw [show grid1.stride 1 = 1 from by decide, Nat.div_one]

/-- The reset happens exactly where the inner coordinate is 0: sixteen values to try. -/
theorem cond1_0_iff (i : grid1.Coords) : cond1_0 i ↔ (i 1).val = 0 :=
  (by decide : ∀ j : Fin 16, (Scalar.cmpi .ne (Scalar.extui (Scalar.cmpi .eq (BitVec.ofNat 32 j.val) 0#32)) 0#32) = 1#1 ↔ j.val = 0) (i 1)

/-- The output block is stored exactly where the inner coordinate is 15. -/
theorem cond1_1_iff (i : grid1.Coords) : cond1_1 i ↔ (i 1).val = 15 :=
  (by decide : ∀ j : Fin 16, (Scalar.cmpi .ne (Scalar.extui (Scalar.cmpi .eq (BitVec.ofNat 32 j.val) 15#32)) 0#32) = 1#1 ↔ j.val = 15) (i 1)

theorem hcond1_0 (t : Fin cfg1.N) : cond1_0 (grid1.coords t) ↔ t.val % 16 = 0 := by
  rw [cond1_0_iff, coord1_1]
theorem hcond1_1 (t : Fin cfg1.N) : cond1_1 (grid1.coords t) ↔ t.val % 16 = 15 := by
  rw [cond1_1_iff, coord1_1]

/-! ## What a point leaves in the accumulator and in the output block -/

/-- The whole-buffer rectangles are at zero offsets. -/
theorem zeroOff1 : (![0, 0] : Fin 2 → Nat) = fun _ => 0 := by funext a; fin_cases a <;> rfl

/-- The columns of the table the point reads: all five rows, the 1280 columns from `1280 · i₁`. -/
abbrev rT1 (i : grid1.Coords) : Rect S5x20480 := Rect.unit (s := S5x20480) (k1_off1 i) S5x1280.size (k1_off1_inb i)

/-- One accumulation step: the accumulator `xs` plus the one-hot product of the table's column chunk with the
    labels' block (the body's payload over the three values it loads). -/
def acc1_step (i : grid1.Coords) (lab : Vec F S1x3200 .i32) (tab : Vec F S5x20480 .f32) (xs : Vec F S5x3200 .f32) : Vec F S5x3200 .f32 :=
  k1_pay2 i lab (View.ld tab (rT1 i)) xs

/-- The first step of a block's sweep: the accumulator is zeroed, then stepped. -/
def acc1_init (i : grid1.Coords) (lab : Vec F S1x3200 .i32) (tab : Vec F S5x20480 .f32) : Vec F S5x3200 .f32 :=
  acc1_step i lab tab (k1_pay1 (F := F))

/-- The output block stored at the last step of a sweep, from the accumulator it then holds. -/
def out1_flush (xs : Vec F S5x3200 .f32) : Vec F S5x3200 .f32 := k1_pay3 xs

/-- A point that stores no output block: a placeholder nothing reads (the window is idle there). -/
def out1_idle : Vec F S5x3200 .f32 := View.canon []

/-- A store through the accumulator-shaped whole rectangle, last, covers the buffer. -/
theorem cover1 (w : Vec F S5x3200 .f32) (L : List (View.Piece (Elt F) S5x3200 .f32)) (y : S5x3200.Idx) :
    ∃ pc ∈ ((⟨Rect.unit (s := S5x3200) ![0, 0] S5x3200.size inb_S5x3200_S5x3200_0_0, w⟩ : View.Piece (Elt F) S5x3200 .f32) :: L), y ∈ pc.1.set :=
  ⟨_, List.mem_cons_self, View.mem_set_unit_zero zeroOff1 inb_S5x3200_S5x3200_0_0 y⟩

/-! ## The body's triple, case by case -/

set_option maxHeartbeats 1000000 in
/-- CASE A (reset taken, output not stored). On whole memrefs — the labels' and the table's at read contents, the
    output's at contents handed back untouched, the accumulator at anything — the body runs to the continuation
    holding the accumulator at `acc1_init` of the two inputs. -/
theorem kernelRun1_A (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : cond1_0 i) (hc1 : ¬cond1_1 i)
    (x0 : Vec F S1x3200 .i32) (x1 : Vec F S5x20480 .f32) (xi2 : Vec F S5x3200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (acc1_init i x0 x1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (cover1 _ _), View.canon_cons_unit_zero zeroOff1, View.readAt_eq_ld, View.readAt_eq_ld,
    hf0, hf1, View.ld_unit_zero zeroOff1, View.readCov_unit_zero _ zeroOff1]
  rfl

set_option maxHeartbeats 1000000 in
/-- CASE B (neither conditional taken). The accumulator, handed over at `xs`, is left at `acc1_step` of the two
    inputs and `xs`; the output's memref is handed back untouched. -/
theorem kernelRun1_B (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : ¬cond1_0 i) (hc1 : ¬cond1_1 i)
    (x0 : Vec F S1x3200 .i32) (x1 : Vec F S5x20480 .f32) (xi2 : Vec F S5x3200 .f32) (xs : Vec F S5x3200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (acc1_step i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [View.read_writes_eq_canon _ _ _ (cover1 _ _), View.canon_cons_unit_zero zeroOff1, View.readAt_eq_ld, View.readAt_eq_ld,
    View.readAt_eq_ld, hf0, hf1, hfs0, View.ld_unit_zero zeroOff1, View.ld_unit_zero zeroOff1]
  rfl

set_option maxHeartbeats 1000000 in
/-- CASE C (no reset, output stored). The accumulator, handed over at `xs`, is left at `acc1_step` of the two inputs
    and `xs`, and the output's memref, handed over at anything, at `out1_flush` of that. -/
theorem kernelRun1_C (c : Dev nD) (i : grid1.Coords) (arg2 : Memref sig .tc .vmem S1x3200 .i32) (harg2 : arg2.IsWhole) (arg3 : Memref sig .tc .vmem S5x20480 .f32) (harg3 : arg3.IsWhole) (arg4 : Memref sig .tc .vmem S5x3200 .f32) (harg4 : arg4.IsWhole) (arg5 : Memref sig .tc .vmem S5x3200 .f32) (harg5 : arg5.IsWhole) (hc0 : ¬cond1_0 i) (hc1 : cond1_1 i)
    (x0 : Vec F S1x3200 .i32) (x1 : Vec F S5x20480 .f32) (xs : Vec F S5x3200 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (out1_flush (acc1_step i x0 x1 xs)) ∗ owns (c : Thread nD τ) arg5 fullShare (acc1_step i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (cover1 _ _), View.canon_cons_unit_zero zeroOff1, View.readCov_unit_zero _ zeroOff1,
      View.readAt_eq_ld, View.readAt_eq_ld, View.readAt_eq_ld, hf0, hf1, hfs0, View.ld_unit_zero zeroOff1, View.ld_unit_zero zeroOff1]
    rfl
  iexists _; isplitr
  swap; · iexact HS0
  ipureintro
  sl_unfold_run_names
  rw [View.read_writes_eq_canon _ _ _ (cover1 _ _), View.canon_cons_unit_zero zeroOff1, View.readAt_eq_ld, View.readAt_eq_ld,
    View.readAt_eq_ld, hf0, hf1, hfs0, View.ld_unit_zero zeroOff1, View.ld_unit_zero zeroOff1]
  rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The labels' current staging buffer holds the labels' block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the table, whose one block (the whole array) is fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer and the accumulator hold after each point -/

/-- THE ACCUMULATION. After the body at position `n`: (the output window's staging contents, the accumulator's).
    A point with inner coordinate 0 restarts the accumulator from the point's blocks; every other point steps what
    the point before left; the point with inner coordinate 15 also stores the output block computed from the
    accumulator it has just stepped. -/
def outsAt1 (c : Dev nD) : (n : ℕ) → n < cfg1.N → Vec F S5x3200 .f32 × Vec F S5x3200 .f32
  | 0, hn => (out1_idle, acc1_init (grid1.coords ⟨0, hn⟩) (iblk1 V c 0 ⟨0, hn⟩) (iblk1 V c 1 ⟨0, hn⟩))
  | n + 1, hn =>
    if h0 : (n + 1) % 16 = 0 then
      (out1_idle, acc1_init (grid1.coords ⟨n + 1, hn⟩) (iblk1 V c 0 ⟨n + 1, hn⟩) (iblk1 V c 1 ⟨n + 1, hn⟩))
    else
      if h1 : (n + 1) % 16 = 15 then
        (out1_flush (acc1_step (grid1.coords ⟨n + 1, hn⟩) (iblk1 V c 0 ⟨n + 1, hn⟩) (iblk1 V c 1 ⟨n + 1, hn⟩) (outsAt1 c n (Nat.lt_of_succ_lt hn)).2),
          acc1_step (grid1.coords ⟨n + 1, hn⟩) (iblk1 V c 0 ⟨n + 1, hn⟩) (iblk1 V c 1 ⟨n + 1, hn⟩) (outsAt1 c n (Nat.lt_of_succ_lt hn)).2)
      else
        (out1_idle, acc1_step (grid1.coords ⟨n + 1, hn⟩) (iblk1 V c 0 ⟨n + 1, hn⟩) (iblk1 V c 1 ⟨n + 1, hn⟩) (outsAt1 c n (Nat.lt_of_succ_lt hn)).2)

/-- `outsAt1` at a point of case A (inner coordinate 0): the accumulator restarted. -/
theorem outsAt1_A (c : Dev nD) (t : Fin cfg1.N) (h0 : t.val % 16 = 0) :
    outsAt1 V c t.val t.isLt = (out1_idle, acc1_init (grid1.coords t) (iblk1 V c 0 t) (iblk1 V c 1 t)) := by
  obtain ⟨n, hn⟩ := t
  cases n with
  | zero => exact rfl
  | succ n => exact (dif_pos h0).trans rfl

/-- `outsAt1` at a point of case B (inner coordinate neither 0 nor 15): one step over what the point before left. -/
theorem outsAt1_B (c : Dev nD) (t : Fin cfg1.N) (h0 : ¬t.val % 16 = 0) (h1 : ¬t.val % 16 = 15) :
    outsAt1 V c t.val t.isLt = (out1_idle, acc1_step (grid1.coords t) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (inner coordinate 15): one step over what the point before left, and the output
    block stored from the stepped accumulator. -/
theorem outsAt1_C (c : Dev nD) (t : Fin cfg1.N) (h1 : t.val % 16 = 15) :
    outsAt1 V c t.val t.isLt = (out1_flush (acc1_step (grid1.coords t) (iblk1 V c 0 t) (iblk1 V c 1 t) (outsAt1 V c (t.val - 1) (Nat.lt_of_le_of_lt (Nat.sub_le _ _) t.isLt)).2),
      acc1_step (grid1.coords t) (iblk1 V c 0 t) (iblk1 V c 1 t) (outsAt1 V c (t.val - 1) (Nat.lt_of_le_of_lt (Nat.sub_le _ _) t.isLt)).2) := by
  obtain ⟨n, hn⟩ := t
  have h0 : ¬n % 16 = 0 := by (try dsimp only at h1); omega
  cases n with
  | zero => exact (by exfalso; (try dsimp only at h1); omega)
  | succ n => exact (dif_neg h0).trans ((dif_pos h1).trans rfl)

/-! ## The region invariant -/

/-- The accumulator: a whole scoped buffer of the kernel's own, passed beside the windows and carried between points. -/
abbrev scM1 : Memref sig .tc .vmem S5x3200 .f32 := Memref.whole cc1_scratch0

/-- The core's other scoped buffers that are no staging buffer of this call (the other call's staging buffers and
    accumulator), each at some contents: carried unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest of this call split at its accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ rest1 c) :=
  Pipeline.scopedRest_split_of_list spec1 c [cc1_scratch0] (by decide) (by decide)

/-- The class's invariant with the accumulator as a memref owned at some contents: what the body obligation hands the
    run before the first point and what the region gives back. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The region invariant before position `n`: before the first point the class's (every scoped buffer at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_out (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Where the windows are idle, and where the output is written back -/

/-- The inputs are never idle. -/
theorem liveAt1_0 (t : Fin cfg1.N) : cfg1.idle 0 (grid1.coords t) = false := rfl
theorem liveAt1_1 (t : Fin cfg1.N) : cfg1.idle 1 (grid1.coords t) = false := rfl
/-- The output is idle exactly where its store is not taken. -/
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
/-- Off the points with inner coordinate 15 the output's block is not written back. -/
theorem noFlush1_2 (t : Fin cfg1.N) (h : ¬t.val % 16 = 15) : (cfg1.win 2).flush t = false := by
  rw [← Bool.not_eq_true]; exact fun hf => h ((Grid.flush1_2 t).mp hf)

/-! ## The body obligation, at a generic point -/

/-- Each window's current staging memref at point `t`, spelled as the pipeline passes it, and its wholeness. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5x20480 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5x3200 .f32 := win1_2.stage (cfg1.slots t 2)
abbrev hs1_2 (t : Fin cfg1.N) : (ms1_2 t).IsWhole := hstage1_2 ((cfg1.slots t 2).cast nbuf1_2)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the inner coordinate says which case the point is in;
    the invariant hands the body the accumulator at what the point before left (at anything at the first point) and
    takes it back at this point's contents; where the output is not stored its memref goes back as it came, the
    window being idle and not written back there; the core owes nothing throughout. -/
theorem sound_body1 (c : Dev nD) (t : Fin cfg1.N) :
    bodyPre1 V c t ⊢ wp frame (wpE (defs₀ (F := F)) Variants.none c none) Set.univ (Grid.bodyAt1 t) (fun _ => bodyPost1 V c t) := by
  unfold bodyPre1 bodyPost1 Grid.bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 20000 := lt_of_lt_of_eq t.isLt (show cfg1.N = 20000 from N_1)
  by_cases h0 : t.val % 16 = 0
  · -- case A: the accumulator restarted
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t (by omega))]
    rw [outsAt1_A V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply (kernelRun1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    by_cases h1 : t.val % 16 = 15
    · -- case C: one step, and the output block stored
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_out]
      rw [outsAt1_C V c t h1]
      rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · -- case B: one step
      have hc1 : ¬cond1_1 (grid1.coords t) := fun h => h1 ((hcond1_1 t).mp h)
      rw [Dat.leavesExact_idle (dat1 V c) 2 t (idleAt1_2 t hc1) (noFlush1_2 t h1)]
      rw [outsAt1_B V c t h0 h1]
      rw [PhiS1_castSucc V c t, PhiS1_pos V c _ _ hz]
      iintro ⟨⟨⟨HS0, HR⟩, Hg⟩, Ho, ⟨%d0, H0⟩, ⟨%d1, H1⟩, ⟨%d2, H2⟩⟩
      iapply (kernelRun1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]; · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20000 := N_1; omega)

end Cert.KernelIdeal.Hand

end
-- ==== Proof.KI.Run.lean ====
/-
  The run of @main with the values of its results.

  Between two of @main's fourteen items a core holds every unscoped buffer whole, at a valuation computed from the
  launch memory: a host stretch maps the valuation through its operations, a kernel region changes it at the one
  array the region writes. The first part proves that every weakly fair execution terminates with the five result
  buffers at the last valuation and the nine argument buffers as launched, GIVEN a segment record per region. The
  second part builds the two records from the regions' proof data: a region's arrays are split out of the unscoped
  buffers at entry and put back at exit, the inputs as entered, the output at the fold of its write-backs. The
  contents the regions leave are then fixed in two stages, because what the second region leaves depends on what
  the first left.
-/
import proofs.«422791_j81235011436601_4_alg».proof.Proof.Gen.KernelIdeal.Regions
import proofs.«422791_j81235011436601_4_alg».proof.Proof.KI.Reg0Body
import proofs.«422791_j81235011436601_4_alg».proof.Proof.KI.Reg1Body
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

-- decided memberships among the program's 155 references recurse past the default depth
set_option maxRecDepth 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-! ## The run, given the regions' records -/

section Cond

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. Under the hypotheses of the conditional frame (any user algebra, level
    assignment, launch dues and ghost resources; rest states `E` made on every core at the launch and ending with
    nothing owed; contents `outs` the regions leave; per region a segment record entered from the thread state before it
    and left at the one after it), every weakly fair execution of @main from memory `m` with zero counters terminates,
    and every final memory holds, on every core, each of the five results at the last valuation `V14 m outs c` and
    each of the nine arguments as launched. The thread state at the end holds EVERY unscoped buffer at `V14`, so the
    results are read off it exactly as the arguments are. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c)) :
    θ_run defs (onTc (τ := τ) (main (F := F))) ⟨m, fun _ => 0, ρ⟩ (fun r => ∀ c : Dev nD,
      r.2.mem ((c.tc : Thread nD τ).loc main_v87) = V14 m outs c main_v87
      ∧ r.2.mem ((c.tc : Thread nD τ).loc main_v89) = V14 m outs c main_v89
      ∧ r.2.mem ((c.tc : Thread nD τ).loc main_v91) = V14 m outs c main_v91
      ∧ r.2.mem ((c.tc : Thread nD τ).loc main_v93) = V14 m outs c main_v93
      ∧ r.2.mem ((c.tc : Thread nD τ).loc main_v95) = V14 m outs c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, .rfl, .rfl, .rfl, .rfl, .rfl, .rfl, .rfl, .rfl, .rfl, hpre1 c, hpost1 c, sep_mono .rfl (hE2 c)⟩)
    (hinit := ?_) (QY := fun c s => s.mem ((c.tc : Thread nD τ).loc main_v87) = V14 m outs c main_v87 ∧ s.mem ((c.tc : Thread nD τ).loc main_v89) = V14 m outs c main_v89 ∧ s.mem ((c.tc : Thread nD τ).loc main_v91) = V14 m outs c main_v91 ∧ s.mem ((c.tc : Thread nD τ).loc main_v93) = V14 m outs c main_v93 ∧ s.mem ((c.tc : Thread nD τ).loc main_v95) = V14 m outs c main_v95 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v87) (Finset.mem_filter.mpr ⟨StableHlo.devRef_mem_tcRefs main_v87, by decide⟩),
        h (Proc.devRef .tc main_v89) (Finset.mem_filter.mpr ⟨StableHlo.devRef_mem_tcRefs main_v89, by decide⟩),
        h (Proc.devRef .tc main_v91) (Finset.mem_filter.mpr ⟨StableHlo.devRef_mem_tcRefs main_v91, by decide⟩),
        h (Proc.devRef .tc main_v93) (Finset.mem_filter.mpr ⟨StableHlo.devRef_mem_tcRefs main_v93, by decide⟩),
        h (Proc.devRef .tc main_v95) (Finset.mem_filter.mpr ⟨StableHlo.devRef_mem_tcRefs main_v95, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c)⟩
    · iexact HSI

end Cond

/-! ## The contents the regions leave

What the second region leaves is computed from the buffers it is entered at, and those depend on what the first
region left. So the contents are fixed in two stages: a family that has the first region's array right and every other
entry at the launch contents; then the final family, which differs from the first only at the second region's
array. The buffers at the second region's entry read the family only at the first region's array, where the two
stages agree. -/

section Outs

variable (m : (ℓ : Loc nD τ sig) → Buf (Elt F) ℓ)

/-- First stage: the first region's output array at the fold of its write-backs over the buffers the region is
    entered at; any other entry at the launch contents (never read). -/
def outs₁ : Gen.Outs (F := F) := fun _ r c =>
  Function.update (V0 m c) main_v4 ((dat0 (fun c b => V1 m c b) c).arrAt 4 cfg0.N) r

/-- The contents the regions leave: after the second region, its output array at the fold of its write-backs over
    the buffers it is entered at (computed from the first stage); everywhere else the first stage. -/
def outs : Gen.Outs (F := F) := fun J r c =>
  if J = 13 then
    Function.update (V0 m c) main_v85 ((dat1 (fun c b => V12 m (outs₁ m) c b) c).arrAt 2 cfg1.N) r
  else outs₁ m J r c

/-- The buffers at the second region's entry depend on the family only through the first region's array. -/
theorem V12_congr (o o' : Gen.Outs (F := F)) (c : Dev nD) (h : o 2 main_v4 c = o' 2 main_v4 c) :
    V12 m o c = V12 m o' c := by
  have h2 : V2 m o c = V2 m o' c := by
    show Function.update (V1 m c) main_v4 (o 2 main_v4 c) = Function.update (V1 m c) main_v4 (o' 2 main_v4 c)
    rw [h]
  have h3 : V3 m o c = V3 m o' c := congrArg (StableHlo.after hostOps1) h2
  have h4 : V4 m o c = V4 m o' c := congrArg (StableHlo.after hostOps1_1) h3
  have h5 : V5 m o c = V5 m o' c := congrArg (StableHlo.after hostOps1_2) h4
  have h6 : V6 m o c = V6 m o' c := congrArg (StableHlo.after hostOps1_3) h5
  have h7 : V7 m o c = V7 m o' c := congrArg (StableHlo.after hostOps1_4) h6
  have h8 : V8 m o c = V8 m o' c := congrArg (StableHlo.after hostOps1_5) h7
  have h9 : V9 m o c = V9 m o' c := congrArg (StableHlo.after hostOps1_6) h8
  have h10 : V10 m o c = V10 m o' c := congrArg (StableHlo.after hostOps1_7) h9
  have h11 : V11 m o c = V11 m o' c := congrArg (StableHlo.after hostOps1_8) h10
  exact congrArg (StableHlo.after hostOps1_9) h11

/-- The two stages agree at the first region's array. -/
theorem outs_eq_outs₁_2 (c : Dev nD) : outs m 2 main_v4 c = outs₁ m 2 main_v4 c := by
  unfold outs; rw [if_neg (by decide)]

/-- The first region leaves in its output array the fold of its write-backs. -/
theorem outs_2 (c : Dev nD) : outs m 2 main_v4 c = (dat0 (fun c b => V1 m c b) c).arrAt 4 cfg0.N := by
  rw [outs_eq_outs₁_2]; unfold outs₁; exact Function.update_self ..

/-- The buffers at the second region's entry are the same over either stage. -/
theorem V12_outs : (fun (c : Dev nD) (b : Ref sig .tc) => V12 m (outs m) c b)
    = fun (c : Dev nD) (b : Ref sig .tc) => V12 m (outs₁ m) c b := by
  funext c b; rw [V12_congr m (outs m) (outs₁ m) c (outs_eq_outs₁_2 m c)]

/-- The second region leaves in its output array the fold of its write-backs over the buffers it is entered at. -/
theorem outs_13 (c : Dev nD) : outs m 13 main_v85 c = (dat1 (fun c b => V12 m (outs m) c b) c).arrAt 2 cfg1.N := by
  rw [V12_outs]; unfold outs; rw [if_pos rfl]; exact Function.update_self ..

end Outs

/-! ## The proof data family and the thread state -/

section Records

local notation "𝕄" => MT nD τ sig Unit (Elt F) ℕ (UR sig nD τ) ℕ

variable (m : (ℓ : Loc nD τ sig) → Buf (Elt F) ℓ)

/-- Every pipeline's proof data, each at the buffers its region is entered at — a literal `match`, so that the data
    at a numeral reduces to the region's own. -/
def pdats : (p : Fin 2) → (c : Dev nD) → Dat τ (Elt F) Unit ℕ (UR sig nD τ) ℕ (cfgs p) c
  | ⟨0, _⟩ => fun c => dat0 (fun c b => V1 m c b) c
  | ⟨1, _⟩ => fun c => dat1 (fun c b => V12 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same rest between any two items. -/
abbrev E : Fin 3 → Dev nD → sProp 𝕄 := fun _ c => R c

/-! ### What the regions leave, buffer by buffer -/

/-- After the first region its output array holds what the family names. -/
theorem V2_main_v4 (o : Gen.Outs (F := F)) (c : Dev nD) : V2 m o c main_v4 = o 2 main_v4 c :=
  Function.update_self (Proc.devRef (τ := τ) .tc main_v4) (o 2 main_v4 c) (V1 m c)
/-- After the second region its output array holds what the family names. -/
theorem V13_main_v85 (o : Gen.Outs (F := F)) (c : Dev nD) : V13 m o c main_v85 = o 13 main_v85 c :=
  Function.update_self (Proc.devRef (τ := τ) .tc main_v85) (o 13 main_v85 c) (V12 m o c)

/-- Each array of the first region holds at the exit what the pipeline leaves: an input as entered, the output at the
    fold of its write-backs. -/
theorem hF0 (c : Dev nD) (w : Fin cfg0.W) :
    (pdats m 0 c).arrAt w cfg0.N = V2 m (outs m) c (Pipeline.arrRef spec0 w) := by
  show (dat0 (fun c b => V1 m c b) c).arrAt w cfg0.N = V2 m (outs m) c (Pipeline.arrRef spec0 w)
  match w with
  | ⟨0, _⟩ => exact (((dat0 (fun c b => V1 m c b) c).arrAt_in 0 rfl _).trans (A_eq0 (fun c b => V1 m c b) c 0)).trans (V2_of m (outs m) c main_v0 (by decide)).symm
  | ⟨1, _⟩ => exact (((dat0 (fun c b => V1 m c b) c).arrAt_in 1 rfl _).trans (A_eq0 (fun c b => V1 m c b) c 1)).trans (V2_of m (outs m) c main_v1 (by decide)).symm
  | ⟨2, _⟩ => exact (((dat0 (fun c b => V1 m c b) c).arrAt_in 2 rfl _).trans (A_eq0 (fun c b => V1 m c b) c 2)).trans (V2_of m (outs m) c main_v2 (by decide)).symm
  | ⟨3, _⟩ => exact (((dat0 (fun c b => V1 m c b) c).arrAt_in 3 rfl _).trans (A_eq0 (fun c b => V1 m c b) c 3)).trans (V2_of m (outs m) c main_v3 (by decide)).symm
  | ⟨4, _⟩ => exact (outs_2 m c).symm.trans (V2_main_v4 m (outs m) c).symm

/-- Every buffer that is no array of the first region is left as entered. -/
theorem hrest0 (c : Dev nD) : ∀ b : Ref sig .tc, b ∉ Finset.univ.image (Pipeline.arrRef spec0) →
    V2 m (outs m) c b = V1 m c b :=
  fun b hb => V2_of m (outs m) c b fun hmem => hb (Finset.mem_image.mpr ⟨4, Finset.mem_univ _, (List.mem_singleton.mp hmem).symm⟩)

/-- Each array of the second region holds at the exit what the pipeline leaves. -/
theorem hF1 (c : Dev nD) (w : Fin cfg1.W) :
    (pdats m 1 c).arrAt w cfg1.N = V13 m (outs m) c (Pipeline.arrRef spec1 w) := by
  show (dat1 (fun c b => V12 m (outs m) c b) c).arrAt w cfg1.N = V13 m (outs m) c (Pipeline.arrRef spec1 w)
  match w with
  | ⟨0, _⟩ => exact (((dat1 (fun c b => V12 m (outs m) c b) c).arrAt_in 0 rfl _).trans (A_eq1 (fun c b => V12 m (outs m) c b) c 0)).trans (V13_of m (outs m) c main_v0 (by decide)).symm
  | ⟨1, _⟩ => exact (((dat1 (fun c b => V12 m (outs m) c b) c).arrAt_in 1 rfl _).trans (A_eq1 (fun c b => V12 m (outs m) c b) c 1)).trans (V13_of m (outs m) c main_v84 (by decide)).symm
  | ⟨2, _⟩ => exact (outs_13 m c).symm.trans (V13_main_v85 m (outs m) c).symm

/-- Every buffer that is no array of the second region is left as entered. -/
theorem hrest1 (c : Dev nD) : ∀ b : Ref sig .tc, b ∉ Finset.univ.image (Pipeline.arrRef spec1) →
    V13 m (outs m) c b = V12 m (outs m) c b :=
  fun b hb => V13_of m (outs m) c b fun hmem => hb (Finset.mem_image.mpr ⟨2, Finset.mem_univ _, (List.mem_singleton.mp hmem).symm⟩)

end Records

section Regions

local notation "𝕄" => MT nD τ sig Unit (Elt F) ℕ (UR sig nD τ) ℕ

variable (m : (ℓ : Loc nD τ sig) → Buf (Elt F) ℓ)

/-! ## The regions as segments -/

-- a library lemma stated over the pinned configuration unifies with the printed one only when unification may
-- unfold plain definitions in a metavariable's type
set_option backward.isDefEq.respectTransparency.types false in
/-- REGION 0 over the thread state: entered from every unscoped buffer at `V1 m`, left at `V2 m (outs m)`. Its arrays are
    split out of the unscoped buffers at entry and put back at the exit contents; the generator register goes into
    the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => V1 m c b) c)
    unfold Pipeline.ΦA
    iintro ⟨Hp, -, Hr⟩
    isplitl [Hr]; · iexact Hr
    iexact Hp
  hout c := by
    rw [Pipeline.ownSems0_none]
    refine BIBase.Entails.trans (hout0 (fun c b => V1 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `V12 m (outs m)`, left at `V13 m (outs m)`. Its arrays are
    split out of the unscoped buffers at entry and put back at the exit contents; the generator register goes into
    the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V12 m (outs m) c b) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V12 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V12 m (outs m) c b) fun w => A_eq1 (fun c b => V12 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => V12 m (outs m) c b) c)
    unfold Pipeline.ΦA
    iintro ⟨Hp, -, Hr⟩
    isplitl [Hr]; · iexact Hr
    iexact Hp
  hout c := by
    rw [Pipeline.ownSems0_none]
    refine BIBase.Entails.trans (hout1 (fun c b => V12 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V12 m (outs m) c b) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

section Launch

local notation "𝕄" => MT nD τ sig Unit (Elt F) ℕ (UR sig nD τ) ℕ

variable (m : (ℓ : Loc nD τ sig) → Buf (Elt F) ℓ)

/-! ## The launch -/

-- the conditional theorem's implicit arguments are found by unifying its conclusion with this one, which takes
-- unfolding plain definitions in a metavariable's type
set_option backward.isDefEq.respectTransparency.types false in
/-- THE RUN WITH ITS RESULTS' VALUES: from any memory `m` with zero counters, every weakly fair execution of @main on
    the TensorCores terminates, and every final memory holds on every core the five results at the last valuation
    over the contents the two regions leave (`outs m`), and the nine arguments as launched. The user algebra is the
    pipeline library's alone; no level is assigned and nothing is owed at launch; beside the buffers each core
    carries its generator register and the fact that it owes nothing. -/
theorem run_values (ρ : Dev nD → PrngReg) :
    θ_run defs (onTc (τ := τ) (main (F := F))) ⟨m, fun _ => 0, ρ⟩ (fun r => ∀ c : Dev nD,
      r.2.mem ((c.tc : Thread nD τ).loc main_v87) = V14 m (outs m) c main_v87
      ∧ r.2.mem ((c.tc : Thread nD τ).loc main_v89) = V14 m (outs m) c main_v89
      ∧ r.2.mem ((c.tc : Thread nD τ).loc main_v91) = V14 m (outs m) c main_v91
      ∧ r.2.mem ((c.tc : Thread nD τ).loc main_v93) = V14 m (outs m) c main_v93
      ∧ r.2.mem ((c.tc : Thread nD τ).loc main_v95) = V14 m (outs m) c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine run_cond m (emb₁ : Emb (UR sig nD τ) 𝕄) () 𝒱₀ L lv (fun _ _ => rfl) ρ (outs m) (pdats m)
    (fun _ => 0) (fun _ => iprop(emp))
    (initOf (Pipeline.cells cfgs cellOf_inj) (Pipeline.launchToks cfgs cellOf_inj)) ?_ E ?_ (fun c => ?_)
    (reg0 m) (fun _ => .rfl) (fun _ => .rfl) (reg1 m) (fun _ => .rfl) (fun _ => .rfl)
  · -- the launch element is the pipeline library's; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its empty dues; the semaphores at zero and the credit are dropped
    refine Pipeline.initEach L lv fun c => ?_
    iintro ⟨⟨-, HO, -, Hp, -⟩, -⟩
    imodintro
    isplitl [Hp]; · iexists _; iexact Hp
    iexists ∅; iexact HO
  · -- at the end nothing is owed
    iintro ⟨-, HO⟩; iexact HO

end Launch

end Cert.KernelIdeal.Hand

end
-- ==== Proof.SpecAlg.lean ====
/-
  Pure algebra on the extended reals behind the bridge between the kernel's blocked one-hot products and the
  operator's per-segment sums: which expressions are real numbers (so that `x - x = 0`), a sum over all hits as
  a sum over (core, hit block, lane), and a sum of a one-hot-masked table over (chunk, column) as the one entry.
-/
import proofs.«422791_j81235011436601_4_alg».proof.Proof.Spec
import Mathlib.Data.EReal.Basic
import Mathlib.Data.EReal.Operations
import Mathlib.Algebra.BigOperators.Fin
import Mathlib.Logic.Equiv.Fin.Basic

noncomputable section

namespace Cert.Spec

open Idealize.ShloMosaic Idealize.ShloMosaic.ValueIdx

/-! ## Real values -/

/-- An extended real that is a real number. -/
def IsReal (x : EReal) : Prop := ∃ r : ℝ, x = (r : EReal)

theorem isReal_zero : IsReal 0 := ⟨0, by simp⟩
theorem isReal_one : IsReal 1 := ⟨1, by simp⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.ite {p : Prop} [Decidable p] {x y : EReal} (hx : IsReal x) (hy : IsReal y) : IsReal (if p then x else y) := by
  split <;> assumption
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))
/-- A real number minus itself is zero (false at the infinities). -/
theorem IsReal.sub_self {x : EReal} (hx : IsReal x) : x - x = 0 := by
  obtain ⟨a, rfl⟩ := hx
  rw [← EReal.coe_sub, _root_.sub_self, EReal.coe_zero]

theorem enzW_real (s : BitVec 32) {e : EReal} (he : IsReal e) : IsReal (enzW s e) := by
  unfold enzW; exact IsReal.ite isReal_zero he
theorem rowW_real (r : Fin 8) (s : BitVec 32) {e : EReal} (he : IsReal e) (t b : BitVec 32) : IsReal (rowW r s e t b) := by
  unfold rowW eNmbW eTrkW eHitW
  repeat' first | exact isReal_zero | exact enzW_real s he | apply IsReal.ite

section
variable (psid : Hits.Idx → BitVec 32) (pcf en : Hits.Idx → EReal) (trk mb : Hits.Idx → BitVec 32)

theorem segSum_real (e : Hits.Idx → EReal) (he : ∀ i, IsReal (e i)) (s : ℕ) : IsReal (segSum psid e s) := by
  unfold segSum; exact IsReal.sum _ _ fun i _ => IsReal.ite (he i) isReal_zero
theorem corrAt_real (hp : ∀ i, IsReal (pcf i)) (a : BitVec 32) : IsReal (corrAt psid pcf a) := by
  unfold corrAt; split
  · exact IsReal.ite isReal_zero (hp _)
  · exact isReal_zero
theorem corr_real (hp : ∀ i, IsReal (pcf i)) (al : Alph.Idx → BitVec 32) (s : ℕ) : IsReal (corr psid pcf al s) := by
  unfold corr; split
  · exact corrAt_real psid pcf hp _
  · exact isReal_zero
theorem row_real (he : ∀ i, IsReal (en i)) (r : Fin 8) (i : Hits.Idx) : IsReal (row psid en trk mb r i) :=
  rowW_real r _ (he i) _ _
end

/-! ## Re-indexing -/

/-- Hit number `(c·625 + h)·3200 + l` of core `c`, hit block `h`, lane `l`. -/
def hitOf (c : Fin 2) (h : Fin 625) (l : Fin 3200) : Fin 4000000 :=
  ⟨(c.val * 625 + h.val) * 3200 + l.val, by have := c.isLt; have := h.isLt; have := l.isLt; omega⟩

/-- A sum over all hits is the sum over cores, hit blocks and lanes. -/
theorem sum_hits (f : Hits.Idx → EReal) :
    ∑ i : Hits.Idx, f i = ∑ c : Fin 2, ∑ h : Fin 625, ∑ l : Fin 3200, f (hit (hitOf c h l)) := by
  rw [sum_idx2 f]
  have h1 : ∀ a : Fin 4000000, ∑ b : Fin 1, f (ix2 a b) = f (hit a) := fun a => by
    rw [Fin.sum_univ_one]
  simp only [h1]
  -- Fin 4000000 as (Fin 2 × Fin 625) × Fin 3200
  let e1 : Fin 2 × Fin 625 ≃ Fin 1250 := finProdFinEquiv
  let e2 : Fin 1250 × Fin 3200 ≃ Fin 4000000 := finProdFinEquiv
  rw [← Equiv.sum_comp e2 (fun a => f (hit a)), Fintype.sum_prod_type]
  rw [← Equiv.sum_comp e1 (fun x => ∑ y : Fin 3200, f (hit (e2 (x, y)))), Fintype.sum_prod_type]
  have v1 : ∀ (c : Fin 2) (h : Fin 625), (e1 (c, h)).val = h.val + 625 * c.val := fun _ _ => rfl
  have v2 : ∀ (x : Fin 1250) (l : Fin 3200), (e2 (x, l)).val = l.val + 3200 * x.val := fun _ _ => rfl
  refine Finset.sum_congr rfl fun c _ => Finset.sum_congr rfl fun h _ => Finset.sum_congr rfl fun l _ => ?_
  have hv : e2 (e1 (c, h), l) = hitOf c h l := by
    apply Fin.ext
    rw [v2, v1]
    show l.val + 3200 * (h.val + 625 * c.val) = (c.val * 625 + h.val) * 3200 + l.val
    omega
  rw [hv]

/-- A table masked by the one-hot of `seg`, summed over 16 chunks of 1280 columns, is the entry at `seg`. -/
theorem sum_chunks (g : ℕ → EReal) (seg : ℕ) (hs : seg < 20480) :
    ∑ q : Fin 16, ∑ j : Fin 1280, (if seg = q.val * 1280 + j.val then g (q.val * 1280 + j.val) else 0) = g seg := by
  have hq : seg / 1280 < 16 := by omega
  have hj : seg % 1280 < 1280 := Nat.mod_lt _ (by norm_num)
  rw [Finset.sum_eq_single (⟨seg / 1280, hq⟩ : Fin 16)]
  · rw [Finset.sum_eq_single (⟨seg % 1280, hj⟩ : Fin 1280)]
    · have : seg = seg / 1280 * 1280 + seg % 1280 := by omega
      simp only [← this, if_true]
    · intro j _ hne
      rw [if_neg]
      intro h
      apply hne; apply Fin.ext
      simp only at h ⊢; omega
    · intro h; exact absurd (Finset.mem_univ _) h
  · intro q _ hne
    apply Finset.sum_eq_zero
    intro j _
    rw [if_neg]
    intro h
    apply hne; apply Fin.ext
    have := j.isLt
    simp only at h ⊢; omega
  · intro h; exact absurd (Finset.mem_univ _) h

/-! ## Segments and the blocked form of a segment sum -/

/-- A label in [-1, 19999] has its segment, the label plus one, in [0, 20000]: the 32-bit sum does not wrap. -/
theorem segW_eq_toInt (s : BitVec 32) (lo : (-1 : ℤ) ≤ s.toInt) (hi : s.toInt ≤ 19999) : (segW s : ℤ) = s.toInt + 1 := by
  unfold segW
  have e := BitVec.toInt_eq_toNat_cond s
  have hlt := s.isLt
  rw [BitVec.toNat_add, BitVec.toNat_ofNat]
  split at e <;> omega

theorem segW_lt (s : BitVec 32) (lo : (-1 : ℤ) ≤ s.toInt) (hi : s.toInt ≤ 19999) : segW s < 20001 := by
  have := segW_eq_toInt s lo hi
  omega

/-- A segment sum, hit by hit over cores, hit blocks and lanes. -/
theorem segSum_blocks (psid : Hits.Idx → BitVec 32) (e : Hits.Idx → EReal) (s : ℕ) :
    segSum psid e s = ∑ c : Fin 2, ∑ h : Fin 625, ∑ l : Fin 3200,
      (if segW (psid (hit (hitOf c h l))) = s then e (hit (hitOf c h l)) else 0) := by
  unfold segSum segOf
  exact sum_hits (fun i => if segW (psid i) = s then e i else 0)

end Cert.Spec

end
-- ==== Proof.KI.Pay0.lean ====
/-
  The first kernel's payloads read at an index, at the ideal values.

  One grid step of the segment-sum kernel adds to its 8 × 1280 accumulator window the product of an 8 × 3200 matrix of
  masked energies with the transpose of a 1280 × 3200 one-hot matrix: row `r` of the first matrix is one of the three
  masked energies of the 3200 hits of the step (rows 3 to 7 are zero), and entry `(j, l)` of the second is 1 exactly
  when hit `l`'s segment (its label plus one) is segment `(i 2) * 1280 + j` of the window. The kernel forms the
  product twice, once with the energies and once with the energies minus themselves; on real numbers the second
  factor is zero, so the window at `(r, j)` gains the sum of row `r`'s energies over the hits of that segment.
-/
import proofs.«422791_j81235011436601_4_alg».proof.Proof.Gen.KernelIdeal.Skeleton
import proofs.«422791_j81235011436601_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Words -/

/-- A select on the equality of two words is the `if` on that equality. -/
theorem select_cmpi_eq {α : Type} {w : Nat} (a b : BitVec w) (A B : α) :
    Scalar.select (IntOp.cmpi .eq a b) A B = if a = b then A else B := by
  have hc : IntOp.cmpi .eq a b = BitVec.ofBool (a == b) := rfl
  unfold Scalar.select
  rw [hc]
  by_cases h : a = b
  · subst h; simp
  · have hb : (a == b) = false := by simpa using h
    rw [if_neg h, hb]
    rfl

/-- The f32 zero pattern is the extended real zero. -/
theorem scalar_zero : (Scalar.ofBits (F := Ideal) .f32 0x00000000#32 : EReal) = 0 := Ideal.ofBits_zero_f32

/-- The one-hot entry of two words: the equality bit, widened and converted, is 1 where they are equal and 0 elsewhere. -/
theorem onehot_word (a b : BitVec 32) :
    (FloatOps.sitofp (F := Ideal) .f32 ((IntOp.cmpi .eq a b).setWidth 32) : EReal) = if a = b then 1 else 0 := by
  have hc : IntOp.cmpi .eq a b = BitVec.ofBool (a == b) := rfl
  rw [hc]
  show (((((BitVec.ofBool (a == b)).setWidth 32).toInt : ℤ) : ℝ) : EReal) = _
  by_cases h : a = b
  · subst h
    rw [if_pos rfl, beq_self_eq_true]
    have : ((BitVec.ofBool true).setWidth 32).toInt = 1 := by decide
    rw [this]; simp
  · have hb : (a == b) = false := by simpa using h
    rw [if_neg h, hb]
    have : ((BitVec.ofBool false).setWidth 32).toInt = 0 := by decide
    rw [this]; simp

/-! ## The masked energies of one hit -/

section Hits
variable (x0 : Vec Ideal S1x3200 .i32) (x1 : Vec Ideal S1x3200 .f32) (x2 x3 : Vec Ideal S1x3200 .i32) (l : Fin 3200)

/-- The energy, zero at a noise hit. -/
theorem pay5_apply : k0_pay5 x0 x1 (ix2 (0 : Fin 1) l) = Cert.Spec.enzW (x0 (ix2 0 l)) (x1 (ix2 0 l)) := by
  unfold k0_pay5 k0_pay4 Cert.Spec.enzW
  rw [shapeCast_self, shapeCast_self, select_apply, cmpi, broadcast_apply, broadcast_apply, select_cmpi_eq, scalar_zero]

/-- … kept for a hit that is not a track … -/
theorem pay7_apply :
    k0_pay7 x0 x1 x2 (ix2 (0 : Fin 1) l) = Cert.Spec.eHitW (x0 (ix2 0 l)) (x1 (ix2 0 l)) (x2 (ix2 0 l)) := by
  unfold k0_pay7 k0_pay6 Cert.Spec.eHitW
  rw [shapeCast_self, select_apply, cmpi, broadcast_apply, broadcast_apply, select_cmpi_eq, scalar_zero, pay5_apply]

/-- … for a track … -/
theorem pay8_apply :
    k0_pay8 x0 x1 x2 (ix2 (0 : Fin 1) l) = Cert.Spec.eTrkW (x0 (ix2 0 l)) (x1 (ix2 0 l)) (x2 (ix2 0 l)) := by
  unfold k0_pay8 k0_pay6 Cert.Spec.eTrkW
  rw [shapeCast_self, select_apply, cmpi, broadcast_apply, broadcast_apply, select_cmpi_eq, scalar_zero, pay5_apply]

/-- … and for a non-track hit outside minimum bias. -/
theorem pay9_apply :
    k0_pay9 x0 x1 x2 x3 (ix2 (0 : Fin 1) l)
      = Cert.Spec.eNmbW (x0 (ix2 0 l)) (x1 (ix2 0 l)) (x2 (ix2 0 l)) (x3 (ix2 0 l)) := by
  unfold k0_pay9 Cert.Spec.eNmbW
  rw [shapeCast_self, select_apply, cmpi, broadcast_apply, broadcast_apply, select_cmpi_eq, scalar_zero, pay7_apply]

/-- The hit's segment word: its label plus one. -/
theorem pay10_apply : k0_pay10 x0 (ix2 (0 : Fin 1) l) = x0 (ix2 0 l) + 1#32 := by
  unfold k0_pay10 k0_pay4
  rw [shapeCast_self]
  rfl

/-- A masked energy of a real energy is real. -/
theorem rowW_fin (r : Fin 8) (s : BitVec 32) (e : EReal) (t b : BitVec 32) (he : ∃ q : ℝ, e = (q : EReal)) :
    ∃ q : ℝ, Cert.Spec.rowW r s e t b = (q : EReal) := by
  obtain ⟨q, rfl⟩ := he
  unfold Cert.Spec.rowW Cert.Spec.eNmbW Cert.Spec.eTrkW Cert.Spec.eHitW Cert.Spec.enzW
  repeat' split
  all_goals first | exact ⟨q, rfl⟩ | exact ⟨0, rfl⟩

end Hits

/-- The window's segment word at row `j`: the window's first segment, `1280` times the third grid coordinate, plus `j`. -/
theorem pay11_apply (i : grid0.Coords) (j : Fin 1280) :
    k0_pay11 i (ix2 j (0 : Fin 1)) = BitVec.ofNat 32 (i 2).val * 1280#32 + BitVec.ofNat 32 j.val := by
  unfold k0_pay11
  dsimp only
  show IntOp.addi (BitVec.ofNat 32 (i 2).val * 1280#32) (iota .tc S1280x1 32 [0] iota_S1280x1_d0_w32 (ix2 j (0 : Fin 1))) = _
  rw [iota_single_apply]
  rfl

/-- The two segment words agree exactly when the hit's segment, as a number, is the window's: no sum here wraps, since
    the third grid coordinate is below 16. -/
theorem seg_eq_iff (i : grid0.Coords) (j : Fin 1280) (s : BitVec 32) :
    BitVec.ofNat 32 (i 2).val * 1280#32 + BitVec.ofNat 32 j.val = s + 1#32
      ↔ Cert.Spec.segW s = (i 2).val * 1280 + j.val := by
  have hi : (i 2).val < 16 := (i 2).isLt
  have hj : j.val < 1280 := j.isLt
  have hn : (BitVec.ofNat 32 (i 2).val * 1280#32 + BitVec.ofNat 32 j.val).toNat = (i 2).val * 1280 + j.val := by
    rw [BitVec.toNat_add, BitVec.toNat_mul, BitVec.toNat_ofNat, BitVec.toNat_ofNat, BitVec.toNat_ofNat]
    omega
  unfold Cert.Spec.segW
  constructor
  · intro h; rw [← h, hn]
  · intro h; exact BitVec.eq_of_toNat_eq (by rw [hn, h])

/-! ## The matrix of masked energies -/

/-- The four pieces stacked along the rows, read at `(r, l)`: rows 0, 1, 2 the three pieces of one row, rows 3 to 7
    the zero piece. -/
theorem cat_apply (v18 v22 v28 : FVec Ideal S1x3200 .f32) (r : Fin 8) (l : Fin 3200) :
    concatenate S8x3200 0 [⟨S1x3200, v18⟩, ⟨S1x3200, v22⟩, ⟨S1x3200, v28⟩,
        ⟨S5x3200, broadcast S5x3200 (Scalar.ofBits (F := Ideal) .f32 0x00000000#32)⟩]
        concatenates_S1x3200_S1x3200_S1x3200_S5x3200_S8x3200_d0 (ix2 r l)
      = if r.val = 0 then v18 (ix2 0 l) else if r.val = 1 then v22 (ix2 0 l) else if r.val = 2 then v28 (ix2 0 l) else 0 := by
  by_cases h0 : r.val = 0
  · rw [if_pos h0]
    exact concatenate_apply_piece 0 _ _ (ix2 r l) 0 (by show (0 : ℕ) < 4; omega) S1x3200 v18 rfl rfl 0 rfl (ix2 0 l)
      (fun b hb => match b with | ⟨0, _⟩ => absurd rfl hb | ⟨1, _⟩ => rfl) (by show 0 + 0 = r.val; omega)
  · rw [if_neg h0]
    by_cases h1 : r.val = 1
    · rw [if_pos h1]
      exact concatenate_apply_piece 0 _ _ (ix2 r l) 1 (by show (1 : ℕ) < 4; omega) S1x3200 v22 rfl rfl 1 rfl (ix2 0 l)
        (fun b hb => match b with | ⟨0, _⟩ => absurd rfl hb | ⟨1, _⟩ => rfl) (by show 1 + 0 = r.val; omega)
    · rw [if_neg h1]
      by_cases h2 : r.val = 2
      · rw [if_pos h2]
        exact concatenate_apply_piece 0 _ _ (ix2 r l) 2 (by show (2 : ℕ) < 4; omega) S1x3200 v28 rfl rfl 2 rfl (ix2 0 l)
          (fun b hb => match b with | ⟨0, _⟩ => absurd rfl hb | ⟨1, _⟩ => rfl) (by show 2 + 0 = r.val; omega)
      · rw [if_neg h2]
        have hr : r.val < 8 := r.isLt
        refine (concatenate_apply_piece 0 _ _ (ix2 r l) 3 (by show (3 : ℕ) < 4; omega) S5x3200 _ rfl rfl 3 rfl
          (ix2 (⟨r.val - 3, by omega⟩ : Fin 5) l)
          (fun b hb => match b with | ⟨0, _⟩ => absurd rfl hb | ⟨1, _⟩ => rfl) (by show 3 + (r.val - 3) = r.val; omega)).trans ?_
        rw [broadcast_apply, scalar_zero]

/-! ## The one-hot matrix -/

/-- Entry `(j, l)` of the one-hot matrix: 1 where the window's segment word at row `j` is the hit `l`'s, else 0. -/
theorem onehot_apply (v30 : IVec S1x3200 32) (v34 : IVec S1280x1 32) (j : Fin 1280) (l : Fin 3200) :
    (truncf .bf16 (sitofp (F := Ideal) .f32 (extui 32 (cmpi .eq (broadcastTo S1280x3200 v34 broadcasts_S1280x1_S1280x3200)
        (broadcastTo S1280x3200 v30 broadcasts_S1x3200_S1280x3200)) natLt_1_32)) bitsLt_bf16_f32 : FVec Ideal S1280x3200 .bf16) (ix2 j l)
      = if v34 (ix2 j (0 : Fin 1)) = v30 (ix2 (0 : Fin 1) l) then 1 else 0 := by
  rw [truncf_apply, sitofp_apply, extui_apply]
  have e34 := broadcastTo_apply v34 broadcasts_S1280x1_S1280x3200 (ix2 j l) (ix2 j (0 : Fin 1))
    (fun a => match a with | ⟨0, _⟩ => rfl | ⟨1, _⟩ => rfl)
  have e30 := broadcastTo_apply v30 broadcasts_S1x3200_S1280x3200 (ix2 j l) (ix2 (0 : Fin 1) l)
    (fun a => match a with | ⟨0, _⟩ => rfl | ⟨1, _⟩ => rfl)
  show (FloatOps.sitofp (F := Ideal) .f32 ((IntOp.cmpi .eq (broadcastTo S1280x3200 v34 broadcasts_S1280x1_S1280x3200 (ix2 j l))
    (broadcastTo S1280x3200 v30 broadcasts_S1x3200_S1280x3200 (ix2 j l))).setWidth 32) : EReal) = _
  rw [e34, e30, onehot_word]

/-! ## The product -/

theorem lhs_0 (i : S8x1280.Idx) (q : dot_S8x3200_S1280x3200_S8x1280_1_1_0_0_n_n.contr.Idx) :
    (dot_S8x3200_S1280x3200_S8x1280_1_1_0_0_n_n.lhsIdx i q 0).val = (i 0).val := by
  unfold DotDims.lhsIdx
  rw [dif_neg (show ¬(0 : Fin S8x3200.rank) ∈ dot_S8x3200_S1280x3200_S8x1280_1_1_0_0_n_n.lhsBatch by decide), dif_pos (show (0 : Fin S8x3200.rank) ∈ dot_S8x3200_S1280x3200_S8x1280_1_1_0_0_n_n.lhsNonContracting by decide)]
  rfl
theorem lhs_1 (i : S8x1280.Idx) (q : dot_S8x3200_S1280x3200_S8x1280_1_1_0_0_n_n.contr.Idx) :
    (dot_S8x3200_S1280x3200_S8x1280_1_1_0_0_n_n.lhsIdx i q 1).val = (q ⟨0, by decide⟩).val :=
  dot_S8x3200_S1280x3200_S8x1280_1_1_0_0_n_n.lhsIdx_val_of_single rfl i q
theorem rhs_0 (i : S8x1280.Idx) (q : dot_S8x3200_S1280x3200_S8x1280_1_1_0_0_n_n.contr.Idx) :
    (dot_S8x3200_S1280x3200_S8x1280_1_1_0_0_n_n.rhsIdx i q 0).val = (i 1).val := by
  unfold DotDims.rhsIdx
  rw [dif_neg (show ¬(0 : Fin S1280x3200.rank) ∈ dot_S8x3200_S1280x3200_S8x1280_1_1_0_0_n_n.rhsBatch by decide), dif_pos (show (0 : Fin S1280x3200.rank) ∈ dot_S8x3200_S1280x3200_S8x1280_1_1_0_0_n_n.rhsNonContracting by decide)]
  rfl
theorem rhs_1 (i : S8x1280.Idx) (q : dot_S8x3200_S1280x3200_S8x1280_1_1_0_0_n_n.contr.Idx) :
    (dot_S8x3200_S1280x3200_S8x1280_1_1_0_0_n_n.rhsIdx i q 1).val = (q ⟨0, by decide⟩).val :=
  dot_S8x3200_S1280x3200_S8x1280_1_1_0_0_n_n.rhsIdx_val_of_single rfl i q

/-- The kernel's product into a zero accumulator, read at `(r, j)`: the sum over the 3200 hits of the products of the
    two operands' entries `(r, l)` and `(j, l)`. -/
theorem mm_apply (A : FVec Ideal S8x3200 .bf16) (B : FVec Ideal S1280x3200 .bf16) (r : Fin 8) (j : Fin 1280) :
    matmul dot_S8x3200_S1280x3200_S8x1280_1_1_0_0_n_n none A B (constant (F := Ideal) S8x1280 .f32 0x00000000#32) (ix2 r j)
      = ∑ l : Fin 3200, A (ix2 r l) * B (ix2 j l) := by
  show FloatOps.matmul dot_S8x3200_S1280x3200_S8x1280_1_1_0_0_n_n none A B (constant (F := Ideal) S8x1280 .f32 0x00000000#32) (ix2 r j) = _
  rw [Ideal.matmul_constant_zero_apply, ← Equiv.sum_comp (contrEquiv1 dot_S8x3200_S1280x3200_S8x1280_1_1_0_0_n_n 3200 rfl rfl).symm]
  refine Finset.sum_congr rfl fun k _ => ?_
  have hk := contrEquiv1_symm_val dot_S8x3200_S1280x3200_S8x1280_1_1_0_0_n_n 3200 rfl rfl k
  have el : dot_S8x3200_S1280x3200_S8x1280_1_1_0_0_n_n.lhsIdx (ix2 r j) ((contrEquiv1 dot_S8x3200_S1280x3200_S8x1280_1_1_0_0_n_n 3200 rfl rfl).symm k) = ix2 r k := funext fun a => Fin.ext (by
    match a with
    | ⟨0, _⟩ => exact lhs_0 _ _
    | ⟨1, _⟩ => exact (lhs_1 _ _).trans hk)
  have er : dot_S8x3200_S1280x3200_S8x1280_1_1_0_0_n_n.rhsIdx (ix2 r j) ((contrEquiv1 dot_S8x3200_S1280x3200_S8x1280_1_1_0_0_n_n 3200 rfl rfl).symm k) = ix2 j k := funext fun a => Fin.ext (by
    match a with
    | ⟨0, _⟩ => exact rhs_0 _ _
    | ⟨1, _⟩ => exact (rhs_1 _ _).trans hk)
  rw [el, er]

/-! ## The payloads -/

/-- A real number minus itself is zero (on the extended reals this needs the number to be finite). -/
theorem sub_self_of_real (e : EReal) (h : ∃ q : ℝ, e = (q : EReal)) : e - e = 0 := by
  obtain ⟨q, rfl⟩ := h
  rw [← EReal.coe_sub, sub_self, EReal.coe_zero]

/-- The accumulated window over any three rows of real numbers and any two arrays of segment words: the second product's
    left operand is a row minus itself, zero, so only the first product stays; and a product with a one-hot entry is
    the entry's row value where the words agree, zero elsewhere. -/
theorem pay1_gen (v18 v22 v28 : FVec Ideal S1x3200 .f32) (v30 : IVec S1x3200 32) (v34 : IVec S1280x1 32)
    (v53 : Vec Ideal S8x1280 .f32) (r : Fin 8) (j : Fin 1280)
    (hfin : ∀ l : Fin 3200, ∃ q : ℝ, (if r.val = 0 then v18 (ix2 (0 : Fin 1) l) else if r.val = 1 then v22 (ix2 (0 : Fin 1) l)
      else if r.val = 2 then v28 (ix2 (0 : Fin 1) l) else 0) = (q : EReal)) :
    k0_pay1 v18 v22 v28 v30 v34 v53 (ix2 r j)
      = v53 (ix2 r j) + ∑ l : Fin 3200, (if v34 (ix2 j (0 : Fin 1)) = v30 (ix2 (0 : Fin 1) l) then
          (if r.val = 0 then v18 (ix2 (0 : Fin 1) l) else if r.val = 1 then v22 (ix2 (0 : Fin 1) l)
            else if r.val = 2 then v28 (ix2 (0 : Fin 1) l) else 0) else 0) := by
  unfold k0_pay1
  rw [shapeCast_self, addf_apply, addf_apply, mm_apply, mm_apply, ← Finset.sum_add_distrib]
  refine congrArg (v53 (ix2 r j) + ·) (Finset.sum_congr rfl fun l _ => ?_)
  rw [onehot_apply, truncf_apply, truncf_apply, subf_apply, cat_apply, sub_self_of_real _ (hfin l), zero_mul, add_zero]
  by_cases h : v34 (ix2 j (0 : Fin 1)) = v30 (ix2 (0 : Fin 1) l)
  · rw [if_pos h, if_pos h, mul_one]
  · rw [if_neg h, if_neg h, mul_zero]

/-- THE FIRST KERNEL'S ACCUMULATED WINDOW at `(r, j)`: what was there plus the sum, over the step's 3200 hits whose
    segment is segment `(i 2) * 1280 + j`, of row `r`'s masked energy of the hit. -/
theorem pay1_apply (i : grid0.Coords) (x0 : Vec Ideal S1x3200 .i32) (x1 : Vec Ideal S1x3200 .f32) (x2 x3 : Vec Ideal S1x3200 .i32)
    (v53 : Vec Ideal S8x1280 .f32) (hfin : ∀ l : Fin 3200, ∃ q : ℝ, x1 (ix2 (0 : Fin 1) l) = (q : EReal)) (r : Fin 8) (j : Fin 1280) :
    k0_pay1 (k0_pay7 x0 x1 x2) (k0_pay8 x0 x1 x2) (k0_pay9 x0 x1 x2 x3) (k0_pay10 x0) (k0_pay11 i) v53 (ix2 r j)
      = v53 (ix2 r j) + ∑ l : Fin 3200, (if Cert.Spec.segW (x0 (ix2 (0 : Fin 1) l)) = (i 2).val * 1280 + j.val then
          Cert.Spec.rowW r (x0 (ix2 0 l)) (x1 (ix2 0 l)) (x2 (ix2 0 l)) (x3 (ix2 0 l)) else 0) := by
  rw [pay1_gen _ _ _ _ _ _ r j (fun l => by
    rw [pay7_apply, pay8_apply, pay9_apply]
    exact rowW_fin r _ _ _ _ (hfin l))]
  refine congrArg (v53 (ix2 r j) + ·) (Finset.sum_congr rfl fun l _ => ?_)
  rw [pay7_apply, pay8_apply, pay9_apply, pay10_apply, pay11_apply]
  exact if_congr (seg_eq_iff i j _) rfl rfl

/-- The stored accumulator viewed with a leading unit axis: entry `(0, r, s)` is entry `(r, s)`. -/
theorem pay2_apply (v : Vec Ideal S8x20480 .f32) (r : Fin 8) (s : Fin 20480) :
    k0_pay2 v (ix3 (0 : Fin 1) r s) = v (ix2 r s) := by
  unfold k0_pay2
  exact shapeCast_apply v shapeCasts_S8x20480_S1x8x20480 (ix3 (0 : Fin 1) r s) (ix2 r s) (by
    rw [Shape.rowMajor_val_two, Shape.rowMajor_val_three]
    show r.val * 20480 + s.val = ((0 : ℕ) * 8 + r.val) * 20480 + s.val
    omega)

/-- The initial accumulator is zero everywhere. -/
theorem pay3_apply (y : S8x20480.Idx) : k0_pay3 (F := Ideal) y = 0 := by
  unfold k0_pay3
  rw [shapeCast_self, broadcast_apply, scalar_zero]

end Cert.KernelIdeal.Pay

end
-- ==== Proof.KI.Acc0.lean ====
/-
  The first kernel's accumulation over its grid, abstractly.

  The grid has 20000 points `n = c · 10000 + h · 16 + q`: core `c < 2`, hit block `h < 625`, segment chunk `q < 16`, so
  `c = n / 10000`, `h = (n / 16) % 625`, `q = n % 16`. The scratch is an 8 × 20480 array whose chunk `q` is the columns
  `s` with `s / 1280 = q`. At a core's first point the scratch is zeroed and chunk 0 receives block 0's contribution; at
  every other point chunk `q` gains block `h`'s contribution and the other columns keep their values. Points run
  through a block's sixteen chunks before the next block, so after point `n` a column of chunk at most `q` holds the
  contributions of blocks `0 … h`, and a column of a later chunk those of blocks `0 … h - 1`; after a core's last
  point every column holds the sum over all 625 blocks. The values may be any commutative additive monoid (the extended
  reals in the use).
-/
import Mathlib.Algebra.BigOperators.Group.Finset.Basic
import Mathlib.Data.Fintype.BigOperators

open scoped BigOperators

namespace Cert.KernelIdeal.Acc

variable {M : Type} [AddCommMonoid M]

/-! ## Contributions indexed by natural numbers -/

section Nat
variable (S : ℕ → Fin 8 → Fin 20480 → M) (B : ℕ → ℕ → Fin 8 → Fin 20480 → M)

/-- THE INVARIANT: after point `n`, a column holds the contributions of the blocks before `n`'s, and `n`'s block's own
    where the column's chunk is at most `n`'s. -/
theorem acc_inv_nat
    (hA : ∀ n, n < 20000 → n % 10000 = 0 → ∀ r s, S n r s
      = if s.val / 1280 = n % 16 then 0 + B (n / 10000) ((n / 16) % 625) r s else 0)
    (hB : ∀ n, n < 20000 → n % 10000 ≠ 0 → ∀ r s, S n r s
      = if s.val / 1280 = n % 16 then S (n - 1) r s + B (n / 10000) ((n / 16) % 625) r s else S (n - 1) r s)
    (n : ℕ) (hn : n < 20000) (r : Fin 8) (s : Fin 20480) :
    S n r s = ∑ h' ∈ Finset.range ((n / 16) % 625), B (n / 10000) h' r s
      + (if s.val / 1280 ≤ n % 16 then B (n / 10000) ((n / 16) % 625) r s else 0) := by
  induction n using Nat.strong_induction_on with
  | _ n ih =>
  have hs : s.val < 20480 := s.isLt
  by_cases h0 : n % 10000 = 0
  · -- a core's first point: block 0, chunk 0
    have e1 : (n / 16) % 625 = 0 := by omega
    have e2 : n % 16 = 0 := by omega
    rw [hA n hn h0 r s, e1, e2, Finset.range_zero, Finset.sum_empty]
    by_cases hc : s.val / 1280 = 0
    · rw [if_pos hc, if_pos (by omega)]
    · rw [if_neg hc, if_neg (by omega), add_zero]
  · have ih' := ih (n - 1) (by omega) (by omega)
    have ec : (n - 1) / 10000 = n / 10000 := by omega
    rw [hB n hn h0 r s]
    by_cases hq : n % 16 = 0
    · -- the first chunk of a later block: the point before closed the block before
      have e1 : (n - 1) % 16 = 15 := by omega
      have e2 : ((n - 1) / 16) % 625 + 1 = (n / 16) % 625 := by omega
      have hsum := Finset.sum_range_succ (fun h' => B (n / 10000) h' r s) (((n - 1) / 16) % 625)
      rw [e2] at hsum
      rw [ec, e1, if_pos (by omega), ← hsum] at ih'
      rw [ih', hq]
      by_cases hc : s.val / 1280 = 0
      · rw [if_pos hc, if_pos (by omega)]
      · rw [if_neg hc, if_neg (by omega), add_zero]
    · -- a later chunk of the same block
      have e2 : ((n - 1) / 16) % 625 = (n / 16) % 625 := by omega
      rw [ec, e2] at ih'
      rw [ih']
      by_cases hc : s.val / 1280 = n % 16
      · rw [if_pos hc, if_neg (by omega), if_pos (by omega), add_zero]
      · rw [if_neg hc]
        by_cases hle : s.val / 1280 ≤ (n - 1) % 16
        · rw [if_pos hle, if_pos (by omega)]
        · rw [if_neg hle, if_neg (by omega)]

/-- After a core's last point every column holds the sum over the core's 625 blocks. -/
theorem acc_last_nat
    (hA : ∀ n, n < 20000 → n % 10000 = 0 → ∀ r s, S n r s
      = if s.val / 1280 = n % 16 then 0 + B (n / 10000) ((n / 16) % 625) r s else 0)
    (hB : ∀ n, n < 20000 → n % 10000 ≠ 0 → ∀ r s, S n r s
      = if s.val / 1280 = n % 16 then S (n - 1) r s + B (n / 10000) ((n / 16) % 625) r s else S (n - 1) r s)
    (c : ℕ) (hc : c < 2) (r : Fin 8) (s : Fin 20480) :
    S (c * 10000 + 9999) r s = ∑ h' ∈ Finset.range 625, B c h' r s := by
  have hs : s.val < 20480 := s.isLt
  have h := acc_inv_nat S B hA hB (c * 10000 + 9999) (by omega) r s
  have e0 : (c * 10000 + 9999) / 10000 = c := by omega
  have e1 : ((c * 10000 + 9999) / 16) % 625 = 624 := by omega
  have e2 : (c * 10000 + 9999) % 16 = 15 := by omega
  rw [e0, e1, e2, if_pos (by omega)] at h
  rw [h]
  exact (Finset.sum_range_succ (fun h' => B c h' r s) 624).symm

end Nat

/-! ## Contributions indexed by core and block -/

section Fin
variable (S : ℕ → Fin 8 → Fin 20480 → M) (Bk : Fin 2 → Fin 625 → Fin 8 → Fin 20480 → M)

/-- The contributions as a function of two natural numbers, zero outside the grid. -/
def ext (c h : ℕ) : Fin 8 → Fin 20480 → M :=
  if hc : c < 2 then if hh : h < 625 then Bk ⟨c, hc⟩ ⟨h, hh⟩ else fun _ _ => 0 else fun _ _ => 0

theorem ext_eq (c h : ℕ) (hc : c < 2) (hh : h < 625) : ext Bk c h = Bk ⟨c, hc⟩ ⟨h, hh⟩ := by
  unfold ext; rw [dif_pos hc, dif_pos hh]

/-- The invariant at the point `n`, the block's contributions indexed by core and block. -/
theorem acc_inv
    (hA : ∀ (n : ℕ) (hn : n < 20000), n % 10000 = 0 → ∀ r s, S n r s
      = if s.val / 1280 = n % 16 then 0 + Bk ⟨n / 10000, by omega⟩ ⟨(n / 16) % 625, Nat.mod_lt _ (by omega)⟩ r s else 0)
    (hB : ∀ (n : ℕ) (hn : n < 20000), n % 10000 ≠ 0 → ∀ r s, S n r s
      = if s.val / 1280 = n % 16 then S (n - 1) r s + Bk ⟨n / 10000, by omega⟩ ⟨(n / 16) % 625, Nat.mod_lt _ (by omega)⟩ r s
        else S (n - 1) r s)
    (n : ℕ) (hn : n < 20000) (r : Fin 8) (s : Fin 20480) :
    S n r s = ∑ h' ∈ Finset.range ((n / 16) % 625), ext Bk (n / 10000) h' r s
      + (if s.val / 1280 ≤ n % 16 then Bk ⟨n / 10000, by omega⟩ ⟨(n / 16) % 625, Nat.mod_lt _ (by omega)⟩ r s else 0) := by
  have h := acc_inv_nat S (ext Bk)
    (fun n hn h0 r s => by rw [hA n hn h0 r s, ext_eq Bk _ _ (by omega) (Nat.mod_lt _ (by omega))])
    (fun n hn h0 r s => by rw [hB n hn h0 r s, ext_eq Bk _ _ (by omega) (Nat.mod_lt _ (by omega))]) n hn r s
  rw [ext_eq Bk (n / 10000) ((n / 16) % 625) (by omega) (Nat.mod_lt _ (by omega))] at h
  exact h

/-- AFTER A CORE'S LAST POINT every column holds the sum of the core's 625 blocks' contributions. -/
theorem acc_last
    (hA : ∀ (n : ℕ) (hn : n < 20000), n % 10000 = 0 → ∀ r s, S n r s
      = if s.val / 1280 = n % 16 then 0 + Bk ⟨n / 10000, by omega⟩ ⟨(n / 16) % 625, Nat.mod_lt _ (by omega)⟩ r s else 0)
    (hB : ∀ (n : ℕ) (hn : n < 20000), n % 10000 ≠ 0 → ∀ r s, S n r s
      = if s.val / 1280 = n % 16 then S (n - 1) r s + Bk ⟨n / 10000, by omega⟩ ⟨(n / 16) % 625, Nat.mod_lt _ (by omega)⟩ r s
        else S (n - 1) r s)
    (c : Fin 2) (r : Fin 8) (s : Fin 20480) :
    S (c.val * 10000 + 9999) r s = ∑ h : Fin 625, Bk c h r s := by
  have h := acc_last_nat S (ext Bk)
    (fun n hn h0 r s => by rw [hA n hn h0 r s, ext_eq Bk _ _ (by omega) (Nat.mod_lt _ (by omega))])
    (fun n hn h0 r s => by rw [hB n hn h0 r s, ext_eq Bk _ _ (by omega) (Nat.mod_lt _ (by omega))]) c.val c.isLt r s
  rw [h, ← Fin.sum_univ_eq_sum_range (fun h' => ext Bk c.val h' r s) 625]
  exact Finset.sum_congr rfl fun h _ => by rw [ext_eq Bk c.val h.val c.isLt h.isLt]

end Fin

end Cert.KernelIdeal.Acc
-- ==== Proof.KI.Reg0Value.lean ====
/-
  What the first kernel's region leaves in its output array, read at an index, at the ideal values.

  The region's grid has 20000 points, `(core, hit block, segment chunk)`. At each point the kernel reads one block of
  3200 hits of each of the four per-hit streams (labels, energies, track flags, minimum-bias flags) and adds, to the
  1280 columns of its 8 × 20480 scratch that form the point's chunk, the products of the block's masked energies with
  the one-hot matrix of the chunk's segments; the scratch is zeroed at a core's first point and copied to the core's
  block of the [2, 8, 20480] output at the core's last. So the output at `(c', r, s)` is the sum, over core `c'`'s 625
  hit blocks and their 3200 lanes, of row `r`'s masked energy of the hits whose segment is `s`: each block's lanes are
  hits `(c' · 625 + h) · 3200 + l` of the streams; a column `s` lies in chunk `s / 1280`, where the window's segment
  `chunk · 1280 + s % 1280` is `s` itself; the sixteen points of a hit block touch disjoint chunks, so after a core's
  last point every column has gained every block's contribution exactly once.
-/
import proofs.«422791_j81235011436601_4_alg».proof.Proof.Gen.KernelIdeal.Launch
import proofs.«422791_j81235011436601_4_alg».proof.Proof.Gen.KernelIdeal.Skeleton
import proofs.«422791_j81235011436601_4_alg».proof.Proof.Spec
import proofs.«422791_j81235011436601_4_alg».proof.Proof.SpecAlg
import proofs.«422791_j81235011436601_4_alg».proof.Proof.KI.Grid
import proofs.«422791_j81235011436601_4_alg».proof.Proof.KI.Pay0
import proofs.«422791_j81235011436601_4_alg».proof.Proof.KI.Acc0
import proofs.«422791_j81235011436601_4_alg».proof.Proof.KI.Reg0Body
import Idealize.ShloMosaic.Lib.Pipeline.FrameBody
import Idealize.ShloMosaic.Lib.Pipeline.Value
import Idealize.ShloMosaic.Lib.ValueIdx

noncomputable section

open scoped BigOperators

namespace Cert.KernelIdeal.Hand.Reg0V

open Cert.KernelIdeal Cert.KernelIdeal.Gen Cert.KernelIdeal.Hand Cert.KernelIdeal.Hand.Grid
open Idealize.ShloMosaic Idealize.ShloMosaic.TcCoe Idealize.ShloMosaic.ValueIdx
open Idealize.SL Idealize.SL.Sem
open Idealize.ShloMosaic.Pipeline (Dat)

/-! ## The arrays and the blocks, at their literal types -/

variable (V : (c : Dev nD) → (b : Ref sig .tc) → Buf (Elt Ideal) ((c : Thread nD τ).loc b))

/-- The four per-hit streams (labels, energies, track flags, minimum-bias flags) … -/
abbrev lab (c : Dev nD) : Vec Ideal S1x4000000 .i32 := V c main_v0
abbrev en (c : Dev nD) : Vec Ideal S1x4000000 .f32 := V c main_v1
abbrev trk (c : Dev nD) : Vec Ideal S1x4000000 .i32 := V c main_v2
abbrev mb (c : Dev nD) : Vec Ideal S1x4000000 .i32 := V c main_v3
/-- … and their blocks of 3200 hits at point `t`. -/
abbrev blk0 (c : Dev nD) (t : Fin cfg0.N) : Vec Ideal S1x3200 .i32 := iblk0 V c 0 t
abbrev blk1 (c : Dev nD) (t : Fin cfg0.N) : Vec Ideal S1x3200 .f32 := iblk0 V c 1 t
abbrev blk2 (c : Dev nD) (t : Fin cfg0.N) : Vec Ideal S1x3200 .i32 := iblk0 V c 2 t
abbrev blk3 (c : Dev nD) (t : Fin cfg0.N) : Vec Ideal S1x3200 .i32 := iblk0 V c 3 t

/-- The core and the hit block of a point. -/
abbrev coreOf (t : Fin cfg0.N) : Fin 2 := ⟨t.val / 10000, by have h : t.val < 20000 := lt_of_lt_of_eq t.isLt N_0; omega⟩
abbrev hblkOf (t : Fin cfg0.N) : Fin 625 := ⟨(t.val / 16) % 625, Nat.mod_lt _ (by omega)⟩

/-- Lane `l` of the block at point `t` is hit `(core · 625 + hit block) · 3200 + l` of the stream. -/
theorem blk0_apply (c : Dev nD) (t : Fin cfg0.N) (l : Fin 3200) :
    blk0 V c t (ix2 (0 : Fin 1) l) = lab V c (ix2 (0 : Fin 1) (Cert.Spec.hitOf (coreOf t) (hblkOf t) l)) := by
  obtain ⟨i0, i1⟩ := index0_0 t
  show iblk0 V c 0 t (ix2 (0 : Fin 1) l) = V c main_v0 _
  unfold iblk0
  rw [View.read_apply]
  show V c main_v0 _ = V c main_v0 _
  congr 1
  funext a
  apply Fin.ext
  match a with
  | ⟨0, _⟩ => show win0_0.index t 0 * 1 + 1 * 0 = 0; rw [i0]
  | ⟨1, _⟩ => show win0_0.index t 1 * 3200 + 1 * l.val = (t.val / 10000 * 625 + (t.val / 16) % 625) * 3200 + l.val; rw [i1]; omega

theorem blk1_apply (c : Dev nD) (t : Fin cfg0.N) (l : Fin 3200) :
    blk1 V c t (ix2 (0 : Fin 1) l) = en V c (ix2 (0 : Fin 1) (Cert.Spec.hitOf (coreOf t) (hblkOf t) l)) := by
  obtain ⟨i0, i1⟩ := index0_1 t
  show iblk0 V c 1 t (ix2 (0 : Fin 1) l) = V c main_v1 _
  unfold iblk0
  rw [View.read_apply]
  show V c main_v1 _ = V c main_v1 _
  congr 1
  funext a
  apply Fin.ext
  match a with
  | ⟨0, _⟩ => show win0_1.index t 0 * 1 + 1 * 0 = 0; rw [i0]
  | ⟨1, _⟩ => show win0_1.index t 1 * 3200 + 1 * l.val = (t.val / 10000 * 625 + (t.val / 16) % 625) * 3200 + l.val; rw [i1]; omega

theorem blk2_apply (c : Dev nD) (t : Fin cfg0.N) (l : Fin 3200) :
    blk2 V c t (ix2 (0 : Fin 1) l) = trk V c (ix2 (0 : Fin 1) (Cert.Spec.hitOf (coreOf t) (hblkOf t) l)) := by
  obtain ⟨i0, i1⟩ := index0_2 t
  show iblk0 V c 2 t (ix2 (0 : Fin 1) l) = V c main_v2 _
  unfold iblk0
  rw [View.read_apply]
  show V c main_v2 _ = V c main_v2 _
  congr 1
  funext a
  apply Fin.ext
  match a with
  | ⟨0, _⟩ => show win0_2.index t 0 * 1 + 1 * 0 = 0; rw [i0]
  | ⟨1, _⟩ => show win0_2.index t 1 * 3200 + 1 * l.val = (t.val / 10000 * 625 + (t.val / 16) % 625) * 3200 + l.val; rw [i1]; omega

theorem blk3_apply (c : Dev nD) (t : Fin cfg0.N) (l : Fin 3200) :
    blk3 V c t (ix2 (0 : Fin 1) l) = mb V c (ix2 (0 : Fin 1) (Cert.Spec.hitOf (coreOf t) (hblkOf t) l)) := by
  obtain ⟨i0, i1⟩ := index0_3 t
  show iblk0 V c 3 t (ix2 (0 : Fin 1) l) = V c main_v3 _
  unfold iblk0
  rw [View.read_apply]
  show V c main_v3 _ = V c main_v3 _
  congr 1
  funext a
  apply Fin.ext
  match a with
  | ⟨0, _⟩ => show win0_3.index t 0 * 1 + 1 * 0 = 0; rw [i0]
  | ⟨1, _⟩ => show win0_3.index t 1 * 3200 + 1 * l.val = (t.val / 10000 * 625 + (t.val / 16) % 625) * 3200 + l.val; rw [i1]; omega

/-! ## One point's step, read at an index -/

/-- What a block of 3200 hits contributes to row `r`, column (segment) `s`: the sum of row `r`'s masked energies over
    the block's hits of segment `s`. -/
def contrib (x0 : Vec Ideal S1x3200 .i32) (x1 : Vec Ideal S1x3200 .f32) (x2 x3 : Vec Ideal S1x3200 .i32) (r : Fin 8) (s : Fin 20480) : EReal :=
  ∑ l : Fin 3200, (if Cert.Spec.segW (x0 (ix2 (0 : Fin 1) l)) = s.val then
    Cert.Spec.rowW r (x0 (ix2 0 l)) (x1 (ix2 0 l)) (x2 (ix2 0 l)) (x3 (ix2 0 l)) else 0)

/-- The window the accumulate step loads and stores starts at column `1280` times the chunk. -/
theorem off1 (i : grid0.Coords) : k0_off1 i 0 = 0 ∧ k0_off1 i 1 = (i 2).val * 1280 := by
  refine ⟨rfl, ?_⟩
  show (BitVec.ofNat 32 (i 2).val * 1280#32).toNat = _
  have h : (i 2).val < 16 := (i 2).isLt
  rw [BitVec.toNat_mul, BitVec.toNat_ofNat, BitVec.toNat_ofNat]
  omega

/-- THE STEP AT AN INDEX: a column of the point's chunk gains the block's contribution, every other column keeps its
    value. -/
theorem step_apply (i : grid0.Coords) (x0 : Vec Ideal S1x3200 .i32) (x1 : Vec Ideal S1x3200 .f32) (x2 x3 : Vec Ideal S1x3200 .i32)
    (xs : Vec Ideal S8x20480 .f32) (hfin : ∀ l : Fin 3200, ∃ q : ℝ, x1 (ix2 (0 : Fin 1) l) = (q : EReal)) (r : Fin 8) (s : Fin 20480) :
    acc0_step i x0 x1 x2 x3 xs (ix2 r s)
      = if s.val / 1280 = (i 2).val then xs (ix2 r s) + contrib x0 x1 x2 x3 r s else xs (ix2 r s) := by
  obtain ⟨o0, o1⟩ := off1 i
  have hi : (i 2).val < 16 := (i 2).isLt
  have hs : s.val < 20480 := s.isLt
  unfold acc0_step
  by_cases hq : s.val / 1280 = (i 2).val
  · rw [if_pos hq]
    obtain ⟨j, hj⟩ : ∃ j : Fin 1280, j.val = s.val % 1280 := ⟨⟨s.val % 1280, Nat.mod_lt _ (by omega)⟩, rfl⟩
    have he : (rS0 i).emb (ix2 r j) = ix2 r s := by
      funext a; apply Fin.ext
      match a with
      | ⟨0, _⟩ => show k0_off1 i 0 + 1 * r.val = r.val; rw [o0]; omega
      | ⟨1, _⟩ => show k0_off1 i 1 + 1 * j.val = s.val; rw [o1]; omega
    rw [← he, Rect.overlay_emb]
    unfold acc0_slice
    refine (Cert.KernelIdeal.Pay.pay1_apply i x0 x1 x2 x3 (View.ld xs (rS0 i)) hfin r j).trans ?_
    refine congrArg (xs ((rS0 i).emb (ix2 r j)) + ·) ?_
    unfold contrib
    have hsj : (i 2).val * 1280 + j.val = s.val := by omega
    rw [hsj]
  · rw [if_neg hq]
    refine Rect.overlay_of_not_mem _ _ _ fun hm => hq ?_
    rw [Rect.mem_set_unit] at hm
    have h1 := hm 1
    have h1' : k0_off1 i 1 ≤ s.val ∧ s.val < k0_off1 i 1 + 1280 := h1
    rw [o1] at h1'
    omega

/-! ## The scratch over the grid -/

/-- What hit block `h` of core `c'` contributes to row `r`, column `s`, read off the arrays. -/
def Bk (c : Dev nD) (c' : Fin 2) (h : Fin 625) (r : Fin 8) (s : Fin 20480) : EReal :=
  ∑ l : Fin 3200, (if Cert.Spec.segW (lab V c (ix2 (0 : Fin 1) (Cert.Spec.hitOf c' h l))) = s.val then
    Cert.Spec.rowW r (lab V c (ix2 0 (Cert.Spec.hitOf c' h l))) (en V c (ix2 0 (Cert.Spec.hitOf c' h l)))
      (trk V c (ix2 0 (Cert.Spec.hitOf c' h l))) (mb V c (ix2 0 (Cert.Spec.hitOf c' h l))) else 0)

/-- The blocks at point `t` contribute what the arrays say of `t`'s core and hit block. -/
theorem contrib_blk (c : Dev nD) (t : Fin cfg0.N) (r : Fin 8) (s : Fin 20480) :
    contrib (blk0 V c t) (blk1 V c t) (blk2 V c t) (blk3 V c t) r s = Bk V c (coreOf t) (hblkOf t) r s := by
  unfold contrib Bk
  refine Finset.sum_congr rfl fun l _ => ?_
  rw [blk0_apply, blk1_apply, blk2_apply, blk3_apply]

/-- The scratch after point `n` (zero past the grid). -/
def S (c : Dev nD) (n : ℕ) (r : Fin 8) (s : Fin 20480) : EReal :=
  if h : n < cfg0.N then (outsAt0 V c n h).2 (ix2 r s) else 0

section
variable (c : Dev nD) (hfin : ∀ n : Fin 4000000, ∃ q : ℝ, en V c (ix2 (0 : Fin 1) n) = (q : EReal))
include hfin

theorem blk1_fin (t : Fin cfg0.N) (l : Fin 3200) : ∃ q : ℝ, blk1 V c t (ix2 (0 : Fin 1) l) = (q : EReal) := by
  rw [blk1_apply]; exact hfin _

/-- A core's first point: the scratch is zeroed and chunk 0 receives the block's contribution. -/
theorem S_first (n : ℕ) (hn : n < 20000) (h0 : n % 10000 = 0) (r : Fin 8) (s : Fin 20480) :
    S V c n r s = if s.val / 1280 = n % 16 then
      0 + Bk V c ⟨n / 10000, by omega⟩ ⟨(n / 16) % 625, Nat.mod_lt _ (by omega)⟩ r s else 0 := by
  have hN : cfg0.N = 20000 := N_0
  have hn' : n < cfg0.N := hN ▸ hn
  unfold S
  rw [dif_pos hn', outsAt0_A V c ⟨n, hn'⟩ h0]
  dsimp only
  unfold acc0_init
  refine (step_apply (grid0.coords ⟨n, hn'⟩) (blk0 V c ⟨n, hn'⟩) (blk1 V c ⟨n, hn'⟩) (blk2 V c ⟨n, hn'⟩) (blk3 V c ⟨n, hn'⟩)
    (k0_pay3 (F := Ideal)) (blk1_fin V c hfin ⟨n, hn'⟩) r s).trans ?_
  rw [(coords0 ⟨n, hn'⟩).2.2, Cert.KernelIdeal.Pay.pay3_apply, contrib_blk]

/-- Every other point: chunk `n % 16` gains the block's contribution. -/
theorem S_step (n : ℕ) (hn : n < 20000) (h0 : n % 10000 ≠ 0) (r : Fin 8) (s : Fin 20480) :
    S V c n r s = if s.val / 1280 = n % 16 then
      S V c (n - 1) r s + Bk V c ⟨n / 10000, by omega⟩ ⟨(n / 16) % 625, Nat.mod_lt _ (by omega)⟩ r s else S V c (n - 1) r s := by
  have hN : cfg0.N = 20000 := N_0
  have hn' : n < cfg0.N := hN ▸ hn
  have hp : n - 1 < cfg0.N := by omega
  unfold S
  rw [dif_pos hn', dif_pos hp, outsAt0_step V c ⟨n, hn'⟩ h0]
  dsimp only
  refine (step_apply (grid0.coords ⟨n, hn'⟩) (blk0 V c ⟨n, hn'⟩) (blk1 V c ⟨n, hn'⟩) (blk2 V c ⟨n, hn'⟩) (blk3 V c ⟨n, hn'⟩)
    (outsAt0 V c (n - 1) hp).2 (blk1_fin V c hfin ⟨n, hn'⟩) r s).trans ?_
  rw [(coords0 ⟨n, hn'⟩).2.2, contrib_blk]

/-- After a core's last point the scratch holds, at `(r, s)`, the sum over the core's 625 hit blocks. -/
theorem S_last (c' : Fin 2) (r : Fin 8) (s : Fin 20480) :
    S V c (c'.val * 10000 + 9999) r s = ∑ h : Fin 625, Bk V c c' h r s :=
  Cert.KernelIdeal.Acc.acc_last (S V c) (Bk V c) (fun n hn h0 r s => S_first V c hfin n hn h0 r s)
    (fun n hn h0 r s => S_step V c hfin n hn h0 r s) c' r s

end

/-! ## The output array -/

/-- At every point the output's staging buffer holds the scratch viewed with a leading unit axis. -/
theorem outs_fst (c : Dev nD) (t : Fin cfg0.N) :
    (outsAt0 V c t.val t.isLt).1 = out0_flush (outsAt0 V c t.val t.isLt).2 := by
  by_cases h0 : t.val % 10000 = 0
  · rw [outsAt0_A V c t h0]
  · rw [outsAt0_step V c t h0]

/-- The array the region leaves: block `c'` is the per-segment sums of core `c'`'s hits. -/
def G (c : Dev nD) : Vec Ideal S2x8x20480 .f32 := fun i =>
  ∑ h : Fin 625, Bk V c ⟨(i 0).val, (i 0).isLt⟩ h ⟨(i 1).val, (i 1).isLt⟩ ⟨(i 2).val, (i 2).isLt⟩

section
variable (c : Dev nD) (hfin : ∀ n : Fin 4000000, ∃ q : ℝ, en V c (ix2 (0 : Fin 1) n) = (q : EReal))
include hfin

/-- What a core's last point writes back is its block of `G`. -/
theorem flushed4 (t : Fin cfg0.N) (hf : (cfg0.win 4).flush t = true) :
    (dat0 V c).flushed 4 t = ((cfg0.win 4).blk t).view.read (Elt Ideal) (G V c) := by
  have hN : cfg0.N = 20000 := N_0
  have ht : t.val < 20000 := hN ▸ t.isLt
  have h9 : t.val % 10000 = 9999 := (flush0_4 t).mp hf
  obtain ⟨i0, i1, i2⟩ := index0_4 t
  show (cfg0.win 4).cut (grid0.coords t) ((dat0 V c).after 4 t) = _
  rw [after0_out, outs_fst]
  funext y
  have hy0 : (y 0).val = 0 := by have h : (y 0).val < 1 := (y 0).isLt; omega
  have hy1 : (y 1).val < 8 := (y 1).isLt
  have hy2 : (y 2).val < 20480 := (y 2).isLt
  show out0_flush (outsAt0 V c t.val t.isLt).2 ((cfg0.win 4).xinj (grid0.coords t) y) = _
  have e1 : (cfg0.win 4).xinj (grid0.coords t) y = ix3 (0 : Fin 1) (⟨(y 1).val, hy1⟩ : Fin 8) (⟨(y 2).val, hy2⟩ : Fin 20480) :=
    funext fun a => Fin.ext (by
      match a with
      | ⟨0, _⟩ => exact hy0
      | ⟨1, _⟩ => rfl
      | ⟨2, _⟩ => rfl)
  rw [e1]
  unfold out0_flush
  rw [Cert.KernelIdeal.Pay.pay2_apply, View.read_apply]
  have hS : ∀ (n : ℕ), n = t.val → ∀ (r : Fin 8) (s : Fin 20480), (outsAt0 V c t.val t.isLt).2 (ix2 r s) = S V c n r s := by
    intro n e r s
    subst e
    unfold S
    rw [dif_pos t.isLt]
  rw [hS ((coreOf t).val * 10000 + 9999) (by show t.val / 10000 * 10000 + 9999 = t.val; omega), S_last V c hfin]
  show G V c (ix3 (coreOf t) (⟨(y 1).val, hy1⟩ : Fin 8) (⟨(y 2).val, hy2⟩ : Fin 20480)) = G V c _
  congr 1
  funext a
  apply Fin.ext
  match a with
  | ⟨0, _⟩ => show t.val / 10000 = win0_4.index t 0 * 1 + 1 * (y 0).val; rw [i0, hy0]; omega
  | ⟨1, _⟩ => show (y 1).val = win0_4.index t 1 * 8 + 1 * (y 1).val; rw [i1]; omega
  | ⟨2, _⟩ => show (y 2).val = win0_4.index t 2 * 20480 + 1 * (y 2).val; rw [i2]; omega

/-- The two cores' last points cover the array, so it ends holding `G`. -/
theorem arrAt_eq : (dat0 V c).arrAt 4 cfg0.N = G V c :=
  (dat0 V c).arrAt_eq_of_cover 4 (G V c) (flushed4 V c hfin) fun i => by
    have h0 : (i 0 : ℕ) < 2 := (i 0).isLt
    have h1 : (i 1 : ℕ) < 8 := (i 1).isLt
    have h2 : (i 2 : ℕ) < 20480 := (i 2).isLt
    have hlt : (i 0 : ℕ) * 10000 + 9999 < cfg0.N :=
      lt_of_lt_of_eq (show (i 0 : ℕ) * 10000 + 9999 < 20000 by omega) N_0.symm
    obtain ⟨t, ht⟩ : ∃ t : Fin cfg0.N, t.val = (i 0 : ℕ) * 10000 + 9999 := ⟨⟨_, hlt⟩, rfl⟩
    obtain ⟨j0, j1, j2⟩ := index0_4 t
    refine ⟨t, (flush0_4 t).mpr (by rw [ht]; omega), ?_⟩
    show i ∈ ((View.whole main_v4).slice (win0_4.rect t)).set
    rw [View.set_slice_whole, Rect.mem_set_unit]
    intro a
    match a with
    | ⟨0, _⟩ =>
      show win0_4.index t 0 * 1 ≤ (i 0 : ℕ) ∧ (i 0 : ℕ) < win0_4.index t 0 * 1 + 1
      rw [j0, ht]; omega
    | ⟨1, _⟩ =>
      show win0_4.index t 1 * 8 ≤ (i 1 : ℕ) ∧ (i 1 : ℕ) < win0_4.index t 1 * 8 + 8
      rw [j1]; omega
    | ⟨2, _⟩ =>
      show win0_4.index t 2 * 20480 ≤ (i 2 : ℕ) ∧ (i 2 : ℕ) < win0_4.index t 2 * 20480 + 20480
      rw [j2]; omega

end

end Cert.KernelIdeal.Hand.Reg0V

namespace Cert.KernelIdeal.Hand

open Cert.KernelIdeal Cert.KernelIdeal.Gen Cert.KernelIdeal.Hand.Grid Cert.KernelIdeal.Hand.Reg0V
open Idealize.ShloMosaic Idealize.ShloMosaic.TcCoe Idealize.ShloMosaic.ValueIdx
open Idealize.SL Idealize.SL.Sem

/-- WHAT THE FIRST REGION LEAVES in its output array, at `(c', r, s)`: the sum over core `c'`'s 625 hit blocks and
    their 3200 lanes of row `r`'s masked energy of the hits whose segment is `s`. -/
theorem arrAt0 (V : (c : Dev nD) → (b : Ref sig .tc) → Buf (Elt Ideal) ((c : Thread nD τ).loc b)) (c : Dev nD)
    (hfin : ∀ n : Fin 4000000, ∃ q : ℝ, (V c main_v1 : S1x4000000.Idx → EReal) (ix2 (0 : Fin 1) n) = (q : EReal))
    (c' : Fin 2) (r : Fin 8) (s : Fin 20480) :
    ((dat0 V c).arrAt 4 cfg0.N : S2x8x20480.Idx → EReal) (ix3 c' r s)
      = ∑ h : Fin 625, ∑ l : Fin 3200,
          (if Cert.Spec.segW ((V c main_v0 : S1x4000000.Idx → BitVec 32) (ix2 (0 : Fin 1) (Cert.Spec.hitOf c' h l))) = s.val then
            Cert.Spec.rowW r ((V c main_v0 : S1x4000000.Idx → BitVec 32) (ix2 (0 : Fin 1) (Cert.Spec.hitOf c' h l)))
              ((V c main_v1 : S1x4000000.Idx → EReal) (ix2 (0 : Fin 1) (Cert.Spec.hitOf c' h l)))
              ((V c main_v2 : S1x4000000.Idx → BitVec 32) (ix2 (0 : Fin 1) (Cert.Spec.hitOf c' h l)))
              ((V c main_v3 : S1x4000000.Idx → BitVec 32) (ix2 (0 : Fin 1) (Cert.Spec.hitOf c' h l))) else 0) := by
  rw [arrAt_eq V c hfin]
  rfl

end Cert.KernelIdeal.Hand

end
-- ==== Proof.KI.Pay1.lean ====
import proofs.«422791_j81235011436601_4_alg».proof.Proof.Gen.KernelIdeal.Skeleton
import proofs.«422791_j81235011436601_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayG

open Cert.KernelIdeal Cert.KernelIdeal.Gen Idealize.ShloMosaic Idealize.ShloMosaic.ValueIdx

/-! ## The cleared accumulator -/

/-- The value stored at the first chunk of segments is zero everywhere. -/
theorem pay1_apply (y : S5x3200.Idx) : k1_pay1 (F := Ideal) y = 0 := by
  unfold k1_pay1
  rw [shapeCast_self]
  exact Ideal.ofBits_zero_f32

/-! ## The gather's product at an entry

The dimension numbers contract the table's axis 1 with the one-hot operand's axis 0; the four lemmas below read the
two operand indices, axis by axis, at a result index and a contraction index. -/

/-- The table's row is the result's row. -/
theorem lhs_0 (j : S5x3200.Idx) (c : dot_S5x1280_S1280x3200_S5x3200_1_0_0_1_n_n.contr.Idx) :
    (dot_S5x1280_S1280x3200_S5x3200_1_0_0_1_n_n.lhsIdx j c 0).val = (j 0).val := by
  simp [DotDims.lhsIdx, dot_S5x1280_S1280x3200_S5x3200_1_0_0_1_n_n]
  rfl

/-- The table's column is the contracted coordinate. -/
theorem lhs_1 (j : S5x3200.Idx) (c : dot_S5x1280_S1280x3200_S5x3200_1_0_0_1_n_n.contr.Idx) :
    (dot_S5x1280_S1280x3200_S5x3200_1_0_0_1_n_n.lhsIdx j c 1).val = (c ⟨0, by decide⟩).val :=
  DotDims.lhsIdx_val_of_single _ rfl j c

/-- The one-hot operand's row is the contracted coordinate. -/
theorem rhs_0 (j : S5x3200.Idx) (c : dot_S5x1280_S1280x3200_S5x3200_1_0_0_1_n_n.contr.Idx) :
    (dot_S5x1280_S1280x3200_S5x3200_1_0_0_1_n_n.rhsIdx j c 0).val = (c ⟨0, by decide⟩).val :=
  DotDims.rhsIdx_val_of_single _ rfl j c

/-- The one-hot operand's column is the result's column. -/
theorem rhs_1 (j : S5x3200.Idx) (c : dot_S5x1280_S1280x3200_S5x3200_1_0_0_1_n_n.contr.Idx) :
    (dot_S5x1280_S1280x3200_S5x3200_1_0_0_1_n_n.rhsIdx j c 1).val = (j 1).val := by
  simp [DotDims.rhsIdx, dot_S5x1280_S1280x3200_S5x3200_1_0_0_1_n_n]
  rfl

/-- A [5,1280] matrix times a [1280,3200] matrix, accumulated into zeros, read at an entry: the sum over the
    contracted coordinate of the products of the entries. -/
theorem matmul_zero_apply {φ₁ φ₂ : FTy} (A : FVec Ideal S5x1280 φ₁) (B : FVec Ideal S1280x3200 φ₂) (k : Fin 5) (l : Fin 3200) :
    matmul dot_S5x1280_S1280x3200_S5x3200_1_0_0_1_n_n none A B (constant (F := Ideal) S5x3200 .f32 0x00000000#32) (ix2 k l)
      = ∑ j : Fin 1280, A (ix2 k j) * B (ix2 j l) := by
  show FloatOps.matmul dot_S5x1280_S1280x3200_S5x3200_1_0_0_1_n_n none A B _ (ix2 k l) = _
  rw [Ideal.matmul_constant_zero_apply,
    ← Equiv.sum_comp (contrEquiv1 dot_S5x1280_S1280x3200_S5x3200_1_0_0_1_n_n 1280 rfl rfl).symm]
  refine Finset.sum_congr rfl fun c _ => ?_
  have hc := contrEquiv1_symm_val dot_S5x1280_S1280x3200_S5x3200_1_0_0_1_n_n 1280 rfl rfl c
  have l2 : dot_S5x1280_S1280x3200_S5x3200_1_0_0_1_n_n.lhsIdx (ix2 k l) ((contrEquiv1 _ 1280 rfl rfl).symm c) = ix2 k c := by
    funext ax; apply Fin.ext
    match ax with
    | ⟨0, _⟩ => exact lhs_0 _ _
    | ⟨1, _⟩ => exact (lhs_1 _ _).trans hc
  have r2 : dot_S5x1280_S1280x3200_S5x3200_1_0_0_1_n_n.rhsIdx (ix2 k l) ((contrEquiv1 _ 1280 rfl rfl).symm c) = ix2 c l := by
    funext ax; apply Fin.ext
    match ax with
    | ⟨0, _⟩ => exact (rhs_0 _ _).trans hc
    | ⟨1, _⟩ => exact rhs_1 _ _
  rw [l2, r2]

/-! ## The one-hot operand -/

/-- A [1280,1] column broadcast along the lanes reads, at (j, l), the column's entry j. -/
theorem bcast_col_apply {α : Type} (v : S1280x1.Idx → α) (j : Fin 1280) (l : Fin 3200) :
    broadcastTo S1280x3200 v broadcasts_S1280x1_S1280x3200 (ix2 j l) = v (ix2 j (0 : Fin 1)) := by
  refine broadcastTo_apply v _ (ix2 j l) (ix2 j (0 : Fin 1)) fun ax => ?_
  match ax with
  | ⟨0, _⟩ => rfl
  | ⟨1, _⟩ => rfl

/-- A [1,3200] row broadcast along the sublanes reads, at (j, l), the row's entry l. -/
theorem bcast_row_apply {α : Type} (v : S1x3200.Idx → α) (j : Fin 1280) (l : Fin 3200) :
    broadcastTo S1280x3200 v broadcasts_S1x3200_S1280x3200 (ix2 j l) = v (ix2 (0 : Fin 1) l) :=
  broadcastTo_1b_ab_apply v _ j l

/-- The chunk's segment numbers: entry (j, l) is the chunk's first segment w plus j. -/
theorem seg_ids_apply (w : BitVec 32) (j : Fin 1280) (l : Fin 3200) :
    broadcastTo S1280x3200 (addi (broadcast S1280x1 w) (iota .tc S1280x1 32 [0] iota_S1280x1_d0_w32))
      broadcasts_S1280x1_S1280x3200 (ix2 j l) = w + BitVec.ofNat 32 j.val := by
  rw [bcast_col_apply]
  show IntOp.addi w (iota .tc S1280x1 32 [0] iota_S1280x1_d0_w32 (ix2 j (0 : Fin 1))) = _
  rw [iota_single_apply]
  rfl

/-- The chunk's segment number at row j equals the label's segment exactly when the two natural numbers agree:
    the chunk starts at c · 1280 with c below 16, so nothing wraps. -/
theorem seg_word_eq_iff (c : ℕ) (hc : c < 16) (j : Fin 1280) (s : BitVec 32) :
    Scalar.muli (BitVec.ofNat 32 c) 1280#32 + BitVec.ofNat 32 j.val = s + 1#32 ↔ Cert.Spec.segW s = c * 1280 + j.val := by
  have hj := j.isLt
  unfold Cert.Spec.segW
  show BitVec.ofNat 32 c * 1280#32 + BitVec.ofNat 32 j.val = s + 1#32 ↔ _
  rw [← BitVec.toNat_inj]
  simp only [BitVec.toNat_add, BitVec.toNat_mul, BitVec.toNat_ofNat]
  omega

/-- The comparison bit, widened and converted, is 1 where the words agree and 0 elsewhere. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h; simp [IntOp.cmpi]
  · have hb : (a == b) = false := by simpa using h
    simp [IntOp.cmpi, h, hb]

/-- The one-hot operand at (j, l): 1 where the chunk's segment number w + j is the segment of the block's label l,
    else 0 (the format change is the identity at the ideal values). -/
theorem onehot_apply (w : BitVec 32) (x : IVec S1x3200 32) (j : Fin 1280) (l : Fin 3200) :
    (truncf .bf16 (sitofp (F := Ideal) .f32 (extui 32 (cmpi .eq
        (broadcastTo S1280x3200 (addi (broadcast S1280x1 w) (iota .tc S1280x1 32 [0] iota_S1280x1_d0_w32))
          broadcasts_S1280x1_S1280x3200)
        (broadcastTo S1280x3200 (addi x (broadcast S1x3200 1#32)) broadcasts_S1x3200_S1280x3200)) natLt_1_32))
      bitsLt_bf16_f32) (ix2 j l)
      = if w + BitVec.ofNat 32 j.val = x (ix2 (0 : Fin 1) l) + 1#32 then (1 : EReal) else 0 := by
  rw [truncf_apply, sitofp_apply, extui_apply]
  show FloatOps.sitofp (F := Ideal) .f32 ((IntOp.cmpi .eq
      (broadcastTo S1280x3200 (addi (broadcast S1280x1 w) (iota .tc S1280x1 32 [0] iota_S1280x1_d0_w32))
        broadcasts_S1280x1_S1280x3200 (ix2 j l))
      (broadcastTo S1280x3200 (addi x (broadcast S1x3200 1#32)) broadcasts_S1x3200_S1280x3200 (ix2 j l))).setWidth 32) = _
  rw [seg_ids_apply, bcast_row_apply, onehot_word]
  rfl

/-- One point of the gather: for each hit l of the block, the accumulator gains the table entry of the hit's
    segment when that segment lies in the point's chunk of 1280 segments. The table's entries are real numbers,
    so the low part v - v of the two-pass split is zero and the second product adds nothing. -/
theorem pay2_apply (i : grid1.Coords) (x0 : Vec Ideal S1x3200 .i32) (tbl : Vec Ideal S5x1280 .f32) (acc : Vec Ideal S5x3200 .f32)
    (hfin : ∀ (k : Fin 5) (j : Fin 1280), ∃ q : ℝ, tbl (ix2 k j) = (q : EReal)) (k : Fin 5) (l : Fin 3200) :
    k1_pay2 i x0 tbl acc (ix2 k l)
      = acc (ix2 k l) + ∑ j : Fin 1280, (if Cert.Spec.segW (x0 (ix2 (0 : Fin 1) l)) = (i 1).val * 1280 + j.val then tbl (ix2 k j) else 0) := by
  have h16 : (i 1).val < 16 := (i 1).isLt
  unfold k1_pay2
  simp only [shapeCast_self]
  rw [addf_apply, addf_apply, matmul_zero_apply, matmul_zero_apply]
  have hlo : ∀ j : Fin 1280, tbl (ix2 k j) - tbl (ix2 k j) = (0 : EReal) := fun j => by
    obtain ⟨q, hq⟩ := hfin k j
    rw [hq, ← EReal.coe_sub, sub_self, EReal.coe_zero]
  congr 1
  refine (congrArg₂ (· + ·) (Finset.sum_congr rfl fun j _ => ?_) (Finset.sum_eq_zero fun j _ => ?_)).trans (add_zero _)
  · rw [truncf_apply]
    refine (congrArg (tbl (ix2 k j) * ·) (onehot_apply _ x0 j l)).trans ?_
    simp only [seg_word_eq_iff _ h16, mul_ite, mul_one, mul_zero]
  · show (tbl (ix2 k j) - tbl (ix2 k j)) * _ = 0
    rw [hlo, zero_mul]

/-! ## The last store: four rows kept, the fifth a guarded quotient -/

/-- The guarded quotient on words: the comparisons with zero decide the two selects, and where the denominator is
    not zero the inner select returns it unchanged. -/
theorem frac_word (h n : EReal) :
    Scalar.select (FloatOps.cmpf (F := Ideal) (φ := .f32) .oeq h (Scalar.ofBits .f32 0x00000000#32))
        (Scalar.ofBits (F := Ideal) .f32 0x00000000#32)
        (Ideal.div n (Scalar.select (FloatOps.cmpf (F := Ideal) (φ := .f32) .oeq h (Scalar.ofBits .f32 0x00000000#32))
          (Scalar.ofBits (F := Ideal) .f32 0x3F800000#32) h))
      = Cert.Spec.frac h n := by
  have h0 : (Scalar.ofBits (F := Ideal) .f32 0x00000000#32 : EReal) = 0 := Ideal.ofBits_zero_f32
  rw [h0]
  unfold Cert.Spec.frac
  by_cases hz : h = 0
  · simp [Scalar.select, Ideal.cmpf_def, Ideal.cmp, hz]
  · simp [Scalar.select, Ideal.cmpf_def, Ideal.cmp, hz]

/-- Off the concatenation axis the piece index and the result index agree. -/
theorem row_hi (k : Fin 5) (l : Fin 3200) (b : Fin S1x3200.rank)
    (hb : b.cast (rfl : S1x3200.rank = S5x3200.rank) ≠ (0 : Fin S5x3200.rank)) :
    ((ix2 (0 : Fin 1) l : S1x3200.Idx) b).val = ((ix2 k l : S5x3200.Idx) (b.cast rfl)).val := by
  match b with
  | ⟨0, _⟩ => exact absurd rfl hb
  | ⟨1, _⟩ => rfl

/-- Rows 0 to 3 of the accumulated block pass through; row 4 becomes the quotient of row 4 by row 2, zero where
    row 2 is zero. -/
theorem pay3_apply (g : Vec Ideal S5x3200 .f32) (k : Fin 5) (l : Fin 3200) :
    k1_pay3 g (ix2 k l) = if k.val < 4 then g (ix2 k l) else Cert.Spec.frac (g (ix2 (2 : Fin 5) l)) (g (ix2 (4 : Fin 5) l)) := by
  unfold k1_pay3
  match k with
  | ⟨0, _⟩ =>
    refine Eq.trans (concatenate_apply_piece (t := S5x3200) 0 _ _ _ 0 (by simp) S1x3200 _ rfl rfl 0 rfl (ix2 (0 : Fin 1) l) (row_hi _ l) rfl) ?_
    exact slice2_axis0_apply 0 g _ 0 l 0 rfl
  | ⟨1, _⟩ =>
    refine Eq.trans (concatenate_apply_piece (t := S5x3200) 0 _ _ _ 1 (by simp) S1x3200 _ rfl rfl 1 rfl (ix2 (0 : Fin 1) l) (row_hi _ l) rfl) ?_
    exact slice2_axis0_apply 1 g _ 0 l 1 rfl
  | ⟨2, _⟩ =>
    refine Eq.trans (concatenate_apply_piece (t := S5x3200) 0 _ _ _ 2 (by simp) S1x3200 _ rfl rfl 2 rfl (ix2 (0 : Fin 1) l) (row_hi _ l) rfl) ?_
    exact slice2_axis0_apply 2 g _ 0 l 2 rfl
  | ⟨3, _⟩ =>
    refine Eq.trans (concatenate_apply_piece (t := S5x3200) 0 _ _ _ 3 (by simp) S1x3200 _ rfl rfl 3 rfl (ix2 (0 : Fin 1) l) (row_hi _ l) rfl) ?_
    exact slice2_axis0_apply 3 g _ 0 l 3 rfl
  | ⟨4, _⟩ =>
    refine Eq.trans (concatenate_apply_piece (t := S5x3200) 0 _ _ _ 4 (by simp) S1x3200 _ rfl rfl 4 rfl (ix2 (0 : Fin 1) l) (row_hi _ l) rfl) ?_
    rw [select_apply, cmpf_apply, broadcast_apply, divf_apply, select_apply, cmpf_apply, broadcast_apply, broadcast_apply,
      slice2_axis0_apply 2 g _ 0 l 2 rfl, slice2_axis0_apply 4 g _ 0 l 4 rfl]
    exact frac_word _ _

end Cert.KernelIdeal.PayG
-- ==== Proof.KI.Reg1Value.lean ====
/- The value of region 1 of @main (the gather kernel, grid (1250, 16)) at the extended reals, read off the region's
   proof data.

   Point `t` of the grid works on hit block `t / 16` (3200 hits) and on column chunk `t % 16` of the table (1280 of its
   20480 columns). Within a hit block the accumulator starts at zero and each of the sixteen points adds, at entry
   `(k, l)`, the table's entry `(k, s)` if the segment `s` of hit `l` lies in the point's chunk and nothing otherwise.
   Exactly one chunk holds the segment, so after the sixteenth point the accumulator's entry is the table's entry at the
   hit's segment. That point stores rows 0 to 3 unchanged and in row 4 the quotient of row 4 by row 2 (zero where row 2 is
   zero), and its block is written back. The 1250 blocks written back tile the output array, lane `l` of block `b`
   being hit `3200 · b + l`; so the array ends holding, at `(k, n)`, that function of the table's column at the segment
   of hit `n`.

   Needed of the inputs: the table's entries are real numbers (an infinite entry times a zero of the one-hot would not
   vanish), and every hit's segment is below 20480 (a column of the table). -/
import proofs.«422791_j81235011436601_4_alg».proof.Proof.KI.Reg1Body
import proofs.«422791_j81235011436601_4_alg».proof.Proof.KI.Pay1
import proofs.«422791_j81235011436601_4_alg».proof.Proof.SpecAlg
import proofs.«422791_j81235011436601_4_alg».proof.Proof.KI.Grid
import Idealize.ShloMosaic.Lib.Pipeline.Value
import Idealize.ShloMosaic.Lib.ValueIdx
import Idealize.ShloMosaic.PureOps.Ideal
import Mathlib.Data.EReal.Basic
import Mathlib.Algebra.BigOperators.Fin
import Mathlib.Algebra.BigOperators.Group.Finset.Basic

set_option maxRecDepth 16384
set_option Elab.async false

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Reg1

/-! ## The two arrays the region reads -/

/-- The hits' labels as the region finds them: one row of 4000000 words. -/
abbrev labA (c : Dev nD) : S1x4000000.Idx → BitVec 32 := V c main_v0
/-- The per-segment table as the region finds it: five rows of 20480 columns. -/
abbrev tabA (c : Dev nD) : S5x20480.Idx → EReal := V c main_v84

/-- The label of hit number `m` (zero past the array's end: never read there). -/
def labN (lab : S1x4000000.Idx → BitVec 32) (m : ℕ) : BitVec 32 :=
  if h : m < 4000000 then lab (ix2 (0 : Fin 1) (⟨m, h⟩ : Fin 4000000)) else 0

/-- The table's entry in row `k`, column `s` (zero past the last column: never read there). -/
def tabN (tab : S5x20480.Idx → EReal) (k : Fin 5) (s : ℕ) : EReal :=
  if h : s < 20480 then tab (ix2 k (⟨s, h⟩ : Fin 20480)) else 0

/-! ## Where point `t` sits: hit block `t / 16`, column chunk `t % 16` (the grid's closed forms are `Grid.coords1`, `Grid.index1_0` … `Grid.index1_2`) -/

theorem lt_N1 (t : Fin cfg1.N) : t.val < 20000 := lt_of_lt_of_eq t.isLt N_1

/-! ## The blocks the body reads -/

/-- Lane `l` of the labels' block at point `t` is the label of hit `3200 · (t / 16) + l`. -/
theorem lblk_apply (c : Dev nD) (t : Fin cfg1.N) (l : Fin 3200) :
    (iblk1 V c 0 t : S1x3200.Idx → BitVec 32) (ix2 (0 : Fin 1) l) = labN (labA V c) (3200 * (t.val / 16) + l.val) := by
  have hN := lt_N1 t
  have hl := l.isLt
  obtain ⟨e0, e1⟩ := Grid.index1_0 t
  rw [labN, dif_pos (by omega)]
  unfold iblk1
  rw [View.read_apply]
  show V c main_v0 _ = V c main_v0 _
  congr 1
  funext a
  apply Fin.ext
  match a with
  | ⟨0, _⟩ => show win1_0.index t 0 * 1 + 1 * 0 = 0; rw [e0]
  | ⟨1, _⟩ => show win1_0.index t 1 * 3200 + 1 * l.val = 3200 * (t.val / 16) + l.val; rw [e1]; omega

/-- The table's block at any point is the table. -/
theorem tblk_eq (c : Dev nD) (t : Fin cfg1.N) : (iblk1 V c 1 t : S5x20480.Idx → EReal) = tabA V c := by
  funext y
  unfold iblk1
  rw [View.read_apply]
  show V c main_v84 _ = V c main_v84 y
  congr 1
  funext a
  apply Fin.ext
  match a with
  | ⟨0, _⟩ => show win1_1.index t 0 * 5 + 1 * (y 0).val = (y 0).val; rw [(Grid.index1_1 t).1]; omega
  | ⟨1, _⟩ => show win1_1.index t 1 * 20480 + 1 * (y 1).val = (y 1).val; rw [(Grid.index1_1 t).2]; omega

/-- The chunk the point loads starts at column `1280 · i₁`. -/
theorem off1_eq (i : grid1.Coords) : k1_off1 i 0 = 0 ∧ k1_off1 i 1 = (i 1).val * 1280 := by
  refine ⟨rfl, ?_⟩
  show (Scalar.indexCast (Scalar.muli (BitVec.ofNat 32 (i 1).val) 1280#32)).toNat = (i 1).val * 1280
  exact (by decide : ∀ j : Fin 16, (Scalar.indexCast (Scalar.muli (BitVec.ofNat 32 j.val) 1280#32)).toNat = j.val * 1280) (i 1)

/-- Entry `(k, j)` of the chunk loaded at coordinates `i` is the table's entry `(k, 1280 · i₁ + j)`. -/
theorem chunk_apply (i : grid1.Coords) (tab : Vec Ideal S5x20480 .f32) (k : Fin 5) (j : Fin 1280) :
    (View.ld tab (rT1 i) : Vec Ideal S5x1280 .f32) (ix2 k j) = tabN tab k ((i 1).val * 1280 + j.val) := by
  have h16 : (i 1).val < 16 := (i 1).isLt
  have hj := j.isLt
  obtain ⟨e0, e1⟩ := off1_eq i
  rw [tabN, dif_pos (by omega)]
  show tab _ = tab _
  congr 1
  funext a
  apply Fin.ext
  match a with
  | ⟨0, _⟩ => show k1_off1 i 0 + 1 * k.val = k.val; rw [e0]; omega
  | ⟨1, _⟩ => show k1_off1 i 1 + 1 * j.val = (i 1).val * 1280 + j.val; rw [e1]; omega

/-! ## One hit block's sweep over the sixteen column chunks -/

/-- What column chunk `q` adds, in row `k`, to the accumulator's entry of a hit of segment `seg`: the table's entry at
    `seg` when `seg` lies in the chunk, else nothing. -/
def chunkTerm (tab : S5x20480.Idx → EReal) (k : Fin 5) (seg q : ℕ) : EReal :=
  ∑ j : Fin 1280, (if seg = q * 1280 + j.val then tabN tab k (q * 1280 + j.val) else 0)

/-- One accumulation step at an entry, over any labels' block, table and accumulator. -/
theorem step_apply (i : grid1.Coords) (lab : Vec Ideal S1x3200 .i32) (tab : Vec Ideal S5x20480 .f32) (xs : Vec Ideal S5x3200 .f32)
    (hfin : ∀ (k : Fin 5) (s : Fin 20480), ∃ q : ℝ, tab (ix2 k s) = (q : EReal)) (k : Fin 5) (l : Fin 3200) :
    acc1_step (F := Ideal) i lab tab xs (ix2 k l)
      = xs (ix2 k l) + chunkTerm tab k (Cert.Spec.segW (lab (ix2 (0 : Fin 1) l))) (i 1).val := by
  have h16 : (i 1).val < 16 := (i 1).isLt
  unfold acc1_step chunkTerm
  refine (Cert.KernelIdeal.PayG.pay2_apply i lab (View.ld tab (rT1 i)) xs (fun k' j' => ?_) k l).trans ?_
  · rw [chunk_apply, tabN, dif_pos (by have := j'.isLt; omega)]
    exact hfin k' _
  · congr 1
    refine Finset.sum_congr rfl fun j _ => ?_
    rw [chunk_apply]

/-- The step at point `t`, on the point's own blocks: the labels are those of hit block `t / 16`, the chunk is `t % 16`. -/
theorem stepAt (c : Dev nD) (hfin : ∀ (k : Fin 5) (s : Fin 20480), ∃ q : ℝ, tabA V c (ix2 k s) = (q : EReal))
    (t : Fin cfg1.N) (xs : Vec Ideal S5x3200 .f32) (k : Fin 5) (l : Fin 3200) :
    acc1_step (F := Ideal) (grid1.coords t) (iblk1 V c 0 t) (iblk1 V c 1 t) xs (ix2 k l)
      = xs (ix2 k l) + chunkTerm (tabA V c) k (Cert.Spec.segW (labN (labA V c) (3200 * (t.val / 16) + l.val))) (t.val % 16) := by
  rw [show (iblk1 V c 1 t : Vec Ideal S5x20480 .f32) = tabA V c from tblk_eq V c t]
  refine (step_apply (grid1.coords t) (iblk1 V c 0 t) (tabA V c) xs hfin k l).trans ?_
  rw [lblk_apply, (Grid.coords1 t).2]

/-- THE SWEEP. After point `n` the accumulator's entry `(k, l)` is the sum of what chunks `0 … n % 16` add for hit
    `3200 · (n / 16) + l`: a point with inner coordinate 0 starts from zero, every other adds its chunk to what the
    point before left. -/
theorem acc_inv (c : Dev nD) (hfin : ∀ (k : Fin 5) (s : Fin 20480), ∃ q : ℝ, tabA V c (ix2 k s) = (q : EReal)) :
    ∀ (n : ℕ) (hn : n < cfg1.N) (k : Fin 5) (l : Fin 3200),
      ((outsAt1 V c n hn).2 : Vec Ideal S5x3200 .f32) (ix2 k l)
        = ∑ q ∈ Finset.range (n % 16 + 1),
            chunkTerm (tabA V c) k (Cert.Spec.segW (labN (labA V c) (3200 * (n / 16) + l.val))) q := by
  intro n
  induction n with
  | zero =>
    intro hn k l
    rw [outsAt1_A V c ⟨0, hn⟩ rfl]
    dsimp only
    unfold acc1_init
    refine (stepAt V c hfin ⟨0, hn⟩ _ k l).trans ?_
    rw [Cert.KernelIdeal.PayG.pay1_apply, zero_add]
    show chunkTerm _ k _ (0 % 16) = ∑ q ∈ Finset.range (0 % 16 + 1), chunkTerm _ k _ q
    rw [show 0 % 16 = 0 from rfl, Finset.sum_range_one]
  | succ n ih =>
    intro hn k l
    by_cases h0 : (n + 1) % 16 = 0
    · rw [outsAt1_A V c ⟨n + 1, hn⟩ h0]
      dsimp only
      unfold acc1_init
      refine (stepAt V c hfin ⟨n + 1, hn⟩ _ k l).trans ?_
      rw [Cert.KernelIdeal.PayG.pay1_apply, zero_add]
      show chunkTerm _ k _ ((n + 1) % 16) = ∑ q ∈ Finset.range ((n + 1) % 16 + 1), chunkTerm _ k _ q
      rw [h0, Finset.sum_range_one]
    · have key : ((outsAt1 V c (n + 1) hn).2 : Vec Ideal S5x3200 .f32) (ix2 k l)
          = ((outsAt1 V c n (Nat.lt_of_succ_lt hn)).2 : Vec Ideal S5x3200 .f32) (ix2 k l)
            + chunkTerm (tabA V c) k (Cert.Spec.segW (labN (labA V c) (3200 * ((n + 1) / 16) + l.val))) ((n + 1) % 16) := by
        by_cases h1 : (n + 1) % 16 = 15
        · rw [outsAt1_C V c ⟨n + 1, hn⟩ h1]
          dsimp only
          exact stepAt V c hfin ⟨n + 1, hn⟩ _ k l
        · rw [outsAt1_B V c ⟨n + 1, hn⟩ h0 h1]
          dsimp only
          exact stepAt V c hfin ⟨n + 1, hn⟩ _ k l
      rw [key, ih (Nat.lt_of_succ_lt hn) k l]
      have e1 : (n + 1) / 16 = n / 16 := by omega
      have e2 : (n + 1) % 16 = n % 16 + 1 := by omega
      rw [e1, e2, Finset.sum_range_succ _ (n % 16 + 1)]

/-! ## What the last point of a sweep stores, and the array -/

/-- Every hit's segment is a column of the table. -/
theorem segN_lt (c : Dev nD) (hseg : ∀ n : Fin 4000000, Cert.Spec.segW (labA V c (ix2 (0 : Fin 1) n)) < 20480) (m : ℕ) (hm : m < 4000000) :
    Cert.Spec.segW (labN (labA V c) m) < 20480 := by
  rw [labN, dif_pos hm]; exact hseg ⟨m, hm⟩

/-- After the sixteenth chunk the accumulator's entry `(k, l)` is the table's entry in row `k` at the hit's segment:
    exactly one chunk holds that column. -/
theorem acc_last (c : Dev nD) (hfin : ∀ (k : Fin 5) (s : Fin 20480), ∃ q : ℝ, tabA V c (ix2 k s) = (q : EReal))
    (hseg : ∀ n : Fin 4000000, Cert.Spec.segW (labA V c (ix2 (0 : Fin 1) n)) < 20480)
    (t : Fin cfg1.N) (h15 : t.val % 16 = 15) (k : Fin 5) (l : Fin 3200) :
    ((outsAt1 V c t.val t.isLt).2 : Vec Ideal S5x3200 .f32) (ix2 k l)
      = tabN (tabA V c) k (Cert.Spec.segW (labN (labA V c) (3200 * (t.val / 16) + l.val))) := by
  have hN := lt_N1 t
  have hl := l.isLt
  rw [acc_inv V c hfin t.val t.isLt k l, h15, Finset.sum_range]
  exact Cert.Spec.sum_chunks (tabN (tabA V c) k) _ (segN_lt V c hseg _ (by omega))

/-- The result at a hit of segment `sg`, row `k`: the table's entry for the first four rows, and for the fifth the
    quotient of row 4 by row 2 (zero where row 2 is zero). -/
def resAt (tab : S5x20480.Idx → EReal) (k : Fin 5) (sg : ℕ) : EReal :=
  if k.val < 4 then tabN tab k sg else Cert.Spec.frac (tabN tab 2 sg) (tabN tab 4 sg)

/-- The block stored at the last point of a sweep, at an entry. -/
theorem out_apply (c : Dev nD) (hfin : ∀ (k : Fin 5) (s : Fin 20480), ∃ q : ℝ, tabA V c (ix2 k s) = (q : EReal))
    (hseg : ∀ n : Fin 4000000, Cert.Spec.segW (labA V c (ix2 (0 : Fin 1) n)) < 20480)
    (t : Fin cfg1.N) (h15 : t.val % 16 = 15) (k : Fin 5) (l : Fin 3200) :
    ((outsAt1 V c t.val t.isLt).1 : Vec Ideal S5x3200 .f32) (ix2 k l)
      = resAt (tabA V c) k (Cert.Spec.segW (labN (labA V c) (3200 * (t.val / 16) + l.val))) := by
  have e : (outsAt1 V c t.val t.isLt).1 = out1_flush (F := Ideal) (outsAt1 V c t.val t.isLt).2 := by
    rw [outsAt1_C V c t h15]
  rw [e]
  unfold out1_flush resAt
  rw [Cert.KernelIdeal.PayG.pay3_apply, acc_last V c hfin hseg t h15 k l, acc_last V c hfin hseg t h15 2 l,
    acc_last V c hfin hseg t h15 4 l]

/-- The whole output array: entry `(k, n)` is the result at hit `n`'s segment. -/
def G1 (lab : S1x4000000.Idx → BitVec 32) (tab : S5x20480.Idx → EReal) : S5x4000000.Idx → EReal :=
  fun i => resAt tab (i 0) (Cert.Spec.segW (labN lab (i 1).val))

theorem G1_apply (lab : S1x4000000.Idx → BitVec 32) (tab : S5x20480.Idx → EReal) (i : S5x4000000.Idx) (k : Fin 5) (m : ℕ)
    (h0 : (i 0).val = k.val) (h1 : (i 1).val = m) : G1 lab tab i = resAt tab k (Cert.Spec.segW (labN lab m)) := by
  have e : (i 0 : Fin 5) = k := Fin.ext h0
  unfold G1
  rw [e, h1]

/-- WHAT A SWEEP'S LAST POINT WRITES BACK is its block of the whole-array function: lane `l` of hit block `t / 16` is
    hit `3200 · (t / 16) + l`. -/
theorem flushed1_eq (c : Dev nD) (hfin : ∀ (k : Fin 5) (s : Fin 20480), ∃ q : ℝ, tabA V c (ix2 k s) = (q : EReal))
    (hseg : ∀ n : Fin 4000000, Cert.Spec.segW (labA V c (ix2 (0 : Fin 1) n)) < 20480)
    (t : Fin cfg1.N) (hf : (cfg1.win 2).flush t = true) :
    (dat1 V c).flushed 2 t = ((cfg1.win 2).blk t).view.read (Elt Ideal) (G1 (labA V c) (tabA V c)) := by
  have h15 : t.val % 16 = 15 := (Grid.flush1_2 t).mp hf
  obtain ⟨e0, e1⟩ := Grid.index1_2 t
  show (cfg1.win 2).cut (grid1.coords t) ((dat1 V c).after 2 t) = _
  rw [after1_out]
  funext y
  obtain ⟨k, l, rfl⟩ : ∃ (k : Fin 5) (l : Fin 3200), y = ix2 k l := ⟨y 0, y 1, eq_ix2 y⟩
  rw [View.read_apply]
  show ((outsAt1 V c t.val t.isLt).1 : Vec Ideal S5x3200 .f32) (ix2 k l)
    = G1 (labA V c) (tabA V c) (((cfg1.win 2).blk t).view.emb (ix2 k l))
  rw [out_apply V c hfin hseg t h15 k l]
  refine (G1_apply (labA V c) (tabA V c) _ k (3200 * (t.val / 16) + l.val) ?_ ?_).symm
  · show win1_2.index t 0 * 5 + 1 * k.val = k.val
    rw [e0]; omega
  · show win1_2.index t 1 * 3200 + 1 * l.val = 3200 * (t.val / 16) + l.val
    rw [e1]; omega

/-- Every entry of the output array is in the block some sweep's last point writes back: column `n` is in hit block
    `n / 3200`, written at point `16 · (n / 3200) + 15`. -/
theorem cover1_2 (i : S5x4000000.Idx) :
    ∃ t : Fin cfg1.N, (cfg1.win 2).flush t = true ∧ i ∈ ((cfg1.win 2).blk t).view.set := by
  have h0 : (i 0).val < 5 := (i 0).isLt
  have h1 : (i 1).val < 4000000 := (i 1).isLt
  have hN : cfg1.N = 20000 := N_1
  have ht : 16 * ((i 1).val / 3200) + 15 < cfg1.N := by rw [hN]; omega
  obtain ⟨e0, e1⟩ := Grid.index1_2 ⟨16 * ((i 1).val / 3200) + 15, ht⟩
  refine ⟨⟨16 * ((i 1).val / 3200) + 15, ht⟩, (Grid.flush1_2 _).mpr (by show (16 * ((i 1).val / 3200) + 15) % 16 = 15; omega), ?_⟩
  show i ∈ ((View.whole main_v85).slice (win1_2.rect ⟨16 * ((i 1).val / 3200) + 15, ht⟩)).set
  rw [View.set_slice_whole, Rect.mem_set_unit]
  intro a
  match a with
  | ⟨0, _⟩ =>
    show win1_2.index ⟨16 * ((i 1).val / 3200) + 15, ht⟩ 0 * 5 ≤ (i 0).val
      ∧ (i 0).val < win1_2.index ⟨16 * ((i 1).val / 3200) + 15, ht⟩ 0 * 5 + 5
    rw [e0]; omega
  | ⟨1, _⟩ =>
    show win1_2.index ⟨16 * ((i 1).val / 3200) + 15, ht⟩ 1 * 3200 ≤ (i 1).val
      ∧ (i 1).val < win1_2.index ⟨16 * ((i 1).val / 3200) + 15, ht⟩ 1 * 3200 + 3200
    rw [e1]
    show (16 * ((i 1).val / 3200) + 15) / 16 * 3200 ≤ (i 1).val ∧ (i 1).val < (16 * ((i 1).val / 3200) + 15) / 16 * 3200 + 3200
    omega

/-- So the output array ends holding the whole-array function. -/
theorem final1 (c : Dev nD) (hfin : ∀ (k : Fin 5) (s : Fin 20480), ∃ q : ℝ, tabA V c (ix2 k s) = (q : EReal))
    (hseg : ∀ n : Fin 4000000, Cert.Spec.segW (labA V c (ix2 (0 : Fin 1) n)) < 20480) :
    (dat1 V c).arrAt 2 cfg1.N = G1 (labA V c) (tabA V c) :=
  (dat1 V c).arrAt_eq_of_cover 2 (G1 (labA V c) (tabA V c)) (flushed1_eq V c hfin hseg) (cover1_2)

end Reg1

open Reg1 in
/-- THE REGION'S VALUE. With the table's entries real numbers and every hit's segment a column of the table, the gather
    leaves at `(k, n)` the table's entry `(k, segment of hit n)` for the first four rows and, in the fifth, the
    quotient of row 4 by row 2 at that segment (zero where row 2 is zero). -/
theorem arrAt1 (c : Dev nD) (hfin : ∀ (k : Fin 5) (s : Fin 20480), ∃ q : ℝ, tabA V c (ix2 k s) = (q : EReal))
    (hseg : ∀ n : Fin 4000000, Cert.Spec.segW (labA V c (ix2 (0 : Fin 1) n)) < 20480) (k : Fin 5) (n : Fin 4000000) :
    ((dat1 V c).arrAt 2 cfg1.N : S5x4000000.Idx → EReal) (ix2 k n)
      = (let sg : Fin 20480 := ⟨Cert.Spec.segW (labA V c (ix2 (0 : Fin 1) n)), hseg n⟩
         if k.val < 4 then tabA V c (ix2 k sg) else Cert.Spec.frac (tabA V c (ix2 2 sg)) (tabA V c (ix2 4 sg))) := by
  rw [final1 V c hfin hseg, G1_apply (labA V c) (tabA V c) (ix2 k n) k n.val rfl rfl]
  have hl : labN (labA V c) n.val = labA V c (ix2 (0 : Fin 1) n) := by rw [labN, dif_pos n.isLt]
  unfold resAt
  rw [hl]
  simp only [tabN, dif_pos (hseg n)]

end Cert.KernelIdeal.Hand

end
-- ==== Proof.SpecBridge.lean ====
/-
  The closing algebra of the kernel's side, on plain functions. The first kernel leaves, per core, row and segment
  column, the sum of that row's entries over the core's hits of that segment; the host adds the two cores' parts into
  a table of five rows (track energy, track energy times its correction, hit energy, hit energy times its correction,
  hit energy outside minimum bias), zero past the last segment; the second kernel gives every hit its own segment's
  column, the fifth result as the quotient of the fifth row by the third. The two cores' parts together run over every
  hit once, so a table entry is the operator's segment sum, and the five results are the operator's five.
-/
import proofs.«422791_j81235011436601_4_alg».proof.Proof.Spec
import proofs.«422791_j81235011436601_4_alg».proof.Proof.SpecAlg
import Mathlib.Algebra.BigOperators.Fin

noncomputable section

namespace Cert.Spec

open Idealize.ShloMosaic Idealize.ShloMosaic.ValueIdx

section
variable (psid : Hits.Idx → BitVec 32) (pcf en : Hits.Idx → EReal) (trk mb : Hits.Idx → BitVec 32)
variable (aT aH : Alph.Idx → BitVec 32)

/-- Rows 0, 1, 2 of the accumulated rows are the three per-hit energies. -/
theorem row_zero : row psid en trk mb 0 = eHit psid en trk := by funext i; rfl
theorem row_one : row psid en trk mb 1 = eTrk psid en trk := by funext i; rfl
theorem row_two : row psid en trk mb 2 = eNmb psid en trk mb := by funext i; rfl

/-- What the first kernel leaves: at core c', row r, segment column s, the sum of row r over that core's hits of
    segment s. -/
def AccSpec (O : Fin 2 → Fin 8 → Fin 20480 → EReal) : Prop :=
  ∀ (c' : Fin 2) (r : Fin 8) (s : Fin 20480), O c' r s = ∑ h : Fin 625, ∑ l : Fin 3200,
    (if segW (psid (hit (hitOf c' h l))) = s.val
      then rowW r (psid (hit (hitOf c' h l))) (en (hit (hitOf c' h l))) (trk (hit (hitOf c' h l))) (mb (hit (hitOf c' h l)))
      else 0)

/-- The two cores' parts added (from zero). -/
def tOf (O : Fin 2 → Fin 8 → Fin 20480 → EReal) (r : Fin 8) (s : Fin 20480) : EReal := 0 + (O 0 r s + O 1 r s)

/-- The padded table the host builds for the second kernel. -/
def TblSpec (O : Fin 2 → Fin 8 → Fin 20480 → EReal) (Tb : Fin 5 → Fin 20480 → EReal) : Prop :=
  ∀ (k : Fin 5) (s : Fin 20480), Tb k s =
    if s.val < 20001 then
      (if k.val = 0 then tOf O 1 s else if k.val = 1 then tOf O 1 s * corr psid pcf aT s.val
        else if k.val = 2 then tOf O 0 s else if k.val = 3 then tOf O 0 s * corr psid pcf aH s.val else tOf O 2 s)
    else 0

/-- The second kernel's output: every hit reads its own segment's column. -/
def OutSpec (Tb : Fin 5 → Fin 20480 → EReal) (Out : Fin 5 → Fin 4000000 → EReal) : Prop :=
  ∀ (k : Fin 5) (n : Fin 4000000) (hs : segW (psid (hit n)) < 20480), Out k n =
    if k.val < 4 then Tb k ⟨segW (psid (hit n)), hs⟩
    else frac (Tb 2 ⟨segW (psid (hit n)), hs⟩) (Tb 4 ⟨segW (psid (hit n)), hs⟩)

variable {O : Fin 2 → Fin 8 → Fin 20480 → EReal} {Tb : Fin 5 → Fin 20480 → EReal} {Out : Fin 5 → Fin 4000000 → EReal}

/-- The two cores' hits are all the hits: the added parts are the operator's segment sum of that row. -/
theorem tOf_eq (hO : AccSpec psid en trk mb O) (r : Fin 8) (s : Fin 20480) :
    tOf O r s = segSum psid (row psid en trk mb r) s.val := by
  rw [segSum_blocks, Fin.sum_univ_two, tOf, zero_add, hO 0 r s, hO 1 r s]
  rfl

/-- Every table entry is a real number: sums and products of real numbers. -/
theorem tb_real (hD : Dom psid pcf en aT aH) (hO : AccSpec psid en trk mb O) (hTb : TblSpec psid pcf aT aH O Tb)
    (k : Fin 5) (s : Fin 20480) : IsReal (Tb k s) := by
  have hen : ∀ i, IsReal (en i) := hD.en_fin
  have hpc : ∀ i, IsReal (pcf i) := hD.pcf_fin
  have hT : ∀ r, IsReal (tOf O r s) := fun r => by
    rw [tOf_eq psid en trk mb hO]
    exact segSum_real psid _ (fun i => row_real psid en trk mb hen r i) _
  rw [hTb k s]
  repeat' first | exact isReal_zero | exact hT _ | exact corr_real psid pcf hpc _ _ | apply IsReal.mul | apply IsReal.ite

/-- A hit's segment is one of the 20001 segments. -/
theorem segOf_lt (hD : Dom psid pcf en aT aH) (i : Hits.Idx) : segW (psid i) < 20001 :=
  segW_lt _ (hD.sid_lo i) (hD.sid_hi i)

/-- The table at a hit's own segment column, row by row. -/
theorem tbl_at (hD : Dom psid pcf en aT aH) (hO : AccSpec psid en trk mb O) (hTb : TblSpec psid pcf aT aH O Tb)
    (k : Fin 5) (n : Fin 4000000) (hs : segW (psid (hit n)) < 20480) :
    Tb k ⟨segW (psid (hit n)), hs⟩ =
      if k.val = 0 then segSum psid (eTrk psid en trk) (segOf psid (hit n))
      else if k.val = 1 then segSum psid (eTrk psid en trk) (segOf psid (hit n)) * corr psid pcf aT (segOf psid (hit n))
      else if k.val = 2 then segSum psid (eHit psid en trk) (segOf psid (hit n))
      else if k.val = 3 then segSum psid (eHit psid en trk) (segOf psid (hit n)) * corr psid pcf aH (segOf psid (hit n))
      else segSum psid (eNmb psid en trk mb) (segOf psid (hit n)) := by
  have hlt : (⟨segW (psid (hit n)), hs⟩ : Fin 20480).val < 20001 := segOf_lt psid pcf en aT aH hD (hit n)
  rw [hTb k, if_pos hlt, tOf_eq psid en trk mb hO, tOf_eq psid en trk mb hO, tOf_eq psid en trk mb hO,
    row_zero, row_one, row_two]
  rfl

/-- The second kernel's output at a hit, read through the table at the hit's segment. -/
theorem out_lt4 (hD : Dom psid pcf en aT aH) (hOut : OutSpec psid Tb Out) (k : Fin 5) (hk : k.val < 4) (n : Fin 4000000) :
    Out k n = Tb k ⟨segW (psid (hit n)), Nat.lt_trans (segOf_lt psid pcf en aT aH hD (hit n)) (by norm_num)⟩ := by
  rw [hOut k n (Nat.lt_trans (segOf_lt psid pcf en aT aH hD (hit n)) (by norm_num)), if_pos hk]

/-- The five results are the operator's five. -/
theorem out0_eq (hD : Dom psid pcf en aT aH) (hO : AccSpec psid en trk mb O) (hTb : TblSpec psid pcf aT aH O Tb)
    (hOut : OutSpec psid Tb Out) (n : Fin 4000000) : Out 0 n = trackRaw psid en trk (hit n) := by
  have k0 : (0 : Fin 5).val = 0 := rfl
  rw [out_lt4 psid pcf en aT aH hD hOut 0 (by decide), tbl_at psid pcf en trk mb aT aH hD hO hTb, if_pos k0]
  unfold trackRaw
  rfl

theorem out1_eq (hD : Dom psid pcf en aT aH) (hO : AccSpec psid en trk mb O) (hTb : TblSpec psid pcf aT aH O Tb)
    (hOut : OutSpec psid Tb Out) (n : Fin 4000000) : Out 1 n = trackCorr psid pcf en trk aT (hit n) := by
  have k0 : ¬ (1 : Fin 5).val = 0 := by decide
  have k1 : (1 : Fin 5).val = 1 := rfl
  rw [out_lt4 psid pcf en aT aH hD hOut 1 (by decide), tbl_at psid pcf en trk mb aT aH hD hO hTb, if_neg k0, if_pos k1]
  unfold trackCorr
  rfl

theorem out2_eq (hD : Dom psid pcf en aT aH) (hO : AccSpec psid en trk mb O) (hTb : TblSpec psid pcf aT aH O Tb)
    (hOut : OutSpec psid Tb Out) (n : Fin 4000000) : Out 2 n = hitRaw psid en trk (hit n) := by
  have k0 : ¬ (2 : Fin 5).val = 0 := by decide
  have k1 : ¬ (2 : Fin 5).val = 1 := by decide
  have k2 : (2 : Fin 5).val = 2 := rfl
  rw [out_lt4 psid pcf en aT aH hD hOut 2 (by decide), tbl_at psid pcf en trk mb aT aH hD hO hTb, if_neg k0, if_neg k1,
    if_pos k2]
  unfold hitRaw
  rfl

theorem out3_eq (hD : Dom psid pcf en aT aH) (hO : AccSpec psid en trk mb O) (hTb : TblSpec psid pcf aT aH O Tb)
    (hOut : OutSpec psid Tb Out) (n : Fin 4000000) : Out 3 n = hitCorr psid pcf en trk aH (hit n) := by
  have k0 : ¬ (3 : Fin 5).val = 0 := by decide
  have k1 : ¬ (3 : Fin 5).val = 1 := by decide
  have k2 : ¬ (3 : Fin 5).val = 2 := by decide
  have k3 : (3 : Fin 5).val = 3 := rfl
  rw [out_lt4 psid pcf en aT aH hD hOut 3 (by decide), tbl_at psid pcf en trk mb aT aH hD hO hTb, if_neg k0, if_neg k1,
    if_neg k2, if_pos k3]
  unfold hitCorr
  rfl

/-- The table's third and fifth rows at a hit's segment: the hit energy and the hit energy outside minimum bias. -/
theorem tbl2_at (hD : Dom psid pcf en aT aH) (hO : AccSpec psid en trk mb O) (hTb : TblSpec psid pcf aT aH O Tb)
    (n : Fin 4000000) (hs : segW (psid (hit n)) < 20480) :
    Tb 2 ⟨segW (psid (hit n)), hs⟩ = segSum psid (eHit psid en trk) (segOf psid (hit n)) := by
  have k0 : ¬ (2 : Fin 5).val = 0 := by decide
  have k1 : ¬ (2 : Fin 5).val = 1 := by decide
  have k2 : (2 : Fin 5).val = 2 := rfl
  rw [tbl_at psid pcf en trk mb aT aH hD hO hTb, if_neg k0, if_neg k1, if_pos k2]

theorem tbl4_at (hD : Dom psid pcf en aT aH) (hO : AccSpec psid en trk mb O) (hTb : TblSpec psid pcf aT aH O Tb)
    (n : Fin 4000000) (hs : segW (psid (hit n)) < 20480) :
    Tb 4 ⟨segW (psid (hit n)), hs⟩ = segSum psid (eNmb psid en trk mb) (segOf psid (hit n)) := by
  have k0 : ¬ (4 : Fin 5).val = 0 := by decide
  have k1 : ¬ (4 : Fin 5).val = 1 := by decide
  have k2 : ¬ (4 : Fin 5).val = 2 := by decide
  have k3 : ¬ (4 : Fin 5).val = 3 := by decide
  rw [tbl_at psid pcf en trk mb aT aH hD hO hTb, if_neg k0, if_neg k1, if_neg k2, if_neg k3]

theorem out4_eq (hD : Dom psid pcf en aT aH) (hO : AccSpec psid en trk mb O) (hTb : TblSpec psid pcf aT aH O Tb)
    (hOut : OutSpec psid Tb Out) (n : Fin 4000000) : Out 4 n = noMbFrac psid en trk mb (hit n) := by
  have k4 : ¬ (4 : Fin 5).val < 4 := by decide
  rw [hOut 4 n (Nat.lt_trans (segOf_lt psid pcf en aT aH hD (hit n)) (by norm_num)), if_neg k4,
    tbl2_at psid pcf en trk mb aT aH hD hO hTb, tbl4_at psid pcf en trk mb aT aH hD hO hTb]
  unfold noMbFrac
  rfl

end

end Cert.Spec

end
-- ==== Proof.SpecGlue.lean ====
/-
  From the arrays of a run to the hypotheses of the closing algebra. The kernels read the per-hit columns laid out as
  one row (entry (0, n) of the row is entry (n, 0) of the column), the first kernel's result is an array over
  (core, row, segment column), the table and the second kernel's result are arrays over (row, column). Read at their
  coordinates these arrays are the plain functions the closing algebra speaks of, and the five results, columns again,
  are the operator's five as whole arrays: every index of a column is (n, 0).
-/
import proofs.«422791_j81235011436601_4_alg».proof.Proof.Spec
import proofs.«422791_j81235011436601_4_alg».proof.Proof.SpecAlg
import proofs.«422791_j81235011436601_4_alg».proof.Proof.SpecBridge
import Idealize.ShloMosaic.Lib.ValueIdx

noncomputable section

namespace Cert.Spec

open Idealize.ShloMosaic Idealize.ShloMosaic.ValueIdx

/-- The per-hit columns as one row; the first kernel's result; the table; the second kernel's result; a per-segment
    vector. -/
abbrev RowL : Shape := ⟨2, ![1, 4000000]⟩
abbrev AccL : Shape := ⟨3, ![2, 8, 20480]⟩
abbrev TabL : Shape := ⟨2, ![5, 20480]⟩
abbrev ResL : Shape := ⟨2, ![5, 4000000]⟩
abbrev SegL : Shape := ⟨1, ![20001]⟩

/-- Every index of a per-hit column is (n, 0). -/
theorem hits_idx (i : Hits.Idx) : i = hit (i 0) := by
  have h1 : i 1 = (0 : Fin 1) := Fin.ext (by have := idx2_lt1 i; show (i 1).val = 0; omega)
  have h2 : i = ix2 (i 0) (i 1) := eq_ix2 i
  rw [h1] at h2
  exact h2

section
variable (psid : Hits.Idx → BitVec 32) (pcf en : Hits.Idx → EReal) (trk mb : Hits.Idx → BitVec 32)
variable (aT aH : Alph.Idx → BitVec 32)

/-- The energies in row layout are real numbers when the column's are. -/
theorem enRow_real (hD : Dom psid pcf en aT aH) (enR : RowL.Idx → EReal)
    (hen : ∀ n : Fin 4000000, enR (ix2 (0 : Fin 1) n) = en (ix2 n (0 : Fin 1))) (n : Fin 4000000) :
    ∃ q : ℝ, enR (ix2 (0 : Fin 1) n) = (q : EReal) := by
  rw [hen n]; exact hD.en_fin _

/-- The first kernel's result, stated over the row-layout inputs, is the accumulation the closing algebra assumes. -/
theorem accSpec_of (lab : RowL.Idx → BitVec 32) (enR : RowL.Idx → EReal) (trkR mbR : RowL.Idx → BitVec 32)
    (hlab : ∀ n : Fin 4000000, lab (ix2 (0 : Fin 1) n) = psid (ix2 n (0 : Fin 1)))
    (hen : ∀ n : Fin 4000000, enR (ix2 (0 : Fin 1) n) = en (ix2 n (0 : Fin 1)))
    (htrk : ∀ n : Fin 4000000, trkR (ix2 (0 : Fin 1) n) = trk (ix2 n (0 : Fin 1)))
    (hmb : ∀ n : Fin 4000000, mbR (ix2 (0 : Fin 1) n) = mb (ix2 n (0 : Fin 1)))
    (A : AccL.Idx → EReal)
    (hA : ∀ (c' : Fin 2) (r : Fin 8) (s : Fin 20480), A (ix3 c' r s) = ∑ h : Fin 625, ∑ l : Fin 3200,
      (if segW (lab (ix2 (0 : Fin 1) (hitOf c' h l))) = s.val
        then rowW r (lab (ix2 (0 : Fin 1) (hitOf c' h l))) (enR (ix2 (0 : Fin 1) (hitOf c' h l)))
          (trkR (ix2 (0 : Fin 1) (hitOf c' h l))) (mbR (ix2 (0 : Fin 1) (hitOf c' h l)))
        else 0)) :
    AccSpec psid en trk mb (fun c' r s => A (ix3 c' r s)) := by
  intro c' r s
  show A (ix3 c' r s) = _
  rw [hA c' r s]
  simp only [hlab, hen, htrk, hmb]

/-- The table, stated with the two corrections as per-segment vectors, is the table the closing algebra assumes. -/
theorem tblSpec_of (O : Fin 2 → Fin 8 → Fin 20480 → EReal) (cTa cHa : SegL.Idx → EReal)
    (hcT : ∀ s : Fin 20001, cTa (ix1 s) = corr psid pcf aT s.val)
    (hcH : ∀ s : Fin 20001, cHa (ix1 s) = corr psid pcf aH s.val)
    (tab : TabL.Idx → EReal)
    (htab : ∀ (k : Fin 5) (s : Fin 20480), tab (ix2 k s) =
      if h : s.val < 20001 then
        (if k.val = 0 then tOf O 1 s else if k.val = 1 then tOf O 1 s * cTa (ix1 ⟨s.val, h⟩)
          else if k.val = 2 then tOf O 0 s else if k.val = 3 then tOf O 0 s * cHa (ix1 ⟨s.val, h⟩) else tOf O 2 s)
      else 0) :
    TblSpec psid pcf aT aH O (fun k s => tab (ix2 k s)) := by
  intro k s
  show tab (ix2 k s) = _
  rw [htab k s]
  by_cases h : s.val < 20001
  · rw [dif_pos h, if_pos h, hcT ⟨s.val, h⟩, hcH ⟨s.val, h⟩]
  · rw [dif_neg h, if_neg h]

/-- The second kernel's result, stated over the row-layout labels, is the output the closing algebra assumes. -/
theorem outSpec_of (lab : RowL.Idx → BitVec 32)
    (hlab : ∀ n : Fin 4000000, lab (ix2 (0 : Fin 1) n) = psid (ix2 n (0 : Fin 1)))
    (tab : TabL.Idx → EReal) (B : ResL.Idx → EReal)
    (hseg : ∀ n : Fin 4000000, segW (lab (ix2 (0 : Fin 1) n)) < 20480)
    (hB : ∀ (k : Fin 5) (n : Fin 4000000), B (ix2 k n) =
      if k.val < 4 then tab (ix2 k (⟨segW (lab (ix2 (0 : Fin 1) n)), hseg n⟩ : Fin 20480))
      else frac (tab (ix2 (2 : Fin 5) (⟨segW (lab (ix2 (0 : Fin 1) n)), hseg n⟩ : Fin 20480)))
        (tab (ix2 (4 : Fin 5) (⟨segW (lab (ix2 (0 : Fin 1) n)), hseg n⟩ : Fin 20480)))) :
    OutSpec psid (fun k s => tab (ix2 k s)) (fun k n => B (ix2 k n)) := by
  intro k n hs
  have e : (⟨segW (lab (ix2 (0 : Fin 1) n)), hseg n⟩ : Fin 20480) = ⟨segW (psid (hit n)), hs⟩ :=
    Fin.ext (congrArg segW (hlab n))
  show B (ix2 k n) = _
  rw [hB k n, e]

/-- The labels' segments fit the table's columns. -/
theorem seg_lt_cols (hD : Dom psid pcf en aT aH) (lab : RowL.Idx → BitVec 32)
    (hlab : ∀ n : Fin 4000000, lab (ix2 (0 : Fin 1) n) = psid (ix2 n (0 : Fin 1))) (n : Fin 4000000) :
    segW (lab (ix2 (0 : Fin 1) n)) < 20480 := by
  rw [hlab n]
  exact Nat.lt_trans (segOf_lt psid pcf en aT aH hD _) (by norm_num)

variable {O : Fin 2 → Fin 8 → Fin 20480 → EReal} {Tb : Fin 5 → Fin 20480 → EReal} {Out : Fin 5 → Fin 4000000 → EReal}

/-- The five result columns, each the corresponding row of the second kernel's output, are the operator's five. -/
theorem results_of (hD : Dom psid pcf en aT aH) (hO : AccSpec psid en trk mb O) (hTb : TblSpec psid pcf aT aH O Tb)
    (hOut : OutSpec psid Tb Out) (R0 R1 R2 R3 R4 : Hits.Idx → EReal)
    (h0 : ∀ n : Fin 4000000, R0 (ix2 n (0 : Fin 1)) = Out 0 n)
    (h1 : ∀ n : Fin 4000000, R1 (ix2 n (0 : Fin 1)) = Out 1 n)
    (h2 : ∀ n : Fin 4000000, R2 (ix2 n (0 : Fin 1)) = Out 2 n)
    (h3 : ∀ n : Fin 4000000, R3 (ix2 n (0 : Fin 1)) = Out 3 n)
    (h4 : ∀ n : Fin 4000000, R4 (ix2 n (0 : Fin 1)) = Out 4 n) :
    R0 = (fun i => trackRaw psid en trk i) ∧ R1 = (fun i => trackCorr psid pcf en trk aT i)
      ∧ R2 = (fun i => hitRaw psid en trk i) ∧ R3 = (fun i => hitCorr psid pcf en trk aH i)
      ∧ R4 = (fun i => noMbFrac psid en trk mb i) := by
  refine ⟨funext fun i => ?_, funext fun i => ?_, funext fun i => ?_, funext fun i => ?_, funext fun i => ?_⟩
  · rw [hits_idx i]; exact (h0 _).trans (out0_eq psid pcf en trk mb aT aH hD hO hTb hOut _)
  · rw [hits_idx i]; exact (h1 _).trans (out1_eq psid pcf en trk mb aT aH hD hO hTb hOut _)
  · rw [hits_idx i]; exact (h2 _).trans (out2_eq psid pcf en trk mb aT aH hD hO hTb hOut _)
  · rw [hits_idx i]; exact (h3 _).trans (out3_eq psid pcf en trk mb aT aH hD hO hTb hOut _)
  · rw [hits_idx i]; exact (h4 _).trans (out4_eq psid pcf en trk mb aT aH hD hO hTb hOut _)

end

end Cert.Spec

end
-- ==== Proof.KI.Bridge.lean ====
/-
  The kernel's five results are the operator's five. On one core: the per-hit columns reach both calls as rows holding
  the same entries; the first call leaves, per core of its grid, row and segment column, the sum of that row over the
  core's hits of that segment; the host's table is built from the two parts and the two correction vectors, which are
  the operator's corrections; the second call gives every hit its own segment's column of the table; and each result
  column is one row of what the second call leaves. With the inputs in their domain these facts are the hypotheses of
  the closing algebra, whose conclusion is the claim about the whole result arrays.
-/
import proofs.«422791_j81235011436601_4_alg».proof.Proof.Gen.KernelIdeal.Regions
import proofs.«422791_j81235011436601_4_alg».proof.Proof.KI.HostLayout
import proofs.«422791_j81235011436601_4_alg».proof.Proof.KI.HostCorr
import proofs.«422791_j81235011436601_4_alg».proof.Proof.KI.Run
import proofs.«422791_j81235011436601_4_alg».proof.Proof.KI.Reg0Value
import proofs.«422791_j81235011436601_4_alg».proof.Proof.KI.Reg1Value
import proofs.«422791_j81235011436601_4_alg».proof.Proof.Spec
import proofs.«422791_j81235011436601_4_alg».proof.Proof.SpecAlg
import proofs.«422791_j81235011436601_4_alg».proof.Proof.SpecBridge
import proofs.«422791_j81235011436601_4_alg».proof.Proof.SpecGlue
import Idealize.ShloMosaic.Lib.ValueIdx

noncomputable section

namespace Cert.KernelIdeal.Hand

open Cert.KernelIdeal Cert.KernelIdeal.Gen Idealize.ShloMosaic Idealize.ShloMosaic.ValueIdx Idealize.ShloMosaic.TcCoe

section
variable (m : (ℓ : Loc nD τ sig) → Buf (Elt Ideal) ℓ) (outs : Outs (F := Ideal)) (c : Dev nD)

/-- The seven argument arrays the operator reads, on core c, at their literal types: shower label, correction factor,
    energy, track flag, minimum-bias flag, and the two alpha-index arrays (tracks, hits). -/
abbrev argSid : Cert.Spec.Hits.Idx → BitVec 32 := m ((c.tc : Thread nD τ).loc main_arg0)
abbrev argPcf : Cert.Spec.Hits.Idx → EReal := m ((c.tc : Thread nD τ).loc main_arg1)
abbrev argEn : Cert.Spec.Hits.Idx → EReal := m ((c.tc : Thread nD τ).loc main_arg2)
abbrev argTrk : Cert.Spec.Hits.Idx → BitVec 32 := m ((c.tc : Thread nD τ).loc main_arg5)
abbrev argMb : Cert.Spec.Hits.Idx → BitVec 32 := m ((c.tc : Thread nD τ).loc main_arg8)
abbrev argAT : Cert.Spec.Alph.Idx → BitVec 32 := m ((c.tc : Thread nD τ).loc main_arg6)
abbrev argAH : Cert.Spec.Alph.Idx → BitVec 32 := m ((c.tc : Thread nD τ).loc main_arg7)

/-- THE RESULTS, for any contents outs the two calls leave that are, at the first call, the per-core segment sums of
    the rows over the row-layout inputs (given that the energies are real numbers) and, at the second call, each hit's
    own column of the table (given that the table's entries are real numbers and the segments fit its columns). -/
theorem kernel_results_of
    (hD : Cert.Spec.Dom (argSid m c) (argPcf m c) (argEn m c) (argAT m c) (argAH m c))
    (hA : (∀ n : Fin 4000000, ∃ q : ℝ, (V1 m c main_v1 : S1x4000000.Idx → EReal) (ix2 (0 : Fin 1) n) = (q : EReal)) →
      ∀ (c' : Fin 2) (r : Fin 8) (s : Fin 20480),
        (outs 2 main_v4 c : S2x8x20480.Idx → EReal) (ix3 c' r s) = ∑ h : Fin 625, ∑ l : Fin 3200,
          (if Cert.Spec.segW ((V1 m c main_v0 : S1x4000000.Idx → BitVec 32) (ix2 (0 : Fin 1) (Cert.Spec.hitOf c' h l))) = s.val
            then Cert.Spec.rowW r ((V1 m c main_v0 : S1x4000000.Idx → BitVec 32) (ix2 (0 : Fin 1) (Cert.Spec.hitOf c' h l)))
              ((V1 m c main_v1 : S1x4000000.Idx → EReal) (ix2 (0 : Fin 1) (Cert.Spec.hitOf c' h l)))
              ((V1 m c main_v2 : S1x4000000.Idx → BitVec 32) (ix2 (0 : Fin 1) (Cert.Spec.hitOf c' h l)))
              ((V1 m c main_v3 : S1x4000000.Idx → BitVec 32) (ix2 (0 : Fin 1) (Cert.Spec.hitOf c' h l)))
            else 0))
    (hB : (∀ (k : Fin 5) (s : Fin 20480), ∃ q : ℝ, (V12 m outs c main_v84 : S5x20480.Idx → EReal) (ix2 k s) = (q : EReal)) →
      ∀ (hseg : ∀ n : Fin 4000000,
          Cert.Spec.segW ((V12 m outs c main_v0 : S1x4000000.Idx → BitVec 32) (ix2 (0 : Fin 1) n)) < 20480)
        (k : Fin 5) (n : Fin 4000000),
        (outs 13 main_v85 c : S5x4000000.Idx → EReal) (ix2 k n) =
          if k.val < 4 then (V12 m outs c main_v84 : S5x20480.Idx → EReal)
              (ix2 k (⟨Cert.Spec.segW ((V12 m outs c main_v0 : S1x4000000.Idx → BitVec 32) (ix2 (0 : Fin 1) n)), hseg n⟩ : Fin 20480))
          else Cert.Spec.frac
            ((V12 m outs c main_v84 : S5x20480.Idx → EReal)
              (ix2 (2 : Fin 5) (⟨Cert.Spec.segW ((V12 m outs c main_v0 : S1x4000000.Idx → BitVec 32) (ix2 (0 : Fin 1) n)), hseg n⟩ : Fin 20480)))
            ((V12 m outs c main_v84 : S5x20480.Idx → EReal)
              (ix2 (4 : Fin 5) (⟨Cert.Spec.segW ((V12 m outs c main_v0 : S1x4000000.Idx → BitVec 32) (ix2 (0 : Fin 1) n)), hseg n⟩ : Fin 20480)))) :
    (V14 m outs c main_v87 : S4000000x1.Idx → EReal) = (fun i => Cert.Spec.trackRaw (argSid m c) (argEn m c) (argTrk m c) i)
    ∧ (V14 m outs c main_v89 : S4000000x1.Idx → EReal)
        = (fun i => Cert.Spec.trackCorr (argSid m c) (argPcf m c) (argEn m c) (argTrk m c) (argAT m c) i)
    ∧ (V14 m outs c main_v91 : S4000000x1.Idx → EReal) = (fun i => Cert.Spec.hitRaw (argSid m c) (argEn m c) (argTrk m c) i)
    ∧ (V14 m outs c main_v93 : S4000000x1.Idx → EReal)
        = (fun i => Cert.Spec.hitCorr (argSid m c) (argPcf m c) (argEn m c) (argTrk m c) (argAH m c) i)
    ∧ (V14 m outs c main_v95 : S4000000x1.Idx → EReal)
        = (fun i => Cert.Spec.noMbFrac (argSid m c) (argEn m c) (argTrk m c) (argMb m c) i) := by
  -- the rows the calls read hold the columns' entries
  have hlab := Host.v0_apply m c
  have hen := Host.v1_apply m c
  have htrk := Host.v2_apply m c
  have hmb := Host.v3_apply m c
  have hlab' := Host.v0_apply' m outs c
  -- the first call's result
  have henR := Cert.Spec.enRow_real (argSid m c) (argPcf m c) (argEn m c) (argAT m c) (argAH m c) hD
    (V1 m c main_v1 : S1x4000000.Idx → EReal) hen
  have hO := Cert.Spec.accSpec_of (argSid m c) (argEn m c) (argTrk m c) (argMb m c)
    (V1 m c main_v0 : S1x4000000.Idx → BitVec 32) (V1 m c main_v1 : S1x4000000.Idx → EReal)
    (V1 m c main_v2 : S1x4000000.Idx → BitVec 32) (V1 m c main_v3 : S1x4000000.Idx → BitVec 32)
    hlab hen htrk hmb (outs 2 main_v4 c : S2x8x20480.Idx → EReal) (hA henR)
  -- the table
  have hTb := Cert.Spec.tblSpec_of (argSid m c) (argPcf m c) (argAT m c) (argAH m c)
    (fun c' r s => (outs 2 main_v4 c : S2x8x20480.Idx → EReal) (ix3 c' r s))
    (V12 m outs c main_v75 : S20001.Idx → EReal) (V12 m outs c main_v43 : S20001.Idx → EReal)
    (Host.corr_tracks m outs c hD.aT_lo hD.aT_hi) (Host.corr_hits m outs c hD.aH_lo hD.aH_hi)
    (V12 m outs c main_v84 : S5x20480.Idx → EReal) (Host.table_apply m outs c)
  have hfinT : ∀ (k : Fin 5) (s : Fin 20480), ∃ q : ℝ, (V12 m outs c main_v84 : S5x20480.Idx → EReal) (ix2 k s) = (q : EReal) :=
    fun k s => Cert.Spec.tb_real (argSid m c) (argPcf m c) (argEn m c) (argTrk m c) (argMb m c) (argAT m c) (argAH m c) hD hO hTb k s
  -- the second call's result
  have hseg := Cert.Spec.seg_lt_cols (argSid m c) (argPcf m c) (argEn m c) (argAT m c) (argAH m c) hD
    (V12 m outs c main_v0 : S1x4000000.Idx → BitVec 32) hlab'
  have hOut := Cert.Spec.outSpec_of (argSid m c) (V12 m outs c main_v0 : S1x4000000.Idx → BitVec 32) hlab'
    (V12 m outs c main_v84 : S5x20480.Idx → EReal) (outs 13 main_v85 c : S5x4000000.Idx → EReal) hseg (hB hfinT hseg)
  -- the five columns
  exact Cert.Spec.results_of (argSid m c) (argPcf m c) (argEn m c) (argTrk m c) (argMb m c) (argAT m c) (argAH m c)
    hD hO hTb hOut _ _ _ _ _
    (Host.v87_apply m outs c) (Host.v89_apply m outs c) (Host.v91_apply m outs c) (Host.v93_apply m outs c)
    (Host.v95_apply m outs c)

end

/-- THE KERNEL'S RESULTS. At the contents the run's two calls leave, with the inputs in their domain, the five result
    arrays on core c are the operator's five results of the argument arrays. -/
theorem kernel_results (m : (ℓ : Loc nD τ sig) → Buf (Elt Ideal) ℓ) (c : Dev nD)
    (hD : Cert.Spec.Dom (m ((c.tc : Thread nD τ).loc main_arg0)) (m ((c.tc : Thread nD τ).loc main_arg1))
      (m ((c.tc : Thread nD τ).loc main_arg2)) (m ((c.tc : Thread nD τ).loc main_arg6)) (m ((c.tc : Thread nD τ).loc main_arg7))) :
    V14 m (outs m) c main_v87 = (fun i => Cert.Spec.trackRaw (m ((c.tc : Thread nD τ).loc main_arg0))
        (m ((c.tc : Thread nD τ).loc main_arg2)) (m ((c.tc : Thread nD τ).loc main_arg5)) i)
    ∧ V14 m (outs m) c main_v89 = (fun i => Cert.Spec.trackCorr (m ((c.tc : Thread nD τ).loc main_arg0))
        (m ((c.tc : Thread nD τ).loc main_arg1)) (m ((c.tc : Thread nD τ).loc main_arg2))
        (m ((c.tc : Thread nD τ).loc main_arg5)) (m ((c.tc : Thread nD τ).loc main_arg6)) i)
    ∧ V14 m (outs m) c main_v91 = (fun i => Cert.Spec.hitRaw (m ((c.tc : Thread nD τ).loc main_arg0))
        (m ((c.tc : Thread nD τ).loc main_arg2)) (m ((c.tc : Thread nD τ).loc main_arg5)) i)
    ∧ V14 m (outs m) c main_v93 = (fun i => Cert.Spec.hitCorr (m ((c.tc : Thread nD τ).loc main_arg0))
        (m ((c.tc : Thread nD τ).loc main_arg1)) (m ((c.tc : Thread nD τ).loc main_arg2))
        (m ((c.tc : Thread nD τ).loc main_arg5)) (m ((c.tc : Thread nD τ).loc main_arg7)) i)
    ∧ V14 m (outs m) c main_v95 = (fun i => Cert.Spec.noMbFrac (m ((c.tc : Thread nD τ).loc main_arg0))
        (m ((c.tc : Thread nD τ).loc main_arg2)) (m ((c.tc : Thread nD τ).loc main_arg5))
        (m ((c.tc : Thread nD τ).loc main_arg8)) i) :=
  kernel_results_of m (outs m) c hD
    (fun hfin c' r s => by
      rw [outs_2]
      exact arrAt0 (fun c b => V1 m c b) c hfin c' r s)
    (fun hfin hseg k n => by
      rw [outs_13]
      exact arrAt1 (fun c b => V12 m (outs m) c b) c hfin hseg k n)

end Cert.KernelIdeal.Hand

end
-- ==== Proof.RefValue.lean ====
/-
  The reference's five results are the specification's.

  The reference forms a hit's segment `pred_sid + 1`, sums three per-hit energies into their segments with a
  scatter whose body adds, reads every hit's own segment back with a gather, multiplies two of the sums by a
  per-segment correction, and divides the third by the first. Below, each stage is read at one index:

  * a label in `[-1, 19999]` has its segment in `[0, 20000]`, so the scatter's start index (read signed, not
    clamped) is inside the operand and lands update `i` exactly at segment `segOf i`; the exact sum over the
    updates that land on segment `s` is the sum over all hits of the energy where `segOf i = s` and zero elsewhere;
  * the gather's start index (never negative, so the wrap-around branch is not taken; never above 20000, so the
    clamp does nothing) reads entry `segOf i`;
  * the correction vector is a zero in front of a gather, at the alpha indices, of the correction factors with
    the noise hits zeroed and one zero appended: the index -1 wraps to the appended zero and an index in
    `[0, 3999999]` reads its hit; converting a 32-bit integer to a real and back changes nothing;
  * the last result is the quotient, zero where the divisor is zero.
-/
import proofs.«422791_j81235011436601_4_alg».proof.Proof.RefRead
import proofs.«422791_j81235011436601_4_alg».proof.Proof.Spec
import Idealize.ShloMosaic.PureOps.Ideal
import Idealize.ShloMosaic.Lib.ValueIdx
import Idealize.ShloMosaic.Lib.Pipeline.Value
import Idealize.ShloMosaic.Lib.IdealHost

noncomputable section

open scoped BigOperators

namespace Cert.ReferenceIdeal.RefValue.Seg

open Idealize.ShloMosaic Idealize.ShloMosaic.ValueIdx
/-! ## The scatter and the two gathers at their dimension numbers -/

/-- The segment scatter's dimension numbers: `N` scalar updates, update `j`'s start index the one word
    `idx[j, 0]`, into an operand of `S` entries (its one axis inserted). -/
abbrev segDims (N S : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

/-- Update `j`'s result coordinate is its start index read signed: there is no window coordinate to add. -/
theorem segDims_sum {N S w : Nat} (wf : ScatterDims.WF ⟨1, ![S]⟩ ⟨2, ![N, 1]⟩ ⟨1, ![N]⟩ [] [0] [0] 1)
    (idx : IVec ⟨2, ![N, 1]⟩ w) (j : (⟨1, ![N]⟩ : Shape).Idx) (a : Fin 1) :
    (segDims N S wf).start j idx a + ((segDims N S wf).window j a : ℤ)
      = (idx (ix2 (j 0) ⟨0, Nat.one_pos⟩)).toInt := by
  obtain rfl : a = 0 := Subsingleton.elim _ _
  have hw : (segDims N S wf).window j 0 = 0 := by
    unfold ScatterDims.window
    rw [dif_neg]
    simp [ScatterDims.sKept, Shape.kept]
  have hs : (segDims N S wf).start j idx 0 = (idx (ix2 (j 0) ⟨0, Nat.one_pos⟩)).toInt := by
    unfold ScatterDims.start
    rw [dif_pos (show (0 : Fin 1) ∈ (segDims N S wf).scatterDimsToOperandDims from List.mem_singleton.mpr rfl)]
    congr 2
    funext b; refine Fin.ext ?_
    match b with
    | ⟨0, _⟩ => rfl
    | ⟨1, _⟩ => rfl
  rw [hw, hs]; simp

/-- Update `j` lands on entry `s` exactly when its start index, read signed, is `s`'s coordinate (an index outside
    `[0, S)` lands nowhere). -/
theorem segDims_resultIdx {N S w : Nat} (wf : ScatterDims.WF ⟨1, ![S]⟩ ⟨2, ![N, 1]⟩ ⟨1, ![N]⟩ [] [0] [0] 1)
    (idx : IVec ⟨2, ![N, 1]⟩ w) (j : (⟨1, ![N]⟩ : Shape).Idx) (s : (⟨1, ![S]⟩ : Shape).Idx) :
    (segDims N S wf).resultIdx? j idx = some s ↔ (idx (ix2 (j 0) ⟨0, Nat.one_pos⟩)).toInt = ((s 0).val : ℤ) := by
  have hS : (s 0).val < S := (s 0).isLt
  constructor
  · intro e
    unfold ScatterDims.resultIdx? at e
    split at e
    · rename_i h
      have e' := Option.some.inj e
      have e0 : ((segDims N S wf).start j idx 0 + ((segDims N S wf).window j 0 : ℤ)).toNat = (s 0).val :=
        congrArg (fun f => (f 0).val) e'
      have h0 := (h 0).1
      rw [segDims_sum wf idx j 0] at e0 h0
      omega
    · cases e
  · intro e
    unfold ScatterDims.resultIdx?
    have h : ∀ a, 0 ≤ (segDims N S wf).start j idx a + ((segDims N S wf).window j a : ℤ) ∧
        (segDims N S wf).start j idx a + ((segDims N S wf).window j a : ℤ) < ((⟨1, ![S]⟩ : Shape).size a : ℤ) := by
      intro a
      rw [segDims_sum wf idx j a]
      obtain rfl : a = 0 := Subsingleton.elim _ _
      show 0 ≤ _ ∧ _ < (S : ℤ)
      omega
    rw [dif_pos h]
    congr 1
    funext a
    obtain rfl : a = 0 := Subsingleton.elim _ _
    refine Fin.ext ?_
    show ((segDims N S wf).start j idx 0 + ((segDims N S wf).window j 0 : ℤ)).toNat = (s 0).val
    rw [segDims_sum wf idx j 0]
    omega

/-- The per-hit gather's dimension numbers: result element `y` reads an operand of `S` entries at the one start
    index `idx[y, 0]`. -/
abbrev hitDims (N S : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The per-hit gather read at `y`: the operand at the start index `idx[y, 0]`, read signed and clamped into
    `[0, S - 1]`. -/
theorem gather_hit_apply {α : Type} {N S w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (y : (⟨1, ![N]⟩ : Shape).Idx) :
    Host.gather (hitDims N S wf) x idx y
      = x (ix1 ⟨min (idx (ix2 (y 0) ⟨0, Nat.one_pos⟩)).toInt.toNat (S - 1), by omega⟩) := by
  unfold Host.gather
  congr 1
  funext a
  obtain rfl : a = 0 := Subsingleton.elim _ _
  refine Fin.ext ?_
  show (hitDims N S wf).start y idx 0 + (hitDims N S wf).batchCoord y 0 + (hitDims N S wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (hitDims N S wf).startIndexMap from List.mem_singleton.mpr rfl)]
  have hsi : (hitDims N S wf).siIdx y ⟨List.idxOf (0 : Fin 1) (hitDims N S wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- The dimension numbers of a gather of single elements of an `[M, 1]` operand at two-component start indices
    `(idx[y, 0], idx[y, 1])`. -/
abbrev rowDims (M R : Nat) (wf : GatherDims.WF ⟨2, ![M, 1]⟩ ⟨2, ![R, 2]⟩ ⟨1, ![R]⟩ [] [0, 1] [] [0, 1] [] 1 ![1, 1]) :
    GatherDims ⟨2, ![M, 1]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- That gather read at `y`: row `idx[y, 0]` (signed, clamped into `[0, M - 1]`) of column 0 — the second
    component is clamped into the one column. -/
theorem gather_row_apply {α : Type} {M R w : Nat} (hM : 0 < M)
    (wf : GatherDims.WF ⟨2, ![M, 1]⟩ ⟨2, ![R, 2]⟩ ⟨1, ![R]⟩ [] [0, 1] [] [0, 1] [] 1 ![1, 1])
    (x : (⟨2, ![M, 1]⟩ : Shape).Idx → α) (idx : IVec ⟨2, ![R, 2]⟩ w) (y : (⟨1, ![R]⟩ : Shape).Idx) :
    Host.gather (rowDims M R wf) x idx y
      = x (ix2 ⟨min (idx (ix2 (y 0) ⟨0, Nat.succ_pos 1⟩)).toInt.toNat (M - 1), by omega⟩ ⟨0, Nat.one_pos⟩) := by
  unfold Host.gather
  congr 1
  funext a
  refine Fin.ext ?_
  show (rowDims M R wf).start y idx a + (rowDims M R wf).batchCoord y a + (rowDims M R wf).offCoord y a = _
  rw [GatherDims.batchCoord_eq_zero _ _ _ List.not_mem_nil]
  have ha : a = (0 : Fin 2) ∨ a = (1 : Fin 2) := by
    rcases a with ⟨v, hv⟩
    have hv2 : v < 2 := hv
    interval_cases v
    · left; rfl
    · right; rfl
  rcases ha with rfl | rfl
  · rw [GatherDims.offCoord_eq_zero _ _ _ (fun h => ((GatherDims.mem_sKept _ _).mp h).1 (by simp))]
    simp only [Nat.add_zero]
    unfold GatherDims.start
    rw [dif_pos (show (0 : Fin 2) ∈ (rowDims M R wf).startIndexMap by simp)]
    have hsi : (rowDims M R wf).siIdx y ⟨List.idxOf (0 : Fin 2) (rowDims M R wf).startIndexMap,
        List.idxOf_lt_length_iff.2 (by simp)⟩ = ix2 (y 0) ⟨0, Nat.succ_pos 1⟩ := by
      funext b; refine Fin.ext ?_
      match b with
      | ⟨0, _⟩ => rfl
      | ⟨1, _⟩ => rfl
    rw [hsi]
    rfl
  · rw [GatherDims.offCoord_eq_zero _ _ _ (fun h => ((GatherDims.mem_sKept _ _).mp h).1 (by simp))]
    simp only [Nat.add_zero]
    have := (rowDims M R wf).start_le y idx 1
    have h1 : (⟨2, ![M, 1]⟩ : Shape).size 1 - (rowDims M R wf).sliceSizes 1 = 0 := rfl
    show (rowDims M R wf).start y idx 1 = 0
    omega

/-- The two gathers at an index named by the caller (its value the clamped start index). -/
theorem gather_hit_at {α : Type} {N S w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (y : (⟨1, ![N]⟩ : Shape).Idx)
    (k : Fin S) (hk : min (idx (ix2 (y 0) ⟨0, Nat.one_pos⟩)).toInt.toNat (S - 1) = k.val) :
    Host.gather (hitDims N S wf) x idx y = x (ix1 k) := by
  rw [gather_hit_apply hS wf x idx y]
  exact congrArg (fun q => x (ix1 q)) (Fin.ext hk)

theorem gather_row_at {α : Type} {M R w : Nat} (hM : 0 < M)
    (wf : GatherDims.WF ⟨2, ![M, 1]⟩ ⟨2, ![R, 2]⟩ ⟨1, ![R]⟩ [] [0, 1] [] [0, 1] [] 1 ![1, 1])
    (x : (⟨2, ![M, 1]⟩ : Shape).Idx → α) (idx : IVec ⟨2, ![R, 2]⟩ w) (y : (⟨1, ![R]⟩ : Shape).Idx)
    (r : Fin M) (hr : min (idx (ix2 (y 0) ⟨0, Nat.succ_pos 1⟩)).toInt.toNat (M - 1) = r.val) :
    Host.gather (rowDims M R wf) x idx y = x (ix2 r ⟨0, Nat.one_pos⟩) := by
  rw [gather_row_apply hM wf x idx y]
  exact congrArg (fun q => x (ix2 q ⟨0, Nat.one_pos⟩)) (Fin.ext hr)

/-- A flat index set is the index set of one column. -/
def colEquiv (N : Nat) : (⟨1, ![N]⟩ : Shape).Idx ≃ (⟨2, ![N, 1]⟩ : Shape).Idx where
  toFun j := ix2 (j 0) ⟨0, Nat.one_pos⟩
  invFun i := ix1 (i 0)
  left_inv j := (eq_ix1 j).symm
  right_inv i := by
    funext d
    match d with
    | ⟨0, _⟩ => rfl
    | ⟨1, _⟩ =>
      refine Fin.ext ?_
      have h := idx2_lt1 i
      show (0 : ℕ) = (i 1).val
      omega

/-- The exact accumulation at entry `s`: the operand's entry plus the sum, over all updates, of the update where
    its start index is `s` and zero elsewhere. -/
theorem scatter_seg_apply {N S w : Nat} (wf : ScatterDims.WF ⟨1, ![S]⟩ ⟨2, ![N, 1]⟩ ⟨1, ![N]⟩ [] [0] [0] 1)
    (z : (⟨1, ![S]⟩ : Shape).Idx → EReal) (idx : IVec ⟨2, ![N, 1]⟩ w) (upd : (⟨1, ![N]⟩ : Shape).Idx → EReal)
    (s : (⟨1, ![S]⟩ : Shape).Idx) :
    Ideal.hostScatterAdd (segDims N S wf) z idx upd s
      = z s + ∑ i : (⟨2, ![N, 1]⟩ : Shape).Idx, if (idx i).toInt = ((s 0).val : ℤ) then upd (ix1 (i 0)) else 0 := by
  unfold Ideal.hostScatterAdd
  congr 1
  rw [Finset.sum_filter]
  refine Eq.trans ?_ (Equiv.sum_comp (colEquiv N) _)
  refine Finset.sum_congr rfl fun j _ => ?_
  exact if_congr (segDims_resultIdx wf idx j s) (congrArg upd (eq_ix1 j)) rfl

/-! ## The three concatenations at an index -/

/-- One entry in front of 20000: entry 0 is the first piece's, entry `s > 0` the second piece's entry `s - 1`. -/
theorem concat_head_apply {α : Type} (x₁ : (⟨1, ![1]⟩ : Shape).Idx → α) (x₂ : (⟨1, ![20000]⟩ : Shape).Idx → α)
    (h : Shape.Concatenates [⟨1, ![1]⟩, ⟨1, ![20000]⟩] ⟨1, ![20001]⟩ 0) (s : (⟨1, ![20001]⟩ : Shape).Idx) :
    concatenate ⟨1, ![20001]⟩ 0 [⟨⟨1, ![1]⟩, x₁⟩, ⟨⟨1, ![20000]⟩, x₂⟩] h s
      = if h0 : 0 < (s 0).val then x₂ (ix1 ⟨(s 0).val - 1, by have h1 : (s 0).val < 20001 := (s 0).isLt; omega⟩) else x₁ (ix1 ⟨0, Nat.one_pos⟩) := by
  have hs : (s 0).val < 20001 := (s 0).isLt
  by_cases h0 : 0 < (s 0).val
  · rw [dif_pos h0]
    refine concatenate_pair_apply_right 0 x₁ x₂ h s rfl rfl _ ?_ ?_
    · intro b hb
      exact absurd (Subsingleton.elim _ _) hb
    · show (s 0).val - 1 + 1 = (s 0).val
      omega
  · rw [dif_neg h0]
    refine concatenate_pair_apply_left 0 x₁ x₂ h s rfl _ ?_
    intro b
    obtain rfl : b = 0 := Subsingleton.elim _ _
    show (0 : ℕ) = (s 0).val
    omega

/-- One row behind 4000000 rows: row `r < 4000000` is the first piece's, row 4000000 the second piece's. -/
theorem concat_tail_apply {α : Type} (x₁ : (⟨2, ![4000000, 1]⟩ : Shape).Idx → α) (x₂ : (⟨2, ![1, 1]⟩ : Shape).Idx → α)
    (h : Shape.Concatenates [⟨2, ![4000000, 1]⟩, ⟨2, ![1, 1]⟩] ⟨2, ![4000001, 1]⟩ 0) (r : Fin 4000001) :
    concatenate ⟨2, ![4000001, 1]⟩ 0 [⟨⟨2, ![4000000, 1]⟩, x₁⟩, ⟨⟨2, ![1, 1]⟩, x₂⟩] h (ix2 r ⟨0, Nat.one_pos⟩)
      = if h0 : r.val < 4000000 then x₁ (ix2 ⟨r.val, h0⟩ ⟨0, Nat.one_pos⟩) else x₂ (ix2 ⟨0, Nat.one_pos⟩ ⟨0, Nat.one_pos⟩) := by
  have hr : r.val < 4000001 := r.isLt
  by_cases h0 : r.val < 4000000
  · rw [dif_pos h0]
    refine concatenate_pair_apply_left 0 x₁ x₂ h _ rfl _ ?_
    intro b
    match b with
    | ⟨0, _⟩ => rfl
    | ⟨1, _⟩ => rfl
  · rw [dif_neg h0]
    refine concatenate_pair_apply_right 0 x₁ x₂ h _ rfl rfl _ ?_ ?_
    · intro b hb
      match b with
      | ⟨0, _⟩ => exact absurd rfl hb
      | ⟨1, _⟩ => rfl
    · show 0 + 4000000 = r.val
      omega

/-- Two columns side by side: column 0 is the first piece. -/
theorem concat_col0_apply {α : Type} (x₁ x₂ : (⟨2, ![20000, 1]⟩ : Shape).Idx → α)
    (h : Shape.Concatenates [⟨2, ![20000, 1]⟩, ⟨2, ![20000, 1]⟩] ⟨2, ![20000, 2]⟩ 1) (k : Fin 20000) :
    concatenate ⟨2, ![20000, 2]⟩ 1 [⟨⟨2, ![20000, 1]⟩, x₁⟩, ⟨⟨2, ![20000, 1]⟩, x₂⟩] h (ix2 k ⟨0, Nat.succ_pos 1⟩)
      = x₁ (ix2 k ⟨0, Nat.one_pos⟩) := by
  refine concatenate_pair_apply_left 1 x₁ x₂ h _ rfl _ ?_
  intro b
  match b with
  | ⟨0, _⟩ => rfl
  | ⟨1, _⟩ => rfl
/-! ## Words -/

/-- The integer comparisons and the select as `if`s. -/
theorem cmpi_eq_ite {w : Nat} (x y : BitVec w) : IntOp.cmpi .eq x y = if x = y then 1#1 else 0#1 := by
  unfold IntOp.cmpi
  by_cases h : x = y
  · subst h; simp
  · have hb : (x == y) = false := beq_eq_false_iff_ne.mpr h
    simp [hb, h]

theorem cmpi_slt_ite (x y : BitVec 32) : IntOp.cmpi .slt x y = if x.toInt < y.toInt then 1#1 else 0#1 := by
  unfold IntOp.cmpi
  by_cases h : x.toInt < y.toInt <;> simp [BitVec.slt, h]

theorem select_ite {α : Type} (c : Prop) [Decidable c] (a b : α) :
    Scalar.select (if c then 1#1 else 0#1) a b = if c then a else b := by
  by_cases h : c <;> simp [Scalar.select, h]

/-- No extended real differs from itself: the NaN test is false. -/
theorem une_self (x : EReal) : Ideal.cmp .une x x = 0#1 := by simp [Ideal.cmp]

theorem oeq_ite (x y : EReal) : Ideal.cmp .oeq x y = if x = y then 1#1 else 0#1 := by
  by_cases h : x = y <;> simp [Ideal.cmp, h]

/-- A 32-bit word's signed value is its unsigned one, or that minus 2³². -/
theorem toInt_cases (x : BitVec 32) :
    (2 * x.toNat < 4294967296 ∧ x.toInt = (x.toNat : ℤ)) ∨ (4294967296 ≤ 2 * x.toNat ∧ x.toInt = (x.toNat : ℤ) - 4294967296) := by
  rw [BitVec.toInt_eq_toNat_cond]
  by_cases h : 2 * x.toNat < 2 ^ 32
  · left; rw [if_pos h]; exact ⟨by omega, rfl⟩
  · right; rw [if_neg h]; refine ⟨by omega, ?_⟩; norm_num

/-- A 32-bit integer converted to a real and back (toward zero, clamped to the 32-bit range) is itself. -/
theorem fptosi_sitofp (b : BitVec 32) : Ideal.fptosi 32 (((b.toInt : ℝ)) : EReal) = b := by
  unfold Ideal.fptosi
  rw [Ideal.toIntClamped_coe]
  have h1 : (if (0:ℝ) ≤ (b.toInt : ℝ) then ⌊(b.toInt : ℝ)⌋ else ⌈(b.toInt : ℝ)⌉) = b.toInt := by
    split <;> simp
  rw [h1]
  have hb := b.isLt
  have e1 : ((2 ^ (32 - 1) : ℕ) : ℤ) = 2147483648 := by norm_num
  rw [e1]
  have hc : max (-(2147483648 : ℤ)) (min ((2147483648 : ℤ) - 1) b.toInt) = b.toInt := by
    rcases toInt_cases b with ⟨h, e⟩ | ⟨h, e⟩ <;> omega
  rw [hc]
  exact BitVec.ofInt_toInt

/-- A label in `[-1, 19999]` plus one is in `[0, 20000]`: its signed and unsigned values agree. -/
theorem seg_word (s : BitVec 32) (lo : (-1:ℤ) ≤ s.toInt) (hi : s.toInt ≤ 19999) :
    (s + 1#32).toInt = (((s + 1#32).toNat : ℕ) : ℤ) ∧ (s + 1#32).toNat ≤ 20000 := by
  have hs : s.toNat < 4294967296 := s.isLt
  have hadd : (s + 1#32).toNat = (s.toNat + 1) % 4294967296 := by
    rw [BitVec.toNat_add]; rfl
  rcases toInt_cases s with ⟨h1, h2⟩ | ⟨h1, h2⟩
  · rcases toInt_cases (s + 1#32) with ⟨h3, h4⟩ | ⟨h3, h4⟩
    · exact ⟨h4, by omega⟩
    · omega
  · rcases toInt_cases (s + 1#32) with ⟨h3, h4⟩ | ⟨h3, h4⟩
    · exact ⟨h4, by omega⟩
    · omega

theorem zero_toInt32 : (0#32 : BitVec 32).toInt = 0 := by decide

/-- The per-hit gather's start index — the segment word, moved up by 20001 were it negative, clamped to 20000 — is
    the segment. -/
theorem hit_word (s : BitVec 32) (lo : (-1:ℤ) ≤ s.toInt) (hi : s.toInt ≤ 19999) :
    min (Scalar.select (IntOp.cmpi .slt (s + 1#32) 0#32) ((s + 1#32) + 20001#32) (s + 1#32)).toInt.toNat (20001 - 1)
      = (s + 1#32).toNat := by
  obtain ⟨h1, h2⟩ := seg_word s lo hi
  rw [cmpi_slt_ite, select_ite, zero_toInt32, if_neg (by rw [h1]; omega), h1, Int.toNat_natCast]
  omega

/-- An alpha index in `[-1, 3999999]`, moved up by 4000001 where negative and clamped to 4000000, is itself when it
    names a hit and 4000000 (the appended zero's row) when it is -1. -/
theorem alpha_word (a : BitVec 32) (lo : (-1:ℤ) ≤ a.toInt) (hi : a.toInt ≤ 3999999) :
    min (Scalar.select (IntOp.cmpi .slt a 0#32) (a + 4000001#32) a).toInt.toNat (4000001 - 1)
      = if a.toNat < 4000000 then a.toNat else 4000000 := by
  have ha : a.toNat < 4294967296 := a.isLt
  rw [cmpi_slt_ite, select_ite, zero_toInt32]
  have hadd : (a + 4000001#32).toNat = (a.toNat + 4000001) % 4294967296 := by
    rw [BitVec.toNat_add]; rfl
  by_cases hneg : a.toInt < 0
  · rw [if_pos hneg]
    have hn : a.toNat = 4294967295 := by
      rcases toInt_cases a with ⟨h1, h2⟩ | ⟨h1, h2⟩ <;> omega
    have hsum : (a + 4000001#32).toNat = 4000000 := by rw [hadd, hn]
    have hi4 : (a + 4000001#32).toInt = 4000000 := by
      rcases toInt_cases (a + 4000001#32) with ⟨h3, h4⟩ | ⟨h3, h4⟩ <;> omega
    rw [hi4, if_neg (by omega)]
    rfl
  · rw [if_neg hneg]
    have hn : a.toInt = (a.toNat : ℤ) ∧ a.toNat ≤ 3999999 := by
      rcases toInt_cases a with ⟨h1, h2⟩ | ⟨h1, h2⟩ <;> omega
    rw [hn.1, Int.toNat_natCast, if_pos (by omega)]
    omega

/-! ## The segment sums, the per-hit reads and the corrections, over variables -/

/-- Every index of a column is `(n, 0)`. -/
theorem col_eq (i : Cert.Spec.Hits.Idx) : i = Cert.Spec.hit (i 0) := by
  funext d
  match d with
  | ⟨0, _⟩ => rfl
  | ⟨1, _⟩ => exact Subsingleton.elim (α := Fin 1) _ _

/-- THE SEGMENT SUM. With zeros as operand, start indices the labels plus one and update `i` the energy `e i`,
    entry `s` of the scatter is the sum of `e` over the hits of segment `s`. -/
theorem scatter_segSum (wf : ScatterDims.WF ⟨1, ![20001]⟩ ⟨2, ![4000000, 1]⟩ ⟨1, ![4000000]⟩ [] [0] [0] 1)
    (psid : Cert.Spec.Hits.Idx → BitVec 32) (e : Cert.Spec.Hits.Idx → EReal)
    (z : (⟨1, ![20001]⟩ : Shape).Idx → EReal) (idx : IVec ⟨2, ![4000000, 1]⟩ 32)
    (upd : (⟨1, ![4000000]⟩ : Shape).Idx → EReal)
    (hz : ∀ s, z s = 0) (hidx : ∀ i, idx i = psid i + 1#32) (hupd : ∀ i : Cert.Spec.Hits.Idx, upd (ix1 (i 0)) = e i)
    (lo : ∀ i, (-1 : ℤ) ≤ (psid i).toInt) (hi : ∀ i, (psid i).toInt ≤ 19999) (s : (⟨1, ![20001]⟩ : Shape).Idx) :
    Ideal.hostScatterAdd (segDims 4000000 20001 wf) z idx upd s = Cert.Spec.segSum psid e (s 0).val := by
  rw [scatter_seg_apply, hz, zero_add]
  unfold Cert.Spec.segSum
  refine Finset.sum_congr rfl fun i _ => ?_
  rw [hidx i, hupd i]
  obtain ⟨h1, _⟩ := seg_word (psid i) (lo i) (hi i)
  refine if_congr ?_ rfl rfl
  rw [h1]
  unfold Cert.Spec.segOf Cert.Spec.segW
  exact Nat.cast_inj

/-- THE PER-HIT READ. At the start indices the reference computes from the labels, hit `y` reads entry `segOf y`. -/
theorem gather_segOf {α : Type} (wf : GatherDims.WF ⟨1, ![20001]⟩ ⟨2, ![4000000, 1]⟩ ⟨1, ![4000000]⟩ [] [0] [] [0] [] 1 ![1])
    (psid : Cert.Spec.Hits.Idx → BitVec 32) (z : (⟨1, ![20001]⟩ : Shape).Idx → α) (idx : IVec ⟨2, ![4000000, 1]⟩ 32)
    (hidx : ∀ i, idx i = Scalar.select (IntOp.cmpi .slt (psid i + 1#32) 0#32) ((psid i + 1#32) + 20001#32) (psid i + 1#32))
    (lo : ∀ i, (-1 : ℤ) ≤ (psid i).toInt) (hi : ∀ i, (psid i).toInt ≤ 19999)
    (y : (⟨1, ![4000000]⟩ : Shape).Idx) (k : Fin 20001) (hk : k.val = Cert.Spec.segOf psid (Cert.Spec.hit (y 0))) :
    Host.gather (hitDims 4000000 20001 wf) z idx y = z (ix1 k) := by
  refine gather_hit_at (by norm_num) wf z idx y k ?_
  rw [hk, hidx]
  exact hit_word _ (lo _) (hi _)

/-- THE CORRECTION AT AN ALPHA INDEX. Reading the zero-appended table of noise-zeroed factors at the wrapped alpha
    index gives the specification's `corrAt`. -/
theorem gather_corrAt (wf : GatherDims.WF ⟨2, ![4000001, 1]⟩ ⟨2, ![20000, 2]⟩ ⟨1, ![20000]⟩ [] [0, 1] [] [0, 1] [] 1 ![1, 1])
    (psid : Cert.Spec.Hits.Idx → BitVec 32) (pcf : Cert.Spec.Hits.Idx → EReal) (al : Cert.Spec.Alph.Idx → BitVec 32)
    (tab : (⟨2, ![4000001, 1]⟩ : Shape).Idx → EReal) (idx : IVec ⟨2, ![20000, 2]⟩ 32)
    (htab : ∀ r : Fin 4000001, tab (ix2 r ⟨0, Nat.one_pos⟩)
      = if h : r.val < 4000000 then
          (if psid (Cert.Spec.hit ⟨r.val, h⟩) = 4294967295#32 then 0 else pcf (Cert.Spec.hit ⟨r.val, h⟩))
        else 0)
    (hidx : ∀ k : Cert.Spec.Alph.Idx, idx (ix2 (k 0) ⟨0, Nat.succ_pos 1⟩)
      = Scalar.select (IntOp.cmpi .slt (al k) 0#32) (al k + 4000001#32) (al k))
    (lo : ∀ k, (-1 : ℤ) ≤ (al k).toInt) (hi : ∀ k, (al k).toInt ≤ 3999999) (k : Cert.Spec.Alph.Idx) :
    Host.gather (rowDims 4000001 20000 wf) tab idx k = Cert.Spec.corrAt psid pcf (al k) := by
  have hw := alpha_word (al k) (lo k) (hi k)
  unfold Cert.Spec.corrAt
  by_cases h : (al k).toNat < 4000000
  · rw [gather_row_at (by norm_num) wf tab idx k ⟨(al k).toNat, by omega⟩ (by rw [hidx, hw, if_pos h]), htab,
      dif_pos h]
  · rw [gather_row_at (by norm_num) wf tab idx k ⟨4000000, by norm_num⟩ (by rw [hidx, hw, if_neg h]), htab,
      dif_neg (by simp), dif_neg h]

/-- THE PER-SEGMENT CORRECTION: a zero for segment 0 in front of the showers' corrections. -/
theorem concat_corr (psid : Cert.Spec.Hits.Idx → BitVec 32) (pcf : Cert.Spec.Hits.Idx → EReal)
    (al : Cert.Spec.Alph.Idx → BitVec 32)
    (z1 : (⟨1, ![1]⟩ : Shape).Idx → EReal) (g : (⟨1, ![20000]⟩ : Shape).Idx → EReal)
    (h : Shape.Concatenates [⟨1, ![1]⟩, ⟨1, ![20000]⟩] ⟨1, ![20001]⟩ 0)
    (hz1 : ∀ i, z1 i = 0) (hg : ∀ k, g k = Cert.Spec.corrAt psid pcf (al k)) (s : (⟨1, ![20001]⟩ : Shape).Idx) :
    concatenate ⟨1, ![20001]⟩ 0 [⟨⟨1, ![1]⟩, z1⟩, ⟨⟨1, ![20000]⟩, g⟩] h s = Cert.Spec.corr psid pcf al (s 0).val := by
  have hs : (s 0).val < 20001 := (s 0).isLt
  rw [concat_head_apply]
  unfold Cert.Spec.corr
  by_cases h0 : 0 < (s 0).val
  · rw [dif_pos h0, dif_pos ⟨h0, hs⟩, hg]
  · rw [dif_neg h0, dif_neg (fun h => h0 h.1), hz1]

end Cert.ReferenceIdeal.RefValue.Seg

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.ReferenceIdeal.RefValue.Seg

/-! ## The reference's stages at an index -/

namespace Seg

theorem f32_zero : FloatOps.ofBits (F := Ideal) .f32 0x00000000#32 = (0 : EReal) := Ideal.ofBits_zero_f32
theorem f32_one : FloatOps.ofBits (F := Ideal) .f32 0x3F800000#32 = (1 : EReal) := Ideal.ofBits_one_f32
theorem cmpf_ideal (p : CmpFPredicate) (x y : EReal) :
    FloatOps.cmpf (F := Ideal) (φ := .f32) p x y = Ideal.cmp p x y := rfl
theorem sitofp_ideal (b : BitVec 32) : FloatOps.sitofp (F := Ideal) .f32 b = ((b.toInt : ℝ) : EReal) := rfl
theorem fptosi_ideal (x : EReal) : FloatOps.fptosi (F := Ideal) (φ := .f32) 32 x = Ideal.fptosi 32 x := rfl

section Stages
variable (x0 : Cert.Spec.Hits.Idx → BitVec 32) (x1 x2 : Cert.Spec.Hits.Idx → EReal)
  (x5 x8 : Cert.Spec.Hits.Idx → BitVec 32) (x6 x7 : Cert.Spec.Alph.Idx → BitVec 32)

/-- The program's dimension numbers of the per-hit gather. -/
theorem gather_hit_eq : gather_S20001_S4000000x1_S4000000_n_0_n_n_0_1_1
    = hitDims 4000000 20001 gather_S20001_S4000000x1_S4000000_n_0_n_n_0_1_1_wf := rfl

/-- The program's dimension numbers of the gather at the alpha indices. -/
theorem gather_row_eq : gather_S4000001x1_S20000x2_S20000_n_01_n_n_01_1_11
    = rowDims 4000001 20000 gather_S4000001x1_S20000x2_S20000_n_01_n_n_01_1_11_wf := rfl

/-- A hit's segment is at most 20000. -/
theorem segOf_lt (lo : ∀ i, (-1 : ℤ) ≤ (x0 i).toInt) (hi : ∀ i, (x0 i).toInt ≤ 19999) (i : Cert.Spec.Hits.Idx) :
    Cert.Spec.segOf x0 i < 20001 := by
  have h := (seg_word (x0 i) (lo i) (hi i)).2
  unfold Cert.Spec.segOf Cert.Spec.segW
  omega

/-- The energy with the noise hits zeroed. -/
theorem st_v3 (i : S4000000x1.Idx) : val_main_v3 (F := Ideal) x0 x2 i = Cert.Spec.enzW (x0 i) (x2 i) := by
  rw [val_main_v3_apply, val_main_v1_apply, val_main_v0_apply, val_main_c_apply, val_main_call1_v1_apply,
    val_main_call1_v0_apply, val_main_cst_0_apply, f32_zero, cmpi_eq_ite, select_ite]
  rfl

/-- The three per-hit energies that are summed. -/
theorem st_v6 (i : S4000000x1.Idx) : val_main_v6 (F := Ideal) x0 x2 x5 i = Cert.Spec.eHit x0 x2 x5 i := by
  rw [val_main_v6_apply, val_main_v5_apply, val_main_v4_apply, val_main_c_1_apply, st_v3, val_main_call2_v1_apply,
    val_main_call2_v0_apply, val_main_cst_2_apply, f32_zero, cmpi_eq_ite, select_ite]
  rfl

theorem st_v9 (i : S4000000x1.Idx) : val_main_v9 (F := Ideal) x0 x2 x5 i = Cert.Spec.eTrk x0 x2 x5 i := by
  rw [val_main_v9_apply, val_main_v8_apply, val_main_v7_apply, val_main_c_3_apply, st_v3, val_main_call3_v1_apply,
    val_main_call3_v0_apply, val_main_cst_4_apply, f32_zero, cmpi_eq_ite, select_ite]
  rfl

theorem st_v23 (i : S4000000x1.Idx) : val_main_v23 (F := Ideal) x0 x2 x5 x8 i = Cert.Spec.eNmb x0 x2 x5 x8 i := by
  rw [val_main_v23_apply, val_main_v22_apply, val_main_v21_apply, val_main_c_8_apply, st_v6, val_main_call4_v1_apply,
    val_main_call4_v0_apply, val_main_cst_9_apply, f32_zero, cmpi_eq_ite, select_ite]
  rfl

/-- The flat index of hit `n` is the column's index `(n, 0)`. -/
theorem flat_idx (j : S4000000.Idx) : idx_main_v10 j = Cert.Spec.hit (j 0) := by
  funext a
  match a with
  | ⟨0, _⟩ => exact Fin.ext (Nat.div_one _)
  | ⟨1, _⟩ => rfl

theorem flat_idx13 (j : S4000000.Idx) : idx_main_v13 j = Cert.Spec.hit (j 0) := by
  funext a
  match a with
  | ⟨0, _⟩ => exact Fin.ext (Nat.div_one _)
  | ⟨1, _⟩ => rfl

theorem flat_idx17 (j : S4000000.Idx) : idx_main_v17 j = Cert.Spec.hit (j 0) := by
  funext a
  match a with
  | ⟨0, _⟩ => exact Fin.ext (Nat.div_one _)
  | ⟨1, _⟩ => rfl

theorem flat_idx24 (j : S4000000.Idx) : idx_main_v24 j = Cert.Spec.hit (j 0) := by
  funext a
  match a with
  | ⟨0, _⟩ => exact Fin.ext (Nat.div_one _)
  | ⟨1, _⟩ => rfl

/-- The segment word of the hit at a flat index: the label plus one. -/
theorem st_v12 (j : S4000000.Idx) : val_main_v12 (F := Ideal) x0 j = x0 (Cert.Spec.hit (j 0)) + 1#32 := by
  rw [val_main_v12_apply, val_main_v10_apply, val_main_v11_apply, val_main_c_5_apply, flat_idx]
  rfl

theorem st_v15 (i : S4000000x1.Idx) : val_main_v15 (F := Ideal) x0 i = x0 i + 1#32 := by
  rw [val_main_v15_apply, st_v12]
  exact congrArg (fun q => x0 q + 1#32) (col_eq i).symm

theorem st_v13 (i : Cert.Spec.Hits.Idx) :
    val_main_v13 (F := Ideal) x0 x2 x5 (ix1 (i 0)) = Cert.Spec.eHit x0 x2 x5 i := by
  rw [val_main_v13_apply, st_v6]
  exact congrArg (Cert.Spec.eHit x0 x2 x5) ((flat_idx13 _).trans (col_eq i).symm)

theorem st_v19 (i : S4000000x1.Idx) : val_main_v19 (F := Ideal) x0 i = x0 i + 1#32 := by
  rw [val_main_v19_apply, st_v12]
  exact congrArg (fun q => x0 q + 1#32) (col_eq i).symm

theorem st_v17 (i : Cert.Spec.Hits.Idx) :
    val_main_v17 (F := Ideal) x0 x2 x5 (ix1 (i 0)) = Cert.Spec.eTrk x0 x2 x5 i := by
  rw [val_main_v17_apply, st_v9]
  exact congrArg (Cert.Spec.eTrk x0 x2 x5) ((flat_idx17 _).trans (col_eq i).symm)

theorem st_v26 (i : S4000000x1.Idx) : val_main_v26 (F := Ideal) x0 i = x0 i + 1#32 := by
  rw [val_main_v26_apply, st_v12]
  exact congrArg (fun q => x0 q + 1#32) (col_eq i).symm

theorem st_v24 (i : Cert.Spec.Hits.Idx) :
    val_main_v24 (F := Ideal) x0 x2 x5 x8 (ix1 (i 0)) = Cert.Spec.eNmb x0 x2 x5 x8 i := by
  rw [val_main_v24_apply, st_v23]
  exact congrArg (Cert.Spec.eNmb x0 x2 x5 x8) ((flat_idx24 _).trans (col_eq i).symm)

/-- The scatter is the exact accumulation at the segment scatter's dimension numbers. -/
theorem fn_v16 : val_main_v16 (F := Ideal) x0 x2 x5
    = Ideal.hostScatterAdd (segDims 4000000 20001 scatter_S20001_S4000000x1_S4000000_n_0_0_1_wf)
        (val_main_v14 (F := Ideal)) (val_main_v15 (F := Ideal) x0) (val_main_v13 (F := Ideal) x0 x2 x5) := rfl

/-- A segment's entry of the scatter is the sum of the energy over the segment's hits. -/
theorem seg_v16 (lo : ∀ i, (-1 : ℤ) ≤ (x0 i).toInt) (hi : ∀ i, (x0 i).toInt ≤ 19999) (s : S20001.Idx) :
    val_main_v16 (F := Ideal) x0 x2 x5 s = Cert.Spec.segSum x0 (Cert.Spec.eHit x0 x2 x5) (s 0).val := by
  rw [fn_v16]
  exact scatter_segSum scatter_S20001_S4000000x1_S4000000_n_0_0_1_wf x0 (Cert.Spec.eHit x0 x2 x5)
    (val_main_v14 (F := Ideal)) (val_main_v15 (F := Ideal) x0) (val_main_v13 (F := Ideal) x0 x2 x5)
    (fun s => by rw [val_main_v14_apply, val_main_cst_6_apply, f32_zero])
    (st_v15 x0) (st_v13 x0 x2 x5) lo hi s

/-- The scatter is the exact accumulation at the segment scatter's dimension numbers. -/
theorem fn_v20 : val_main_v20 (F := Ideal) x0 x2 x5
    = Ideal.hostScatterAdd (segDims 4000000 20001 scatter_S20001_S4000000x1_S4000000_n_0_0_1_wf)
        (val_main_v18 (F := Ideal)) (val_main_v19 (F := Ideal) x0) (val_main_v17 (F := Ideal) x0 x2 x5) := rfl

/-- A segment's entry of the scatter is the sum of the energy over the segment's hits. -/
theorem seg_v20 (lo : ∀ i, (-1 : ℤ) ≤ (x0 i).toInt) (hi : ∀ i, (x0 i).toInt ≤ 19999) (s : S20001.Idx) :
    val_main_v20 (F := Ideal) x0 x2 x5 s = Cert.Spec.segSum x0 (Cert.Spec.eTrk x0 x2 x5) (s 0).val := by
  rw [fn_v20]
  exact scatter_segSum scatter_S20001_S4000000x1_S4000000_n_0_0_1_wf x0 (Cert.Spec.eTrk x0 x2 x5)
    (val_main_v18 (F := Ideal)) (val_main_v19 (F := Ideal) x0) (val_main_v17 (F := Ideal) x0 x2 x5)
    (fun s => by rw [val_main_v18_apply, val_main_cst_7_apply, f32_zero])
    (st_v19 x0) (st_v17 x0 x2 x5) lo hi s

/-- The scatter is the exact accumulation at the segment scatter's dimension numbers. -/
theorem fn_v27 : val_main_v27 (F := Ideal) x0 x2 x5 x8
    = Ideal.hostScatterAdd (segDims 4000000 20001 scatter_S20001_S4000000x1_S4000000_n_0_0_1_wf)
        (val_main_v25 (F := Ideal)) (val_main_v26 (F := Ideal) x0) (val_main_v24 (F := Ideal) x0 x2 x5 x8) := rfl

/-- A segment's entry of the scatter is the sum of the energy over the segment's hits. -/
theorem seg_v27 (lo : ∀ i, (-1 : ℤ) ≤ (x0 i).toInt) (hi : ∀ i, (x0 i).toInt ≤ 19999) (s : S20001.Idx) :
    val_main_v27 (F := Ideal) x0 x2 x5 x8 s = Cert.Spec.segSum x0 (Cert.Spec.eNmb x0 x2 x5 x8) (s 0).val := by
  rw [fn_v27]
  exact scatter_segSum scatter_S20001_S4000000x1_S4000000_n_0_0_1_wf x0 (Cert.Spec.eNmb x0 x2 x5 x8)
    (val_main_v25 (F := Ideal)) (val_main_v26 (F := Ideal) x0) (val_main_v24 (F := Ideal) x0 x2 x5 x8)
    (fun s => by rw [val_main_v25_apply, val_main_cst_10_apply, f32_zero])
    (st_v26 x0) (st_v24 x0 x2 x5 x8) lo hi s

/-! The five per-hit reads: hit `i` reads entry `segOf i` of the per-segment array. -/

theorem st_v70 (i : S4000000x1.Idx) : val_main_v70 (F := Ideal) x0 i
    = Scalar.select (IntOp.cmpi .slt (x0 i + 1#32) 0#32) ((x0 i + 1#32) + 20001#32) (x0 i + 1#32) := by
  rw [val_main_v70_apply, val_main_v69_apply, val_main_v66_apply, val_main_v68_apply, val_main_v65_apply,
    val_main_c_21_apply, val_main_v67_apply, val_main_c_22_apply, st_v12]
  exact congrArg (fun q => Scalar.select (IntOp.cmpi .slt (x0 q + 1#32) 0#32) ((x0 q + 1#32) + 20001#32) (x0 q + 1#32))
    (col_eq i).symm

theorem at_v72 (lo : ∀ i, (-1 : ℤ) ≤ (x0 i).toInt) (hi : ∀ i, (x0 i).toInt ≤ 19999) (i : S4000000x1.Idx)
    (k : Fin 20001) (hk : k.val = Cert.Spec.segOf x0 i) :
    val_main_v72 (F := Ideal) x0 x1 x2 x5 x7 i = val_main_v63 (F := Ideal) x0 x1 x2 x5 x7 (ix1 k) := by
  rw [val_main_v72_apply]
  show Host.gather (hitDims 4000000 20001 gather_S20001_S4000000x1_S4000000_n_0_n_n_0_1_1_wf)
    (val_main_v63 (F := Ideal) x0 x1 x2 x5 x7) (val_main_v70 (F := Ideal) x0) (idx_main_v72 i) = _
  refine gather_segOf _ x0 _ _ (st_v70 x0) lo hi _ k ?_
  rw [hk]
  exact congrArg (Cert.Spec.segOf x0) (col_eq i)

theorem st_v78 (i : S4000000x1.Idx) : val_main_v78 (F := Ideal) x0 i
    = Scalar.select (IntOp.cmpi .slt (x0 i + 1#32) 0#32) ((x0 i + 1#32) + 20001#32) (x0 i + 1#32) := by
  rw [val_main_v78_apply, val_main_v77_apply, val_main_v74_apply, val_main_v76_apply, val_main_v73_apply,
    val_main_c_23_apply, val_main_v75_apply, val_main_c_24_apply, st_v12]
  exact congrArg (fun q => Scalar.select (IntOp.cmpi .slt (x0 q + 1#32) 0#32) ((x0 q + 1#32) + 20001#32) (x0 q + 1#32))
    (col_eq i).symm

theorem at_v80 (lo : ∀ i, (-1 : ℤ) ≤ (x0 i).toInt) (hi : ∀ i, (x0 i).toInt ≤ 19999) (i : S4000000x1.Idx)
    (k : Fin 20001) (hk : k.val = Cert.Spec.segOf x0 i) :
    val_main_v80 (F := Ideal) x0 x2 x5 i = val_main_v16 (F := Ideal) x0 x2 x5 (ix1 k) := by
  rw [val_main_v80_apply]
  show Host.gather (hitDims 4000000 20001 gather_S20001_S4000000x1_S4000000_n_0_n_n_0_1_1_wf)
    (val_main_v16 (F := Ideal) x0 x2 x5) (val_main_v78 (F := Ideal) x0) (idx_main_v80 i) = _
  refine gather_segOf _ x0 _ _ (st_v78 x0) lo hi _ k ?_
  rw [hk]
  exact congrArg (Cert.Spec.segOf x0) (col_eq i)

theorem st_v86 (i : S4000000x1.Idx) : val_main_v86 (F := Ideal) x0 i
    = Scalar.select (IntOp.cmpi .slt (x0 i + 1#32) 0#32) ((x0 i + 1#32) + 20001#32) (x0 i + 1#32) := by
  rw [val_main_v86_apply, val_main_v85_apply, val_main_v82_apply, val_main_v84_apply, val_main_v81_apply,
    val_main_c_25_apply, val_main_v83_apply, val_main_c_26_apply, st_v12]
  exact congrArg (fun q => Scalar.select (IntOp.cmpi .slt (x0 q + 1#32) 0#32) ((x0 q + 1#32) + 20001#32) (x0 q + 1#32))
    (col_eq i).symm

theorem at_v88 (lo : ∀ i, (-1 : ℤ) ≤ (x0 i).toInt) (hi : ∀ i, (x0 i).toInt ≤ 19999) (i : S4000000x1.Idx)
    (k : Fin 20001) (hk : k.val = Cert.Spec.segOf x0 i) :
    val_main_v88 (F := Ideal) x0 x1 x2 x5 x6 i = val_main_v64 (F := Ideal) x0 x1 x2 x5 x6 (ix1 k) := by
  rw [val_main_v88_apply]
  show Host.gather (hitDims 4000000 20001 gather_S20001_S4000000x1_S4000000_n_0_n_n_0_1_1_wf)
    (val_main_v64 (F := Ideal) x0 x1 x2 x5 x6) (val_main_v86 (F := Ideal) x0) (idx_main_v88 i) = _
  refine gather_segOf _ x0 _ _ (st_v86 x0) lo hi _ k ?_
  rw [hk]
  exact congrArg (Cert.Spec.segOf x0) (col_eq i)

theorem st_v94 (i : S4000000x1.Idx) : val_main_v94 (F := Ideal) x0 i
    = Scalar.select (IntOp.cmpi .slt (x0 i + 1#32) 0#32) ((x0 i + 1#32) + 20001#32) (x0 i + 1#32) := by
  rw [val_main_v94_apply, val_main_v93_apply, val_main_v90_apply, val_main_v92_apply, val_main_v89_apply,
    val_main_c_27_apply, val_main_v91_apply, val_main_c_28_apply, st_v12]
  exact congrArg (fun q => Scalar.select (IntOp.cmpi .slt (x0 q + 1#32) 0#32) ((x0 q + 1#32) + 20001#32) (x0 q + 1#32))
    (col_eq i).symm

theorem at_v96 (lo : ∀ i, (-1 : ℤ) ≤ (x0 i).toInt) (hi : ∀ i, (x0 i).toInt ≤ 19999) (i : S4000000x1.Idx)
    (k : Fin 20001) (hk : k.val = Cert.Spec.segOf x0 i) :
    val_main_v96 (F := Ideal) x0 x2 x5 i = val_main_v20 (F := Ideal) x0 x2 x5 (ix1 k) := by
  rw [val_main_v96_apply]
  show Host.gather (hitDims 4000000 20001 gather_S20001_S4000000x1_S4000000_n_0_n_n_0_1_1_wf)
    (val_main_v20 (F := Ideal) x0 x2 x5) (val_main_v94 (F := Ideal) x0) (idx_main_v96 i) = _
  refine gather_segOf _ x0 _ _ (st_v94 x0) lo hi _ k ?_
  rw [hk]
  exact congrArg (Cert.Spec.segOf x0) (col_eq i)

theorem st_v102 (i : S4000000x1.Idx) : val_main_v102 (F := Ideal) x0 i
    = Scalar.select (IntOp.cmpi .slt (x0 i + 1#32) 0#32) ((x0 i + 1#32) + 20001#32) (x0 i + 1#32) := by
  rw [val_main_v102_apply, val_main_v101_apply, val_main_v98_apply, val_main_v100_apply, val_main_v97_apply,
    val_main_c_29_apply, val_main_v99_apply, val_main_c_30_apply, st_v12]
  exact congrArg (fun q => Scalar.select (IntOp.cmpi .slt (x0 q + 1#32) 0#32) ((x0 q + 1#32) + 20001#32) (x0 q + 1#32))
    (col_eq i).symm

theorem at_v104 (lo : ∀ i, (-1 : ℤ) ≤ (x0 i).toInt) (hi : ∀ i, (x0 i).toInt ≤ 19999) (i : S4000000x1.Idx)
    (k : Fin 20001) (hk : k.val = Cert.Spec.segOf x0 i) :
    val_main_v104 (F := Ideal) x0 x2 x5 x8 i = val_main_v27 (F := Ideal) x0 x2 x5 x8 (ix1 k) := by
  rw [val_main_v104_apply]
  show Host.gather (hitDims 4000000 20001 gather_S20001_S4000000x1_S4000000_n_0_n_n_0_1_1_wf)
    (val_main_v27 (F := Ideal) x0 x2 x5 x8) (val_main_v102 (F := Ideal) x0) (idx_main_v104 i) = _
  refine gather_segOf _ x0 _ _ (st_v102 x0) lo hi _ k ?_
  rw [hk]
  exact congrArg (Cert.Spec.segOf x0) (col_eq i)

/-! The correction vectors. -/

/-- The correction factors with the noise hits zeroed. -/
theorem st_v2 (i : S4000000x1.Idx) :
    val_main_v2 (F := Ideal) x0 x1 i = if x0 i = 4294967295#32 then 0 else x1 i := by
  rw [val_main_v2_apply, val_main_v1_apply, val_main_v0_apply, val_main_c_apply, val_main_call0_v1_apply,
    val_main_call0_v0_apply, val_main_cst_apply, f32_zero, cmpi_eq_ite, select_ite]

/-- … and one zero appended: row `r` is hit `r`'s factor below 4000000 and zero at 4000000. -/
theorem st_v29 (r : Fin 4000001) : val_main_v29 (F := Ideal) x0 x1 (ix2 r ⟨0, Nat.one_pos⟩)
    = if h : r.val < 4000000 then
        (if x0 (Cert.Spec.hit ⟨r.val, h⟩) = 4294967295#32 then 0 else x1 (Cert.Spec.hit ⟨r.val, h⟩))
      else 0 := by
  unfold val_main_v29
  rw [concat_tail_apply]
  by_cases h : r.val < 4000000
  · rw [dif_pos h, dif_pos h, st_v2]
    rfl
  · rw [dif_neg h, dif_neg h, val_main_v28_apply, val_main_cst_11_apply, f32_zero]

/-- An alpha index converted to a real and back is itself (an integer is not a NaN). -/
theorem st_v33 (k : S20000.Idx) : val_main_v33 (F := Ideal) x7 k = x7 k := by
  rw [val_main_v33_apply, val_main_v32_apply, val_main_v31_apply, val_main_v30_apply, sitofp_ideal, cmpf_ideal,
    une_self, select_zero, fptosi_ideal, fptosi_sitofp]

theorem idx46_eq (k : S20000.Idx) : idx_main_v46 (ix2 (k 0) ⟨0, Nat.one_pos⟩) = k := by
  funext d
  match d with
  | ⟨0, _⟩ => rfl

/-- The start index's first component: the alpha index, a negative one moved up by 4000001. -/
theorem st_v48 (k : Cert.Spec.Alph.Idx) : val_main_v48 (F := Ideal) x7 (ix2 (k 0) ⟨0, Nat.succ_pos 1⟩)
    = Scalar.select (IntOp.cmpi .slt (x7 k) 0#32) (x7 k + 4000001#32) (x7 k) := by
  unfold val_main_v48
  refine (concat_col0_apply (val_main_v46 (F := Ideal) x7) (val_main_v47 (F := Ideal))
    concatenates_S20000x1_S20000x1_S20000x2_d1 (k 0)).trans ?_
  rw [val_main_v46_apply, idx46_eq, val_main_v43_apply, val_main_v40_apply,
    val_main_v42_apply, st_v33, val_main_v39_apply, val_main_c_15_apply, val_main_v41_apply,
    val_main_c_16_apply]
  rfl

/-- A shower's correction is read at its alpha index. -/
theorem st_v49 (loA : ∀ k, (-1 : ℤ) ≤ (x7 k).toInt) (hiA : ∀ k, (x7 k).toInt ≤ 3999999) (k : S20000.Idx) :
    val_main_v49 (F := Ideal) x0 x1 x7 k = Cert.Spec.corrAt x0 x1 (x7 k) := by
  show Host.gather (rowDims 4000001 20000 gather_S4000001x1_S20000x2_S20000_n_01_n_n_01_1_11_wf)
    (val_main_v29 (F := Ideal) x0 x1) (val_main_v48 (F := Ideal) x7) k = _
  exact gather_corrAt _ x0 x1 x7 _ _ (st_v29 x0 x1) (st_v48 x7) loA hiA k

/-- The per-segment correction: zero for segment 0, then the showers' corrections. -/
theorem st_v50 (loA : ∀ k, (-1 : ℤ) ≤ (x7 k).toInt) (hiA : ∀ k, (x7 k).toInt ≤ 3999999) (s : S20001.Idx) :
    val_main_v50 (F := Ideal) x0 x1 x7 s = Cert.Spec.corr x0 x1 x7 (s 0).val := by
  unfold val_main_v50
  exact concat_corr x0 x1 x7 _ _ _ (fun i => by rw [val_main_v38_apply, val_main_cst_14_apply, f32_zero])
    (st_v49 x0 x1 x7 loA hiA) s

/-- An alpha index converted to a real and back is itself (an integer is not a NaN). -/
theorem st_v37 (k : S20000.Idx) : val_main_v37 (F := Ideal) x6 k = x6 k := by
  rw [val_main_v37_apply, val_main_v36_apply, val_main_v35_apply, val_main_v34_apply, sitofp_ideal, cmpf_ideal,
    une_self, select_zero, fptosi_ideal, fptosi_sitofp]

theorem idx58_eq (k : S20000.Idx) : idx_main_v58 (ix2 (k 0) ⟨0, Nat.one_pos⟩) = k := by
  funext d
  match d with
  | ⟨0, _⟩ => rfl

/-- The start index's first component: the alpha index, a negative one moved up by 4000001. -/
theorem st_v60 (k : Cert.Spec.Alph.Idx) : val_main_v60 (F := Ideal) x6 (ix2 (k 0) ⟨0, Nat.succ_pos 1⟩)
    = Scalar.select (IntOp.cmpi .slt (x6 k) 0#32) (x6 k + 4000001#32) (x6 k) := by
  unfold val_main_v60
  refine (concat_col0_apply (val_main_v58 (F := Ideal) x6) (val_main_v59 (F := Ideal))
    concatenates_S20000x1_S20000x1_S20000x2_d1 (k 0)).trans ?_
  rw [val_main_v58_apply, idx58_eq, val_main_v55_apply, val_main_v52_apply,
    val_main_v54_apply, st_v37, val_main_v51_apply, val_main_c_18_apply, val_main_v53_apply,
    val_main_c_19_apply]
  rfl

/-- A shower's correction is read at its alpha index. -/
theorem st_v61 (loA : ∀ k, (-1 : ℤ) ≤ (x6 k).toInt) (hiA : ∀ k, (x6 k).toInt ≤ 3999999) (k : S20000.Idx) :
    val_main_v61 (F := Ideal) x0 x1 x6 k = Cert.Spec.corrAt x0 x1 (x6 k) := by
  show Host.gather (rowDims 4000001 20000 gather_S4000001x1_S20000x2_S20000_n_01_n_n_01_1_11_wf)
    (val_main_v29 (F := Ideal) x0 x1) (val_main_v60 (F := Ideal) x6) k = _
  exact gather_corrAt _ x0 x1 x6 _ _ (st_v29 x0 x1) (st_v60 x6) loA hiA k

/-- The per-segment correction: zero for segment 0, then the showers' corrections. -/
theorem st_v62 (loA : ∀ k, (-1 : ℤ) ≤ (x6 k).toInt) (hiA : ∀ k, (x6 k).toInt ≤ 3999999) (s : S20001.Idx) :
    val_main_v62 (F := Ideal) x0 x1 x6 s = Cert.Spec.corr x0 x1 x6 (s 0).val := by
  unfold val_main_v62
  exact concat_corr x0 x1 x6 _ _ _ (fun i => by rw [val_main_v38_apply, val_main_cst_14_apply, f32_zero])
    (st_v61 x0 x1 x6 loA hiA) s

/-! ## The five results -/

theorem res_v96 (lo : ∀ i, (-1 : ℤ) ≤ (x0 i).toInt) (hi : ∀ i, (x0 i).toInt ≤ 19999) :
    val_main_v96 (F := Ideal) x0 x2 x5 = fun i => Cert.Spec.trackRaw x0 x2 x5 i := by
  funext i
  rw [at_v96 x0 x2 x5 lo hi i ⟨_, segOf_lt x0 lo hi i⟩ rfl, seg_v20 x0 x2 x5 lo hi]
  rfl

theorem res_v80 (lo : ∀ i, (-1 : ℤ) ≤ (x0 i).toInt) (hi : ∀ i, (x0 i).toInt ≤ 19999) :
    val_main_v80 (F := Ideal) x0 x2 x5 = fun i => Cert.Spec.hitRaw x0 x2 x5 i := by
  funext i
  rw [at_v80 x0 x2 x5 lo hi i ⟨_, segOf_lt x0 lo hi i⟩ rfl, seg_v16 x0 x2 x5 lo hi]
  rfl

theorem res_v88 (lo : ∀ i, (-1 : ℤ) ≤ (x0 i).toInt) (hi : ∀ i, (x0 i).toInt ≤ 19999)
    (loA : ∀ k, (-1 : ℤ) ≤ (x6 k).toInt) (hiA : ∀ k, (x6 k).toInt ≤ 3999999) :
    val_main_v88 (F := Ideal) x0 x1 x2 x5 x6 = fun i => Cert.Spec.trackCorr x0 x1 x2 x5 x6 i := by
  funext i
  rw [at_v88 x0 x1 x2 x5 x6 lo hi i ⟨_, segOf_lt x0 lo hi i⟩ rfl, val_main_v64_apply, seg_v20 x0 x2 x5 lo hi,
    st_v62 x0 x1 x6 loA hiA]
  rfl

theorem res_v72 (lo : ∀ i, (-1 : ℤ) ≤ (x0 i).toInt) (hi : ∀ i, (x0 i).toInt ≤ 19999)
    (loA : ∀ k, (-1 : ℤ) ≤ (x7 k).toInt) (hiA : ∀ k, (x7 k).toInt ≤ 3999999) :
    val_main_v72 (F := Ideal) x0 x1 x2 x5 x7 = fun i => Cert.Spec.hitCorr x0 x1 x2 x5 x7 i := by
  funext i
  rw [at_v72 x0 x1 x2 x5 x7 lo hi i ⟨_, segOf_lt x0 lo hi i⟩ rfl, val_main_v63_apply, seg_v16 x0 x2 x5 lo hi,
    st_v50 x0 x1 x7 loA hiA]
  rfl

theorem res_v111 (lo : ∀ i, (-1 : ℤ) ≤ (x0 i).toInt) (hi : ∀ i, (x0 i).toInt ≤ 19999) :
    val_main_v111 (F := Ideal) x0 x2 x5 x8 = fun i => Cert.Spec.noMbFrac x0 x2 x5 x8 i := by
  funext i
  have h80 : val_main_v80 (F := Ideal) x0 x2 x5 i = Cert.Spec.hitRaw x0 x2 x5 i := congrFun (res_v80 x0 x2 x5 lo hi) i
  rw [val_main_v111_apply, val_main_v109_apply, val_main_v108_apply, val_main_cst_33_apply, val_main_call8_v1_apply,
    val_main_call8_v0_apply, val_main_cst_34_apply, val_main_v110_apply, val_main_v107_apply, val_main_v106_apply,
    val_main_v105_apply, val_main_cst_31_apply, val_main_call7_v1_apply, val_main_call7_v0_apply, val_main_cst_32_apply,
    f32_zero, f32_one, h80, at_v104 x0 x2 x5 x8 lo hi i ⟨_, segOf_lt x0 lo hi i⟩ rfl, seg_v27 x0 x2 x5 x8 lo hi,
    cmpf_ideal, Ideal.hostDivf_def, oeq_ite, select_ite, select_ite]
  rfl

end Stages

end Seg

/-! ## The run -/

/-- Every execution of the reference ends with its five results at the specification's values of the arguments,
    the arguments unchanged, when the labels and alpha indices are in range. -/
theorem run_spec (m : (ℓ : Loc nD τ sig) → Buf (Elt Ideal) ℓ) (ρ : Dev nD → PrngReg)
    (hD : ∀ c : Dev nD, Cert.Spec.Dom (m ((c.tc : Thread nD τ).loc main_arg0)) (m ((c.tc : Thread nD τ).loc main_arg1))
      (m ((c.tc : Thread nD τ).loc main_arg2)) (m ((c.tc : Thread nD τ).loc main_arg6)) (m ((c.tc : Thread nD τ).loc main_arg7))) :
    θ_run defs (onTc (τ := τ) (main (F := Ideal))) ⟨m, fun _ => 0, ρ⟩ fun r => ∀ c : Dev nD,
      r.2.mem ((c.tc : Thread nD τ).loc main_v96) = (fun i => Cert.Spec.trackRaw (m ((c.tc : Thread nD τ).loc main_arg0)) (m ((c.tc : Thread nD τ).loc main_arg2)) (m ((c.tc : Thread nD τ).loc main_arg5)) i)
      ∧ r.2.mem ((c.tc : Thread nD τ).loc main_v88) = (fun i => Cert.Spec.trackCorr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) i)
      ∧ r.2.mem ((c.tc : Thread nD τ).loc main_v80) = (fun i => Cert.Spec.hitRaw (m ((c.tc : Thread nD τ).loc main_arg0)) (m ((c.tc : Thread nD τ).loc main_arg2)) (m ((c.tc : Thread nD τ).loc main_arg5)) i)
      ∧ r.2.mem ((c.tc : Thread nD τ).loc main_v72) = (fun i => Cert.Spec.hitCorr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) i)
      ∧ r.2.mem ((c.tc : Thread nD τ).loc main_v111) = (fun i => Cert.Spec.noMbFrac (m ((c.tc : Thread nD τ).loc main_arg0)) (m ((c.tc : Thread nD τ).loc main_arg2)) (m ((c.tc : Thread nD τ).loc main_arg5)) (m ((c.tc : Thread nD τ).loc main_arg8)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h96, h88, h80, h72, h111, hargs⟩ := h c
    have D := hD c
    exact ⟨h96.trans ((val_main_v96_eq (m ((c.tc : Thread nD τ).loc main_arg0)) (m ((c.tc : Thread nD τ).loc main_arg2)) (m ((c.tc : Thread nD τ).loc main_arg5))).trans
        (Seg.res_v96 _ _ _ D.sid_lo D.sid_hi)),
      h88.trans ((val_main_v88_eq (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))).trans
        (Seg.res_v88 _ _ _ _ _ D.sid_lo D.sid_hi D.aT_lo D.aT_hi)),
      h80.trans ((val_main_v80_eq (m ((c.tc : Thread nD τ).loc main_arg0)) (m ((c.tc : Thread nD τ).loc main_arg2)) (m ((c.tc : Thread nD τ).loc main_arg5))).trans
        (Seg.res_v80 _ _ _ D.sid_lo D.sid_hi)),
      h72.trans ((val_main_v72_eq (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7))).trans
        (Seg.res_v72 _ _ _ _ _ D.sid_lo D.sid_hi D.aH_lo D.aH_hi)),
      h111.trans ((val_main_v111_eq m c).trans (Seg.res_v111 _ _ _ _ D.sid_lo D.sid_hi)),
      hargs⟩)
    (Cert.ReferenceIdeal.Value.run (F := Ideal) m ρ)

end Cert.ReferenceIdeal.RefValue

end
-- ==== Proof.PreDecode.lean ====
/-
  The precondition read back. The predicate is a conjunction of nine "every entry of an array passes a test" bits; it is
  all ones, so each test holds at every entry. Three tests say |x| < +∞ of a float entry, which on the extended reals
  leaves exactly the real numbers (|⊤| = |⊥| = ⊤ is not below ⊤); six say a signed 32-bit entry is at least -1, or at
  most a literal bound. Together they are the domain hypotheses the value argument starts from.
-/
import proofs.«422791_j81235011436601_4_alg».proof.Pre_finite_inputs
import proofs.«422791_j81235011436601_4_alg».proof.Proof.Gen.Pre_finite_inputs
import proofs.«422791_j81235011436601_4_alg».proof.Proof.Spec
import Idealize.ShloMosaic.Lib.ReduceAll
import Idealize.ShloMosaic.Lib.Affine
import Idealize.ShloMosaic.Lib.ValueIdx
import Idealize.ShloMosaic.PureOps.Ideal

noncomputable section

namespace Cert.PreDecode

open Idealize.ShloMosaic Cert.Pre_finite_inputs

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (-x) is below +∞ is a real number: at ⊤ and at ⊥ the maximum is ⊤. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_eq_top] at h'
  induction x using EReal.rec with
  | bot => simp [Ideal.cmp] at h'
  | coe r => exact ⟨r, rfl⟩
  | top => simp [Ideal.cmp] at h'

/-- A signed word at least the all-ones word is at least -1. -/
theorem ge_neg_one (w : BitVec 32) (h : IntOp.cmpi .sge w 4294967295#32 = 1#1) : (-1 : ℤ) ≤ w.toInt := by
  have := IntOp.cmpi_sge.1 h
  simpa using this

/-- A signed compare "at most" that is 1 is the order of the two words read as signed integers. -/
theorem le_of_sle (w c : BitVec 32) (h : IntOp.cmpi .sle w c = 1#1) : w.toInt ≤ c.toInt := IntOp.cmpi_sle.1 h

theorem dom_of_pre [Cert.Pre_finite_inputs.Facts]
    (a0 : IVec S4000000x1 32) (a1 a2 : FVec Ideal S4000000x1 .f32)
    (a3 : IVec S4000000x1 32) (a4 : FVec Ideal S4000000x1 .f32)
    (a5 : IVec S4000000x1 32) (a6 a7 : IVec S20000 32)
    (a8 : IVec S4000000x1 32)
    (h : Cert.Pre_finite_inputs.fn (F := Ideal) a0 a1 a2 a3 a4 a5 a6 a7 a8 = (fun _ => 1#1)) :
    Cert.Spec.Dom a0 a1 a2 a6 a7 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h1, h2⟩, -⟩, h0lo⟩, h0hi⟩, h6lo⟩, h6hi⟩, h7lo⟩, h7hi⟩ := e
  refine ⟨fun i => ?_, fun i => ?_, fun j => ?_, fun j => ?_, fun j => ?_, fun j => ?_, fun i => ?_, fun i => ?_⟩
  · exact ge_neg_one (a0 i) (Host.reduce_andi_all _ _ _ _ _ h0lo i)
  · exact le_of_sle (a0 i) 19999#32 (Host.reduce_andi_all _ _ _ _ _ h0hi i)
  · exact ge_neg_one (a6 j) (Host.reduce_andi_all _ _ _ _ _ h6lo j)
  · exact le_of_sle (a6 j) 3999999#32 (Host.reduce_andi_all _ _ _ _ _ h6hi j)
  · exact ge_neg_one (a7 j) (Host.reduce_andi_all _ _ _ _ _ h7lo j)
  · exact le_of_sle (a7 j) 3999999#32 (Host.reduce_andi_all _ _ _ _ _ h7hi j)
  · exact real_of_abs_lt_inf (a1 i) (Host.reduce_andi_all _ _ _ _ _ h1 i)
  · exact real_of_abs_lt_inf (a2 i) (Host.reduce_andi_all _ _ _ _ _ h2 i)

end Cert.PreDecode

end
-- ==== Proof.lean ====
/-
  The certificate's five claims, assembled.

  A hit carries a shower label in {-1, 0, …, 19999}; its segment is the label plus one. The operator forms three
  per-segment energy sums (non-track hits, tracks, non-track hits outside minimum bias), multiplies the first two by a
  per-segment correction read at the shower's alpha index, hands every hit the values of its own segment, and divides
  the third sum by the first, zero where the first is zero. The kernel does this with two one-hot products: the first
  accumulates, over the blocks of hits, a table of per-segment sums; the second reads the table back at each hit's
  segment. The reference does it with a segment sum and gathers.

  At the ideal values both programs end, on every device, at the same five functions of the argument arrays — the
  specification's `trackRaw`, `trackCorr`, `hitRaw`, `hitCorr`, `noMbFrac`: the kernel by its run (each result buffer
  at the valuation the regions leave) followed by the reading of that valuation as the specification; the reference by
  its run read as the specification, at arrays that agree with the kernel's. The precondition is what makes the two
  readings valid: labels and alpha indices in range, the two float inputs the operator reads real numbers. The three
  frames are the runs with the results forgotten, and the two idealization entries are the rule's own statement at
  the two shapes where a widening of a narrowing was dropped.
-/
import proofs.«422791_j81235011436601_4_alg».proof.Defs
import proofs.«422791_j81235011436601_4_alg».proof.Proof.Gen.Kernel
import proofs.«422791_j81235011436601_4_alg».proof.Proof.Gen.KernelIdeal
import proofs.«422791_j81235011436601_4_alg».proof.Proof.Gen.ReferenceIdeal
import proofs.«422791_j81235011436601_4_alg».proof.Proof.Gen.Pre_finite_inputs
import proofs.«422791_j81235011436601_4_alg».proof.Proof.K.Run
import proofs.«422791_j81235011436601_4_alg».proof.Proof.KI.Bridge
import proofs.«422791_j81235011436601_4_alg».proof.Proof.RefValue
import proofs.«422791_j81235011436601_4_alg».proof.Proof.PreDecode

noncomputable section

namespace Cert.Proof

open Idealize.ShloMosaic Idealize.ShloMosaic.TcCoe Idealize.SL.Sem

/-! ## The three frames: each program runs and leaves its argument arrays unchanged -/

theorem frame_k : Cert.frame_Kernel := fun m ρ _ =>
  (θ_run (Cert.Kernel.defs (F := Bits)) _ _).mono (fun _ h c => (h c).2.2.2.2.2) (Cert.Kernel.Hand.run_values (F := Bits) m ρ)

theorem frame_ki : Cert.frame_KernelIdeal := fun m ρ _ =>
  (θ_run (Cert.KernelIdeal.defs (F := Ideal)) _ _).mono (fun _ h c => (h c).2.2.2.2.2) (Cert.KernelIdeal.Hand.run_values (F := Ideal) m ρ)

theorem frame_ri : Cert.frame_ReferenceIdeal := fun m ρ _ =>
  (θ_run (Cert.ReferenceIdeal.defs (F := Ideal)) _ _).mono (fun _ h c => (h c).2.2.2.2.2) (Cert.ReferenceIdeal.Value.run (F := Ideal) m ρ)

/-! ## The idealization's two entries -/

/-- A widening of a narrowing is the identity at the ideal values, at each of the two shapes where one was dropped. -/
theorem preserves : Cert.preserves_Kernel_KernelIdeal :=
  ⟨IdealRules.truncf_extf.statement Cert.KernelIdeal.S8x3200 .f32 .bf16, IdealRules.truncf_extf.statement Cert.KernelIdeal.S5x1280 .f32 .bf16⟩

/-! ## The value claim -/

/-- From arrays that agree and satisfy the precondition, the kernel and the reference both end at the specification's
    five functions of the kernel's argument arrays, their arguments unchanged. -/
theorem algebraic : Cert.algebraic_KernelIdeal_ReferenceIdeal := by
  intro m ρ m' ρ' hpre hagree
  -- the precondition read back as the domain facts, for the kernel's arrays and for the reference's
  have hD : ∀ c : Dev Cert.KernelIdeal.nD, Cert.Spec.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    fun c => Cert.PreDecode.dom_of_pre _ _ _ _ _ _ _ _ _ (hpre c)
  have hD' : ∀ c : Dev Cert.ReferenceIdeal.nD, Cert.Spec.Dom (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
    fun c => by
      rw [(hagree c).1, (hagree c).2.1, (hagree c).2.2.1, (hagree c).2.2.2.2.2.2.1, (hagree c).2.2.2.2.2.2.2.1]
      exact hD c
  refine ⟨_, _, _, _, _,
    (θ_run (Cert.KernelIdeal.defs (F := Ideal)) _ _).mono (fun _ h c =>
      ⟨(h c).1.trans (Cert.KernelIdeal.Hand.kernel_results m c (hD c)).1,
        (h c).2.1.trans (Cert.KernelIdeal.Hand.kernel_results m c (hD c)).2.1,
        (h c).2.2.1.trans (Cert.KernelIdeal.Hand.kernel_results m c (hD c)).2.2.1,
        (h c).2.2.2.1.trans (Cert.KernelIdeal.Hand.kernel_results m c (hD c)).2.2.2.1,
        (h c).2.2.2.2.1.trans (Cert.KernelIdeal.Hand.kernel_results m c (hD c)).2.2.2.2,
        (h c).2.2.2.2.2⟩)
      (Cert.KernelIdeal.Hand.run_values (F := Ideal) m ρ), ?_⟩
  refine (θ_run (Cert.ReferenceIdeal.defs (F := Ideal)) _ _).mono (fun _ h c =>
      ⟨(h c).1.trans ?_, (h c).2.1.trans ?_, (h c).2.2.1.trans ?_, (h c).2.2.2.1.trans ?_, (h c).2.2.2.2.1.trans ?_,
        (h c).2.2.2.2.2⟩)
    (Cert.ReferenceIdeal.RefValue.run_spec m' ρ' hD')
  · rw [(hagree c).1, (hagree c).2.2.1, (hagree c).2.2.2.2.2.1]
  · rw [(hagree c).1, (hagree c).2.1, (hagree c).2.2.1, (hagree c).2.2.2.2.2.1, (hagree c).2.2.2.2.2.2.1]
  · rw [(hagree c).1, (hagree c).2.2.1, (hagree c).2.2.2.2.2.1]
  · rw [(hagree c).1, (hagree c).2.1, (hagree c).2.2.1, (hagree c).2.2.2.2.2.1, (hagree c).2.2.2.2.2.2.2.1]
  · rw [(hagree c).1, (hagree c).2.2.1, (hagree c).2.2.2.2.2.1, (hagree c).2.2.2.2.2.2.2.2]

/-! ## The claim -/

/-- The five claims under the programs' stated side conditions, whose witnesses are the instances proved for them. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
